-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x6000 : Shape := ⟨2, ![4096, 6000]⟩
abbrev S512x16 : Shape := ⟨2, ![512, 16]⟩
abbrev S512x20x16 : Shape := ⟨3, ![512, 20, 16]⟩
abbrev S512x20 : Shape := ⟨2, ![512, 20]⟩
abbrev S64x24x160 : Shape := ⟨3, ![64, 24, 160]⟩
abbrev S64x24 : Shape := ⟨2, ![64, 24]⟩
abbrev S8x32x192 : Shape := ⟨3, ![8, 32, 192]⟩
abbrev S8x32 : Shape := ⟨2, ![8, 32]⟩
abbrev S64x256 : Shape := ⟨2, ![64, 256]⟩
abbrev S64 : Shape := ⟨1, ![64]⟩
abbrev S_ : Shape := ⟨0, ![]⟩

class Facts : Prop where
  bcast_S_S4096x6000 : S_.BroadcastsInDim S4096x6000 (![] : Fin 0 → Fin S4096x6000.rank)
  reducesTo_S4096x6000_S_d0_1 : S4096x6000.ReducesTo [0, 1] S_
  h_S_ : 0 < S_.numel
  bcast_S_S512x20x16 : S_.BroadcastsInDim S512x20x16 (![] : Fin 0 → Fin S512x20x16.rank)
  reducesTo_S512x20x16_S_d0_1_2 : S512x20x16.ReducesTo [0, 1, 2] S_
  bcast_S_S512x20 : S_.BroadcastsInDim S512x20 (![] : Fin 0 → Fin S512x20.rank)
  reducesTo_S512x20_S_d0_1 : S512x20.ReducesTo [0, 1] S_
  bcast_S_S64x24x160 : S_.BroadcastsInDim S64x24x160 (![] : Fin 0 → Fin S64x24x160.rank)
  reducesTo_S64x24x160_S_d0_1_2 : S64x24x160.ReducesTo [0, 1, 2] S_
  bcast_S_S64x24 : S_.BroadcastsInDim S64x24 (![] : Fin 0 → Fin S64x24.rank)
  reducesTo_S64x24_S_d0_1 : S64x24.ReducesTo [0, 1] S_
  bcast_S_S8x32x192 : S_.BroadcastsInDim S8x32x192 (![] : Fin 0 → Fin S8x32x192.rank)
  reducesTo_S8x32x192_S_d0_1_2 : S8x32x192.ReducesTo [0, 1, 2] S_
  bcast_S_S8x32 : S_.BroadcastsInDim S8x32 (![] : Fin 0 → Fin S8x32.rank)
  reducesTo_S8x32_S_d0_1 : S8x32.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S64 .f32) (main_arg16 : FVec F S64 .f32) (main_arg17 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg12 : FVec F S8x32 .f32) (main_arg13 : FVec F S8x32 .f32) (main_arg14 : FVec F S64x256 .f32) (main_arg15 : FVec F S64 .f32) (main_arg16 : FVec F S64 .f32) (main_arg17 : FVec F S64 .f32) (main_v48 : IVec S_ 1) (main_v49 : FVec F S8x32 .f32) (main_v50 : FVec F S8x32 .f32) : IVec S_ 1 :=
  let main_v51 : IVec S8x32 1 := cmpf .olt main_v49 main_v50
  let main_c_19 : IVec S_ 1 := constantI S_ 1 1#1
  let main_v52 : IVec S_ 1 := (fun x v => Host.reduce IntOp.andi x v reducesTo_S8x32_S_d0_1 h_S_) main_v51 main_c_19
  let main_v53 : IVec S_ 1 := andi main_v48 main_v52
  let main_v54 : FVec F S8x32 .f32 := Host.absf main_arg12
  let main_cst_20 : FVec F S_ .f32 := constant S_ .f32 0x7F800000#32
  let main_v55 : FVec F S8x32 .f32 := broadcastInDim S8x32 ![] bcast_S_S8x32 main_cst_20
  let main_v56 : IVec S8x32 1 := cmpf .olt main_v54 main_v55
  let main_c_21 : IVec S_ 1 := constantI S_ 1 1#1
  let main_v57 : IVec S_ 1 := (fun x v => Host.reduce IntOp.andi x v reducesTo_S8x32_S_d0_1 h_S_) main_v56 main_c_21
  let main_v58 : IVec S_ 1 := andi main_v53 main_v57
  let main_v59 : FVec F S8x32 .f32 := Host.absf main_arg13
  let main_cst_22 : FVec F S_ .f32 := constant S_ .f32 0x7F800000#32
  let main_v60 : FVec F S8x32 .f32 := broadcastInDim S8x32 ![] bcast_S_S8x32 main_cst_22
  let main_v61 : IVec S8x32 1 := cmpf .olt main_v59 main_v60
  let main_c_23 : IVec S_ 1 := constantI S_ 1 1#1
  let main_v62 : IVec S_ 1 := (fun x v => Host.reduce IntOp.andi x v reducesTo_S8x32_S_d0_1 h_S_) main_v61 main_c_23
  let main_v63 : IVec S_ 1 := andi main_v58 main_v62
  let main_v64 : FVec F S64x256 .f32 := Host.absf main_arg14
  let main_cst_24 : FVec F S_ .f32 := constant S_ .f32 0x7F800000#32
  let main_v65 : FVec F S64x256 .f32 := broadcastInDim S64x256 ![] bcast_S_S64x256 main_cst_24
  let main_v66 : IVec S64x256 1 := cmpf .olt main_v64 main_v65
  let main_c_25 : IVec S_ 1 := constantI S_ 1 1#1
  let main_v67 : IVec S_ 1 := (fun x v => Host.reduce IntOp.andi x v reducesTo_S64x256_S_d0_1 h_S_) main_v66 main_c_25
  fn_part4 (F := F) main_arg15 main_arg16 main_arg17 main_v63 main_v67

def fn_part2 {F : FTy → Type} [FloatOps F] (main_arg8 : FVec F S64x24 .f32) (main_arg9 : FVec F S64x24 .f32) (main_arg10 : FVec F S8x32x192 .f32) (main_arg11 : FVec F S8x32 .f32) (main_arg12 : FVec F S8x32 .f32) (main_arg13 : FVec F S8x32 .f32) (main_arg14 : FVec F S64x256 .f32) (main_arg15 : FVec F S64 .f32) (main_arg16 : FVec F S64 .f32) (main_arg17 : FVec F S64 .f32) (main_v33 : IVec S_ 1) : IVec S_ 1 :=
  let main_v34 : FVec F S64x24 .f32 := Host.absf main_arg8
  let main_cst_12 : FVec F S_ .f32 := constant S_ .f32 0x7F800000#32
  let main_v35 : FVec F S64x24 .f32 := broadcastInDim S64x24 ![] bcast_S_S64x24 main_cst_12
  let main_v36 : IVec S64x24 1 := cmpf .olt main_v34 main_v35
  let main_c_13 : IVec S_ 1 := constantI S_ 1 1#1
  let main_v37 : IVec S_ 1 := (fun x v => Host.reduce IntOp.andi x v reducesTo_S64x24_S_d0_1 h_S_) main_v36 main_c_13
  let main_v38 : IVec S_ 1 := andi main_v33 main_v37
  let main_v39 : FVec F S64x24 .f32 := Host.absf main_arg9
  let main_cst_14 : FVec F S_ .f32 := constant S_ .f32 0x7F800000#32
  let main_v40 : FVec F S64x24 .f32 := broadcastInDim S64x24 ![] bcast_S_S64x24 main_cst_14
  let main_v41 : IVec S64x24 1 := cmpf .olt main_v39 main_v40
  let main_c_15 : IVec S_ 1 := constantI S_ 1 1#1
  let main_v42 : IVec S_ 1 := (fun x v => Host.reduce IntOp.andi x v reducesTo_S64x24_S_d0_1 h_S_) main_v41 main_c_15
  let main_v43 : IVec S_ 1 := andi main_v38 main_v42
  let main_v44 : FVec F S8x32x192 .f32 := Host.absf main_arg10
  let main_cst_16 : FVec F S_ .f32 := constant S_ .f32 0x7F800000#32
  let main_v45 : FVec F S8x32x192 .f32 := broadcastInDim S8x32x192 ![] bcast_S_S8x32x192 main_cst_16
  let main_v46 : IVec S8x32x192 1 := cmpf .olt main_v44 main_v45
  let main_c_17 : IVec S_ 1 := constantI S_ 1 1#1
  let main_v47 : IVec S_ 1 := (fun x v => Host.reduce IntOp.andi x v reducesTo_S8x32x192_S_d0_1_2 h_S_) main_v46 main_c_17
  let main_v48 : IVec S_ 1 := andi main_v43 main_v47
  let main_v49 : FVec F S8x32 .f32 := Host.absf main_arg11
  let main_cst_18 : FVec F S_ .f32 := constant S_ .f32 0x7F800000#32
  let main_v50 : FVec F S8x32 .f32 := broadcastInDim S8x32 ![] bcast_S_S8x32 main_cst_18
  fn_part3 (F := F) main_arg12 main_arg13 main_arg14 main_arg15 main_arg16 main_arg17 main_v48 main_v49 main_v50

def fn_part1 {F : FTy → Type} [FloatOps F] (main_arg5 : FVec F S512x20 .f32) (main_arg6 : FVec F S64x24x160 .f32) (main_arg7 : FVec F S64x24 .f32) (main_arg8 : FVec F S64x24 .f32) (main_arg9 : FVec F S64x24 .f32) (main_arg10 : FVec F S8x32x192 .f32) (main_arg11 : FVec F S8x32 .f32) (main_arg12 : FVec F S8x32 .f32) (main_arg13 : FVec F S8x32 .f32) (main_arg14 : FVec F S64x256 .f32) (main_arg15 : FVec F S64 .f32) (main_arg16 : FVec F S64 .f32) (main_arg17 : FVec F S64 .f32) (main_v13 : IVec S_ 1) (main_v16 : IVec S512x20 1) : IVec S_ 1 :=
  let main_c_5 : IVec S_ 1 := constantI S_ 1 1#1
  let main_v17 : IVec S_ 1 := (fun x v => Host.reduce IntOp.andi x v reducesTo_S512x20_S_d0_1 h_S_) main_v16 main_c_5
  let main_v18 : IVec S_ 1 := andi main_v13 main_v17
  let main_v19 : FVec F S512x20 .f32 := Host.absf main_arg5
  let main_cst_6 : FVec F S_ .f32 := constant S_ .f32 0x7F800000#32
  let main_v20 : FVec F S512x20 .f32 := broadcastInDim S512x20 ![] bcast_S_S512x20 main_cst_6
  let main_v21 : IVec S512x20 1 := cmpf .olt main_v19 main_v20
  let main_c_7 : IVec S_ 1 := constantI S_ 1 1#1
  let main_v22 : IVec S_ 1 := (fun x v => Host.reduce IntOp.andi x v reducesTo_S512x20_S_d0_1 h_S_) main_v21 main_c_7
  let main_v23 : IVec S_ 1 := andi main_v18 main_v22
  let main_v24 : FVec F S64x24x160 .f32 := Host.absf main_arg6
  let main_cst_8 : FVec F S_ .f32 := constant S_ .f32 0x7F800000#32
  let main_v25 : FVec F S64x24x160 .f32 := broadcastInDim S64x24x160 ![] bcast_S_S64x24x160 main_cst_8
  let main_v26 : IVec S64x24x160 1 := cmpf .olt main_v24 main_v25
  let main_c_9 : IVec S_ 1 := constantI S_ 1 1#1
  let main_v27 : IVec S_ 1 := (fun x v => Host.reduce IntOp.andi x v reducesTo_S64x24x160_S_d0_1_2 h_S_) main_v26 main_c_9
  let main_v28 : IVec S_ 1 := andi main_v23 main_v27
  let main_v29 : FVec F S64x24 .f32 := Host.absf main_arg7
  let main_cst_10 : FVec F S_ .f32 := constant S_ .f32 0x7F800000#32
  let main_v30 : FVec F S64x24 .f32 := broadcastInDim S64x24 ![] bcast_S_S64x24 main_cst_10
  let main_v31 : IVec S64x24 1 := cmpf .olt main_v29 main_v30
  let main_c_11 : IVec S_ 1 := constantI S_ 1 1#1
  let main_v32 : IVec S_ 1 := (fun x v => Host.reduce IntOp.andi x v reducesTo_S64x24_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S4096x6000 .f32) (main_arg1 : IVec S512x16 32) (main_arg2 : FVec F S512x20x16 .f32) (main_arg3 : FVec F S512x20 .f32) (main_arg4 : FVec F S512x20 .f32) (main_arg5 : FVec F S512x20 .f32) (main_arg6 : FVec F S64x24x160 .f32) (main_arg7 : FVec F S64x24 .f32) (main_arg8 : FVec F S64x24 .f32) (main_arg9 : FVec F S64x24 .f32) (main_arg10 : FVec F S8x32x192 .f32) (main_arg11 : FVec F S8x32 .f32) (main_arg12 : FVec F S8x32 .f32) (main_arg13 : FVec F S8x32 .f32) (main_arg14 : FVec F S64x256 .f32) (main_arg15 : FVec F S64 .f32) (main_arg16 : FVec F S64 .f32) (main_arg17 : FVec F S64 .f32) : IVec S_ 1 :=
  let main_v0 : FVec F S4096x6000 .f32 := Host.absf main_arg0
  let main_cst : FVec F S_ .f32 := constant S_ .f32 0x7F800000#32
  let main_v1 : FVec F S4096x6000 .f32 := broadcastInDim S4096x6000 ![] bcast_S_S4096x6000 main_cst
  let main_v2 : IVec S4096x6000 1 := cmpf .olt main_v0 main_v1
  let main_c : IVec S_ 1 := constantI S_ 1 1#1
  let main_v3 : IVec S_ 1 := (fun x v => Host.reduce IntOp.andi x v reducesTo_S4096x6000_S_d0_1 h_S_) main_v2 main_c
  let main_v4 : FVec F S512x20x16 .f32 := Host.absf main_arg2
  let main_cst_0 : FVec F S_ .f32 := constant S_ .f32 0x7F800000#32
  let main_v5 : FVec F S512x20x16 .f32 := broadcastInDim S512x20x16 ![] bcast_S_S512x20x16 main_cst_0
  let main_v6 : IVec S512x20x16 1 := cmpf .olt main_v4 main_v5
  let main_c_1 : IVec S_ 1 := constantI S_ 1 1#1
  let main_v7 : IVec S_ 1 := (fun x v => Host.reduce IntOp.andi x v reducesTo_S512x20x16_S_d0_1_2 h_S_) main_v6 main_c_1
  let main_v8 : IVec S_ 1 := andi main_v3 main_v7
  let main_v9 : FVec F S512x20 .f32 := Host.absf main_arg3
  let main_cst_2 : FVec F S_ .f32 := constant S_ .f32 0x7F800000#32
  let main_v10 : FVec F S512x20 .f32 := broadcastInDim S512x20 ![] bcast_S_S512x20 main_cst_2
  let main_v11 : IVec S512x20 1 := cmpf .olt main_v9 main_v10
  let main_c_3 : IVec S_ 1 := constantI S_ 1 1#1
  let main_v12 : IVec S_ 1 := (fun x v => Host.reduce IntOp.andi x v reducesTo_S512x20_S_d0_1 h_S_) main_v11 main_c_3
  let main_v13 : IVec S_ 1 := andi main_v8 main_v12
  let main_v14 : FVec F S512x20 .f32 := Host.absf main_arg4
  let main_cst_4 : FVec F S_ .f32 := constant S_ .f32 0x7F800000#32
  let main_v15 : FVec F S512x20 .f32 := broadcastInDim S512x20 ![] bcast_S_S512x20 main_cst_4
  let main_v16 : IVec S512x20 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S4096x6000 : Shape := ⟨2, ![4096, 6000]⟩
abbrev S512x16 : Shape := ⟨2, ![512, 16]⟩
abbrev S512x20x16 : Shape := ⟨3, ![512, 20, 16]⟩
abbrev S512x20 : Shape := ⟨2, ![512, 20]⟩
abbrev S64x24x160 : Shape := ⟨3, ![64, 24, 160]⟩
abbrev S64x24 : Shape := ⟨2, ![64, 24]⟩
abbrev S8x32x192 : Shape := ⟨3, ![8, 32, 192]⟩
abbrev S8x32 : Shape := ⟨2, ![8, 32]⟩
abbrev S64x256 : Shape := ⟨2, ![64, 256]⟩
abbrev S64 : Shape := ⟨1, ![64]⟩
abbrev S_ : Shape := ⟨0, ![]⟩
abbrev S512x16x1 : Shape := ⟨3, ![512, 16, 1]⟩
abbrev S4096x512x16 : Shape := ⟨3, ![4096, 512, 16]⟩
abbrev S512x4096x16 : Shape := ⟨3, ![512, 4096, 16]⟩
abbrev S512x1x20 : Shape := ⟨3, ![512, 1, 20]⟩
abbrev S512x4096x20 : Shape := ⟨3, ![512, 4096, 20]⟩
abbrev S2x4096x16 : Shape := ⟨3, ![2, 4096, 16]⟩
abbrev S2x20x16 : Shape := ⟨3, ![2, 20, 16]⟩
abbrev S2x1x20 : Shape := ⟨3, ![2, 1, 20]⟩
abbrev S2x4096x20 : Shape := ⟨3, ![2, 4096, 20]⟩
abbrev S1x4096x16 : Shape := ⟨3, ![1, 4096, 16]⟩
abbrev S4096x16 : Shape := ⟨2, ![4096, 16]⟩
abbrev S1x20x16 : Shape := ⟨3, ![1, 20, 16]⟩
abbrev S20x16 : Shape := ⟨2, ![20, 16]⟩
abbrev S16x20 : Shape := ⟨2, ![16, 20]⟩
abbrev S4096x20 : Shape := ⟨2, ![4096, 20]⟩
abbrev S1x1x20 : Shape := ⟨3, ![1, 1, 20]⟩
abbrev S1x20 : Shape := ⟨2, ![1, 20]⟩
abbrev S20 : Shape := ⟨1, ![20]⟩
abbrev S1x4096x20 : Shape := ⟨3, ![1, 4096, 20]⟩
abbrev S64x8x4096x20 : Shape := ⟨4, ![64, 8, 4096, 20]⟩
abbrev S64x4096x8x20 : Shape := ⟨4, ![64, 4096, 8, 20]⟩
abbrev S64x4096x160 : Shape := ⟨3, ![64, 4096, 160]⟩
abbrev S64x1x24 : Shape := ⟨3, ![64, 1, 24]⟩
abbrev S64x4096x24 : Shape := ⟨3, ![64, 4096, 24]⟩
abbrev S1x4096x160 : Shape := ⟨3, ![1, 4096, 160]⟩
abbrev S1x24x160 : Shape := ⟨3, ![1, 24, 160]⟩
abbrev S1x1x24 : Shape := ⟨3, ![1, 1, 24]⟩
abbrev S1x4096x24 : Shape := ⟨3, ![1, 4096, 24]⟩
abbrev S4096x160 : Shape := ⟨2, ![4096, 160]⟩
abbrev S24x160 : Shape := ⟨2, ![24, 160]⟩
abbrev S160x24 : Shape := ⟨2, ![160, 24]⟩
abbrev S4096x24 : Shape := ⟨2, ![4096, 24]⟩
abbrev S1x24 : Shape := ⟨2, ![1, 24]⟩
abbrev S24 : Shape := ⟨1, ![24]⟩
abbrev S8x8x4096x24 : Shape := ⟨4, ![8, 8, 4096, 24]⟩
abbrev S8x4096x8x24 : Shape := ⟨4, ![8, 4096, 8, 24]⟩
abbrev S8x4096x192 : Shape := ⟨3, ![8, 4096, 192]⟩
abbrev S8x1x32 : Shape := ⟨3, ![8, 1, 32]⟩
abbrev S8x4096x32 : Shape := ⟨3, ![8, 4096, 32]⟩
abbrev S2x4096x192 : Shape := ⟨3, ![2, 4096, 192]⟩
abbrev S2x32x192 : Shape := ⟨3, ![2, 32, 192]⟩
abbrev S2x1x32 : Shape := ⟨3, ![2, 1, 32]⟩
abbrev S2x4096x32 : Shape := ⟨3, ![2, 4096, 32]⟩
abbrev S1x4096x192 : Shape := ⟨3, ![1, 4096, 192]⟩
abbrev S4096x192 : Shape := ⟨2, ![4096, 192]⟩
abbrev S1x32x192 : Shape := ⟨3, ![1, 32, 192]⟩
abbrev S32x192 : Shape := ⟨2, ![32, 192]⟩
abbrev S192x32 : Shape := ⟨2, ![192, 32]⟩
abbrev S4096x32 : Shape := ⟨2, ![4096, 32]⟩
abbrev S1x1x32 : Shape := ⟨3, ![1, 1, 32]⟩
abbrev S1x32 : Shape := ⟨2, ![1, 32]⟩
abbrev S32 : Shape := ⟨1, ![32]⟩
abbrev S1x4096x32 : Shape := ⟨3, ![1, 4096, 32]⟩
abbrev S4096x8x32 : Shape := ⟨3, ![4096, 8, 32]⟩
abbrev S4096x256 : Shape := ⟨2, ![4096, 256]⟩
abbrev S4096x64 : Shape := ⟨2, ![4096, 64]⟩
abbrev S256x64 : Shape := ⟨2, ![256, 64]⟩
abbrev S1x64 : Shape := ⟨2, ![1, 64]⟩

abbrev nBuf : Space → Nat
  | .hbm => 50
  | .vmem => 42
  | .smem => 0
  | _ => 0

abbrev bufTy : (tb : Table) → Fin (tcTables nBuf tb) → BufTy
  | .hbm, ⟨0, _⟩ => ⟨S4096x6000, .f32⟩
  | .hbm, ⟨1, _⟩ => ⟨S512x16, .i32⟩
  | .hbm, ⟨2, _⟩ => ⟨S512x20x16, .f32⟩
  | .hbm, ⟨3, _⟩ => ⟨S512x20, .f32⟩
  | .hbm, ⟨4, _⟩ => ⟨S512x20, .f32⟩
  | .hbm, ⟨5, _⟩ => ⟨S512x20, .f32⟩
  | .hbm, ⟨6, _⟩ => ⟨S64x24x160, .f32⟩
  | .hbm, ⟨7, _⟩ => ⟨S64x24, .f32⟩
  | .hbm, ⟨8, _⟩ => ⟨S64x24, .f32⟩
  | .hbm, ⟨9, _⟩ => ⟨S64x24, .f32⟩
  | .hbm, ⟨10, _⟩ => ⟨S8x32x192, .f32⟩
  | .hbm, ⟨11, _⟩ => ⟨S8x32, .f32⟩
  | .hbm, ⟨12, _⟩ => ⟨S8x32, .f32⟩
  | .hbm, ⟨13, _⟩ => ⟨S8x32, .f32⟩
  | .hbm, ⟨14, _⟩ => ⟨S64x256, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .i32⟩
  | .hbm, ⟨19, _⟩ => ⟨S512x16, .i32⟩
  | .hbm, ⟨20, _⟩ => ⟨S512x16, .i1⟩
  | .hbm, ⟨21, _⟩ => ⟨S_, .i32⟩
  | .hbm, ⟨22, _⟩ => ⟨S512x16, .i32⟩
  | .hbm, ⟨23, _⟩ => ⟨S512x16, .i32⟩
  | .hbm, ⟨24, _⟩ => ⟨S512x16, .i32⟩
  | .hbm, ⟨25, _⟩ => ⟨S512x16x1, .i32⟩
  | .hbm, ⟨26, _⟩ => ⟨S4096x512x16, .f32⟩
  | .hbm, ⟨27, _⟩ => ⟨S512x4096x16, .f32⟩
  | .hbm, ⟨28, _⟩ => ⟨S512x1x20, .f32⟩
  | .hbm, ⟨29, _⟩ => ⟨S512x1x20, .f32⟩
  | .hbm, ⟨30, _⟩ => ⟨S512x1x20, .f32⟩
  | .hbm, ⟨31, _⟩ => ⟨S512x4096x20, .f32⟩
  | .hbm, ⟨32, _⟩ => ⟨S64x8x4096x20, .f32⟩
  | .hbm, ⟨33, _⟩ => ⟨S64x4096x8x20, .f32⟩
  | .hbm, ⟨34, _⟩ => ⟨S64x4096x160, .f32⟩
  | .hbm, ⟨35, _⟩ => ⟨S64x4096x160, .bf16⟩
  | .hbm, ⟨36, _⟩ => ⟨S64x1x24, .f32⟩
  | .hbm, ⟨37, _⟩ => ⟨S64x1x24, .f32⟩
  | .hbm, ⟨38, _⟩ => ⟨S64x1x24, .f32⟩
  | .hbm, ⟨39, _⟩ => ⟨S64x4096x24, .f32⟩
  | .hbm, ⟨40, _⟩ => ⟨S8x8x4096x24, .f32⟩
  | .hbm, ⟨41, _⟩ => ⟨S8x4096x8x24, .f32⟩
  | .hbm, ⟨42, _⟩ => ⟨S8x4096x192, .f32⟩
  | .hbm, ⟨43, _⟩ => ⟨S8x1x32, .f32⟩
  | .hbm, ⟨44, _⟩ => ⟨S8x1x32, .f32⟩
  | .hbm, ⟨45, _⟩ => ⟨S8x1x32, .f32⟩
  | .hbm, ⟨46, _⟩ => ⟨S8x4096x32, .f32⟩
  | .hbm, ⟨47, _⟩ => ⟨S4096x8x32, .f32⟩
  | .hbm, ⟨48, _⟩ => ⟨S4096x256, .f32⟩
  | .hbm, ⟨49, _⟩ => ⟨S4096x64, .f32⟩
  | .local _ .vmem, ⟨0, _⟩ => ⟨S2x4096x16, .f32⟩
  | .local _ .vmem, ⟨1, _⟩ => ⟨S2x4096x16, .f32⟩
  | .local _ .vmem, ⟨2, _⟩ => ⟨S2x20x16, .f32⟩
  | .local _ .vmem, ⟨3, _⟩ => ⟨S2x20x16, .f32⟩
  | .local _ .vmem, ⟨4, _⟩ => ⟨S2x1x20, .f32⟩
  | .local _ .vmem, ⟨5, _⟩ => ⟨S2x1x20, .f32⟩
  | .local _ .vmem, ⟨6, _⟩ => ⟨S2x1x20, .f32⟩
  | .local _ .vmem, ⟨7, _⟩ => ⟨S2x1x20, .f32⟩
  | .local _ .vmem, ⟨8, _⟩ => ⟨S2x1x20, .f32⟩
  | .local _ .vmem, ⟨9, _⟩ => ⟨S2x1x20, .f32⟩
  | .local _ .vmem, ⟨10, _⟩ => ⟨S2x4096x20, .f32⟩
  | .local _ .vmem, ⟨11, _⟩ => ⟨S2x4096x20, .f32⟩
  | .local _ .vmem, ⟨12, _⟩ => ⟨S1x4096x160, .bf16⟩
  | .local _ .vmem, ⟨13, _⟩ => ⟨S1x4096x160, .bf16⟩
  | .local _ .vmem, ⟨14, _⟩ => ⟨S1x24x160, .f32⟩
  | .local _ .vmem, ⟨15, _⟩ => ⟨S1x24x160, .f32⟩
  | .local _ .vmem, ⟨16, _⟩ => ⟨S1x1x24, .f32⟩
  | .local _ .vmem, ⟨17, _⟩ => ⟨S1x1x24, .f32⟩
  | .local _ .vmem, ⟨18, _⟩ => ⟨S1x1x24, .f32⟩
  | .local _ .vmem, ⟨19, _⟩ => ⟨S1x1x24, .f32⟩
  | .local _ .vmem, ⟨20, _⟩ => ⟨S1x1x24, .f32⟩
  | .local _ .vmem, ⟨21, _⟩ => ⟨S1x1x24, .f32⟩
  | .local _ .vmem, ⟨22, _⟩ => ⟨S1x4096x24, .f32⟩
  | .local _ .vmem, ⟨23, _⟩ => ⟨S1x4096x24, .f32⟩
  | .local _ .vmem, ⟨24, _⟩ => ⟨S2x4096x192, .f32⟩
  | .local _ .vmem, ⟨25, _⟩ => ⟨S2x4096x192, .f32⟩
  | .local _ .vmem, ⟨26, _⟩ => ⟨S2x32x192, .f32⟩
  | .local _ .vmem, ⟨27, _⟩ => ⟨S2x32x192, .f32⟩
  | .local _ .vmem, ⟨28, _⟩ => ⟨S2x1x32, .f32⟩
  | .local _ .vmem, ⟨29, _⟩ => ⟨S2x1x32, .f32⟩
  | .local _ .vmem, ⟨30, _⟩ => ⟨S2x1x32, .f32⟩
  | .local _ .vmem, ⟨31, _⟩ => ⟨S2x1x32, .f32⟩
  | .local _ .vmem, ⟨32, _⟩ => ⟨S2x1x32, .f32⟩
  | .local _ .vmem, ⟨33, _⟩ => ⟨S2x1x32, .f32⟩
  | .local _ .vmem, ⟨34, _⟩ => ⟨S2x4096x32, .f32⟩
  | .local _ .vmem, ⟨35, _⟩ => ⟨S2x4096x32, .f32⟩
  | .local _ .vmem, ⟨36, _⟩ => ⟨S4096x256, .f32⟩
  | .local _ .vmem, ⟨37, _⟩ => ⟨S64x256, .f32⟩
  | .local _ .vmem, ⟨38, _⟩ => ⟨S64, .f32⟩
  | .local _ .vmem, ⟨39, _⟩ => ⟨S64, .f32⟩
  | .local _ .vmem, ⟨40, _⟩ => ⟨S64, .f32⟩
  | .local _ .vmem, ⟨41, _⟩ => ⟨S4096x64, .f32⟩
  | _, _ => ⟨S4096x6000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc3_stg0_0 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc3_sem0_0 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x20x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x4096x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x160 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x24x160 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x24 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x24 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x24 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x4096x24 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2x4096x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2x32x192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2x1x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2x1x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2x1x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2x4096x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S4096x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S4096x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  bcast_S_S512x16 : S_.BroadcastsInDim S512x16 (![] : Fin 0 → Fin S512x16.rank)
  bcast_S512x16_S512x16x1_0_1 : S512x16.BroadcastsInDim S512x16x1 (![0, 1] : Fin 2 → Fin S512x16x1.rank)
  transposes_S4096x512x16_S512x4096x16_1_0_2 : S4096x512x16.Transposes [1, 0, 2] S512x4096x16
  bcast_S512x20_S512x1x20_0_2 : S512x20.BroadcastsInDim S512x1x20 (![0, 2] : Fin 2 → Fin S512x1x20.rank)
  inb_S2x4096x16_S1x4096x16_0_0_0 : ∀ a, (![0, 0, 0] : Fin 3 → Nat) a + S1x4096x16.size a ≤ S2x4096x16.size a
  h_S1x4096x16 : 0 < S1x4096x16.numel
  shapeCasts_S1x4096x16_S4096x16 : S1x4096x16.ShapeCasts S4096x16
  inb_S2x20x16_S1x20x16_0_0_0 : ∀ a, (![0, 0, 0] : Fin 3 → Nat) a + S1x20x16.size a ≤ S2x20x16.size a
  h_S1x20x16 : 0 < S1x20x16.numel
  shapeCasts_S1x20x16_S20x16 : S1x20x16.ShapeCasts S20x16
  transposes_S20x16_p1_0_S16x20 : S20x16.Transposes [1, 0] S16x20
  inb_S2x1x20_S1x1x20_0_0_0 : ∀ a, (![0, 0, 0] : Fin 3 → Nat) a + S1x1x20.size a ≤ S2x1x20.size a
  h_S1x1x20 : 0 < S1x1x20.numel
  shapeCasts_S1x1x20_S1x20 : S1x1x20.ShapeCasts S1x20
  broadcasts_S1x20_S4096x20 : S1x20.Broadcasts S4096x20
  reduces_S4096x20_S20 : S4096x20.Reduces [0] S20
  shapeCasts_S20_S1x20 : S20.ShapeCasts S1x20
  inb_S2x4096x20_S1x4096x20_0_0_0 : ∀ a, (![0, 0, 0] : Fin 3 → Nat) a + S1x4096x20.size a ≤ S2x4096x20.size a
  h_S1x4096x20 : 0 < S1x4096x20.numel
  shapeCasts_S1x4096x20_S4096x20 : S1x4096x20.ShapeCasts S4096x20
  shapeCasts_S4096x20_S1x4096x20 : S4096x20.ShapeCasts S1x4096x20
  inb_S2x4096x16_S1x4096x16_1_0_0 : ∀ a, (![1, 0, 0] : Fin 3 → Nat) a + S1x4096x16.size a ≤ S2x4096x16.size a
  inb_S2x20x16_S1x20x16_1_0_0 : ∀ a, (![1, 0, 0] : Fin 3 → Nat) a + S1x20x16.size a ≤ S2x20x16.size a
  inb_S2x1x20_S1x1x20_1_0_0 : ∀ a, (![1, 0, 0] : Fin 3 → Nat) a + S1x1x20.size a ≤ S2x1x20.size a
  inb_S2x4096x20_S1x4096x20_1_0_0 : ∀ a, (![1, 0, 0] : Fin 3 → Nat) a + S1x4096x20.size a ≤ S2x4096x20.size a
  shapeCasts_S512x4096x20_S64x8x4096x20 : S512x4096x20.ShapeCasts S64x8x4096x20
  transposes_S64x8x4096x20_S64x4096x8x20_0_2_1_3 : S64x8x4096x20.Transposes [0, 2, 1, 3] S64x4096x8x20
  shapeCasts_S64x4096x8x20_S64x4096x160 : S64x4096x8x20.ShapeCasts S64x4096x160
  bitsLt_bf16_f32 : FTy.bits .bf16 < FTy.bits .f32
  bcast_S64x24_S64x1x24_0_2 : S64x24.BroadcastsInDim S64x1x24 (![0, 2] : Fin 2 → Fin S64x1x24.rank)
  inb_S1x4096x160_S1x4096x160_0_0_0 : ∀ a, (![0, 0, 0] : Fin 3 → Nat) a + S1x4096x160.size a ≤ S1x4096x160.size a
  h_S1x4096x160 : 0 < S1x4096x160.numel
  shapeCasts_S1x4096x160_S4096x160 : S1x4096x160.ShapeCasts S4096x160
  inb_S1x24x160_S1x24x160_0_0_0 : ∀ a, (![0, 0, 0] : Fin 3 → Nat) a + S1x24x160.size a ≤ S1x24x160.size a
  h_S1x24x160 : 0 < S1x24x160.numel
  shapeCasts_S1x24x160_S24x160 : S1x24x160.ShapeCasts S24x160
  transposes_S24x160_p1_0_S160x24 : S24x160.Transposes [1, 0] S160x24
  inb_S1x1x24_S1x1x24_0_0_0 : ∀ a, (![0, 0, 0] : Fin 3 → Nat) a + S1x1x24.size a ≤ S1x1x24.size a
  h_S1x1x24 : 0 < S1x1x24.numel
  shapeCasts_S1x1x24_S1x24 : S1x1x24.ShapeCasts S1x24
  broadcasts_S1x24_S4096x24 : S1x24.Broadcasts S4096x24
  reduces_S4096x24_S24 : S4096x24.Reduces [0] S24
  shapeCasts_S24_S1x24 : S24.ShapeCasts S1x24
  inb_S1x4096x24_S1x4096x24_0_0_0 : ∀ a, (![0, 0, 0] : Fin 3 → Nat) a + S1x4096x24.size a ≤ S1x4096x24.size a
  h_S1x4096x24 : 0 < S1x4096x24.numel
  shapeCasts_S1x4096x24_S4096x24 : S1x4096x24.ShapeCasts S4096x24
  shapeCasts_S4096x24_S1x4096x24 : S4096x24.ShapeCasts S1x4096x24
  shapeCasts_S64x4096x24_S8x8x4096x24 : S64x4096x24.ShapeCasts S8x8x4096x24
  transposes_S8x8x4096x24_S8x4096x8x24_0_2_1_3 : S8x8x4096x24.Transposes [0, 2, 1, 3] S8x4096x8x24
  shapeCasts_S8x4096x8x24_S8x4096x192 : S8x4096x8x24.ShapeCasts S8x4096x192
  bcast_S8x32_S8x1x32_0_2 : S8x32.BroadcastsInDim S8x1x32 (![0, 2] : Fin 2 → Fin S8x1x32.rank)
  inb_S2x4096x192_S1x4096x192_0_0_0 : ∀ a, (![0, 0, 0] : Fin 3 → Nat) a + S1x4096x192.size a ≤ S2x4096x192.size a
  h_S1x4096x192 : 0 < S1x4096x192.numel
  shapeCasts_S1x4096x192_S4096x192 : S1x4096x192.ShapeCasts S4096x192
  inb_S2x32x192_S1x32x192_0_0_0 : ∀ a, (![0, 0, 0] : Fin 3 → Nat) a + S1x32x192.size a ≤ S2x32x192.size a
  h_S1x32x192 : 0 < S1x32x192.numel
  shapeCasts_S1x32x192_S32x192 : S1x32x192.ShapeCasts S32x192
  transposes_S32x192_p1_0_S192x32 : S32x192.Transposes [1, 0] S192x32
  inb_S2x1x32_S1x1x32_0_0_0 : ∀ a, (![0, 0, 0] : Fin 3 → Nat) a + S1x1x32.size a ≤ S2x1x32.size a
  h_S1x1x32 : 0 < S1x1x32.numel
  shapeCasts_S1x1x32_S1x32 : S1x1x32.ShapeCasts S1x32
  broadcasts_S1x32_S4096x32 : S1x32.Broadcasts S4096x32
  reduces_S4096x32_S32 : S4096x32.Reduces [0] S32
  shapeCasts_S32_S1x32 : S32.ShapeCasts S1x32
  inb_S2x4096x32_S1x4096x32_0_0_0 : ∀ a, (![0, 0, 0] : Fin 3 → Nat) a + S1x4096x32.size a ≤ S2x4096x32.size a
  h_S1x4096x32 : 0 < S1x4096x32.numel
  shapeCasts_S1x4096x32_S4096x32 : S1x4096x32.ShapeCasts S4096x32
  shapeCasts_S4096x32_S1x4096x32 : S4096x32.ShapeCasts S1x4096x32
  inb_S2x4096x192_S1x4096x192_1_0_0 : ∀ a, (![1, 0, 0] : Fin 3 → Nat) a + S1x4096x192.size a ≤ S2x4096x192.size a
  inb_S2x32x192_S1x32x192_1_0_0 : ∀ a, (![1, 0, 0] : Fin 3 → Nat) a + S1x32x192.size a ≤ S2x32x192.size a
  inb_S2x1x32_S1x1x32_1_0_0 : ∀ a, (![1, 0, 0] : Fin 3 → Nat) a + S1x1x32.size a ≤ S2x1x32.size a
  inb_S2x4096x32_S1x4096x32_1_0_0 : ∀ a, (![1, 0, 0] : Fin 3 → Nat) a + S1x4096x32.size a ≤ S2x4096x32.size a
  transposes_S8x4096x32_S4096x8x32_1_0_2 : S8x4096x32.Transposes [1, 0, 2] S4096x8x32
  shapeCasts_S4096x8x32_S4096x256 : S4096x8x32.ShapeCasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  reduces_S4096x64_S64 : S4096x64.Reduces [0] S64
  inb_S4096x64_S4096x64_0_0 : ∀ a, (![0, 0] : Fin 2 → Nat) a + S4096x64.size a ≤ S4096x64.size a
  h_S4096x64 : 0 < S4096x64.numel
  gather_S4096x6000_S512x16x1_S4096x512x16_0_1_n_n_1_2_40961_wf : GatherDims.WF S4096x6000 S512x16x1 S4096x512x16 [0] [1] [] [1] [] 2 ![4096, 1]
  dot_S4096x16_S16x20_S4096x20_1_0_0_1_n_n_wf : DotDims.WF S4096x16 S16x20 S4096x20 [1] [0] [0] [1] [] []
  dot_S4096x160_S160x24_S4096x24_1_0_0_1_n_n_wf : DotDims.WF S4096x160 S160x24 S4096x24 [1] [0] [0] [1] [] []
  dot_S4096x192_S192x32_S4096x32_1_0_0_1_n_n_wf : DotDims.WF S4096x192 S192x32 S4096x32 [1] [0] [0] [1] [] []
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x16.size a ≤ S512x4096x16.size a
  hwx0_0 : ∀ i : grid0.Coords, EltTy.bits .f32 = 32 ∨ (Rect.block (s := S512x4096x16) S2x4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x20x16.size a ≤ S512x20x16.size a
  hwx0_1 : ∀ i : grid0.Coords, EltTy.bits .f32 = 32 ∨ (Rect.block (s := S512x20x16) S2x20x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x20.size a ≤ S512x1x20.size a
  hwx0_2 : ∀ i : grid0.Coords, EltTy.bits .f32 = 32 ∨ (Rect.block (s := S512x1x20) S2x1x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x20.size a ≤ S512x1x20.size a
  hwx0_3 : ∀ i : grid0.Coords, EltTy.bits .f32 = 32 ∨ (Rect.block (s := S512x1x20) S2x1x20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x20.size a ≤ S512x1x20.size a
  hwx0_4 : ∀ i : grid0.Coords, EltTy.bits .f32 = 32 ∨ (Rect.block (s := S512x1x20) S2x1x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x4096x20.size a ≤ S512x4096x20.size a
  hwx0_5 : ∀ i : grid0.Coords, EltTy.bits .f32 = 32 ∨ (Rect.block (s := S512x4096x20) S2x4096x20.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x160.size a ≤ S64x4096x160.size a
  hwx1_0 : ∀ i : grid1.Coords, EltTy.bits .bf16 = 32 ∨ (Rect.block (s := S64x4096x160) S1x4096x160.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x24x160.size a ≤ S64x24x160.size a
  hwx1_1 : ∀ i : grid1.Coords, EltTy.bits .f32 = 32 ∨ (Rect.block (s := S64x24x160) S1x24x160.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x24.size a ≤ S64x1x24.size a
  hwx1_2 : ∀ i : grid1.Coords, EltTy.bits .f32 = 32 ∨ (Rect.block (s := S64x1x24) S1x1x24.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x24.size a ≤ S64x1x24.size a
  hwx1_3 : ∀ i : grid1.Coords, EltTy.bits .f32 = 32 ∨ (Rect.block (s := S64x1x24) S1x1x24.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x24.size a ≤ S64x1x24.size a
  hwx1_4 : ∀ i : grid1.Coords, EltTy.bits .f32 = 32 ∨ (Rect.block (s := S64x1x24) S1x1x24.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x4096x24.size a ≤ S64x4096x24.size a
  hwx1_5 : ∀ i : grid1.Coords, EltTy.bits .f32 = 32 ∨ (Rect.block (s := S64x4096x24) S1x4096x24.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x4096x192.size a ≤ S8x4096x192.size a
  hwx2_0 : ∀ i : grid2.Coords, EltTy.bits .f32 = 32 ∨ (Rect.block (s := S8x4096x192) S2x4096x192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2x32x192.size a ≤ S8x32x192.size a
  hwx2_1 : ∀ i : grid2.Coords, EltTy.bits .f32 = 32 ∨ (Rect.block (s := S8x32x192) S2x32x192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2x1x32.size a ≤ S8x1x32.size a
  hwx2_2 : ∀ i : grid2.Coords, EltTy.bits .f32 = 32 ∨ (Rect.block (s := S8x1x32) S2x1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2x1x32.size a ≤ S8x1x32.size a
  hwx2_3 : ∀ i : grid2.Coords, EltTy.bits .f32 = 32 ∨ (Rect.block (s := S8x1x32) S2x1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2x1x32.size a ≤ S8x1x32.size a
  hwx2_4 : ∀ i : grid2.Coords, EltTy.bits .f32 = 32 ∨ (Rect.block (s := S8x1x32) S2x1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2x4096x32.size a ≤ S8x4096x32.size a
  hwx2_5 : ∀ i : grid2.Coords, EltTy.bits .f32 = 32 ∨ (Rect.block (s := S8x4096x32) S2x4096x32.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S4096x256.size a
  hwx3_0 : ∀ i : grid3.Coords, EltTy.bits .f32 = 32 ∨ (Rect.block (s := S4096x256) S4096x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x256.size a ≤ S64x256.size a
  hwx3_1 : ∀ i : grid3.Coords, EltTy.bits .f32 = 32 ∨ (Rect.block (s := S64x256) S64x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S4096x64.size a ≤ S4096x64.size a
  hwx3_5 : ∀ i : grid3.Coords, EltTy.bits .f32 = 32 ∨ (Rect.block (s := S4096x64) S4096x64.size (cc3_transform_5 i) (hinb3_5 i)).WholeWords (EltTy.packing .f32)

variable [Facts₀]

def gather_S4096x6000_S512x16x1_S4096x512x16_0_1_n_n_1_2_40961 : GatherDims S4096x6000 S512x16x1 S4096x512x16 where
  offsetDims := [0]
  collapsedSliceDims := [1]
  operandBatchingDims := []
  startIndicesBatchingDims := []
  startIndexMap := [1]
  indexVectorDim := 2
  sliceSizes := ![4096, 1]
  wf := gather_S4096x6000_S512x16x1_S4096x512x16_0_1_n_n_1_2_40961_wf
def dot_S4096x16_S16x20_S4096x20_1_0_0_1_n_n : DotDims S4096x16 S16x20 S4096x20 where
  lhsContracting := [1]
  rhsContracting := [0]
  lhsNonContracting := [0]
  rhsNonContracting := [1]
  lhsBatch := []
  rhsBatch := []
  wf := dot_S4096x16_S16x20_S4096x20_1_0_0_1_n_n_wf
def dot_S4096x160_S160x24_S4096x24_1_0_0_1_n_n : DotDims S4096x160 S160x24 S4096x24 where
  lhsContracting := [1]
  rhsContracting := [0]
  lhsNonContracting := [0]
  rhsNonContracting := [1]
  lhsBatch := []
  rhsBatch := []
  wf := dot_S4096x160_S160x24_S4096x24_1_0_0_1_n_n_wf
def dot_S4096x192_S192x32_S4096x32_1_0_0_1_n_n : DotDims S4096x192 S192x32 S4096x32 where
  lhsContracting := [1]
  rhsContracting := [0]
  lhsNonContracting := [0]
  rhsNonContracting := [1]
  lhsBatch := []
  rhsBatch := []
  wf := dot_S4096x192_S192x32_S4096x32_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_v7) S2x4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x20x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2x1x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2x1x20.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2x1x20.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2x4096x20.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S1x4096x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1x24x160.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1x24.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x1x24.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x1x24.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x4096x24.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v22) S2x4096x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S2x32x192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S2x1x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v24) S2x1x32.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v25) S2x1x32.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v26) S2x4096x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v28) S4096x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S64x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29) S4096x64.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S4096x6000 : Shape := ⟨2, ![4096, 6000]⟩
abbrev S512x16 : Shape := ⟨2, ![512, 16]⟩
abbrev S512x20x16 : Shape := ⟨3, ![512, 20, 16]⟩
abbrev S512x20 : Shape := ⟨2, ![512, 20]⟩
abbrev S64x24x160 : Shape := ⟨3, ![64, 24, 160]⟩
abbrev S64x24 : Shape := ⟨2, ![64, 24]⟩
abbrev S8x32x192 : Shape := ⟨3, ![8, 32, 192]⟩
abbrev S8x32 : Shape := ⟨2, ![8, 32]⟩
abbrev S64x256 : Shape := ⟨2, ![64, 256]⟩
abbrev S64 : Shape := ⟨1, ![64]⟩
abbrev S_ : Shape := ⟨0, ![]⟩
abbrev S512x16x1 : Shape := ⟨3, ![512, 16, 1]⟩
abbrev S4096x512x16 : Shape := ⟨3, ![4096, 512, 16]⟩
abbrev S512x4096x16 : Shape := ⟨3, ![512, 4096, 16]⟩
abbrev S512x4096x20 : Shape := ⟨3, ![512, 4096, 20]⟩
abbrev S512x1x20 : Shape := ⟨3, ![512, 1, 20]⟩
abbrev S64x8x4096x20 : Shape := ⟨4, ![64, 8, 4096, 20]⟩
abbrev S64x4096x8x20 : Shape := ⟨4, ![64, 4096, 8, 20]⟩
abbrev S64x4096x160 : Shape := ⟨3, ![64, 4096, 160]⟩
abbrev S64x4096x24 : Shape := ⟨3, ![64, 4096, 24]⟩
abbrev S64x1x24 : Shape := ⟨3, ![64, 1, 24]⟩
abbrev S8x8x4096x24 : Shape := ⟨4, ![8, 8, 4096, 24]⟩
abbrev S8x4096x8x24 : Shape := ⟨4, ![8, 4096, 8, 24]⟩
abbrev S8x4096x192 : Shape := ⟨3, ![8, 4096, 192]⟩
abbrev S8x4096x32 : Shape := ⟨3, ![8, 4096, 32]⟩
abbrev S8x1x32 : Shape := ⟨3, ![8, 1, 32]⟩
abbrev S4096x8x32 : Shape := ⟨3, ![4096, 8, 32]⟩
abbrev S4096x256 : Shape := ⟨2, ![4096, 256]⟩
abbrev S256x64 : Shape := ⟨2, ![256, 64]⟩
abbrev S4096x64 : Shape := ⟨2, ![4096, 64]⟩
abbrev S1x64 : Shape := ⟨2, ![1, 64]⟩

abbrev nBuf : Space → Nat
  | .hbm => 233
  | .vmem => 0
  | .smem => 0
  | _ => 0

abbrev hbmTy0_0 (i : Nat) : BufTy := match i % 128 with
  | 0 => ⟨S4096x6000, .f32⟩
  | 1 => ⟨S512x16, .i32⟩
  | 2 => ⟨S512x20x16, .f32⟩
  | 3 => ⟨S512x20, .f32⟩
  | 4 => ⟨S512x20, .f32⟩
  | 5 => ⟨S512x20, .f32⟩
  | 6 => ⟨S64x24x160, .f32⟩
  | 7 => ⟨S64x24, .f32⟩
  | 8 => ⟨S64x24, .f32⟩
  | 9 => ⟨S64x24, .f32⟩
  | 10 => ⟨S8x32x192, .f32⟩
  | 11 => ⟨S8x32, .f32⟩
  | 12 => ⟨S8x32, .f32⟩
  | 13 => ⟨S8x32, .f32⟩
  | 14 => ⟨S64x256, .f32⟩
  | 15 => ⟨S64, .f32⟩
  | 16 => ⟨S64, .f32⟩
  | 17 => ⟨S64, .f32⟩
  | 18 => ⟨S_, .i32⟩
  | 19 => ⟨S512x16, .i32⟩
  | 20 => ⟨S512x16, .i1⟩
  | 21 => ⟨S_, .i32⟩
  | 22 => ⟨S512x16, .i32⟩
  | 23 => ⟨S512x16, .i32⟩
  | 24 => ⟨S512x16, .i32⟩
  | 25 => ⟨S512x16x1, .i32⟩
  | 26 => ⟨S4096x512x16, .f32⟩
  | 27 => ⟨S512x4096x16, .f32⟩
  | 28 => ⟨S512x4096x20, .f32⟩
  | 29 => ⟨S512x1x20, .f32⟩
  | 30 => ⟨S512x4096x20, .f32⟩
  | 31 => ⟨S512x4096x20, .f32⟩
  | 32 => ⟨S512x4096x20, .f32⟩
  | 33 => ⟨S_, .f32⟩
  | 34 => ⟨S512x20, .f32⟩
  | 35 => ⟨S512x1x20, .f32⟩
  | 36 => ⟨S_, .f32⟩
  | 37 => ⟨S512x1x20, .f32⟩
  | 38 => ⟨S512x1x20, .f32⟩
  | 39 => ⟨S_, .i32⟩
  | 40 => ⟨S_, .f32⟩
  | 41 => ⟨S512x20, .f32⟩
  | 42 => ⟨S512x1x20, .f32⟩
  | 43 => ⟨S_, .f32⟩
  | 44 => ⟨S512x1x20, .f32⟩
  | 45 => ⟨S512x1x20, .f32⟩
  | 46 => ⟨S512x4096x20, .f32⟩
  | 47 => ⟨S512x4096x20, .f32⟩
  | 48 => ⟨S512x4096x20, .f32⟩
  | 49 => ⟨S_, .f32⟩
  | 50 => ⟨S_, .f32⟩
  | 51 => ⟨S_, .f32⟩
  | 52 => ⟨S_, .f32⟩
  | 53 => ⟨S512x20, .f32⟩
  | 54 => ⟨S512x1x20, .f32⟩
  | 55 => ⟨S512x1x20, .f32⟩
  | 56 => ⟨S512x1x20, .f32⟩
  | 57 => ⟨S_, .f32⟩
  | 58 => ⟨S_, .i1⟩
  | 59 => ⟨S_, .f32⟩
  | 60 => ⟨S_, .f32⟩
  | 61 => ⟨S512x1x20, .f32⟩
  | 62 => ⟨S512x1x20, .f32⟩
  | 63 => ⟨S512x1x20, .f32⟩
  | 64 => ⟨S512x4096x20, .f32⟩
  | 65 => ⟨S512x4096x20, .f32⟩
  | 66 => ⟨S512x4096x20, .f32⟩
  | 67 => ⟨S512x4096x20, .f32⟩
  | 68 => ⟨S_, .f32⟩
  | 69 => ⟨S512x1x20, .f32⟩
  | 70 => ⟨S512x1x20, .f32⟩
  | 71 => ⟨S512x1x20, .f32⟩
  | 72 => ⟨S512x4096x20, .f32⟩
  | 73 => ⟨S512x4096x20, .f32⟩
  | 74 => ⟨S512x1x20, .f32⟩
  | 75 => ⟨S512x4096x20, .f32⟩
  | 76 => ⟨S512x4096x20, .f32⟩
  | 77 => ⟨S64x8x4096x20, .f32⟩
  | 78 => ⟨S64x4096x8x20, .f32⟩
  | 79 => ⟨S64x4096x160, .f32⟩
  | 80 => ⟨S64x4096x24, .f32⟩
  | 81 => ⟨S64x1x24, .f32⟩
  | 82 => ⟨S64x4096x24, .f32⟩
  | 83 => ⟨S64x4096x24, .f32⟩
  | 84 => ⟨S64x4096x24, .f32⟩
  | 85 => ⟨S_, .f32⟩
  | 86 => ⟨S64x24, .f32⟩
  | 87 => ⟨S64x1x24, .f32⟩
  | 88 => ⟨S_, .f32⟩
  | 89 => ⟨S64x1x24, .f32⟩
  | 90 => ⟨S64x1x24, .f32⟩
  | 91 => ⟨S_, .i32⟩
  | 92 => ⟨S_, .f32⟩
  | 93 => ⟨S64x24, .f32⟩
  | 94 => ⟨S64x1x24, .f32⟩
  | 95 => ⟨S_, .f32⟩
  | 96 => ⟨S64x1x24, .f32⟩
  | 97 => ⟨S64x1x24, .f32⟩
  | 98 => ⟨S64x4096x24, .f32⟩
  | 99 => ⟨S64x4096x24, .f32⟩
  | 100 => ⟨S64x4096x24, .f32⟩
  | 101 => ⟨S_, .f32⟩
  | 102 => ⟨S_, .f32⟩
  | 103 => ⟨S_, .f32⟩
  | 104 => ⟨S_, .f32⟩
  | 105 => ⟨S64x24, .f32⟩
  | 106 => ⟨S64x1x24, .f32⟩
  | 107 => ⟨S64x1x24, .f32⟩
  | 108 => ⟨S64x1x24, .f32⟩
  | 109 => ⟨S_, .f32⟩
  | 110 => ⟨S_, .i1⟩
  | 111 => ⟨S_, .f32⟩
  | 112 => ⟨S_, .f32⟩
  | 113 => ⟨S64x1x24, .f32⟩
  | 114 => ⟨S64x1x24, .f32⟩
  | 115 => ⟨S64x1x24, .f32⟩
  | 116 => ⟨S64x4096x24, .f32⟩
  | 117 => ⟨S64x4096x24, .f32⟩
  | 118 => ⟨S64x4096x24, .f32⟩
  | 119 => ⟨S64x4096x24, .f32⟩
  | 120 => ⟨S_, .f32⟩
  | 121 => ⟨S64x1x24, .f32⟩
  | 122 => ⟨S64x1x24, .f32⟩
  | 123 => ⟨S64x1x24, .f32⟩
  | 124 => ⟨S64x4096x24, .f32⟩
  | 125 => ⟨S64x4096x24, .f32⟩
  | 126 => ⟨S64x1x24, .f32⟩
  | 127 => ⟨S64x4096x24, .f32⟩
  | _ => ⟨S4096x6000, .f32⟩

abbrev hbmTy0_1 (i : Nat) : BufTy := match i % 128 with
  | 0 => ⟨S64x4096x24, .f32⟩
  | 1 => ⟨S8x8x4096x24, .f32⟩
  | 2 => ⟨S8x4096x8x24, .f32⟩
  | 3 => ⟨S8x4096x192, .f32⟩
  | 4 => ⟨S8x4096x32, .f32⟩
  | 5 => ⟨S8x1x32, .f32⟩
  | 6 => ⟨S8x4096x32, .f32⟩
  | 7 => ⟨S8x4096x32, .f32⟩
  | 8 => ⟨S8x4096x32, .f32⟩
  | 9 => ⟨S_, .f32⟩
  | 10 => ⟨S8x32, .f32⟩
  | 11 => ⟨S8x1x32, .f32⟩
  | 12 => ⟨S_, .f32⟩
  | 13 => ⟨S8x1x32, .f32⟩
  | 14 => ⟨S8x1x32, .f32⟩
  | 15 => ⟨S_, .i32⟩
  | 16 => ⟨S_, .f32⟩
  | 17 => ⟨S8x32, .f32⟩
  | 18 => ⟨S8x1x32, .f32⟩
  | 19 => ⟨S_, .f32⟩
  | 20 => ⟨S8x1x32, .f32⟩
  | 21 => ⟨S8x1x32, .f32⟩
  | 22 => ⟨S8x4096x32, .f32⟩
  | 23 => ⟨S8x4096x32, .f32⟩
  | 24 => ⟨S8x4096x32, .f32⟩
  | 25 => ⟨S_, .f32⟩
  | 26 => ⟨S_, .f32⟩
  | 27 => ⟨S_, .f32⟩
  | 28 => ⟨S_, .f32⟩
  | 29 => ⟨S8x32, .f32⟩
  | 30 => ⟨S8x1x32, .f32⟩
  | 31 => ⟨S8x1x32, .f32⟩
  | 32 => ⟨S8x1x32, .f32⟩
  | 33 => ⟨S_, .f32⟩
  | 34 => ⟨S_, .i1⟩
  | 35 => ⟨S_, .f32⟩
  | 36 => ⟨S_, .f32⟩
  | 37 => ⟨S8x1x32, .f32⟩
  | 38 => ⟨S8x1x32, .f32⟩
  | 39 => ⟨S8x1x32, .f32⟩
  | 40 => ⟨S8x4096x32, .f32⟩
  | 41 => ⟨S8x4096x32, .f32⟩
  | 42 => ⟨S8x4096x32, .f32⟩
  | 43 => ⟨S8x4096x32, .f32⟩
  | 44 => ⟨S_, .f32⟩
  | 45 => ⟨S8x1x32, .f32⟩
  | 46 => ⟨S8x1x32, .f32⟩
  | 47 => ⟨S8x1x32, .f32⟩
  | 48 => ⟨S8x4096x32, .f32⟩
  | 49 => ⟨S8x4096x32, .f32⟩
  | 50 => ⟨S8x1x32, .f32⟩
  | 51 => ⟨S8x4096x32, .f32⟩
  | 52 => ⟨S8x4096x32, .f32⟩
  | 53 => ⟨S4096x8x32, .f32⟩
  | 54 => ⟨S4096x256, .f32⟩
  | 55 => ⟨S256x64, .f32⟩
  | 56 => ⟨S4096x64, .f32⟩
  | 57 => ⟨S1x64, .f32⟩
  | 58 => ⟨S4096x64, .f32⟩
  | 59 => ⟨S4096x64, .f32⟩
  | 60 => ⟨S4096x64, .f32⟩
  | 61 => ⟨S_, .f32⟩
  | 62 => ⟨S64, .f32⟩
  | 63 => ⟨S1x64, .f32⟩
  | 64 => ⟨S_, .f32⟩
  | 65 => ⟨S1x64, .f32⟩
  | 66 => ⟨S1x64, .f32⟩
  | 67 => ⟨S_, .i32⟩
  | 68 => ⟨S_, .f32⟩
  | 69 => ⟨S64, .f32⟩
  | 70 => ⟨S1x64, .f32⟩
  | 71 => ⟨S_, .f32⟩
  | 72 => ⟨S1x64, .f32⟩
  | 73 => ⟨S1x64, .f32⟩
  | 74 => ⟨S4096x64, .f32⟩
  | 75 => ⟨S4096x64, .f32⟩
  | 76 => ⟨S4096x64, .f32⟩
  | 77 => ⟨S_, .f32⟩
  | 78 => ⟨S_, .f32⟩
  | 79 => ⟨S_, .f32⟩
  | 80 => ⟨S_, .f32⟩
  | 81 => ⟨S64, .f32⟩
  | 82 => ⟨S1x64, .f32⟩
  | 83 => ⟨S1x64, .f32⟩
  | 84 => ⟨S1x64, .f32⟩
  | 85 => ⟨S_, .f32⟩
  | 86 => ⟨S_, .i1⟩
  | 87 => ⟨S_, .f32⟩
  | 88 => ⟨S_, .f32⟩
  | 89 => ⟨S1x64, .f32⟩
  | 90 => ⟨S1x64, .f32⟩
  | 91 => ⟨S4096x64, .f32⟩
  | 92 => ⟨S4096x64, .f32⟩
  | 93 => ⟨S1x64, .f32⟩
  | 94 => ⟨S4096x64, .f32⟩
  | 95 => ⟨S4096x64, .f32⟩
  | 96 => ⟨S_, .f32⟩
  | 97 => ⟨S1x64, .f32⟩
  | 98 => ⟨S1x64, .f32⟩
  | 99 => ⟨S1x64, .f32⟩
  | 100 => ⟨S4096x64, .f32⟩
  | 101 => ⟨S4096x64, .f32⟩
  | 102 => ⟨S1x64, .f32⟩
  | 103 => ⟨S4096x64, .f32⟩
  | 104 => ⟨S4096x64, .f32⟩
  | _ => ⟨S4096x6000, .f32⟩

abbrev hbmTy (i : Nat) : BufTy := match i / 128 with
  | 0 => hbmTy0_0 i
  | 1 => hbmTy0_1 i
  | _ => ⟨S4096x6000, .f32⟩

abbrev bufTy : (tb : Table) → Fin (tcTables nBuf tb) → BufTy
  | .hbm, ⟨i, _⟩ => hbmTy i
  | _, _ => ⟨S4096x6000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_c_2 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_cst_3 : Ref sig .tc := ⟨.hbm, 57, rfl⟩
abbrev main_call0_v13 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_3 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_4 : Ref sig .tc := ⟨.hbm, 85, rfl⟩
abbrev main_v39 : Ref sig .tc := ⟨.hbm, 86, rfl⟩
abbrev main_v40 : Ref sig .tc := ⟨.hbm, 87, rfl⟩
abbrev main_cst_5 : Ref sig .tc := ⟨.hbm, 88, rfl⟩
abbrev main_v41 : Ref sig .tc := ⟨.hbm, 89, rfl⟩
abbrev main_v42 : Ref sig .tc := ⟨.hbm, 90, rfl⟩
abbrev main_c_6 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_cst_0 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_v6 : Ref sig .tc := ⟨.hbm, 100, rfl⟩
abbrev main_call1_v7 : Ref sig .tc := ⟨.hbm, 101, rfl⟩
abbrev main_call1_cst_1 : Ref sig .tc := ⟨.hbm, 102, rfl⟩
abbrev main_call1_v8 : Ref sig .tc := ⟨.hbm, 103, rfl⟩
abbrev main_call1_cst_2 : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_call1_v12 : Ref sig .tc := ⟨.hbm, 108, rfl⟩
abbrev main_call1_cst_3 : Ref sig .tc := ⟨.hbm, 109, rfl⟩
abbrev main_call1_v13 : Ref sig .tc := ⟨.hbm, 110, rfl⟩
abbrev main_call1_cst_4 : Ref sig .tc := ⟨.hbm, 111, rfl⟩
abbrev main_call1_call0_v0 : Ref sig .tc := ⟨.hbm, 112, rfl⟩
abbrev main_call1_call0_v1 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_cst_7 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_cst_8 : Ref sig .tc := ⟨.hbm, 137, rfl⟩
abbrev main_v65 : Ref sig .tc := ⟨.hbm, 138, rfl⟩
abbrev main_v66 : Ref sig .tc := ⟨.hbm, 139, rfl⟩
abbrev main_cst_9 : Ref sig .tc := ⟨.hbm, 140, rfl⟩
abbrev main_v67 : Ref sig .tc := ⟨.hbm, 141, rfl⟩
abbrev main_v68 : Ref sig .tc := ⟨.hbm, 142, rfl⟩
abbrev main_c_10 : Ref sig .tc := ⟨.hbm, 143, rfl⟩
abbrev main_call2_cst : Ref sig .tc := ⟨.hbm, 144, rfl⟩
abbrev main_call2_v0 : Ref sig .tc := ⟨.hbm, 145, rfl⟩
abbrev main_call2_v1 : Ref sig .tc := ⟨.hbm, 146, rfl⟩
abbrev main_call2_cst_0 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_call2_v5 : Ref sig .tc := ⟨.hbm, 151, rfl⟩
abbrev main_call2_v6 : Ref sig .tc := ⟨.hbm, 152, rfl⟩
abbrev main_call2_v7 : Ref sig .tc := ⟨.hbm, 153, rfl⟩
abbrev main_call2_cst_1 : Ref sig .tc := ⟨.hbm, 154, rfl⟩
abbrev main_call2_v8 : Ref sig .tc := ⟨.hbm, 155, rfl⟩
abbrev main_call2_cst_2 : Ref sig .tc := ⟨.hbm, 156, rfl⟩
abbrev main_call2_v9 : Ref sig .tc := ⟨.hbm, 157, rfl⟩
abbrev main_call2_v10 : Ref sig .tc := ⟨.hbm, 158, rfl⟩
abbrev main_call2_v11 : Ref sig .tc := ⟨.hbm, 159, rfl⟩
abbrev main_call2_v12 : Ref sig .tc := ⟨.hbm, 160, rfl⟩
abbrev main_call2_cst_3 : Ref sig .tc := ⟨.hbm, 161, rfl⟩
abbrev main_call2_v13 : Ref sig .tc := ⟨.hbm, 162, rfl⟩
abbrev main_call2_cst_4 : Ref sig .tc := ⟨.hbm, 163, rfl⟩
abbrev main_call2_call0_v0 : Ref sig .tc := ⟨.hbm, 164, rfl⟩
abbrev main_call2_call0_v1 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_cst_11 : Ref sig .tc := ⟨.hbm, 172, rfl⟩
abbrev main_v75 : Ref sig .tc := ⟨.hbm, 173, rfl⟩
abbrev main_v76 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_cst_12 : Ref sig .tc := ⟨.hbm, 189, rfl⟩
abbrev main_v91 : Ref sig .tc := ⟨.hbm, 190, rfl⟩
abbrev main_v92 : Ref sig .tc := ⟨.hbm, 191, rfl⟩
abbrev main_cst_13 : Ref sig .tc := ⟨.hbm, 192, rfl⟩
abbrev main_v93 : Ref sig .tc := ⟨.hbm, 193, rfl⟩
abbrev main_v94 : Ref sig .tc := ⟨.hbm, 194, rfl⟩
abbrev main_c_14 : Ref sig .tc := ⟨.hbm, 195, rfl⟩
abbrev main_call3_cst : Ref sig .tc := ⟨.hbm, 196, rfl⟩
abbrev main_call3_v0 : Ref sig .tc := ⟨.hbm, 197, rfl⟩
abbrev main_call3_v1 : Ref sig .tc := ⟨.hbm, 198, rfl⟩
abbrev main_call3_cst_0 : Ref sig .tc := ⟨.hbm, 199, rfl⟩
abbrev main_call3_v2 : Ref sig .tc := ⟨.hbm, 200, rfl⟩
abbrev main_call3_v3 : Ref sig .tc := ⟨.hbm, 201, rfl⟩
abbrev main_call3_v4 : Ref sig .tc := ⟨.hbm, 202, rfl⟩
abbrev main_call3_v5 : Ref sig .tc := ⟨.hbm, 203, rfl⟩
abbrev main_call3_v6 : Ref sig .tc := ⟨.hbm, 204, rfl⟩
abbrev main_call3_v7 : Ref sig .tc := ⟨.hbm, 205, rfl⟩
abbrev main_call3_cst_1 : Ref sig .tc := ⟨.hbm, 206, rfl⟩
abbrev main_call3_v8 : Ref sig .tc := ⟨.hbm, 207, rfl⟩
abbrev main_call3_cst_2 : Ref sig .tc := ⟨.hbm, 208, rfl⟩
abbrev main_call3_v9 : Ref sig .tc := ⟨.hbm, 209, rfl⟩
abbrev main_call3_v10 : Ref sig .tc := ⟨.hbm, 210, rfl⟩
abbrev main_call3_v11 : Ref sig .tc := ⟨.hbm, 211, rfl⟩
abbrev main_call3_v12 : Ref sig .tc := ⟨.hbm, 212, rfl⟩
abbrev main_call3_cst_3 : Ref sig .tc := ⟨.hbm, 213, rfl⟩
abbrev main_call3_v13 : Ref sig .tc := ⟨.hbm, 214, rfl⟩
abbrev main_call3_cst_4 : Ref sig .tc := ⟨.hbm, 215, rfl⟩
abbrev main_call3_call0_v0 : Ref sig .tc := ⟨.hbm, 216, rfl⟩
abbrev main_call3_call0_v1 : Ref sig .tc := ⟨.hbm, 217, rfl⟩
abbrev main_v95 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩
abbrev main_v99 : Ref sig .tc := ⟨.hbm, 222, rfl⟩
abbrev main_v100 : Ref sig .tc := ⟨.hbm, 223, rfl⟩
abbrev main_cst_15 : Ref sig .tc := ⟨.hbm, 224, rfl⟩
abbrev main_v101 : Ref sig .tc := ⟨.hbm, 225, rfl⟩
abbrev main_v102 : Ref sig .tc := ⟨.hbm, 226, rfl⟩
abbrev main_v103 : Ref sig .tc := ⟨.hbm, 227, rfl⟩
abbrev main_v104 : Ref sig .tc := ⟨.hbm, 228, rfl⟩
abbrev main_v105 : Ref sig .tc := ⟨.hbm, 229, rfl⟩
abbrev main_v106 : Ref sig .tc := ⟨.hbm, 230, rfl⟩
abbrev main_v107 : Ref sig .tc := ⟨.hbm, 231, rfl⟩
abbrev main_v108 : Ref sig .tc := ⟨.hbm, 232, rfl⟩

abbrev nD : Nat := 1
abbrev τ : Topo := Topo.v7x

variable {F : FTy → Type} [FloatOps F]

class Facts₀ : Prop where
  bcast_S_S512x16 : S_.BroadcastsInDim S512x16 (![] : Fin 0 → Fin S512x16.rank)
  bcast_S512x16_S512x16x1_0_1 : S512x16.BroadcastsInDim S512x16x1 (![0, 1] : Fin 2 → Fin S512x16x1.rank)
  transposes_S4096x512x16_S512x4096x16_1_0_2 : S4096x512x16.Transposes [1, 0, 2] S512x4096x16
  bcast_S512x20_S512x1x20_0_2 : S512x20.BroadcastsInDim S512x1x20 (![0, 2] : Fin 2 → Fin S512x1x20.rank)
  bcast_S512x1x20_S512x4096x20_0_1_2 : S512x1x20.BroadcastsInDim S512x4096x20 (![0, 1, 2] : Fin 3 → Fin S512x4096x20.rank)
  reducesTo_S512x4096x20_S512x20_d1 : S512x4096x20.ReducesTo [1] S512x20
  h_S_ : 0 < S_.numel
  bcast_S_S512x1x20 : S_.BroadcastsInDim S512x1x20 (![] : Fin 0 → Fin S512x1x20.rank)
  shapeCasts_S512x4096x20_S64x8x4096x20 : S512x4096x20.ShapeCasts S64x8x4096x20
  transposes_S64x8x4096x20_S64x4096x8x20_0_2_1_3 : S64x8x4096x20.Transposes [0, 2, 1, 3] S64x4096x8x20
  shapeCasts_S64x4096x8x20_S64x4096x160 : S64x4096x8x20.ShapeCasts S64x4096x160
  bcast_S64x24_S64x1x24_0_2 : S64x24.BroadcastsInDim S64x1x24 (![0, 2] : Fin 2 → Fin S64x1x24.rank)
  bcast_S64x1x24_S64x4096x24_0_1_2 : S64x1x24.BroadcastsInDim S64x4096x24 (![0, 1, 2] : Fin 3 → Fin S64x4096x24.rank)
  reducesTo_S64x4096x24_S64x24_d1 : S64x4096x24.ReducesTo [1] S64x24
  bcast_S_S64x1x24 : S_.BroadcastsInDim S64x1x24 (![] : Fin 0 → Fin S64x1x24.rank)
  shapeCasts_S64x4096x24_S8x8x4096x24 : S64x4096x24.ShapeCasts S8x8x4096x24
  transposes_S8x8x4096x24_S8x4096x8x24_0_2_1_3 : S8x8x4096x24.Transposes [0, 2, 1, 3] S8x4096x8x24
  shapeCasts_S8x4096x8x24_S8x4096x192 : S8x4096x8x24.ShapeCasts S8x4096x192
  bcast_S8x32_S8x1x32_0_2 : S8x32.BroadcastsInDim S8x1x32 (![0, 2] : Fin 2 → Fin S8x1x32.rank)
  bcast_S8x1x32_S8x4096x32_0_1_2 : S8x1x32.BroadcastsInDim S8x4096x32 (![0, 1, 2] : Fin 3 → Fin S8x4096x32.rank)
  reducesTo_S8x4096x32_S8x32_d1 : S8x4096x32.ReducesTo [1] S8x32
  bcast_S_S8x1x32 : S_.BroadcastsInDim S8x1x32 (![] : Fin 0 → Fin S8x1x32.rank)
  transposes_S8x4096x32_S4096x8x32_1_0_2 : S8x4096x32.Transposes [1, 0, 2] S4096x8x32
  shapeCasts_S4096x8x32_S4096x256 : S4096x8x32.ShapeCasts S4096x256
  transposes_S64x256_S256x64_1_0 : S64x256.Transposes [1, 0] S256x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S64_d0 : S4096x64.ReducesTo [0] S64
  bcast_S_S1x64 : S_.BroadcastsInDim S1x64 (![] : Fin 0 → Fin S1x64.rank)
  gather_S4096x6000_S512x16x1_S4096x512x16_0_1_n_n_1_2_40961_wf : GatherDims.WF S4096x6000 S512x16x1 S4096x512x16 [0] [1] [] [1] [] 2 ![4096, 1]
  dot_S512x4096x16_S512x20x16_S512x4096x20_2_2_1_1_0_0_wf : DotDims.WF S512x4096x16 S512x20x16 S512x4096x20 [2] [2] [1] [1] [0] [0]
  dot_S64x4096x160_S64x24x160_S64x4096x24_2_2_1_1_0_0_wf : DotDims.WF S64x4096x160 S64x24x160 S64x4096x24 [2] [2] [1] [1] [0] [0]
  dot_S8x4096x192_S8x32x192_S8x4096x32_2_2_1_1_0_0_wf : DotDims.WF S8x4096x192 S8x32x192 S8x4096x32 [2] [2] [1] [1] [0] [0]
  dot_S4096x256_S256x64_S4096x64_1_0_0_1_n_n_wf : DotDims.WF S4096x256 S256x64 S4096x64 [1] [0] [0] [1] [] []

variable [Facts₀]

def gather_S4096x6000_S512x16x1_S4096x512x16_0_1_n_n_1_2_40961 : GatherDims S4096x6000 S512x16x1 S4096x512x16 where
  offsetDims := [0]
  collapsedSliceDims := [1]
  operandBatchingDims := []
  startIndicesBatchingDims := []
  startIndexMap := [1]
  indexVectorDim := 2
  sliceSizes := ![4096, 1]
  wf := gather_S4096x6000_S512x16x1_S4096x512x16_0_1_n_n_1_2_40961_wf
def dot_S512x4096x16_S512x20x16_S512x4096x20_2_2_1_1_0_0 : DotDims S512x4096x16 S512x20x16 S512x4096x20 where
  lhsContracting := [2]
  rhsContracting := [2]
  lhsNonContracting := [1]
  rhsNonContracting := [1]
  lhsBatch := [0]
  rhsBatch := [0]
  wf := dot_S512x4096x16_S512x20x16_S512x4096x20_2_2_1_1_0_0_wf
def dot_S64x4096x160_S64x24x160_S64x4096x24_2_2_1_1_0_0 : DotDims S64x4096x160 S64x24x160 S64x4096x24 where
  lhsContracting := [2]
  rhsContracting := [2]
  lhsNonContracting := [1]
  rhsNonContracting := [1]
  lhsBatch := [0]
  rhsBatch := [0]
  wf := dot_S64x4096x160_S64x24x160_S64x4096x24_2_2_1_1_0_0_wf
def dot_S8x4096x192_S8x32x192_S8x4096x32_2_2_1_1_0_0 : DotDims S8x4096x192 S8x32x192 S8x4096x32 where
  lhsContracting := [2]
  rhsContracting := [2]
  lhsNonContracting := [1]
  rhsNonContracting := [1]
  lhsBatch := [0]
  rhsBatch := [0]
  wf := dot_S8x4096x192_S8x32x192_S8x4096x32_2_2_1_1_0_0_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

class Facts : Prop extends Facts₀ where

variable [Facts]
-- ==== Proof.Core.lean ====
/-
  One block of the network, as a function on plain index types.

  A block takes a batch of B rows with I features each, a weight matrix with O rows, and per-output-feature
  bias, scale and shift.  It forms the affine image of every row, applies tanh, and normalises every output
  feature over the batch: subtract the feature's batch mean, multiply by the scale and by the reciprocal square
  root of the feature's batch variance plus a small constant, and add the shift.  The mean and the variance are
  quotients of a sum over the batch by the batch size.  Everything is read on the extended reals; the batch size
  and the small constant are kept as the binary words both programs spell them with.
-/
import Idealize.ShloMosaic.PureOps.Ideal
import Idealize.ShloMosaic.Lib.ValueIdx

noncomputable section

open scoped BigOperators

namespace Cert.Core

open Idealize.ShloMosaic

/-- The batch size 4096, as the word both programs divide by. -/
def batch : EReal := Ideal.ofBits .f32 0x45800000#32

/-- The constant added to the variance, as the word both programs add. -/
def tiny : EReal := Ideal.ofBits .f32 0x3727C5AC#32

variable {B I O : ℕ}

/-- tanh of the affine image: entry (p, o) is tanh (sum over k of x p k * w o k, plus b o). -/
def act (x : Fin B → Fin I → EReal) (w : Fin O → Fin I → EReal) (b : Fin O → EReal) (p : Fin B) (o : Fin O) : EReal :=
  Ideal.tanh ((∑ k : Fin I, x p k * w o k) + b o)

/-- The mean over the batch of column o. -/
def mean (h : Fin B → Fin O → EReal) (o : Fin O) : EReal := Ideal.div (∑ p : Fin B, h p o) batch

/-- An entry minus its column's mean. -/
def centred (h : Fin B → Fin O → EReal) (p : Fin B) (o : Fin O) : EReal := h p o - mean h o

/-- The mean over the batch of the squared centred entries of column o. -/
def var (h : Fin B → Fin O → EReal) (o : Fin O) : EReal :=
  Ideal.div (∑ p : Fin B, centred h p o * centred h p o) batch

/-- The block: scale times the centred activation times the reciprocal square root of (variance + tiny), plus shift. -/
def block (x : Fin B → Fin I → EReal) (w : Fin O → Fin I → EReal) (b g β : Fin O → EReal) (p : Fin B) (o : Fin O) : EReal :=
  g o * centred (act x w b) p o * Ideal.rsqrt (var (act x w b) o + tiny) + β o

open ValueIdx in
/-- A level of the hierarchy: S independent blocks. Block s takes slab s of the activations [S, B, I] and of the
    weights [S, O, I], and row s of the bias, scale and shift, which arrive as [S, 1, O] arrays. -/
def level (S B I O : ℕ) (x : (⟨3, ![S, B, I]⟩ : Shape).Idx → EReal) (w : (⟨3, ![S, O, I]⟩ : Shape).Idx → EReal)
    (b g β : (⟨3, ![S, 1, O]⟩ : Shape).Idx → EReal) : (⟨3, ![S, B, O]⟩ : Shape).Idx → EReal :=
  fun i => block (fun p k => x (ix3 (i 0) p k)) (fun o k => w (ix3 (i 0) o k))
    (fun o => b (ix3 (i 0) (0 : Fin 1) o)) (fun o => g (ix3 (i 0) (0 : Fin 1) o)) (fun o => β (ix3 (i 0) (0 : Fin 1) o))
    (i 1) (i 2)

open ValueIdx in
/-- The root: one block on a [B, I] array, with weights [O, I] and bias, scale and shift of length O. -/
def root (B I O : ℕ) (x : (⟨2, ![B, I]⟩ : Shape).Idx → EReal) (w : (⟨2, ![O, I]⟩ : Shape).Idx → EReal)
    (b g β : (⟨1, ![O]⟩ : Shape).Idx → EReal) : (⟨2, ![B, O]⟩ : Shape).Idx → EReal :=
  fun i => block (fun p k => x (ix2 p k)) (fun o k => w (ix2 o k))
    (fun o => b (ix1 o)) (fun o => g (ix1 o)) (fun o => β (ix1 o)) (i 0) (i 1)

end Cert.Core

end
-- ==== Proof.Glue.lean ====
/-
  The data movement around the four blocks, as functions of whole arrays.

  The gathered activations: column j of term s is the input column named by the index table at (s, j), a negative
  index counted from the end; the result is laid out [term, batch, gene].  Between two levels the outputs of eight
  consecutive terms are placed side by side: [S, B, O] is read as [S/8, 8, B, O], the two middle axes are exchanged,
  and the last two axes are merged.  Before the root the eight terms' outputs are placed side by side in each row.
  The per-term vectors reach a level as [S, 1, O] arrays.
-/
import Idealize.ShloMosaic.PureOps
import proofs.«419059_j72584947302887_3_alg».proof.Proof.Core

noncomputable section

namespace Cert.Core

open Idealize.ShloMosaic

/-- The dimension numbers of the column gather: whole columns of a [4096, 6000] array, one per entry of a
    [512, 16, 1] index table, giving [4096, 512, 16]. -/
def gatherDims : GatherDims ⟨2, ![4096, 6000]⟩ ⟨3, ![512, 16, 1]⟩ ⟨3, ![4096, 512, 16]⟩ where
  offsetDims := [0]
  collapsedSliceDims := [1]
  operandBatchingDims := []
  startIndicesBatchingDims := []
  startIndexMap := [1]
  indexVectorDim := 2
  sliceSizes := ![4096, 1]
  wf := by decide

/-- The gathered activations [512, 4096, 16] of the input [4096, 6000] and the index table [512, 16]. -/
def gathered (a0 : (⟨⟨2, ![4096, 6000]⟩, .f32⟩ : BufTy).Contents (Elt Ideal))
    (a1 : (⟨⟨2, ![512, 16]⟩, .i32⟩ : BufTy).Contents (Elt Ideal)) : (⟨⟨3, ![512, 4096, 16]⟩, .f32⟩ : BufTy).Contents (Elt Ideal) :=
  transpose ⟨3, ![512, 4096, 16]⟩ [1, 0, 2]
    (Host.gather gatherDims a0
      (broadcastInDim ⟨3, ![512, 16, 1]⟩ ![0, 1] (by decide)
        (select (cmpi .slt a1 (broadcastInDim ⟨2, ![512, 16]⟩ ![] (by decide) (constantI ⟨0, ![]⟩ 32 0#32)))
          (addi a1 (broadcastInDim ⟨2, ![512, 16]⟩ ![] (by decide) (constantI ⟨0, ![]⟩ 32 6000#32)))
          a1)))
    (by decide)

/-- A per-term vector table [512, 20] as a [512, 1, 20] array. -/
def col512 (v : (⟨⟨2, ![512, 20]⟩, .f32⟩ : BufTy).Contents (Elt Ideal)) : (⟨⟨3, ![512, 1, 20]⟩, .f32⟩ : BufTy).Contents (Elt Ideal) :=
  broadcastInDim ⟨3, ![512, 1, 20]⟩ ![0, 2] (by decide) v

/-- A per-term vector table [64, 24] as a [64, 1, 24] array. -/
def col64 (v : (⟨⟨2, ![64, 24]⟩, .f32⟩ : BufTy).Contents (Elt Ideal)) : (⟨⟨3, ![64, 1, 24]⟩, .f32⟩ : BufTy).Contents (Elt Ideal) :=
  broadcastInDim ⟨3, ![64, 1, 24]⟩ ![0, 2] (by decide) v

/-- A per-term vector table [8, 32] as an [8, 1, 32] array. -/
def col8 (v : (⟨⟨2, ![8, 32]⟩, .f32⟩ : BufTy).Contents (Elt Ideal)) : (⟨⟨3, ![8, 1, 32]⟩, .f32⟩ : BufTy).Contents (Elt Ideal) :=
  broadcastInDim ⟨3, ![8, 1, 32]⟩ ![0, 2] (by decide) v

/-- Level 1's output [512, 4096, 20] as level 2's input [64, 4096, 160]. -/
def regroup1 (y : (⟨⟨3, ![512, 4096, 20]⟩, .f32⟩ : BufTy).Contents (Elt Ideal)) : (⟨⟨3, ![64, 4096, 160]⟩, .f32⟩ : BufTy).Contents (Elt Ideal) :=
  shapeCast ⟨3, ![64, 4096, 160]⟩
    (transpose ⟨4, ![64, 4096, 8, 20]⟩ [0, 2, 1, 3] (shapeCast ⟨4, ![64, 8, 4096, 20]⟩ y (by decide)) (by decide)) (by decide)

/-- Level 2's output [64, 4096, 24] as level 3's input [8, 4096, 192]. -/
def regroup2 (y : (⟨⟨3, ![64, 4096, 24]⟩, .f32⟩ : BufTy).Contents (Elt Ideal)) : (⟨⟨3, ![8, 4096, 192]⟩, .f32⟩ : BufTy).Contents (Elt Ideal) :=
  shapeCast ⟨3, ![8, 4096, 192]⟩
    (transpose ⟨4, ![8, 4096, 8, 24]⟩ [0, 2, 1, 3] (shapeCast ⟨4, ![8, 8, 4096, 24]⟩ y (by decide)) (by decide)) (by decide)

/-- Level 3's output [8, 4096, 32] as the root's input [4096, 256]. -/
def regroup3 (y : (⟨⟨3, ![8, 4096, 32]⟩, .f32⟩ : BufTy).Contents (Elt Ideal)) : (⟨⟨2, ![4096, 256]⟩, .f32⟩ : BufTy).Contents (Elt Ideal) :=
  shapeCast ⟨2, ![4096, 256]⟩ (transpose ⟨3, ![4096, 8, 32]⟩ [1, 0, 2] y (by decide)) (by decide)

/-- Level 1's output [512, 4096, 20] of the input, the index table and level 1's four parameter arrays. -/
def stage1 (a0 : (⟨⟨2, ![4096, 6000]⟩, .f32⟩ : BufTy).Contents (Elt Ideal)) (a1 : (⟨⟨2, ![512, 16]⟩, .i32⟩ : BufTy).Contents (Elt Ideal))
    (w1 : (⟨⟨3, ![512, 20, 16]⟩, .f32⟩ : BufTy).Contents (Elt Ideal)) (b1 g1 β1 : (⟨⟨2, ![512, 20]⟩, .f32⟩ : BufTy).Contents (Elt Ideal)) : (⟨⟨3, ![512, 4096, 20]⟩, .f32⟩ : BufTy).Contents (Elt Ideal) :=
  level 512 4096 16 20 (gathered a0 a1) w1 (col512 b1) (col512 g1) (col512 β1)

/-- Level 2's output [64, 4096, 24] of level 1's output and level 2's four parameter arrays. -/
def stage2 (y1 : (⟨⟨3, ![512, 4096, 20]⟩, .f32⟩ : BufTy).Contents (Elt Ideal)) (w2 : (⟨⟨3, ![64, 24, 160]⟩, .f32⟩ : BufTy).Contents (Elt Ideal)) (b2 g2 β2 : (⟨⟨2, ![64, 24]⟩, .f32⟩ : BufTy).Contents (Elt Ideal)) :
    (⟨⟨3, ![64, 4096, 24]⟩, .f32⟩ : BufTy).Contents (Elt Ideal) :=
  level 64 4096 160 24 (regroup1 y1) w2 (col64 b2) (col64 g2) (col64 β2)

/-- Level 3's output [8, 4096, 32] of level 2's output and level 3's four parameter arrays. -/
def stage3 (y2 : (⟨⟨3, ![64, 4096, 24]⟩, .f32⟩ : BufTy).Contents (Elt Ideal)) (w3 : (⟨⟨3, ![8, 32, 192]⟩, .f32⟩ : BufTy).Contents (Elt Ideal)) (b3 g3 β3 : (⟨⟨2, ![8, 32]⟩, .f32⟩ : BufTy).Contents (Elt Ideal)) :
    (⟨⟨3, ![8, 4096, 32]⟩, .f32⟩ : BufTy).Contents (Elt Ideal) :=
  level 8 4096 192 32 (regroup2 y2) w3 (col8 b3) (col8 g3) (col8 β3)

/-- The root's output [4096, 64] of level 3's output and the root's four parameter arrays. -/
def stage4 (y3 : (⟨⟨3, ![8, 4096, 32]⟩, .f32⟩ : BufTy).Contents (Elt Ideal)) (wr : (⟨⟨2, ![64, 256]⟩, .f32⟩ : BufTy).Contents (Elt Ideal)) (br gr βr : (⟨⟨1, ![64]⟩, .f32⟩ : BufTy).Contents (Elt Ideal)) : (⟨⟨2, ![4096, 64]⟩, .f32⟩ : BufTy).Contents (Elt Ideal) :=
  root 4096 256 64 (regroup3 y3) wr br gr βr

/-- The whole network: the root over level 3 over level 2 over level 1, of the eighteen argument arrays. -/
def network (a0 : (⟨⟨2, ![4096, 6000]⟩, .f32⟩ : BufTy).Contents (Elt Ideal)) (a1 : (⟨⟨2, ![512, 16]⟩, .i32⟩ : BufTy).Contents (Elt Ideal))
    (w1 : (⟨⟨3, ![512, 20, 16]⟩, .f32⟩ : BufTy).Contents (Elt Ideal)) (b1 g1 β1 : (⟨⟨2, ![512, 20]⟩, .f32⟩ : BufTy).Contents (Elt Ideal))
    (w2 : (⟨⟨3, ![64, 24, 160]⟩, .f32⟩ : BufTy).Contents (Elt Ideal)) (b2 g2 β2 : (⟨⟨2, ![64, 24]⟩, .f32⟩ : BufTy).Contents (Elt Ideal))
    (w3 : (⟨⟨3, ![8, 32, 192]⟩, .f32⟩ : BufTy).Contents (Elt Ideal)) (b3 g3 β3 : (⟨⟨2, ![8, 32]⟩, .f32⟩ : BufTy).Contents (Elt Ideal))
    (wr : (⟨⟨2, ![64, 256]⟩, .f32⟩ : BufTy).Contents (Elt Ideal)) (br gr βr : (⟨⟨1, ![64]⟩, .f32⟩ : BufTy).Contents (Elt Ideal)) : (⟨⟨2, ![4096, 64]⟩, .f32⟩ : BufTy).Contents (Elt Ideal) :=
  stage4 (stage3 (stage2 (stage1 a0 a1 w1 b1 g1 β1) w2 b2 g2 β2) w3 b3 g3 β3) wr br gr βr

end Cert.Core

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.Region0Pay.lean ====
/-
  The body of the program's first kernel, read at an index.

  The body loads one slab [1,4096,16] of the activations, one slab [1,20,16] of the weights and one row [1,1,20] each of
  the bias, the scale and the shift, and forms a [4096,20] vector: the product of the activations' slab by the transposed
  weights' slab plus the bias row, tanh of that, and then the normalisation of every column over the 4096 rows: subtract
  the column's mean, multiply by the scale and by the reciprocal square root of (the column's mean squared deviation
  plus a small constant), add the shift. Here that vector is read at (p, o): it is the block of Core.lean of the rows of
  the loaded slabs. The vector is first restated as a composition of three named parts (the activation, a column's
  average, the centring), each read at an index by its own lemma.
-/
import proofs.«419059_j72584947302887_3_alg».proof.Proof.Gen.KernelIdeal.Skeleton
import proofs.«419059_j72584947302887_3_alg».proof.Proof.Core
import proofs.«419059_j72584947302887_3_alg».proof.Proof.LibRowTile
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.ValueIdx

/-- The quotient of a column's sum by the batch size, as the one-row vector the body forms. -/
def colAvg (h : FVec Ideal S4096x20 .f32) : FVec Ideal S1x20 .f32 :=
  divf (shapeCast S1x20 (multiReduction (F := Ideal) .add [0] S20 h 0x00000000#32 Facts₀.reduces_S4096x20_S20 (.inl rfl) rfl) Facts₀.shapeCasts_S20_S1x20 : FVec Ideal S1x20 .f32)
    (broadcast S1x20 (Scalar.ofBits (F := Ideal) .f32 0x45800000#32))

/-- tanh of the affine image, as the vector the body forms from its three loads. -/
def actV (x : Vec Ideal S1x4096x16 .f32) (w : Vec Ideal S1x20x16 .f32) (b : Vec Ideal S1x1x20 .f32) : FVec Ideal S4096x20 .f32 :=
  tanh (addf (matmul dot_S4096x16_S16x20_S4096x20_1_0_0_1_n_n none (shapeCast S4096x16 x Facts₀.shapeCasts_S1x4096x16_S4096x16 : FVec Ideal S4096x16 .f32)
      (transpose S16x20 [1, 0] (shapeCast S20x16 w Facts₀.shapeCasts_S1x20x16_S20x16 : FVec Ideal S20x16 .f32) Facts₀.transposes_S20x16_p1_0_S16x20 : FVec Ideal S16x20 .f32)
      (constant (F := Ideal) S4096x20 .f32 0x00000000#32))
    (broadcastTo S4096x20 (shapeCast S1x20 b Facts₀.shapeCasts_S1x1x20_S1x20 : FVec Ideal S1x20 .f32) Facts₀.broadcasts_S1x20_S4096x20 : FVec Ideal S4096x20 .f32))

/-- An activation minus its column's average. -/
def cenV (a : FVec Ideal S4096x20 .f32) : FVec Ideal S4096x20 .f32 :=
  subf a (broadcastTo S4096x20 (colAvg a) Facts₀.broadcasts_S1x20_S4096x20 : FVec Ideal S4096x20 .f32)

/-- The normalised block, as the vector the body forms. -/
def blockV (x : Vec Ideal S1x4096x16 .f32) (w : Vec Ideal S1x20x16 .f32) (b g β : Vec Ideal S1x1x20 .f32) : FVec Ideal S4096x20 .f32 :=
  addf (mulf (mulf (broadcastTo S4096x20 (shapeCast S1x20 g Facts₀.shapeCasts_S1x1x20_S1x20 : FVec Ideal S1x20 .f32) Facts₀.broadcasts_S1x20_S4096x20 : FVec Ideal S4096x20 .f32) (cenV (actV x w b)))
      (broadcastTo S4096x20 (rsqrt (addf (colAvg (mulf (cenV (actV x w b)) (cenV (actV x w b))))
        (broadcast S1x20 (Scalar.ofBits (F := Ideal) .f32 0x3727C5AC#32)))) Facts₀.broadcasts_S1x20_S4096x20 : FVec Ideal S4096x20 .f32))
    (broadcastTo S4096x20 (shapeCast S1x20 β Facts₀.shapeCasts_S1x1x20_S1x20 : FVec Ideal S1x20 .f32) Facts₀.broadcasts_S1x20_S4096x20 : FVec Ideal S4096x20 .f32)

/-- The printed payload of slab 0 is that composition, by unfolding. -/
theorem pay2_eq (x : Vec Ideal S1x4096x16 .f32) (w : Vec Ideal S1x20x16 .f32) (b g β : Vec Ideal S1x1x20 .f32) :
    k0_pay2 (F := Ideal) x w b g β = blockV x w b g β := rfl

/-- The printed payload of slab 1 is the same text over its own loads. -/
theorem pay4_eq (x : Vec Ideal S1x4096x16 .f32) (w : Vec Ideal S1x20x16 .f32) (b g β : Vec Ideal S1x1x20 .f32) :
    k0_pay4 (F := Ideal) x w b g β = blockV x w b g β := rfl

/-- The index a column sum inserts coordinate k at: (k, o). -/
theorem lift_col (o : Fin 20) (k : Fin 4096) :
    Facts₀.reduces_S4096x20_S20.lift (ix1 o) k = ix2 k o := by
  funext a; apply Fin.ext
  match a with
  | ⟨0, _⟩ => rfl
  | ⟨1, _⟩ => rfl

/-- The column average at (u, o) is the column's sum over the batch divided by the batch size. -/
theorem colAvg_apply (h : FVec Ideal S4096x20 .f32) (u : Fin 1) (o : Fin 20) :
    colAvg h (ix2 u o) = Ideal.div (∑ p : Fin 4096, h (ix2 p o)) Cert.Core.batch := by
  unfold colAvg
  refine (divf_apply _ _ _).trans ?_
  refine congrArg₂ Ideal.div ?_ rfl
  refine (shapeCast_a_1a_apply _ _ u o).trans ?_
  refine (Ideal.multiReduction_add_single h 0x00000000#32 Facts₀.reduces_S4096x20_S20 (.inl rfl) rfl (ix1 o)).trans ?_
  exact Finset.sum_congr rfl fun k _ => congrArg h (lift_col o k)

/-- The printed contraction is a plain product [4096,16]·[16,20]. -/
theorem plain_dot : Cert.Lib.IsPlain dot_S4096x16_S16x20_S4096x20_1_0_0_1_n_n :=
  ⟨rfl, rfl, rfl, rfl, rfl, rfl, rfl, rfl⟩

/-- The activation vector at (p, o) is tanh of the affine image of row p of the activations' slab by row o of the weights' slab. -/
theorem actV_apply (x : Vec Ideal S1x4096x16 .f32) (w : Vec Ideal S1x20x16 .f32) (b : Vec Ideal S1x1x20 .f32)
    (p : Fin 4096) (o : Fin 20) :
    actV x w b (ix2 p o) = Cert.Core.act (fun p k => x (ix3 (0 : Fin 1) p k)) (fun o k => w (ix3 (0 : Fin 1) o k))
      (fun o => b (ix3 (0 : Fin 1) (0 : Fin 1) o)) p o := by
  unfold actV Cert.Core.act
  show Ideal.tanh (_ + _) = Ideal.tanh (_ + _)
  refine congrArg Ideal.tanh (congrArg₂ (· + ·) ?_ ?_)
  · refine (Ideal.matmul_constant_zero_apply _ none _ _ (ix2 p o)).trans ?_
    refine (plain_dot.sum_eq _ _ (ix2 p o)).trans ?_
    refine Finset.sum_congr rfl fun k _ => congrArg₂ (· * ·) ?_ ?_
    · exact shapeCast_1ab_ab_apply x _ p k
    · exact (transpose_ix2_apply _ _ k o).trans (shapeCast_1ab_ab_apply w _ o k)
  · exact (broadcastTo_1b_ab_apply _ _ p o).trans (shapeCast_1ab_ab_apply b _ (0 : Fin 1) o)

/-- The centred vector at (p, o) is the entry minus its column's mean. -/
theorem cenV_apply (a : FVec Ideal S4096x20 .f32) (p : Fin 4096) (o : Fin 20) :
    cenV a (ix2 p o) = Cert.Core.centred (fun p o => a (ix2 p o)) p o := by
  unfold cenV Cert.Core.centred Cert.Core.mean
  show a (ix2 p o) - _ = a (ix2 p o) - _
  refine congrArg (a (ix2 p o) - ·) ?_
  exact (broadcastTo_1b_ab_apply _ _ p o).trans (colAvg_apply a (0 : Fin 1) o)

/-- THE PAYLOAD AT AN INDEX: the body's vector at (p, o) is the block of the loaded slabs' rows. -/
theorem blockV_apply (x : Vec Ideal S1x4096x16 .f32) (w : Vec Ideal S1x20x16 .f32) (b g β : Vec Ideal S1x1x20 .f32)
    (p : Fin 4096) (o : Fin 20) :
    blockV x w b g β (ix2 p o) = Cert.Core.block (fun p k => x (ix3 (0 : Fin 1) p k)) (fun o k => w (ix3 (0 : Fin 1) o k))
      (fun o => b (ix3 (0 : Fin 1) (0 : Fin 1) o)) (fun o => g (ix3 (0 : Fin 1) (0 : Fin 1) o))
      (fun o => β (ix3 (0 : Fin 1) (0 : Fin 1) o)) p o := by
  have hact : (fun p o => actV x w b (ix2 p o)) = Cert.Core.act (fun p k => x (ix3 (0 : Fin 1) p k))
      (fun o k => w (ix3 (0 : Fin 1) o k)) (fun o => b (ix3 (0 : Fin 1) (0 : Fin 1) o)) :=
    funext fun p => funext fun o => actV_apply x w b p o
  unfold blockV Cert.Core.block Cert.Core.var
  rw [← hact]
  show _ * _ * _ + _ = _ * _ * _ + _
  refine congrArg₂ (· + ·) (congrArg₂ (· * ·) (congrArg₂ (· * ·) ?_ ?_) ?_) ?_
  · exact (broadcastTo_1b_ab_apply _ _ p o).trans (shapeCast_1ab_ab_apply g _ (0 : Fin 1) o)
  · exact cenV_apply _ p o
  · refine (broadcastTo_1b_ab_apply _ _ p o).trans ?_
    show Ideal.rsqrt (_ + _) = Ideal.rsqrt (_ + _)
    refine congrArg Ideal.rsqrt (congrArg₂ (· + ·) ?_ rfl)
    refine (colAvg_apply _ (0 : Fin 1) o).trans ?_
    refine congrArg (Ideal.div · Cert.Core.batch) (Finset.sum_congr rfl fun q _ => ?_)
    show cenV _ (ix2 q o) * cenV _ (ix2 q o) = _
    rw [cenV_apply]
  · exact (broadcastTo_1b_ab_apply _ _ p o).trans (shapeCast_1ab_ab_apply β _ (0 : Fin 1) o)

/-- The cast of a [4096,20] vector to [1,4096,20], read at (u, p, o), is the vector at (p, o): the store of slab 1. -/
theorem pay1_apply (v : FVec Ideal S4096x20 .f32) (u : Fin 1) (p : Fin 4096) (o : Fin 20) :
    k0_pay1 (F := Ideal) v (ix3 u p o) = v (ix2 p o) := shapeCast_ab_1ab_apply v _ u p o

/-- The same cast, as the store of slab 0 spells it. -/
theorem pay3_apply (v : FVec Ideal S4096x20 .f32) (u : Fin 1) (p : Fin 4096) (o : Fin 20) :
    k0_pay3 (F := Ideal) v (ix3 u p o) = v (ix2 p o) := shapeCast_ab_1ab_apply v _ u p o

end Cert.KernelIdeal.Region0

end
-- ==== Proof.Region0.lean ====
/-
  The first kernel's output array after its pipeline has run.

  The pipeline visits 256 points; at point t every window's block is slabs 2t and 2t+1 of its array (the block index is
  (t, 0, 0) for all six windows). The body stores, slab by slab, the block of Core.lean of the loaded slabs' rows; so the
  [2,4096,20] output block after the body is the two-slab level of the five input blocks, the block point t writes back
  is block t of the 512-slab level of the five input arrays, and since the 256 output blocks cover the [512,4096,20]
  array, the array ends as that level.
-/
import proofs.«419059_j72584947302887_3_alg».proof.Proof.Gen.KernelIdeal.Frame
import proofs.«419059_j72584947302887_3_alg».proof.Proof.Core
import proofs.«419059_j72584947302887_3_alg».proof.Proof.Region0Pay
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## A slab of a staging buffer, loaded -/

/-- A load of slab s of a [n0, n1, n2] buffer, read at (u, p, k), is the buffer at (s, p, k). -/
theorem ld_slab {Val : EltTy → Type} {e : EltTy} {n0 n1 n2 : ℕ} (X : (⟨3, ![n0, n1, n2]⟩ : Shape).Idx → Val e) (s : ℕ) (hs : s < n0)
    (inb : ∀ a, (![s, 0, 0] : Fin 3 → ℕ) a + (![1, n1, n2] : Fin 3 → ℕ) a ≤ (⟨3, ![n0, n1, n2]⟩ : Shape).size a)
    (u : Fin 1) (p : Fin n1) (k : Fin n2) :
    View.ld X (Rect.unit (s := ⟨3, ![n0, n1, n2]⟩) ![s, 0, 0] ![1, n1, n2] inb) (ix3 u p k) = X (ix3 ⟨s, hs⟩ p k) := by
  show X _ = X _
  refine congrArg X (funext fun a => Fin.ext ?_)
  have hu : u.val = 0 := by omega
  match a with
  | ⟨0, _⟩ => show s + 1 * u.val = s; omega
  | ⟨1, _⟩ => show 0 + 1 * p.val = p.val; omega
  | ⟨2, _⟩ => show 0 + 1 * k.val = k.val; omega

/-- Blocks of equal arguments at equal places are equal. -/
theorem block_congr {B I O : ℕ} {x x' : Fin B → Fin I → EReal} {w w' : Fin O → Fin I → EReal} {b b' g g' β β' : Fin O → EReal}
    {p p' : Fin B} {o o' : Fin O} (hx : x = x') (hw : w = w') (hb : b = b') (hg : g = g') (hβ : β = β') (hp : p = p') (ho : o = o') :
    Cert.Core.block x w b g β p o = Cert.Core.block x' w' b' g' β' p' o' := by
  subst hx hw hb hg hβ hp ho; rfl

/-- THE STORE OF SLAB s: the body's vector over the loads of slab s of the five staging buffers, read at (p, o), is the
    two-slab level of the buffers at the place (s, p, o) the store's rectangle puts it. -/
theorem slab_piece (x0 : Vec Ideal S2x4096x16 .f32) (x1 : Vec Ideal S2x20x16 .f32) (x2 x3 x4 : Vec Ideal S2x1x20 .f32)
    (s : ℕ) (hs : s < 2)
    (inbx : ∀ a, (![s, 0, 0] : Fin 3 → ℕ) a + S1x4096x16.size a ≤ S2x4096x16.size a)
    (inbw : ∀ a, (![s, 0, 0] : Fin 3 → ℕ) a + S1x20x16.size a ≤ S2x20x16.size a)
    (inbv : ∀ a, (![s, 0, 0] : Fin 3 → ℕ) a + S1x1x20.size a ≤ S2x1x20.size a)
    (inbo : ∀ a, (![s, 0, 0] : Fin 3 → ℕ) a + S1x4096x20.size a ≤ S2x4096x20.size a)
    (u : Fin 1) (p : Fin 4096) (o : Fin 20) :
    blockV (View.ld x0 (Rect.unit (s := S2x4096x16) ![s, 0, 0] S1x4096x16.size inbx))
        (View.ld x1 (Rect.unit (s := S2x20x16) ![s, 0, 0] S1x20x16.size inbw))
        (View.ld x2 (Rect.unit (s := S2x1x20) ![s, 0, 0] S1x1x20.size inbv))
        (View.ld x3 (Rect.unit (s := S2x1x20) ![s, 0, 0] S1x1x20.size inbv))
        (View.ld x4 (Rect.unit (s := S2x1x20) ![s, 0, 0] S1x1x20.size inbv)) (ix2 p o)
      = Cert.Core.level 2 4096 16 20 x0 x1 x2 x3 x4
          ((Rect.unit (s := S2x4096x20) ![s, 0, 0] S1x4096x20.size inbo).emb (ix3 u p o)) := by
  have hu : u.val = 0 := by omega
  have e0 : (Rect.unit (s := S2x4096x20) ![s, 0, 0] S1x4096x20.size inbo).emb (ix3 u p o) 0 = (⟨s, hs⟩ : Fin 2) :=
    Fin.ext (by show s + 1 * u.val = s; omega)
  have e1 : (Rect.unit (s := S2x4096x20) ![s, 0, 0] S1x4096x20.size inbo).emb (ix3 u p o) 1 = p :=
    Fin.ext (by show 0 + 1 * p.val = p.val; omega)
  have e2 : (Rect.unit (s := S2x4096x20) ![s, 0, 0] S1x4096x20.size inbo).emb (ix3 u p o) 2 = o :=
    Fin.ext (by show 0 + 1 * o.val = o.val; omega)
  rw [blockV_apply]
  unfold Cert.Core.level
  refine block_congr ?_ ?_ ?_ ?_ ?_ e1.symm e2.symm
  · funext q k; rw [e0]; exact ld_slab x0 s hs inbx (0 : Fin 1) q k
  · funext q k; rw [e0]; exact ld_slab x1 s hs inbw (0 : Fin 1) q k
  · funext q; rw [e0]; exact ld_slab x2 s hs inbv (0 : Fin 1) (0 : Fin 1) q
  · funext q; rw [e0]; exact ld_slab x3 s hs inbv (0 : Fin 1) (0 : Fin 1) q
  · funext q; rw [e0]; exact ld_slab x4 s hs inbv (0 : Fin 1) (0 : Fin 1) q

/-! ## The output block after the body -/

/-- THE BLOCK AFTER THE BODY: the two stores leave, in the [2,4096,20] staging buffer of the output, the two-slab
    level of the five input staging buffers. -/
theorem out_eq (x0 : Vec Ideal S2x4096x16 .f32) (x1 : Vec Ideal S2x20x16 .f32) (x2 x3 x4 : Vec Ideal S2x1x20 .f32) :
    out0_5 (F := Ideal) x0 x1 x2 x3 x4 = Cert.Core.level 2 4096 16 20 x0 x1 x2 x3 x4 := by
  funext y
  unfold out0_5
  refine View.canon_apply_of_pieces (Val := Elt Ideal) (S := S2x4096x20) (e := .f32) (Cert.Core.level 2 4096 16 20 x0 x1 x2 x3 x4) _ ?_ y (cover0_5 _ _ y)
  intro pc hpc
  rcases List.mem_cons.mp hpc with rfl | hpc
  · intro (x : S1x4096x20.Idx)
    obtain ⟨u, p, o, rfl⟩ : ∃ (u : Fin 1) (p : Fin 4096) (o : Fin 20), x = ix3 u p o := ⟨x 0, x 1, x 2, eq_ix3 x⟩
    show k0_pay1 (F := Ideal) (k0_pay4 (View.ld x0 r0_4) (View.ld x1 r0_5) (View.ld x2 r0_6) (View.ld x3 r0_6) (View.ld x4 r0_6)) (ix3 u p o)
      = Cert.Core.level 2 4096 16 20 x0 x1 x2 x3 x4 (r0_7.emb (ix3 u p o))
    refine (pay1_apply _ u p o).trans ?_
    rw [pay4_eq]
    exact slab_piece x0 x1 x2 x3 x4 1 (by decide) _ _ _ _ u p o
  · rcases List.mem_cons.mp hpc with rfl | hpc
    · intro (x : S1x4096x20.Idx)
      obtain ⟨u, p, o, rfl⟩ : ∃ (u : Fin 1) (p : Fin 4096) (o : Fin 20), x = ix3 u p o := ⟨x 0, x 1, x 2, eq_ix3 x⟩
      show k0_pay3 (F := Ideal) (k0_pay2 (View.ld x0 r0_0) (View.ld x1 r0_1) (View.ld x2 r0_2) (View.ld x3 r0_2) (View.ld x4 r0_2)) (ix3 u p o)
        = Cert.Core.level 2 4096 16 20 x0 x1 x2 x3 x4 (r0_3.emb (ix3 u p o))
      refine (pay3_apply _ u p o).trans ?_
      rw [pay2_eq]
      exact slab_piece x0 x1 x2 x3 x4 0 (by decide) _ _ _ _ u p o
    · exact absurd hpc List.not_mem_nil

/-! ## From blocks to the array -/

/-- The two-slab level of blocks that are restrictions of arrays is the 512-slab level of the arrays, at the array index
    the block index stands for: slab (y 0) of each block is slab (i 0) of its array, and y, i name the same row and column. -/
theorem level_block (A0 : Vec Ideal S512x4096x16 .f32) (A1 : Vec Ideal S512x20x16 .f32) (A2 A3 A4 : Vec Ideal S512x1x20 .f32)
    (x0 : Vec Ideal S2x4096x16 .f32) (x1 : Vec Ideal S2x20x16 .f32) (x2 x3 x4 : Vec Ideal S2x1x20 .f32)
    (y : S2x4096x20.Idx) (i : S512x4096x20.Idx)
    (h0 : ∀ (p : Fin 4096) (k : Fin 16), x0 (ix3 (y 0) p k) = A0 (ix3 (i 0) p k))
    (h1 : ∀ (o : Fin 20) (k : Fin 16), x1 (ix3 (y 0) o k) = A1 (ix3 (i 0) o k))
    (h2 : ∀ o : Fin 20, x2 (ix3 (y 0) (0 : Fin 1) o) = A2 (ix3 (i 0) (0 : Fin 1) o))
    (h3 : ∀ o : Fin 20, x3 (ix3 (y 0) (0 : Fin 1) o) = A3 (ix3 (i 0) (0 : Fin 1) o))
    (h4 : ∀ o : Fin 20, x4 (ix3 (y 0) (0 : Fin 1) o) = A4 (ix3 (i 0) (0 : Fin 1) o))
    (hp : (y 1).val = (i 1).val) (ho : (y 2).val = (i 2).val) :
    Cert.Core.level 2 4096 16 20 x0 x1 x2 x3 x4 y = Cert.Core.level 512 4096 16 20 A0 A1 A2 A3 A4 i := by
  unfold Cert.Core.level
  exact block_congr (funext fun p => funext fun k => h0 p k) (funext fun o => funext fun k => h1 o k)
    (funext h2) (funext h3) (funext h4) (Fin.ext hp) (Fin.ext ho)

/-- The printed index maps, decided over the 256 grid points: every window's block index on axis 0 is the point's
    number, and 0 on the other two axes. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- WHAT POINT t WRITES BACK is block t of the 512-slab level of the five input arrays as the region finds them. -/
theorem flushed_eq (c : Dev nD) (t : Fin cfg0.N) :
    (dat0 (F := Ideal) V c).flushed 5 t = ((cfg0.win 5).blk t).view.read (Elt Ideal)
      (Cert.Core.level 512 4096 16 20 (V c (Pipeline.arrRef spec0 0)) (V c (Pipeline.arrRef spec0 1))
        (V c (Pipeline.arrRef spec0 2)) (V c (Pipeline.arrRef spec0 3)) (V c (Pipeline.arrRef spec0 4))) := by
  show (cfg0.win 5).cut (grid0.coords t) ((dat0 V c).after 5 t) = _
  rw [after0_5]
  obtain ⟨⟨a00, a01, a02⟩, ⟨a10, a11, a12⟩, ⟨a20, a21, a22⟩, ⟨a30, a31, a32⟩, ⟨a40, a41, a42⟩, ⟨a50, a51, a52⟩⟩ := idx_facts t
  funext y
  refine (congrFun (out_eq (iblk0 V c 0 t) (iblk0 V c 1 t) (iblk0 V c 2 t) (iblk0 V c 3 t) (iblk0 V c 4 t)) y).trans ?_
  rw [View.read_apply]
  refine level_block (V c (Pipeline.arrRef spec0 0)) (V c (Pipeline.arrRef spec0 1)) (V c (Pipeline.arrRef spec0 2))
    (V c (Pipeline.arrRef spec0 3)) (V c (Pipeline.arrRef spec0 4))
    (iblk0 V c 0 t) (iblk0 V c 1 t) (iblk0 V c 2 t) (iblk0 V c 3 t) (iblk0 V c 4 t) y (((cfg0.win 5).blk t).view.emb y)
    ?_ ?_ ?_ ?_ ?_ ?_ ?_
  · intro p k
    unfold iblk0
    rw [View.read_apply]
    refine congrArg (V c (Pipeline.arrRef spec0 0)) (funext fun a => Fin.ext ?_)
    match a with
    | ⟨0, _⟩ => show win0_0.index t (0 : Fin 3) * 2 + 1 * (y 0).val = win0_5.index t (0 : Fin 3) * 2 + 1 * (y 0).val; omega
    | ⟨1, _⟩ => show win0_0.index t (1 : Fin 3) * 4096 + 1 * p.val = p.val; omega
    | ⟨2, _⟩ => show win0_0.index t (2 : Fin 3) * 16 + 1 * k.val = k.val; omega
  · intro o k
    unfold iblk0
    rw [View.read_apply]
    refine congrArg (V c (Pipeline.arrRef spec0 1)) (funext fun a => Fin.ext ?_)
    match a with
    | ⟨0, _⟩ => show win0_1.index t (0 : Fin 3) * 2 + 1 * (y 0).val = win0_5.index t (0 : Fin 3) * 2 + 1 * (y 0).val; omega
    | ⟨1, _⟩ => show win0_1.index t (1 : Fin 3) * 20 + 1 * o.val = o.val; omega
    | ⟨2, _⟩ => show win0_1.index t (2 : Fin 3) * 16 + 1 * k.val = k.val; omega
  · intro o
    unfold iblk0
    rw [View.read_apply]
    refine congrArg (V c (Pipeline.arrRef spec0 2)) (funext fun a => Fin.ext ?_)
    match a with
    | ⟨0, _⟩ => show win0_2.index t (0 : Fin 3) * 2 + 1 * (y 0).val = win0_5.index t (0 : Fin 3) * 2 + 1 * (y 0).val; omega
    | ⟨1, _⟩ => show win0_2.index t (1 : Fin 3) * 1 + 1 * 0 = 0; omega
    | ⟨2, _⟩ => show win0_2.index t (2 : Fin 3) * 20 + 1 * o.val = o.val; omega
  · intro o
    unfold iblk0
    rw [View.read_apply]
    refine congrArg (V c (Pipeline.arrRef spec0 3)) (funext fun a => Fin.ext ?_)
    match a with
    | ⟨0, _⟩ => show win0_3.index t (0 : Fin 3) * 2 + 1 * (y 0).val = win0_5.index t (0 : Fin 3) * 2 + 1 * (y 0).val; omega
    | ⟨1, _⟩ => show win0_3.index t (1 : Fin 3) * 1 + 1 * 0 = 0; omega
    | ⟨2, _⟩ => show win0_3.index t (2 : Fin 3) * 20 + 1 * o.val = o.val; omega
  · intro o
    unfold iblk0
    rw [View.read_apply]
    refine congrArg (V c (Pipeline.arrRef spec0 4)) (funext fun a => Fin.ext ?_)
    match a with
    | ⟨0, _⟩ => show win0_4.index t (0 : Fin 3) * 2 + 1 * (y 0).val = win0_5.index t (0 : Fin 3) * 2 + 1 * (y 0).val; omega
    | ⟨1, _⟩ => show win0_4.index t (1 : Fin 3) * 1 + 1 * 0 = 0; omega
    | ⟨2, _⟩ => show win0_4.index t (2 : Fin 3) * 20 + 1 * o.val = o.val; omega
  · show (y 1).val = win0_5.index t (1 : Fin 3) * 4096 + 1 * (y 1).val; omega
  · show (y 2).val = win0_5.index t (2 : Fin 3) * 20 + 1 * (y 2).val; omega

/-- An index of the output array is in point t's block iff each coordinate is in the block's range on its axis. -/
theorem mem_blk (t : Fin cfg0.N) (i : S512x4096x20.Idx) :
    i ∈ ((cfg0.win 5).blk t).view.set ↔ ∀ a : Fin 3, win0_5.index t a * S2x4096x20.size a ≤ (i a).val
      ∧ (i a).val < win0_5.index t a * S2x4096x20.size a + S2x4096x20.size a := by
  show i ∈ ((View.whole main_v11).slice (win0_5.rect t)).set ↔ _
  rw [View.set_slice_whole, Rect.mem_set_unit]
  exact Iff.rfl

/-- EVERY INDEX OF THE OUTPUT ARRAY lies in the block of the point that is half its slab number. -/
theorem cover (i : S512x4096x20.Idx) :
    ∃ t : Fin cfg0.N, (cfg0.win 5).flush t = true ∧ i ∈ ((cfg0.win 5).blk t).view.set := by
  have hi0 : (i 0).val < 512 := (i 0).isLt
  have hi1 : (i 1).val < 4096 := (i 1).isLt
  have hi2 : (i 2).val < 20 := (i 2).isLt
  have hN : cfg0.N = 256 := N_0
  have ht : (i 0).val / 2 < cfg0.N := by rw [hN]; omega
  obtain ⟨-, -, -, -, -, ⟨a50, a51, a52⟩⟩ := idx_facts ⟨(i 0).val / 2, ht⟩
  refine ⟨⟨(i 0).val / 2, ht⟩, flush0_5 _, ?_⟩
  rw [mem_blk]
  intro a
  match a with
  | ⟨0, _⟩ =>
    show win0_5.index ⟨(i 0).val / 2, ht⟩ (0 : Fin 3) * 2 ≤ (i 0).val ∧ (i 0).val < win0_5.index ⟨(i 0).val / 2, ht⟩ (0 : Fin 3) * 2 + 2
    rw [a50]; show (i 0).val / 2 * 2 ≤ (i 0).val ∧ (i 0).val < (i 0).val / 2 * 2 + 2; omega
  | ⟨1, _⟩ =>
    show win0_5.index ⟨(i 0).val / 2, ht⟩ (1 : Fin 3) * 4096 ≤ (i 1).val ∧ (i 1).val < win0_5.index ⟨(i 0).val / 2, ht⟩ (1 : Fin 3) * 4096 + 4096
    rw [a51]; omega
  | ⟨2, _⟩ =>
    show win0_5.index ⟨(i 0).val / 2, ht⟩ (2 : Fin 3) * 20 ≤ (i 2).val ∧ (i 2).val < win0_5.index ⟨(i 0).val / 2, ht⟩ (2 : Fin 3) * 20 + 20
    rw [a52]; omega

/-- THE OUTPUT ARRAY after the run: the 512-slab level of the five input arrays as the region finds them. -/
theorem final (c : Dev nD) :
    (dat0 (F := Ideal) V c).arrAt 5 cfg0.N
      = Cert.Core.level 512 4096 16 20 (V c (Pipeline.arrRef spec0 0)) (V c (Pipeline.arrRef spec0 1))
          (V c (Pipeline.arrRef spec0 2)) (V c (Pipeline.arrRef spec0 3)) (V c (Pipeline.arrRef spec0 4)) :=
  (dat0 (F := Ideal) V c).arrAt_eq_of_cover 5 _ (fun t _ => flushed_eq V c t) cover

end Cert.KernelIdeal.Region0

end
-- ==== Proof.Region1.lean ====
/-
  The second call's output array is a level of the hierarchy.

  The call runs over 64 grid points.  At point t it stages slab t of the activations [64, 4096, 160], slab t of the
  weights [64, 24, 160] and row t of the bias, scale and shift [64, 1, 24], runs the body on them, and writes the body's
  [1, 4096, 24] result back as slab t of the output [64, 4096, 24].

  First the body is read at an index: it drops the leading unit axes, multiplies the activations by the transposed
  weights, adds the bias row to every row, applies tanh, and normalises every column over the 4096 rows (subtract the
  column's mean, multiply by the scale and by the reciprocal square root of the column's variance plus a small constant,
  add the shift).  On the extended reals a change of float format is the identity, the product into a zero accumulator
  is the plain sum over the 160 contracted coordinates, and a column sum is the sum over the 4096 rows; so the entry at
  (p, o) is the block function of the loaded rows at (p, o).

  Then the blocks are put together: every staged block is its array read at slab t, so what point t writes back is
  slab t of the level function of the five arrays; the 64 slabs cover the output array, which therefore ends holding
  the level function.
-/
import proofs.«419059_j72584947302887_3_alg».proof.Proof.Gen.KernelIdeal.Frame
import proofs.«419059_j72584947302887_3_alg».proof.Proof.Core
import proofs.«419059_j72584947302887_3_alg».proof.Proof.LibRowTile
import Idealize.ShloMosaic.Lib.Pipeline.Value
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

/-! # The body at an index -/

section Body

open scoped BigOperators
open Idealize.ShloMosaic.ValueIdx

/-- The body's contraction is a plain product [4096, 160] · [160, 24]. -/
theorem plain : Cert.Lib.IsPlain dot_S4096x160_S160x24_S4096x24_1_0_0_1_n_n where
  lc := rfl
  rc := rfl
  ln := rfl
  rn := rfl
  lb := rfl
  rb := rfl
  rank := rfl
  size := rfl

/-- The sum of a [4096, 24] array over its rows, read at column o, is the sum over the 4096 rows of the entries of
    column o. -/
theorem colSum (v : FVec Ideal S4096x24 .f32) (hr : S4096x24.Reduces [0] S24) (o : Fin 24) :
    multiReduction (F := Ideal) .add [0] S24 v 0x00000000#32 hr (.inl rfl) rfl (ix1 o) = ∑ q : Fin 4096, v (ix2 q o) := by
  refine (Ideal.multiReduction_add_single v _ hr (.inl rfl) rfl (ix1 o)).trans ?_
  refine Finset.sum_congr rfl fun q _ => congrArg v ?_
  funext a
  apply Fin.ext
  match a with
  | ⟨0, _⟩ => rfl
  | ⟨1, _⟩ => rfl

/-- The column sums, placed as a [1, 24] row and divided by the batch size: entry (0, o) is the quotient of column o's
    sum by the batch size. -/
theorem colMean (v : FVec Ideal S4096x24 .f32) (hr : S4096x24.Reduces [0] S24) (hs : S24.ShapeCasts S1x24) (o : Fin 24) :
    divf (shapeCast S1x24 (multiReduction (F := Ideal) .add [0] S24 v 0x00000000#32 hr (.inl rfl) rfl) hs)
        (broadcast S1x24 (Scalar.ofBits (F := Ideal) .f32 0x45800000#32)) (ix2 (0 : Fin 1) o)
      = Ideal.div (∑ q : Fin 4096, v (ix2 q o)) Cert.Core.batch := by
  unfold Cert.Core.batch
  refine congrArg (fun s => Ideal.div s (Ideal.ofBits .f32 0x45800000#32)) ?_
  exact (shapeCast_a_1a_apply _ hs (0 : Fin 1) o).trans (colSum v hr o)

/-- A row [1, 1, 24] of the parameters, with its leading axis dropped and repeated down the 4096 rows, reads at (p, o)
    the row's entry o. -/
theorem rowParam (r : Vec Ideal S1x1x24 .f32) (hs : S1x1x24.ShapeCasts S1x24) (hb : S1x24.Broadcasts S4096x24)
    (p : Fin 4096) (o : Fin 24) :
    broadcastTo S4096x24 (shapeCast S1x24 r hs) hb (ix2 p o) = r (ix3 (0 : Fin 1) (0 : Fin 1) o) :=
  (broadcastTo_1b_ab_apply _ hb p o).trans (shapeCast_1ab_ab_apply r hs (0 : Fin 1) o)

/-! ## The stages of the body -/

section Stages

variable {F : FTy → Type} [FloatOps F]
variable (x : Vec F S1x4096x160 .bf16) (w : Vec F S1x24x160 .f32) (b g β : Vec F S1x1x24 .f32)

/-- tanh of the affine image of the loaded rows, as the body computes it. -/
def hidden : FVec F S4096x24 .f32 :=
  have x2 : FVec F S4096x160 .bf16 := shapeCast S4096x160 x Gen.shapeCasts_S1x4096x160_S4096x160
  have w2 : FVec F S24x160 .f32 := shapeCast S24x160 w Gen.shapeCasts_S1x24x160_S24x160
  have wt : FVec F S160x24 .bf16 := transpose S160x24 [1, 0] (truncf .bf16 w2 Gen.bitsLt_bf16_f32) Gen.transposes_S24x160_p1_0_S160x24
  have zero : FVec F S4096x24 .f32 := constant S4096x24 .f32 0x00000000#32
  have b2 : FVec F S1x24 .f32 := shapeCast S1x24 b Gen.shapeCasts_S1x1x24_S1x24
  tanh (addf (matmul dot_S4096x160_S160x24_S4096x24_1_0_0_1_n_n none x2 wt zero) (broadcastTo S4096x24 b2 Gen.broadcasts_S1x24_S4096x24))

/-- The column means of a [4096, 24] array, as a [1, 24] row. -/
def meanRow (h : FVec F S4096x24 .f32) : FVec F S1x24 .f32 :=
  have s : FVec F S24 .f32 := multiReduction .add [0] S24 h 0x00000000#32 Gen.reduces_S4096x24_S24 (.inl rfl) rfl
  have s2 : FVec F S1x24 .f32 := shapeCast S1x24 s Gen.shapeCasts_S24_S1x24
  have n : F .f32 := Scalar.ofBits .f32 0x45800000#32
  divf s2 (broadcast S1x24 n)

/-- An array [4096, 24] minus its column means. -/
def centredV (h : FVec F S4096x24 .f32) : FVec F S4096x24 .f32 :=
  subf h (broadcastTo S4096x24 (meanRow h) Gen.broadcasts_S1x24_S4096x24)

/-- The scaled, normalised and shifted array, from the centred one. -/
def outV (d : FVec F S4096x24 .f32) : FVec F S4096x24 .f32 :=
  have g2 : FVec F S1x24 .f32 := shapeCast S1x24 g Gen.shapeCasts_S1x1x24_S1x24
  have β2 : FVec F S1x24 .f32 := shapeCast S1x24 β Gen.shapeCasts_S1x1x24_S1x24
  have e : F .f32 := Scalar.ofBits .f32 0x3727C5AC#32
  have r : FVec F S1x24 .f32 := rsqrt (addf (meanRow (mulf d d)) (broadcast S1x24 e))
  addf (mulf (mulf (broadcastTo S4096x24 g2 Gen.broadcasts_S1x24_S4096x24) d) (broadcastTo S4096x24 r Gen.broadcasts_S1x24_S4096x24))
    (broadcastTo S4096x24 β2 Gen.broadcasts_S1x24_S4096x24)

/-- The body's value is the three stages composed. -/
theorem pay_stages : Gen.k1_pay2 x w b g β = outV g β (centredV (hidden x w b)) := rfl

end Stages

/-! ## The stages at an index, on the extended reals -/

section AtIdeal

variable (x : Vec Ideal S1x4096x160 .bf16) (w : Vec Ideal S1x24x160 .f32) (b g β : Vec Ideal S1x1x24 .f32)

/-- The tanh stage at (p, o) is tanh of row p of the activations against row o of the weights, plus the bias at o. -/
theorem hidden_apply (p : Fin 4096) (o : Fin 24) :
    hidden x w b (ix2 p o)
      = Cert.Core.act (fun p k => x (ix3 (0 : Fin 1) p k)) (fun o k => w (ix3 (0 : Fin 1) o k))
          (fun o => b (ix3 (0 : Fin 1) (0 : Fin 1) o)) p o := by
  unfold hidden Cert.Core.act
  refine congrArg Ideal.tanh (congrArg₂ (· + ·) ?_ ?_)
  · refine (Ideal.matmul_constant_zero_apply _ none _ _ _).trans ?_
    refine (plain.sum_eq _ _ _).trans ?_
    refine Finset.sum_congr rfl fun k _ => congrArg₂ (· * ·) ?_ ?_
    · exact shapeCast_1ab_ab_apply x _ p k
    · exact (transpose_ix2_apply _ _ k o).trans (shapeCast_1ab_ab_apply w _ o k)
  · exact rowParam b _ _ p o

/-- The row of column means at (0, o), for an array known entry by entry. -/
theorem meanRow_apply (h : FVec Ideal S4096x24 .f32) (H : Fin 4096 → Fin 24 → EReal) (hH : ∀ p o, h (ix2 p o) = H p o)
    (o : Fin 24) : meanRow h (ix2 (0 : Fin 1) o) = Cert.Core.mean H o := by
  unfold meanRow Cert.Core.mean
  refine (colMean h _ _ o).trans ?_
  exact congrArg (fun s => Ideal.div s Cert.Core.batch) (Finset.sum_congr rfl fun q _ => hH q o)

/-- The centred array at (p, o). -/
theorem centredV_apply (h : FVec Ideal S4096x24 .f32) (H : Fin 4096 → Fin 24 → EReal) (hH : ∀ p o, h (ix2 p o) = H p o)
    (p : Fin 4096) (o : Fin 24) : centredV h (ix2 p o) = Cert.Core.centred H p o := by
  unfold centredV Cert.Core.centred
  refine congrArg₂ (· - ·) (hH p o) ?_
  exact (broadcastTo_1b_ab_apply _ _ p o).trans (meanRow_apply h H hH o)

/-- The output stage at (p, o), from a centred array known entry by entry. -/
theorem outV_apply (d : FVec Ideal S4096x24 .f32) (H : Fin 4096 → Fin 24 → EReal)
    (hd : ∀ p o, d (ix2 p o) = Cert.Core.centred H p o) (p : Fin 4096) (o : Fin 24) :
    outV g β d (ix2 p o)
      = g (ix3 (0 : Fin 1) (0 : Fin 1) o) * Cert.Core.centred H p o * Ideal.rsqrt (Cert.Core.var H o + Cert.Core.tiny)
          + β (ix3 (0 : Fin 1) (0 : Fin 1) o) := by
  unfold outV
  refine congrArg₂ (· + ·) (congrArg₂ (· * ·) (congrArg₂ (· * ·) ?_ (hd p o)) ?_) ?_
  · exact rowParam g _ _ p o
  · refine (broadcastTo_1b_ab_apply _ _ p o).trans ?_
    refine congrArg Ideal.rsqrt (congrArg₂ (· + ·) ?_ rfl)
    exact meanRow_apply (mulf d d) (fun p o => Cert.Core.centred H p o * Cert.Core.centred H p o)
      (fun p o => congrArg₂ (· * ·) (hd p o) (hd p o)) o
  · exact rowParam β _ _ p o

/-- THE BODY AT AN INDEX: entry (p, o) of the body's value is the block function of the loaded rows at (p, o). -/
theorem pay_apply (p : Fin 4096) (o : Fin 24) :
    Gen.k1_pay2 x w b g β (ix2 p o)
      = Cert.Core.block (fun p k => x (ix3 (0 : Fin 1) p k)) (fun o k => w (ix3 (0 : Fin 1) o k))
          (fun o => b (ix3 (0 : Fin 1) (0 : Fin 1) o)) (fun o => g (ix3 (0 : Fin 1) (0 : Fin 1) o))
          (fun o => β (ix3 (0 : Fin 1) (0 : Fin 1) o)) p o := by
  rw [pay_stages]
  unfold Cert.Core.block
  exact outV_apply g β _ _ (centredV_apply _ _ (hidden_apply x w b)) p o

end AtIdeal

end Body

/-! # From the blocks to the array -/

section Blocks

open Idealize.ShloMosaic.ValueIdx

/-- The body's result placed under a leading unit axis, at an index of the block [1, 4096, 24], when the loaded
    blocks are known row by row: it is the block function of those rows at the index's last two coordinates. -/
theorem block_point (x0 : Vec Ideal S1x4096x160 .bf16) (x1 : Vec Ideal S1x24x160 .f32) (x2 x3 x4 : Vec Ideal S1x1x24 .f32)
    (X : Fin 4096 → Fin 160 → EReal) (W : Fin 24 → Fin 160 → EReal) (B G β : Fin 24 → EReal)
    (h0 : ∀ p k, x0 (ix3 (0 : Fin 1) p k) = X p k) (h1 : ∀ o k, x1 (ix3 (0 : Fin 1) o k) = W o k)
    (h2 : ∀ o, x2 (ix3 (0 : Fin 1) (0 : Fin 1) o) = B o) (h3 : ∀ o, x3 (ix3 (0 : Fin 1) (0 : Fin 1) o) = G o)
    (h4 : ∀ o, x4 (ix3 (0 : Fin 1) (0 : Fin 1) o) = β o) (u : Fin 1) (p : Fin 4096) (o : Fin 24) :
    k1_pay1 (k1_pay2 x0 x1 x2 x3 x4) (ix3 u p o) = Cert.Core.block X W B G β p o := by
  unfold k1_pay1
  refine (shapeCast_ab_1ab_apply _ _ u p o).trans ?_
  refine (pay_apply x0 x1 x2 x3 x4 p o).trans ?_
  rw [show (fun p k => x0 (ix3 (0 : Fin 1) p k)) = X from funext fun p => funext fun k => h0 p k,
    show (fun o k => x1 (ix3 (0 : Fin 1) o k)) = W from funext fun o => funext fun k => h1 o k,
    show (fun o => x2 (ix3 (0 : Fin 1) (0 : Fin 1) o)) = B from funext h2,
    show (fun o => x3 (ix3 (0 : Fin 1) (0 : Fin 1) o)) = G from funext h3,
    show (fun o => x4 (ix3 (0 : Fin 1) (0 : Fin 1) o)) = β from funext h4]

end Blocks

variable (V : (c : Dev nD) → (b : Ref sig .tc) → Buf (Elt Ideal) ((c : Thread nD τ).loc b))

/-- The all-zero offsets of the body's whole-block accesses. -/
theorem hz : (![0, 0, 0] : Fin 3 → Nat) = fun _ => 0 :=
  funext fun a => match a with | ⟨0, _⟩ => rfl | ⟨1, _⟩ => rfl | ⟨2, _⟩ => rfl

/-- The printed index maps, decided over the 64 grid points: every window's block at point t is slab t on the leading
    axis and the whole of the other two axes. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0)
    ∧ (win1_5.index t (0 : Fin 3) = t.val ∧ win1_5.index t (1 : Fin 3) = 0 ∧ win1_5.index t (2 : Fin 3) = 0) :=
  (by decide +kernel : ∀ t : Fin grid1.N, _)

/-- What the output array ends holding: the level function of the five arrays as the region finds them. -/
abbrev G (c : Dev nD) : (⟨3, ![64, 4096, 24]⟩ : Shape).Idx → EReal :=
  Cert.Core.level 64 4096 160 24 (V c (Pipeline.arrRef spec1 0)) (V c (Pipeline.arrRef spec1 1))
    (V c (Pipeline.arrRef spec1 2)) (V c (Pipeline.arrRef spec1 3)) (V c (Pipeline.arrRef spec1 4))

/-- WHAT POINT t WRITES BACK is slab t of the level function. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S1x4096x160) hz, View.ld_unit_zero (S := S1x24x160) hz,
    View.ld_unit_zero (S := S1x1x24) hz]
  obtain ⟨⟨a0, a1, a2⟩, ⟨b0, b1, b2⟩, ⟨c0, c1, c2⟩, ⟨d0, d1, d2⟩, ⟨e0, e1, e2⟩, ⟨f0, f1, f2⟩⟩ := idx_facts t
  funext y
  obtain ⟨u, p, o, rfl⟩ : ∃ (u : Fin 1) (p : Fin 4096) (o : Fin 24), y = ValueIdx.ix3 u p o :=
    ⟨y 0, y 1, y 2, ValueIdx.eq_ix3 y⟩
  have ht : t.val < 64 := lt_of_lt_of_eq t.isLt N_1
  refine (block_point (iblk1 V c 0 t) (iblk1 V c 1 t) (iblk1 V c 2 t) (iblk1 V c 3 t) (iblk1 V c 4 t)
    (fun p k => (V c (Pipeline.arrRef spec1 0) : (⟨3, ![64, 4096, 160]⟩ : Shape).Idx → EReal) (ValueIdx.ix3 (⟨t.val, ht⟩ : Fin 64) p k))
    (fun o k => (V c (Pipeline.arrRef spec1 1) : (⟨3, ![64, 24, 160]⟩ : Shape).Idx → EReal) (ValueIdx.ix3 (⟨t.val, ht⟩ : Fin 64) o k))
    (fun o => (V c (Pipeline.arrRef spec1 2) : (⟨3, ![64, 1, 24]⟩ : Shape).Idx → EReal) (ValueIdx.ix3 (⟨t.val, ht⟩ : Fin 64) (0 : Fin 1) o))
    (fun o => (V c (Pipeline.arrRef spec1 3) : (⟨3, ![64, 1, 24]⟩ : Shape).Idx → EReal) (ValueIdx.ix3 (⟨t.val, ht⟩ : Fin 64) (0 : Fin 1) o))
    (fun o => (V c (Pipeline.arrRef spec1 4) : (⟨3, ![64, 1, 24]⟩ : Shape).Idx → EReal) (ValueIdx.ix3 (⟨t.val, ht⟩ : Fin 64) (0 : Fin 1) o))
    ?_ ?_ ?_ ?_ ?_ u p o).trans ?_
  · intro p k
    show V c (Pipeline.arrRef spec1 0) (((cfg1.win 0).blk t).view.emb (ValueIdx.ix3 (0 : Fin 1) p k)) = _
    refine congrArg (V c (Pipeline.arrRef spec1 0)) ?_
    funext a; apply Fin.ext
    match a with
    | ⟨0, _⟩ => show win1_0.index t (0 : Fin 3) * 1 + 1 * 0 = t.val; omega
    | ⟨1, _⟩ => show win1_0.index t (1 : Fin 3) * 4096 + 1 * p.val = p.val; omega
    | ⟨2, _⟩ => show win1_0.index t (2 : Fin 3) * 160 + 1 * k.val = k.val; omega
  · intro o k
    show V c (Pipeline.arrRef spec1 1) (((cfg1.win 1).blk t).view.emb (ValueIdx.ix3 (0 : Fin 1) o k)) = _
    refine congrArg (V c (Pipeline.arrRef spec1 1)) ?_
    funext a; apply Fin.ext
    match a with
    | ⟨0, _⟩ => show win1_1.index t (0 : Fin 3) * 1 + 1 * 0 = t.val; omega
    | ⟨1, _⟩ => show win1_1.index t (1 : Fin 3) * 24 + 1 * o.val = o.val; omega
    | ⟨2, _⟩ => show win1_1.index t (2 : Fin 3) * 160 + 1 * k.val = k.val; omega
  · intro o
    show V c (Pipeline.arrRef spec1 2) (((cfg1.win 2).blk t).view.emb (ValueIdx.ix3 (0 : Fin 1) (0 : Fin 1) o)) = _
    refine congrArg (V c (Pipeline.arrRef spec1 2)) ?_
    funext a; apply Fin.ext
    match a with
    | ⟨0, _⟩ => show win1_2.index t (0 : Fin 3) * 1 + 1 * 0 = t.val; omega
    | ⟨1, _⟩ => show win1_2.index t (1 : Fin 3) * 1 + 1 * 0 = 0; omega
    | ⟨2, _⟩ => show win1_2.index t (2 : Fin 3) * 24 + 1 * o.val = o.val; omega
  · intro o
    show V c (Pipeline.arrRef spec1 3) (((cfg1.win 3).blk t).view.emb (ValueIdx.ix3 (0 : Fin 1) (0 : Fin 1) o)) = _
    refine congrArg (V c (Pipeline.arrRef spec1 3)) ?_
    funext a; apply Fin.ext
    match a with
    | ⟨0, _⟩ => show win1_3.index t (0 : Fin 3) * 1 + 1 * 0 = t.val; omega
    | ⟨1, _⟩ => show win1_3.index t (1 : Fin 3) * 1 + 1 * 0 = 0; omega
    | ⟨2, _⟩ => show win1_3.index t (2 : Fin 3) * 24 + 1 * o.val = o.val; omega
  · intro o
    show V c (Pipeline.arrRef spec1 4) (((cfg1.win 4).blk t).view.emb (ValueIdx.ix3 (0 : Fin 1) (0 : Fin 1) o)) = _
    refine congrArg (V c (Pipeline.arrRef spec1 4)) ?_
    funext a; apply Fin.ext
    match a with
    | ⟨0, _⟩ => show win1_4.index t (0 : Fin 3) * 1 + 1 * 0 = t.val; omega
    | ⟨1, _⟩ => show win1_4.index t (1 : Fin 3) * 1 + 1 * 0 = 0; omega
    | ⟨2, _⟩ => show win1_4.index t (2 : Fin 3) * 24 + 1 * o.val = o.val; omega
  · have hi : ((cfg1.win 5).blk t).view.emb (ValueIdx.ix3 u p o) = ValueIdx.ix3 (⟨t.val, ht⟩ : Fin 64) p o := by
      funext a; apply Fin.ext
      have hu : u.val = 0 := by omega
      match a with
      | ⟨0, _⟩ => show win1_5.index t (0 : Fin 3) * 1 + 1 * u.val = t.val; omega
      | ⟨1, _⟩ => show win1_5.index t (1 : Fin 3) * 4096 + 1 * p.val = p.val; omega
      | ⟨2, _⟩ => show win1_5.index t (2 : Fin 3) * 24 + 1 * o.val = o.val; omega
    show _ = G V c (((cfg1.win 5).blk t).view.emb (ValueIdx.ix3 u p o))
    rw [hi]
    rfl

/-- An index of the output array is in point t's block iff each coordinate is in the block's range on its axis. -/
theorem mem_blk (t : Fin cfg1.N) (i : S64x4096x24.Idx) :
    i ∈ ((cfg1.win 5).blk t).view.set
      ↔ ∀ a : Fin 3, win1_5.index t a * S1x4096x24.size a ≤ (i a).val
          ∧ (i a).val < win1_5.index t a * S1x4096x24.size a + S1x4096x24.size a := by
  show i ∈ ((View.whole main_v19).slice (win1_5.rect t)).set ↔ _
  rw [View.set_slice_whole, Rect.mem_set_unit]
  exact Iff.rfl

/-- THE COVER: index i of the output array lies in the block of the point numbered by i's leading coordinate. -/
theorem cover (i : S64x4096x24.Idx) :
    ∃ t : Fin cfg1.N, (cfg1.win 5).flush t = true ∧ i ∈ ((cfg1.win 5).blk t).view.set := by
  have h0 : (i 0).val < 64 := (i 0).isLt
  have h1 : (i 1).val < 4096 := (i 1).isLt
  have h2 : (i 2).val < 24 := (i 2).isLt
  obtain ⟨t, ht⟩ : ∃ t : Fin cfg1.N, t.val = (i 0).val := ⟨⟨(i 0).val, lt_of_lt_of_eq h0 N_1.symm⟩, rfl⟩
  obtain ⟨-, -, -, -, -, f0, f1, f2⟩ := idx_facts t
  refine ⟨t, flush1_5 t, ?_⟩
  rw [mem_blk]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 4096 ≤ (i 1).val ∧ (i 1).val < win1_5.index t (1 : Fin 3) * 4096 + 4096
    omega
  | ⟨2, _⟩ =>
    show win1_5.index t (2 : Fin 3) * 24 ≤ (i 2).val ∧ (i 2).val < win1_5.index t (2 : Fin 3) * 24 + 24
    omega

theorem final (c : Dev nD) :
    (dat1 (F := Ideal) V c).arrAt 5 cfg1.N
      = Cert.Core.level 64 4096 160 24 (V c (Pipeline.arrRef spec1 0)) (V c (Pipeline.arrRef spec1 1))
          (V c (Pipeline.arrRef spec1 2)) (V c (Pipeline.arrRef spec1 3)) (V c (Pipeline.arrRef spec1 4)) :=
  (dat1 (F := Ideal) V c).arrAt_eq_of_cover 5 (G V c) (fun t _ => flushed_eq V c t) cover

end Cert.KernelIdeal.Region1

end
-- ==== Proof.Region2.lean ====
/-
  Region 2 of the kernel: the output array after the pipeline has run.

  The body of the pipeline works on blocks of two slabs.  On each slab it forms the affine image of the 4096 rows
  (a contraction over 192 features into 32), applies tanh, and normalises every output feature over the batch.
  First the body's arithmetic on one slab is read at an index as one block of the network on the loaded slab.
  Then the two stores of the body are read back as the two-slab level of the five input blocks, each input block is
  read as two consecutive slabs of its array, and the four points' blocks are seen to cover the eight slabs of the
  output array, which therefore ends as the eight-slab level of the five input arrays.
-/
import proofs.«419059_j72584947302887_3_alg».proof.Proof.Gen.KernelIdeal.Frame
import proofs.«419059_j72584947302887_3_alg».proof.Proof.Core
import proofs.«419059_j72584947302887_3_alg».proof.Proof.LibRowTile
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

/-! ## The body's arithmetic at an index -/

/-- The printed contraction is a plain product [4096, 192] · [192, 32]. -/
theorem dot_plain : Cert.Lib.IsPlain dot_S4096x192_S192x32_S4096x32_1_0_0_1_n_n :=
  ⟨rfl, rfl, rfl, rfl, rfl, rfl, rfl, rfl⟩

/-- A column sum of a [4096, 32] array: the sum over the rows. -/
theorem colsum_apply (h : FVec Ideal S4096x32 .f32) (o : Fin 32) :
    multiReduction (F := Ideal) .add [0] S32 h 0x00000000#32 reduces_S4096x32_S32 (.inl rfl) rfl (ix1 o)
      = ∑ p : Fin 4096, h (ix2 p o) := by
  refine (Ideal.multiReduction_add_single h _ reduces_S4096x32_S32 (.inl rfl) rfl (ix1 o)).trans ?_
  refine Finset.sum_congr rfl fun p _ => congrArg h ?_
  funext a; apply Fin.ext
  match a with
  | ⟨0, _⟩ => rfl
  | ⟨1, _⟩ => rfl

/-- The activation as the body computes it from the three loads. -/
def actV (v0 : Vec Ideal S1x4096x192 .f32) (v2 : Vec Ideal S1x32x192 .f32) (v6 : Vec Ideal S1x1x32 .f32) : FVec Ideal S4096x32 .f32 :=
  tanh (addf (matmul dot_S4096x192_S192x32_S4096x32_1_0_0_1_n_n none
      (shapeCast S4096x192 v0 shapeCasts_S1x4096x192_S4096x192 : FVec Ideal S4096x192 .f32)
      (transpose S192x32 [1, 0] (shapeCast S32x192 v2 shapeCasts_S1x32x192_S32x192 : FVec Ideal S32x192 .f32)
        transposes_S32x192_p1_0_S192x32 : FVec Ideal S192x32 .f32)
      (constant S4096x32 .f32 0x00000000#32))
    (broadcastTo S4096x32 (shapeCast S1x32 v6 shapeCasts_S1x1x32_S1x32 : FVec Ideal S1x32 .f32) broadcasts_S1x32_S4096x32))

theorem actV_apply (v0 : Vec Ideal S1x4096x192 .f32) (v2 : Vec Ideal S1x32x192 .f32) (v6 : Vec Ideal S1x1x32 .f32)
    (p : Fin 4096) (o : Fin 32) :
    actV v0 v2 v6 (ix2 p o)
      = Cert.Core.act (fun p k => v0 (ix3 (0 : Fin 1) p k)) (fun o k => v2 (ix3 (0 : Fin 1) o k))
          (fun o => v6 (ix3 (0 : Fin 1) (0 : Fin 1) o)) p o := by
  unfold actV Cert.Core.act
  show Ideal.tanh (FloatOps.matmul (F := Ideal) dot_S4096x192_S192x32_S4096x32_1_0_0_1_n_n none _ _ (constant S4096x32 .f32 0x00000000#32) (ix2 p o)
      + broadcastTo S4096x32 _ broadcasts_S1x32_S4096x32 (ix2 p o)) = _
  rw [Ideal.matmul_constant_zero_apply, dot_plain.sum_eq, broadcastTo_1b_ab_apply, shapeCast_1ab_ab_apply]
  refine congrArg Ideal.tanh (congrArg (· + _) (Finset.sum_congr rfl fun k _ => ?_))
  show shapeCast S4096x192 v0 _ (ix2 p k) * transpose S192x32 [1, 0] _ _ (ix2 k o) = _
  rw [shapeCast_1ab_ab_apply, transpose_ix2_apply, shapeCast_1ab_ab_apply]

/-- The column means of a [4096, 32] array as the body computes them: the column sums, as one row, over the batch size. -/
def meanV (h : FVec Ideal S4096x32 .f32) : FVec Ideal S1x32 .f32 :=
  divf (shapeCast S1x32 (multiReduction .add [0] S32 h 0x00000000#32 reduces_S4096x32_S32 (.inl rfl) rfl) shapeCasts_S32_S1x32)
    (broadcast S1x32 (Scalar.ofBits .f32 0x45800000#32))

theorem meanV_apply (h : FVec Ideal S4096x32 .f32) (u : Fin 1) (o : Fin 32) :
    meanV h (ix2 u o) = Cert.Core.mean (fun p o => h (ix2 p o)) o := by
  unfold meanV Cert.Core.mean
  show Ideal.div (shapeCast S1x32 _ shapeCasts_S32_S1x32 (ix2 u o)) (Ideal.ofBits .f32 0x45800000#32) = _
  rw [shapeCast_a_1a_apply, colsum_apply]
  rfl

/-- The array minus its column means. -/
def centredV (h : FVec Ideal S4096x32 .f32) : FVec Ideal S4096x32 .f32 :=
  subf h (broadcastTo S4096x32 (meanV h) broadcasts_S1x32_S4096x32)

theorem centredV_apply (h : FVec Ideal S4096x32 .f32) (p : Fin 4096) (o : Fin 32) :
    centredV h (ix2 p o) = Cert.Core.centred (fun p o => h (ix2 p o)) p o := by
  unfold centredV Cert.Core.centred
  show h (ix2 p o) - broadcastTo S4096x32 (meanV h) broadcasts_S1x32_S4096x32 (ix2 p o) = _
  rw [broadcastTo_1b_ab_apply, meanV_apply]

/-- The normalisation over the batch as the body computes it from the activation and the scale and shift loads. -/
def normV (h : FVec Ideal S4096x32 .f32) (v22 v31 : Vec Ideal S1x1x32 .f32) : FVec Ideal S4096x32 .f32 :=
  addf
    (mulf
      (mulf (broadcastTo S4096x32 (shapeCast S1x32 v22 shapeCasts_S1x1x32_S1x32 : FVec Ideal S1x32 .f32) broadcasts_S1x32_S4096x32)
        (centredV h))
      (broadcastTo S4096x32
        (rsqrt (addf (meanV (mulf (centredV h) (centredV h))) (broadcast S1x32 (Scalar.ofBits .f32 0x3727C5AC#32))))
        broadcasts_S1x32_S4096x32))
    (broadcastTo S4096x32 (shapeCast S1x32 v31 shapeCasts_S1x1x32_S1x32 : FVec Ideal S1x32 .f32) broadcasts_S1x32_S4096x32)

theorem normV_apply (h : FVec Ideal S4096x32 .f32) (v22 v31 : Vec Ideal S1x1x32 .f32) (p : Fin 4096) (o : Fin 32) :
    normV h v22 v31 (ix2 p o)
      = v22 (ix3 (0 : Fin 1) (0 : Fin 1) o) * Cert.Core.centred (fun p o => h (ix2 p o)) p o
          * Ideal.rsqrt (Cert.Core.var (fun p o => h (ix2 p o)) o + Cert.Core.tiny)
        + v31 (ix3 (0 : Fin 1) (0 : Fin 1) o) := by
  unfold normV
  show broadcastTo S4096x32 (shapeCast S1x32 v22 shapeCasts_S1x1x32_S1x32 : FVec Ideal S1x32 .f32) broadcasts_S1x32_S4096x32 (ix2 p o)
        * centredV h (ix2 p o)
        * broadcastTo S4096x32 (rsqrt (addf (meanV (mulf (centredV h) (centredV h))) (broadcast S1x32 (Scalar.ofBits .f32 0x3727C5AC#32))))
            broadcasts_S1x32_S4096x32 (ix2 p o)
      + broadcastTo S4096x32 (shapeCast S1x32 v31 shapeCasts_S1x1x32_S1x32 : FVec Ideal S1x32 .f32) broadcasts_S1x32_S4096x32 (ix2 p o) = _
  rw [broadcastTo_1b_ab_apply, broadcastTo_1b_ab_apply, broadcastTo_1b_ab_apply, shapeCast_1ab_ab_apply, shapeCast_1ab_ab_apply,
    centredV_apply]
  show _ * _ * Ideal.rsqrt (meanV (mulf (centredV h) (centredV h)) (ix2 (0 : Fin 1) o) + Ideal.ofBits .f32 0x3727C5AC#32) + _ = _
  rw [meanV_apply]
  unfold Cert.Core.var Cert.Core.mean
  refine congrArg (fun s => _ * _ * Ideal.rsqrt (Ideal.div s Cert.Core.batch + Cert.Core.tiny) + _) (Finset.sum_congr rfl fun q _ => ?_)
  show centredV h (ix2 q o) * centredV h (ix2 q o) = _
  rw [centredV_apply]

/-- The body's arithmetic is the normalisation of the activation. -/
theorem pay2_eq (v0 : Vec Ideal S1x4096x192 .f32) (v2 : Vec Ideal S1x32x192 .f32) (v6 v22 v31 : Vec Ideal S1x1x32 .f32) :
    k2_pay2 (F := Ideal) v0 v2 v6 v22 v31 = normV (actV v0 v2 v6) v22 v31 := rfl

/-- The second slab's arithmetic is the same text. -/
theorem pay4_eq (v0 : Vec Ideal S1x4096x192 .f32) (v2 : Vec Ideal S1x32x192 .f32) (v6 v22 v31 : Vec Ideal S1x1x32 .f32) :
    k2_pay4 (F := Ideal) v0 v2 v6 v22 v31 = normV (actV v0 v2 v6) v22 v31 := rfl

/-- THE PAYLOAD AT AN INDEX: one block of the network on the loaded slabs. -/
theorem pay2_apply (v0 : Vec Ideal S1x4096x192 .f32) (v2 : Vec Ideal S1x32x192 .f32) (v6 v22 v31 : Vec Ideal S1x1x32 .f32)
    (p : Fin 4096) (o : Fin 32) :
    k2_pay2 (F := Ideal) v0 v2 v6 v22 v31 (ix2 p o)
      = Cert.Core.block (fun p k => v0 (ix3 (0 : Fin 1) p k)) (fun o k => v2 (ix3 (0 : Fin 1) o k))
          (fun o => v6 (ix3 (0 : Fin 1) (0 : Fin 1) o)) (fun o => v22 (ix3 (0 : Fin 1) (0 : Fin 1) o))
          (fun o => v31 (ix3 (0 : Fin 1) (0 : Fin 1) o)) p o := by
  rw [pay2_eq, normV_apply]
  have hact : (fun p o => actV v0 v2 v6 (ix2 p o))
      = Cert.Core.act (fun p k => v0 (ix3 (0 : Fin 1) p k)) (fun o k => v2 (ix3 (0 : Fin 1) o k))
          (fun o => v6 (ix3 (0 : Fin 1) (0 : Fin 1) o)) := funext fun p => funext fun o => actV_apply v0 v2 v6 p o
  rw [hact]
  rfl

theorem pay4_apply (v0 : Vec Ideal S1x4096x192 .f32) (v2 : Vec Ideal S1x32x192 .f32) (v6 v22 v31 : Vec Ideal S1x1x32 .f32)
    (p : Fin 4096) (o : Fin 32) :
    k2_pay4 (F := Ideal) v0 v2 v6 v22 v31 (ix2 p o)
      = Cert.Core.block (fun p k => v0 (ix3 (0 : Fin 1) p k)) (fun o k => v2 (ix3 (0 : Fin 1) o k))
          (fun o => v6 (ix3 (0 : Fin 1) (0 : Fin 1) o)) (fun o => v22 (ix3 (0 : Fin 1) (0 : Fin 1) o))
          (fun o => v31 (ix3 (0 : Fin 1) (0 : Fin 1) o)) p o :=
  (congrFun (pay4_eq v0 v2 v6 v22 v31) (ix2 p o)).trans ((congrFun (pay2_eq v0 v2 v6 v22 v31) (ix2 p o)).symm.trans (pay2_apply v0 v2 v6 v22 v31 p o))

/-! ## The block after the body -/

/-- A unit-stride rectangle of a rank-3 shape that takes one slab s of the first axis and the other two axes whole
    places (u, p, k) at (s, p, k). -/
theorem slab_idx {a b c : ℕ} (s : ℕ) (hs : s < a)
    (inb : ∀ ax, (![s, 0, 0] : Fin 3 → ℕ) ax + (![1, b, c] : Fin 3 → ℕ) ax ≤ (⟨3, ![a, b, c]⟩ : Shape).size ax)
    (u : Fin 1) (p : Fin b) (k : Fin c) :
    (Rect.unit (s := ⟨3, ![a, b, c]⟩) ![s, 0, 0] ![1, b, c] inb).idx (ix3 u p k) = ix3 (⟨s, hs⟩ : Fin a) p k := by
  funext ax; apply Fin.ext
  match ax with
  | ⟨0, _⟩ => show s + 1 * u.val = s; omega
  | ⟨1, _⟩ => show 0 + 1 * p.val = p.val; omega
  | ⟨2, _⟩ => show 0 + 1 * k.val = k.val; omega

/-- A level of the hierarchy at an index given by its coordinates. -/
theorem level_at {S B I O : ℕ} (x : (⟨3, ![S, B, I]⟩ : Shape).Idx → EReal) (w : (⟨3, ![S, O, I]⟩ : Shape).Idx → EReal)
    (b g β : (⟨3, ![S, 1, O]⟩ : Shape).Idx → EReal) (i : (⟨3, ![S, B, O]⟩ : Shape).Idx) (s : Fin S) (p : Fin B) (o : Fin O)
    (h0 : (i 0).val = s.val) (h1 : (i 1).val = p.val) (h2 : (i 2).val = o.val) :
    Cert.Core.level S B I O x w b g β i
      = Cert.Core.block (fun p k => x (ix3 s p k)) (fun o k => w (ix3 s o k)) (fun o => b (ix3 s (0 : Fin 1) o))
          (fun o => g (ix3 s (0 : Fin 1) o)) (fun o => β (ix3 s (0 : Fin 1) o)) p o := by
  have e : i = ix3 s p o := funext fun a => Fin.ext (match a with | ⟨0, _⟩ => h0 | ⟨1, _⟩ => h1 | ⟨2, _⟩ => h2)
  subst e; rfl

section Pieces

variable (x0 : Vec Ideal S2x4096x192 .f32) (x1 : Vec Ideal S2x32x192 .f32) (x2 x3 x4 : Vec Ideal S2x1x32 .f32)

/-- The store of slab 1 carries slab 1 of the two-slab level. -/
theorem piece1 (x : S1x4096x32.Idx) :
    k2_pay1 (F := Ideal) (k2_pay4 (View.ld x0 r2_4) (View.ld x1 r2_5) (View.ld x2 r2_6) (View.ld x3 r2_6) (View.ld x4 r2_6)) x
      = Cert.Core.level 2 4096 192 32 x0 x1 x2 x3 x4 (r2_7.emb x) := by
  obtain ⟨u, p, o, rfl⟩ : ∃ (u : Fin 1) (p : Fin 4096) (o : Fin 32), x = ix3 u p o := ⟨x 0, x 1, x 2, eq_ix3 x⟩
  refine Eq.trans ?_ (level_at x0 x1 x2 x3 x4 _ (⟨1, by decide⟩ : Fin 2) p o ?_ ?_ ?_).symm
  · unfold k2_pay1
    refine (shapeCast_ab_1ab_apply _ _ u p o).trans ?_
    refine (pay4_apply _ _ _ _ _ p o).trans ?_
    have e0 : ∀ (p : Fin 4096) (k : Fin 192), View.ld x0 r2_4 (ix3 (0 : Fin 1) p k) = x0 (ix3 (⟨1, by decide⟩ : Fin 2) p k) :=
      fun p k => congrArg x0 (slab_idx 1 (by decide) _ _ p k)
    have e1 : ∀ (o : Fin 32) (k : Fin 192), View.ld x1 r2_5 (ix3 (0 : Fin 1) o k) = x1 (ix3 (⟨1, by decide⟩ : Fin 2) o k) :=
      fun o k => congrArg x1 (slab_idx 1 (by decide) _ _ o k)
    have e2 : ∀ (o : Fin 32), View.ld x2 r2_6 (ix3 (0 : Fin 1) (0 : Fin 1) o) = x2 (ix3 (⟨1, by decide⟩ : Fin 2) (0 : Fin 1) o) :=
      fun o => congrArg x2 (slab_idx 1 (by decide) _ _ _ o)
    have e3 : ∀ (o : Fin 32), View.ld x3 r2_6 (ix3 (0 : Fin 1) (0 : Fin 1) o) = x3 (ix3 (⟨1, by decide⟩ : Fin 2) (0 : Fin 1) o) :=
      fun o => congrArg x3 (slab_idx 1 (by decide) _ _ _ o)
    have e4 : ∀ (o : Fin 32), View.ld x4 r2_6 (ix3 (0 : Fin 1) (0 : Fin 1) o) = x4 (ix3 (⟨1, by decide⟩ : Fin 2) (0 : Fin 1) o) :=
      fun o => congrArg x4 (slab_idx 1 (by decide) _ _ _ o)
    simp only [e0, e1, e2, e3, e4]
  · show 1 + 1 * u.val = 1; omega
  · show 0 + 1 * p.val = p.val; omega
  · show 0 + 1 * o.val = o.val; omega

/-- The store of slab 0 carries slab 0 of the two-slab level. -/
theorem piece0 (x : S1x4096x32.Idx) :
    k2_pay3 (F := Ideal) (k2_pay2 (View.ld x0 r2_0) (View.ld x1 r2_1) (View.ld x2 r2_2) (View.ld x3 r2_2) (View.ld x4 r2_2)) x
      = Cert.Core.level 2 4096 192 32 x0 x1 x2 x3 x4 (r2_3.emb x) := by
  obtain ⟨u, p, o, rfl⟩ : ∃ (u : Fin 1) (p : Fin 4096) (o : Fin 32), x = ix3 u p o := ⟨x 0, x 1, x 2, eq_ix3 x⟩
  refine Eq.trans ?_ (level_at x0 x1 x2 x3 x4 _ (⟨0, by decide⟩ : Fin 2) p o ?_ ?_ ?_).symm
  · unfold k2_pay3
    refine (shapeCast_ab_1ab_apply _ _ u p o).trans ?_
    refine (pay2_apply _ _ _ _ _ p o).trans ?_
    have e0 : ∀ (p : Fin 4096) (k : Fin 192), View.ld x0 r2_0 (ix3 (0 : Fin 1) p k) = x0 (ix3 (⟨0, by decide⟩ : Fin 2) p k) :=
      fun p k => congrArg x0 (slab_idx 0 (by decide) _ _ p k)
    have e1 : ∀ (o : Fin 32) (k : Fin 192), View.ld x1 r2_1 (ix3 (0 : Fin 1) o k) = x1 (ix3 (⟨0, by decide⟩ : Fin 2) o k) :=
      fun o k => congrArg x1 (slab_idx 0 (by decide) _ _ o k)
    have e2 : ∀ (o : Fin 32), View.ld x2 r2_2 (ix3 (0 : Fin 1) (0 : Fin 1) o) = x2 (ix3 (⟨0, by decide⟩ : Fin 2) (0 : Fin 1) o) :=
      fun o => congrArg x2 (slab_idx 0 (by decide) _ _ _ o)
    have e3 : ∀ (o : Fin 32), View.ld x3 r2_2 (ix3 (0 : Fin 1) (0 : Fin 1) o) = x3 (ix3 (⟨0, by decide⟩ : Fin 2) (0 : Fin 1) o) :=
      fun o => congrArg x3 (slab_idx 0 (by decide) _ _ _ o)
    have e4 : ∀ (o : Fin 32), View.ld x4 r2_2 (ix3 (0 : Fin 1) (0 : Fin 1) o) = x4 (ix3 (⟨0, by decide⟩ : Fin 2) (0 : Fin 1) o) :=
      fun o => congrArg x4 (slab_idx 0 (by decide) _ _ _ o)
    simp only [e0, e1, e2, e3, e4]
  · show 0 + 1 * u.val = 0; omega
  · show 0 + 1 * p.val = p.val; omega
  · show 0 + 1 * o.val = o.val; omega

/-- WHAT THE BODY LEAVES IN THE OUTPUT BLOCK: the two-slab level of the five input blocks. -/
theorem out_eq : out2_5 (F := Ideal) x0 x1 x2 x3 x4 = Cert.Core.level 2 4096 192 32 x0 x1 x2 x3 x4 := by
  funext y
  unfold out2_5
  refine View.canon_apply_of_pieces (Val := Elt Ideal) (Cert.Core.level 2 4096 192 32 x0 x1 x2 x3 x4) _ ?_ y (cover2_5 _ _ y)
  intro pc hpc x
  rcases List.mem_cons.mp hpc with rfl | hpc
  · exact piece1 x0 x1 x2 x3 x4 x
  · obtain rfl := List.mem_singleton.mp hpc
    exact piece0 x0 x1 x2 x3 x4 x

end Pieces

/-! ## From blocks to the array -/

/-- Two levels agree at two indices when the indices name the same row and column and the slabs they name hold
    the same entries. -/
theorem level_congr {S S' B I O : ℕ}
    (x : (⟨3, ![S, B, I]⟩ : Shape).Idx → EReal) (w : (⟨3, ![S, O, I]⟩ : Shape).Idx → EReal) (b g β : (⟨3, ![S, 1, O]⟩ : Shape).Idx → EReal)
    (X : (⟨3, ![S', B, I]⟩ : Shape).Idx → EReal) (W : (⟨3, ![S', O, I]⟩ : Shape).Idx → EReal) (Bi Ga Be : (⟨3, ![S', 1, O]⟩ : Shape).Idx → EReal)
    (y : (⟨3, ![S, B, O]⟩ : Shape).Idx) (i : (⟨3, ![S', B, O]⟩ : Shape).Idx) (s : Fin S) (s' : Fin S')
    (hy0 : (y 0).val = s.val) (hi0 : (i 0).val = s'.val) (hi1 : (i 1).val = (y 1).val) (hi2 : (i 2).val = (y 2).val)
    (h0 : ∀ p k, x (ix3 s p k) = X (ix3 s' p k)) (h1 : ∀ o k, w (ix3 s o k) = W (ix3 s' o k))
    (h2 : ∀ o, b (ix3 s (0 : Fin 1) o) = Bi (ix3 s' (0 : Fin 1) o)) (h3 : ∀ o, g (ix3 s (0 : Fin 1) o) = Ga (ix3 s' (0 : Fin 1) o))
    (h4 : ∀ o, β (ix3 s (0 : Fin 1) o) = Be (ix3 s' (0 : Fin 1) o)) :
    Cert.Core.level S B I O x w b g β y = Cert.Core.level S' B I O X W Bi Ga Be i := by
  rw [level_at x w b g β y s (y 1) (y 2) hy0 rfl rfl, level_at X W Bi Ga Be i s' (y 1) (y 2) hi0 hi1 hi2]
  simp only [h0, h1, h2, h3, h4]

variable (V : (c : Dev nD) → (b : Ref sig .tc) → Buf (Elt Ideal) ((c : Thread nD τ).loc b))

/-- The five input arrays as the region finds them, and the five input blocks at a point, at their literal types. -/
abbrev A0 (c : Dev nD) : Vec Ideal S8x4096x192 .f32 := V c (Pipeline.arrRef spec2 0)
abbrev A1 (c : Dev nD) : Vec Ideal S8x32x192 .f32 := V c (Pipeline.arrRef spec2 1)
abbrev A2 (c : Dev nD) : Vec Ideal S8x1x32 .f32 := V c (Pipeline.arrRef spec2 2)
abbrev A3 (c : Dev nD) : Vec Ideal S8x1x32 .f32 := V c (Pipeline.arrRef spec2 3)
abbrev A4 (c : Dev nD) : Vec Ideal S8x1x32 .f32 := V c (Pipeline.arrRef spec2 4)
abbrev B0 (c : Dev nD) (t : Fin cfg2.N) : Vec Ideal S2x4096x192 .f32 := iblk2 V c 0 t
abbrev B1 (c : Dev nD) (t : Fin cfg2.N) : Vec Ideal S2x32x192 .f32 := iblk2 V c 1 t
abbrev B2 (c : Dev nD) (t : Fin cfg2.N) : Vec Ideal S2x1x32 .f32 := iblk2 V c 2 t
abbrev B3 (c : Dev nD) (t : Fin cfg2.N) : Vec Ideal S2x1x32 .f32 := iblk2 V c 3 t
abbrev B4 (c : Dev nD) (t : Fin cfg2.N) : Vec Ideal S2x1x32 .f32 := iblk2 V c 4 t

/-- The printed index maps, decided over the grid: every window's block index is the point on the first axis
    and zero on the other two. -/
theorem idx_facts : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0
    ∧ win2_3.index t (0 : Fin 3) = t.val ∧ win2_3.index t (1 : Fin 3) = 0 ∧ win2_3.index t (2 : Fin 3) = 0
    ∧ win2_4.index t (0 : Fin 3) = t.val ∧ win2_4.index t (1 : Fin 3) = 0 ∧ win2_4.index t (2 : Fin 3) = 0
    ∧ win2_5.index t (0 : Fin 3) = t.val ∧ win2_5.index t (1 : Fin 3) = 0 ∧ win2_5.index t (2 : Fin 3) = 0 :=
  (by decide +kernel : ∀ t : Fin grid2.N, _)

/-- Block t of the activations is slabs 2t, 2t + 1 of the array. -/
theorem B0_apply (c : Dev nD) (t : Fin cfg2.N) (s : Fin 2) (p : Fin 4096) (k : Fin 192) (s' : Fin 8)
    (hs : s'.val = t.val * 2 + s.val) : B0 V c t (ix3 s p k) = A0 V c (ix3 s' p k) := by
  obtain ⟨f0, f1, f2, -⟩ := idx_facts t
  show iblk2 V c 0 t (ix3 s p k) = _
  unfold iblk2
  rw [View.read_apply]
  show V c (Pipeline.arrRef spec2 0) _ = V c (Pipeline.arrRef spec2 0) _
  congr 1
  funext a
  apply Fin.ext
  match a with
  | ⟨0, _⟩ => show win2_0.index t (0 : Fin 3) * 2 + 1 * s.val = s'.val; omega
  | ⟨1, _⟩ => show win2_0.index t (1 : Fin 3) * 4096 + 1 * p.val = p.val; omega
  | ⟨2, _⟩ => show win2_0.index t (2 : Fin 3) * 192 + 1 * k.val = k.val; omega

/-- Block t of the weights is slabs 2t, 2t + 1 of the array. -/
theorem B1_apply (c : Dev nD) (t : Fin cfg2.N) (s : Fin 2) (o : Fin 32) (k : Fin 192) (s' : Fin 8)
    (hs : s'.val = t.val * 2 + s.val) : B1 V c t (ix3 s o k) = A1 V c (ix3 s' o k) := by
  obtain ⟨-, -, -, f0, f1, f2, -⟩ := idx_facts t
  show iblk2 V c 1 t (ix3 s o k) = _
  unfold iblk2
  rw [View.read_apply]
  show V c (Pipeline.arrRef spec2 1) _ = V c (Pipeline.arrRef spec2 1) _
  congr 1
  funext a
  apply Fin.ext
  match a with
  | ⟨0, _⟩ => show win2_1.index t (0 : Fin 3) * 2 + 1 * s.val = s'.val; omega
  | ⟨1, _⟩ => show win2_1.index t (1 : Fin 3) * 32 + 1 * o.val = o.val; omega
  | ⟨2, _⟩ => show win2_1.index t (2 : Fin 3) * 192 + 1 * k.val = k.val; omega

/-- Block t of the bias is rows 2t, 2t + 1 of the array. -/
theorem B2_apply (c : Dev nD) (t : Fin cfg2.N) (s : Fin 2) (u : Fin 1) (o : Fin 32) (s' : Fin 8)
    (hs : s'.val = t.val * 2 + s.val) : B2 V c t (ix3 s u o) = A2 V c (ix3 s' u o) := by
  obtain ⟨-, -, -, -, -, -, f0, f1, f2, -⟩ := idx_facts t
  show iblk2 V c 2 t (ix3 s u o) = _
  unfold iblk2
  rw [View.read_apply]
  show V c (Pipeline.arrRef spec2 2) _ = V c (Pipeline.arrRef spec2 2) _
  congr 1
  funext a
  apply Fin.ext
  match a with
  | ⟨0, _⟩ => show win2_2.index t (0 : Fin 3) * 2 + 1 * s.val = s'.val; omega
  | ⟨1, _⟩ => show win2_2.index t (1 : Fin 3) * 1 + 1 * u.val = u.val; omega
  | ⟨2, _⟩ => show win2_2.index t (2 : Fin 3) * 32 + 1 * o.val = o.val; omega

/-- Block t of the scale is rows 2t, 2t + 1 of the array. -/
theorem B3_apply (c : Dev nD) (t : Fin cfg2.N) (s : Fin 2) (u : Fin 1) (o : Fin 32) (s' : Fin 8)
    (hs : s'.val = t.val * 2 + s.val) : B3 V c t (ix3 s u o) = A3 V c (ix3 s' u o) := by
  obtain ⟨-, -, -, -, -, -, -, -, -, f0, f1, f2, -⟩ := idx_facts t
  show iblk2 V c 3 t (ix3 s u o) = _
  unfold iblk2
  rw [View.read_apply]
  show V c (Pipeline.arrRef spec2 3) _ = V c (Pipeline.arrRef spec2 3) _
  congr 1
  funext a
  apply Fin.ext
  match a with
  | ⟨0, _⟩ => show win2_3.index t (0 : Fin 3) * 2 + 1 * s.val = s'.val; omega
  | ⟨1, _⟩ => show win2_3.index t (1 : Fin 3) * 1 + 1 * u.val = u.val; omega
  | ⟨2, _⟩ => show win2_3.index t (2 : Fin 3) * 32 + 1 * o.val = o.val; omega

/-- Block t of the shift is rows 2t, 2t + 1 of the array. -/
theorem B4_apply (c : Dev nD) (t : Fin cfg2.N) (s : Fin 2) (u : Fin 1) (o : Fin 32) (s' : Fin 8)
    (hs : s'.val = t.val * 2 + s.val) : B4 V c t (ix3 s u o) = A4 V c (ix3 s' u o) := by
  obtain ⟨-, -, -, -, -, -, -, -, -, -, -, -, f0, f1, f2, -⟩ := idx_facts t
  show iblk2 V c 4 t (ix3 s u o) = _
  unfold iblk2
  rw [View.read_apply]
  show V c (Pipeline.arrRef spec2 4) _ = V c (Pipeline.arrRef spec2 4) _
  congr 1
  funext a
  apply Fin.ext
  match a with
  | ⟨0, _⟩ => show win2_4.index t (0 : Fin 3) * 2 + 1 * s.val = s'.val; omega
  | ⟨1, _⟩ => show win2_4.index t (1 : Fin 3) * 1 + 1 * u.val = u.val; omega
  | ⟨2, _⟩ => show win2_4.index t (2 : Fin 3) * 32 + 1 * o.val = o.val; omega

/-- WHAT POINT t WRITES BACK is block t of the eight-slab level of the five input arrays. -/
theorem flushed_eq (c : Dev nD) (t : Fin cfg2.N) :
    (dat2 (F := Ideal) V c).flushed 5 t
      = ((cfg2.win 5).blk t).view.read (Elt Ideal)
          (Cert.Core.level 8 4096 192 32 (V c (Pipeline.arrRef spec2 0)) (V c (Pipeline.arrRef spec2 1))
            (V c (Pipeline.arrRef spec2 2)) (V c (Pipeline.arrRef spec2 3)) (V c (Pipeline.arrRef spec2 4))) := by
  show (cfg2.win 5).cut (grid2.coords t) ((dat2 V c).after 5 t) = _
  rw [after2_5]
  funext y
  rw [View.read_apply]
  show out2_5 (F := Ideal) (B0 V c t) (B1 V c t) (B2 V c t) (B3 V c t) (B4 V c t) y
      = Cert.Core.level 8 4096 192 32 (A0 V c) (A1 V c) (A2 V c) (A3 V c) (A4 V c) (((cfg2.win 5).blk t).view.emb y)
  obtain ⟨-, -, -, -, -, -, -, -, -, -, -, -, -, -, -, f0, f1, f2⟩ := idx_facts t
  have ht : t.val < 4 := lt_of_lt_of_eq t.isLt N_2
  have hy0 : (y 0).val < 2 := (y 0).isLt
  refine (congrFun (out_eq (B0 V c t) (B1 V c t) (B2 V c t) (B3 V c t) (B4 V c t)) y).trans ?_
  refine level_congr (B0 V c t) (B1 V c t) (B2 V c t) (B3 V c t) (B4 V c t) (A0 V c) (A1 V c) (A2 V c) (A3 V c) (A4 V c)
    y (((cfg2.win 5).blk t).view.emb y) (y 0) (⟨t.val * 2 + (y 0).val, by omega⟩ : Fin 8) rfl ?_ ?_ ?_
    (fun p k => B0_apply V c t (y 0) p k _ rfl) (fun o k => B1_apply V c t (y 0) o k _ rfl)
    (fun o => B2_apply V c t (y 0) 0 o _ rfl) (fun o => B3_apply V c t (y 0) 0 o _ rfl) (fun o => B4_apply V c t (y 0) 0 o _ rfl)
  · show win2_5.index t (0 : Fin 3) * 2 + 1 * (y 0).val = t.val * 2 + (y 0).val; omega
  · show win2_5.index t (1 : Fin 3) * 4096 + 1 * (y 1).val = (y 1).val; omega
  · show win2_5.index t (2 : Fin 3) * 32 + 1 * (y 2).val = (y 2).val; omega

/-- An index of the output array is in point t's block iff each coordinate is in the block's range on its axis. -/
theorem mem_blk (t : Fin cfg2.N) (i : S8x4096x32.Idx) :
    i ∈ ((cfg2.win 5).blk t).view.set
      ↔ ∀ a : Fin 3, win2_5.index t a * S2x4096x32.size a ≤ (i a).val ∧ (i a).val < win2_5.index t a * S2x4096x32.size a + S2x4096x32.size a := by
  show i ∈ ((View.whole main_v26).slice (win2_5.rect t)).set ↔ _
  rw [View.set_slice_whole, Rect.mem_set_unit]
  exact Iff.rfl

/-- Every index of the output array lies in the block of the point that holds its slab: slabs 2t, 2t + 1 are point t's. -/
theorem cover (i : S8x4096x32.Idx) :
    ∃ t : Fin cfg2.N, (cfg2.win 5).flush t = true ∧ i ∈ ((cfg2.win 5).blk t).view.set := by
  have hi0 : (i 0).val < 8 := (i 0).isLt
  have hi1 : (i 1).val < 4096 := (i 1).isLt
  have hi2 : (i 2).val < 32 := (i 2).isLt
  let t : Fin cfg2.N := ⟨(i 0).val / 2, lt_of_lt_of_eq (by omega) N_2.symm⟩
  obtain ⟨-, -, -, -, -, -, -, -, -, -, -, -, -, -, -, f0, f1, f2⟩ := idx_facts t
  have f0' : win2_5.index t (0 : Fin 3) = (i 0).val / 2 := f0
  refine ⟨t, flush2_5 t, ?_⟩
  rw [mem_blk]
  intro a
  match a with
  | ⟨0, _⟩ => show win2_5.index t (0 : Fin 3) * 2 ≤ (i 0).val ∧ (i 0).val < win2_5.index t (0 : Fin 3) * 2 + 2; omega
  | ⟨1, _⟩ => show win2_5.index t (1 : Fin 3) * 4096 ≤ (i 1).val ∧ (i 1).val < win2_5.index t (1 : Fin 3) * 4096 + 4096; omega
  | ⟨2, _⟩ => show win2_5.index t (2 : Fin 3) * 32 ≤ (i 2).val ∧ (i 2).val < win2_5.index t (2 : Fin 3) * 32 + 32; omega

/-- THE OUTPUT ARRAY after the run: the eight-slab level of the five input arrays as the region finds them. -/
theorem final (c : Dev nD) :
    (dat2 (F := Ideal) V c).arrAt 5 cfg2.N
      = Cert.Core.level 8 4096 192 32 (V c (Pipeline.arrRef spec2 0)) (V c (Pipeline.arrRef spec2 1))
          (V c (Pipeline.arrRef spec2 2)) (V c (Pipeline.arrRef spec2 3)) (V c (Pipeline.arrRef spec2 4)) :=
  (dat2 (F := Ideal) V c).arrAt_eq_of_cover 5 _ (fun t _ => flushed_eq V c t) cover

end Cert.KernelIdeal.Region2

end
-- ==== Proof.Region3.lean ====
/-
  The root block's pallas_call, from its entry contents to its output array.

  The body forms, from a loaded activation block x [4096, 256], a weight block w [64, 256] and three vectors of
  length 64, the matrix product of x with the transposed weights, adds the bias row, applies tanh, and then
  normalises each of the 64 columns over the 4096 rows: column mean, centred entries, column mean of the squared
  centred entries, and scale * centred * rsqrt (variance + small constant) + shift.  Each stage is named as a
  function of the stage before it, and read at (p, o) it is the corresponding stage of the specification's block.

  The grid has one point, every window's block is its whole array at block index zero, and the body stores one
  piece that fills the output block.  So the one point writes back the specification's root block of the five input
  arrays, and its block covers the output array.
-/
import proofs.«419059_j72584947302887_3_alg».proof.Proof.Gen.KernelIdeal.Frame
import proofs.«419059_j72584947302887_3_alg».proof.Proof.Core
import proofs.«419059_j72584947302887_3_alg».proof.Proof.LibRowTile
import Idealize.ShloMosaic.Lib.Pipeline.Value
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)

section Payload

open scoped BigOperators
open Idealize.ShloMosaic.ValueIdx

/-! ## The stages of the body -/

section Stages

variable {F : FTy → Type} [FloatOps F]

/-- tanh of (x times the transposed weights, plus the bias row). -/
def actK (x : Vec F S4096x256 .f32) (w : Vec F S64x256 .f32) (b : Vec F S64 .f32) : FVec F S4096x64 .f32 :=
  tanh (addf
    (matmul (φ₁ := .f32) (φ₂ := .f32) dot_S4096x256_S256x64_S4096x64_1_0_0_1_n_n none
      (shapeCast S4096x256 x shapeCasts_S4096x256_S4096x256)
      (transpose S256x64 [1, 0] w transposes_S64x256_p1_0_S256x64)
      (constant S4096x64 .f32 0x00000000#32))
    (broadcastTo S4096x64 (shapeCast S1x64 b shapeCasts_S64_S1x64) broadcasts_S1x64_S4096x64))

/-- The row of column means of a [4096, 64] array: column sums divided by the batch size. -/
def meanK (h : FVec F S4096x64 .f32) : FVec F S1x64 .f32 :=
  divf (shapeCast S1x64 (multiReduction .add [0] S64 h 0x00000000#32 reduces_S4096x64_S64 (.inl rfl) rfl) shapeCasts_S64_S1x64)
    (broadcast S1x64 (Scalar.ofBits .f32 0x45800000#32))

/-- Every entry minus its column's mean. -/
def cenK (h : FVec F S4096x64 .f32) : FVec F S4096x64 .f32 :=
  subf h (broadcastTo S4096x64 (meanK h) broadcasts_S1x64_S4096x64)

/-- The row of column means of the squared centred entries. -/
def varK (h : FVec F S4096x64 .f32) : FVec F S1x64 .f32 := meanK (mulf (cenK h) (cenK h))

/-- scale * centred * rsqrt (variance + small constant) + shift. -/
def normK (h : FVec F S4096x64 .f32) (g β : Vec F S64 .f32) : FVec F S4096x64 .f32 :=
  addf
    (mulf
      (mulf (broadcastTo S4096x64 (shapeCast S1x64 g shapeCasts_S64_S1x64) broadcasts_S1x64_S4096x64) (cenK h))
      (broadcastTo S4096x64 (rsqrt (addf (varK h) (broadcast S1x64 (Scalar.ofBits .f32 0x3727C5AC#32)))) broadcasts_S1x64_S4096x64))
    (broadcastTo S4096x64 (shapeCast S1x64 β shapeCasts_S64_S1x64) broadcasts_S1x64_S4096x64)

/-- The body's payload is the normalisation of the activation. -/
theorem pay_eq (x : Vec F S4096x256 .f32) (w : Vec F S64x256 .f32) (b g β : Vec F S64 .f32) :
    k3_pay1 x w b g β = normK (actK x w b) g β := rfl

end Stages

/-! ## Each stage at an index -/

/-- Putting row k back into a column index o gives (k, o). -/
theorem lift_col (o : Fin 64) (k : Fin 4096) : reduces_S4096x64_S64.lift (ix1 o) k = ix2 k o := by
  funext a; apply Fin.ext
  match a with
  | ⟨0, _⟩ => rfl
  | ⟨1, _⟩ => rfl

/-- A column sum. -/
theorem colsum (h : FVec Ideal S4096x64 .f32) (o : Fin 64) :
    multiReduction (F := Ideal) (φ := .f32) .add [0] S64 h 0x00000000#32 reduces_S4096x64_S64 (.inl rfl) rfl (ix1 o)
      = ∑ p : Fin 4096, h (ix2 p o) :=
  (Ideal.multiReduction_add_single h _ reduces_S4096x64_S64 (.inl rfl) rfl (ix1 o)).trans
    (Finset.sum_congr rfl fun k _ => congrArg h (lift_col o k))

/-- A vector of length 64 laid out as a row and repeated down the 4096 rows. -/
theorem row_apply (v : Vec Ideal S64 .f32) (p : Fin 4096) (o : Fin 64) :
    broadcastTo S4096x64 (shapeCast S1x64 v shapeCasts_S64_S1x64) broadcasts_S1x64_S4096x64 (ix2 p o) = v (ix1 o) :=
  (broadcastTo_1b_ab_apply _ broadcasts_S1x64_S4096x64 p o).trans (shapeCast_a_1a_apply v shapeCasts_S64_S1x64 0 o)

theorem meanK_apply (h : FVec Ideal S4096x64 .f32) (o : Fin 64) :
    meanK (F := Ideal) h (ix2 (0 : Fin 1) o) = Cert.Core.mean (fun p o => h (ix2 p o)) o := by
  unfold meanK Cert.Core.mean
  refine (divf_apply _ _ _).trans ?_
  refine congrArg₂ Ideal.div ?_ rfl
  exact (shapeCast_a_1a_apply _ shapeCasts_S64_S1x64 0 o).trans (colsum h o)

theorem cenK_apply (h : FVec Ideal S4096x64 .f32) (p : Fin 4096) (o : Fin 64) :
    cenK (F := Ideal) h (ix2 p o) = Cert.Core.centred (fun p o => h (ix2 p o)) p o := by
  unfold cenK Cert.Core.centred
  refine (subf_apply _ _ _).trans ?_
  refine congrArg (h (ix2 p o) - ·) ?_
  exact (broadcastTo_1b_ab_apply _ broadcasts_S1x64_S4096x64 p o).trans (meanK_apply h o)

theorem varK_apply (h : FVec Ideal S4096x64 .f32) (o : Fin 64) :
    varK (F := Ideal) h (ix2 (0 : Fin 1) o) = Cert.Core.var (fun p o => h (ix2 p o)) o := by
  unfold varK
  refine (meanK_apply _ o).trans ?_
  unfold Cert.Core.var Cert.Core.mean
  refine congrArg (Ideal.div · Cert.Core.batch) ?_
  refine Finset.sum_congr rfl fun p _ => ?_
  refine (mulf_apply _ _ _).trans ?_
  rw [cenK_apply]

theorem normK_apply (h : FVec Ideal S4096x64 .f32) (g β : Vec Ideal S64 .f32) (p : Fin 4096) (o : Fin 64) :
    normK (F := Ideal) h g β (ix2 p o)
      = g (ix1 o) * Cert.Core.centred (fun p o => h (ix2 p o)) p o
          * Ideal.rsqrt (Cert.Core.var (fun p o => h (ix2 p o)) o + Cert.Core.tiny) + β (ix1 o) := by
  unfold normK
  refine (addf_apply _ _ _).trans ?_
  refine congrArg₂ (· + ·) ?_ (row_apply β p o)
  refine (mulf_apply _ _ _).trans ?_
  refine congrArg₂ (· * ·) ?_ ?_
  · refine (mulf_apply _ _ _).trans ?_
    exact congrArg₂ (· * ·) (row_apply g p o) (cenK_apply h p o)
  · refine (broadcastTo_1b_ab_apply _ broadcasts_S1x64_S4096x64 p o).trans ?_
    show Ideal.rsqrt (varK (F := Ideal) h (ix2 (0 : Fin 1) o) + Cert.Core.tiny) = _
    rw [varK_apply]

/-! ## The matrix product -/

/-- The printed dimension numbers are those of a plain product [4096, 256] · [256, 64]. -/
theorem plain : Cert.Lib.IsPlain dot_S4096x256_S256x64_S4096x64_1_0_0_1_n_n :=
  ⟨rfl, rfl, rfl, rfl, rfl, rfl, rfl, rfl⟩

theorem actK_apply (x : Vec Ideal S4096x256 .f32) (w : Vec Ideal S64x256 .f32) (b : Vec Ideal S64 .f32) (p : Fin 4096) (o : Fin 64) :
    actK (F := Ideal) x w b (ix2 p o)
      = Cert.Core.act (fun p k => x (ix2 p k)) (fun o k => w (ix2 o k)) (fun o => b (ix1 o)) p o := by
  unfold actK Cert.Core.act
  show Ideal.tanh (_ + _) = _
  refine congrArg Ideal.tanh (congrArg₂ (· + ·) ?_ (row_apply b p o))
  refine (Ideal.matmul_constant_zero_apply _ none _ _ (ix2 p o)).trans ?_
  refine (plain.sum_eq _ _ (ix2 p o)).trans ?_
  refine Finset.sum_congr rfl fun k _ => congrArg₂ (· * ·) ?_ ?_
  · rw [shapeCast_self]
  · exact transpose_ix2_apply w transposes_S64x256_p1_0_S256x64 k o

/-! ## The payload at an index -/

/-- THE PAYLOAD AT (p, o) is the specification's block of the loaded blocks' rows. -/
theorem pay_apply (x : Vec Ideal S4096x256 .f32) (w : Vec Ideal S64x256 .f32) (b g β : Vec Ideal S64 .f32) (p : Fin 4096) (o : Fin 64) :
    k3_pay1 (F := Ideal) x w b g β (ix2 p o)
      = Cert.Core.block (fun p k => x (ix2 p k)) (fun o k => w (ix2 o k)) (fun o => b (ix1 o)) (fun o => g (ix1 o))
          (fun o => β (ix1 o)) p o := by
  rw [pay_eq, normK_apply]
  have e : (fun (p : Fin 4096) (o : Fin 64) => actK (F := Ideal) x w b (ix2 p o))
      = Cert.Core.act (fun p k => x (ix2 p k)) (fun o k => w (ix2 o k)) (fun o => b (ix1 o)) :=
    funext fun p => funext fun o => actK_apply x w b p o
  rw [e]
  rfl

/-- THE PAYLOAD OVER BLOCKS THAT ARE THE ARRAYS' ENTRIES: if each loaded block reads, entry by entry, what an array
    holds, the payload at (p, o) is the specification's root block of those arrays there. -/
theorem pay_root (X0 : Vec Ideal S4096x256 .f32) (X1 : Vec Ideal S64x256 .f32) (X2 X3 X4 : Vec Ideal S64 .f32)
    (A0 : S4096x256.Idx → EReal) (A1 : S64x256.Idx → EReal) (A2 A3 A4 : S64.Idx → EReal)
    (h0 : ∀ (p : Fin 4096) (k : Fin 256), X0 (ix2 p k) = A0 (ix2 p k))
    (h1 : ∀ (o : Fin 64) (k : Fin 256), X1 (ix2 o k) = A1 (ix2 o k))
    (h2 : ∀ o : Fin 64, X2 (ix1 o) = A2 (ix1 o)) (h3 : ∀ o : Fin 64, X3 (ix1 o) = A3 (ix1 o))
    (h4 : ∀ o : Fin 64, X4 (ix1 o) = A4 (ix1 o)) (p : Fin 4096) (o : Fin 64) :
    k3_pay1 (F := Ideal) X0 X1 X2 X3 X4 (ix2 p o) = Cert.Core.root 4096 256 64 A0 A1 A2 A3 A4 (ix2 p o) := by
  rw [pay_apply]
  have e0 : (fun (p : Fin 4096) (k : Fin 256) => X0 (ix2 p k)) = fun p k => A0 (ix2 p k) :=
    funext fun p => funext fun k => h0 p k
  have e1 : (fun (o : Fin 64) (k : Fin 256) => X1 (ix2 o k)) = fun o k => A1 (ix2 o k) :=
    funext fun o => funext fun k => h1 o k
  have e2 : (fun o : Fin 64 => X2 (ix1 o)) = fun o => A2 (ix1 o) := funext h2
  have e3 : (fun o : Fin 64 => X3 (ix1 o)) = fun o => A3 (ix1 o) := funext h3
  have e4 : (fun o : Fin 64 => X4 (ix1 o)) = fun o => A4 (ix1 o) := funext h4
  rw [e0, e1, e2, e3, e4]
  rfl

end Payload

/-! ## The one point's block -/

section Blocks

open Idealize.ShloMosaic.ValueIdx

theorem off2 : (![0, 0] : Fin 2 → Nat) = fun _ => 0 := funext fun a => by fin_cases a <;> rfl

theorem off1 : (![0] : Fin 1 → Nat) = fun _ => 0 := funext fun a => by fin_cases a; rfl

/-- The body stores one piece, over the whole output block, of whole-block loads: the block it leaves is its
    payload of the input blocks. -/
theorem out_eq (x0 : Vec Ideal S4096x256 .f32) (x1 : Vec Ideal S64x256 .f32) (x2 x3 x4 : Vec Ideal S64 .f32) :
    out3_5 (F := Ideal) x0 x1 x2 x3 x4 = k3_pay1 x0 x1 x2 x3 x4 := by
  unfold out3_5
  rw [View.canon_unit_zero off2]
  simp only [View.ld_unit_zero (S := S4096x256) off2, View.ld_unit_zero (S := S64x256) off2,
    View.ld_unit_zero (S := S64) off1]

/-- Every window's block index is zero on every axis, at every point of the grid. -/
theorem idx_zero : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 1) = 0 ∧ win3_3.index t (0 : Fin 1) = 0 ∧ win3_4.index t (0 : Fin 1) = 0
    ∧ win3_5.index t (0 : Fin 2) = 0 ∧ win3_5.index t (1 : Fin 2) = 0 :=
  (by decide +kernel : ∀ t : Fin grid3.N, _)

end Blocks

variable (V : (c : Dev nD) → (b : Ref sig .tc) → Buf (Elt Ideal) ((c : Thread nD τ).loc b))

section Reads

open Idealize.ShloMosaic.ValueIdx

/-- The activation block at a point is the activation array, entry by entry. -/
theorem in0 (c : Dev nD) (t : Fin cfg3.N) (p : Fin 4096) (k : Fin 256) :
    iblk3 (F := Ideal) V c 0 t (ix2 p k) = V c (Pipeline.arrRef spec3 0) (ix2 p k) := by
  obtain ⟨e0, e1, -⟩ := idx_zero t
  unfold iblk3
  rw [View.read_apply]
  show V c (Pipeline.arrRef spec3 0) (((cfg3.win 0).blk t).view.emb (ix2 p k)) = V c (Pipeline.arrRef spec3 0) (ix2 p k)
  refine congrArg (V c (Pipeline.arrRef spec3 0)) (funext fun a => Fin.ext ?_)
  match a with
  | ⟨0, _⟩ => show win3_0.index t (0 : Fin 2) * 4096 + 1 * p.val = p.val; rw [e0]; omega
  | ⟨1, _⟩ => show win3_0.index t (1 : Fin 2) * 256 + 1 * k.val = k.val; rw [e1]; omega

/-- The weight block at a point is the weight array. -/
theorem in1 (c : Dev nD) (t : Fin cfg3.N) (o : Fin 64) (k : Fin 256) :
    iblk3 (F := Ideal) V c 1 t (ix2 o k) = V c (Pipeline.arrRef spec3 1) (ix2 o k) := by
  obtain ⟨-, -, e0, e1, -⟩ := idx_zero t
  unfold iblk3
  rw [View.read_apply]
  show V c (Pipeline.arrRef spec3 1) (((cfg3.win 1).blk t).view.emb (ix2 o k)) = V c (Pipeline.arrRef spec3 1) (ix2 o k)
  refine congrArg (V c (Pipeline.arrRef spec3 1)) (funext fun a => Fin.ext ?_)
  match a with
  | ⟨0, _⟩ => show win3_1.index t (0 : Fin 2) * 64 + 1 * o.val = o.val; rw [e0]; omega
  | ⟨1, _⟩ => show win3_1.index t (1 : Fin 2) * 256 + 1 * k.val = k.val; rw [e1]; omega

/-- The bias block at a point is the bias array. -/
theorem in2 (c : Dev nD) (t : Fin cfg3.N) (o : Fin 64) :
    iblk3 (F := Ideal) V c 2 t (ix1 o) = V c (Pipeline.arrRef spec3 2) (ix1 o) := by
  obtain ⟨-, -, -, -, e0, -⟩ := idx_zero t
  unfold iblk3
  rw [View.read_apply]
  show V c (Pipeline.arrRef spec3 2) (((cfg3.win 2).blk t).view.emb (ix1 o)) = V c (Pipeline.arrRef spec3 2) (ix1 o)
  refine congrArg (V c (Pipeline.arrRef spec3 2)) (funext fun a => Fin.ext ?_)
  match a with
  | ⟨0, _⟩ => show win3_2.index t (0 : Fin 1) * 64 + 1 * o.val = o.val; rw [e0]; omega

/-- The scale block at a point is the scale array. -/
theorem in3 (c : Dev nD) (t : Fin cfg3.N) (o : Fin 64) :
    iblk3 (F := Ideal) V c 3 t (ix1 o) = V c (Pipeline.arrRef spec3 3) (ix1 o) := by
  obtain ⟨-, -, -, -, -, e0, -⟩ := idx_zero t
  unfold iblk3
  rw [View.read_apply]
  show V c (Pipeline.arrRef spec3 3) (((cfg3.win 3).blk t).view.emb (ix1 o)) = V c (Pipeline.arrRef spec3 3) (ix1 o)
  refine congrArg (V c (Pipeline.arrRef spec3 3)) (funext fun a => Fin.ext ?_)
  match a with
  | ⟨0, _⟩ => show win3_3.index t (0 : Fin 1) * 64 + 1 * o.val = o.val; rw [e0]; omega

/-- The shift block at a point is the shift array. -/
theorem in4 (c : Dev nD) (t : Fin cfg3.N) (o : Fin 64) :
    iblk3 (F := Ideal) V c 4 t (ix1 o) = V c (Pipeline.arrRef spec3 4) (ix1 o) := by
  obtain ⟨-, -, -, -, -, -, e0, -⟩ := idx_zero t
  unfold iblk3
  rw [View.read_apply]
  show V c (Pipeline.arrRef spec3 4) (((cfg3.win 4).blk t).view.emb (ix1 o)) = V c (Pipeline.arrRef spec3 4) (ix1 o)
  refine congrArg (V c (Pipeline.arrRef spec3 4)) (funext fun a => Fin.ext ?_)
  match a with
  | ⟨0, _⟩ => show win3_4.index t (0 : Fin 1) * 64 + 1 * o.val = o.val; rw [e0]; omega

/-- WHAT POINT t WRITES BACK is its block of the specification's root block of the five input arrays. -/
theorem flushed_eq (c : Dev nD) (t : Fin cfg3.N) :
    (dat3 (F := Ideal) V c).flushed 5 t
      = ((cfg3.win 5).blk t).view.read (Elt Ideal)
          (Cert.Core.root 4096 256 64 (V c (Pipeline.arrRef spec3 0)) (V c (Pipeline.arrRef spec3 1))
            (V c (Pipeline.arrRef spec3 2)) (V c (Pipeline.arrRef spec3 3)) (V c (Pipeline.arrRef spec3 4))) := by
  show (cfg3.win 5).cut (grid3.coords t) ((dat3 V c).after 5 t) = _
  rw [after3_5, out_eq]
  obtain ⟨-, -, -, -, -, -, -, e0, e1⟩ := idx_zero t
  funext y
  have hp : (y 0).val < 4096 := (y 0).isLt
  have ho : (y 1).val < 64 := (y 1).isLt
  have ey : (cfg3.win 5).xinj (grid3.coords t) y = ix2 (⟨(y 0).val, hp⟩ : Fin 4096) (⟨(y 1).val, ho⟩ : Fin 64) :=
    funext fun a => Fin.ext (by match a with | ⟨0, _⟩ => rfl | ⟨1, _⟩ => rfl)
  have ez : ((cfg3.win 5).blk t).view.emb y = ix2 (⟨(y 0).val, hp⟩ : Fin 4096) (⟨(y 1).val, ho⟩ : Fin 64) :=
    funext fun a => Fin.ext (by
      match a with
      | ⟨0, _⟩ => show win3_5.index t (0 : Fin 2) * 4096 + 1 * (y 0).val = (y 0).val; rw [e0]; omega
      | ⟨1, _⟩ => show win3_5.index t (1 : Fin 2) * 64 + 1 * (y 1).val = (y 1).val; rw [e1]; omega)
  show k3_pay1 (F := Ideal) (iblk3 V c 0 t) (iblk3 V c 1 t) (iblk3 V c 2 t) (iblk3 V c 3 t) (iblk3 V c 4 t)
        ((cfg3.win 5).xinj (grid3.coords t) y)
      = Cert.Core.root 4096 256 64 (V c (Pipeline.arrRef spec3 0)) (V c (Pipeline.arrRef spec3 1))
          (V c (Pipeline.arrRef spec3 2)) (V c (Pipeline.arrRef spec3 3)) (V c (Pipeline.arrRef spec3 4))
          (((cfg3.win 5).blk t).view.emb y)
  rw [ey, ez]
  exact pay_root (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4))
    (in0 V c t) (in1 V c t) (in2 V c t) (in3 V c t) (in4 V c t) ⟨(y 0).val, hp⟩ ⟨(y 1).val, ho⟩

/-- An index of the output array is in point t's block iff each coordinate is in the block's range on its axis. -/
theorem mem_blk (t : Fin cfg3.N) (i : S4096x64.Idx) :
    i ∈ ((cfg3.win 5).blk t).view.set
      ↔ ∀ a : Fin 2, win3_5.index t a * S4096x64.size a ≤ (i a).val
          ∧ (i a).val < win3_5.index t a * S4096x64.size a + S4096x64.size a := by
  show i ∈ ((View.whole main_v29).slice (win3_5.rect t)).set ↔ _
  rw [View.set_slice_whole, Rect.mem_set_unit]
  exact Iff.rfl

/-- The one point's block is the whole output array. -/
theorem covered (i : S4096x64.Idx) :
    ∃ t : Fin cfg3.N, (cfg3.win 5).flush t = true ∧ i ∈ ((cfg3.win 5).blk t).view.set := by
  refine ⟨t3_0, flush3_5 t3_0, ?_⟩
  obtain ⟨-, -, -, -, -, -, -, e0, e1⟩ := idx_zero t3_0
  have hp : (i 0).val < 4096 := (i 0).isLt
  have ho : (i 1).val < 64 := (i 1).isLt
  rw [mem_blk]
  intro a
  match a with
  | ⟨0, _⟩ =>
    show win3_5.index t3_0 (0 : Fin 2) * 4096 ≤ (i 0).val ∧ (i 0).val < win3_5.index t3_0 (0 : Fin 2) * 4096 + 4096
    rw [e0]; omega
  | ⟨1, _⟩ =>
    show win3_5.index t3_0 (1 : Fin 2) * 64 ≤ (i 1).val ∧ (i 1).val < win3_5.index t3_0 (1 : Fin 2) * 64 + 64
    rw [e1]; omega

end Reads

theorem final (c : Dev nD) :
    (dat3 (F := Ideal) V c).arrAt 5 cfg3.N
      = Cert.Core.root 4096 256 64 (V c (Pipeline.arrRef spec3 0)) (V c (Pipeline.arrRef spec3 1))
          (V c (Pipeline.arrRef spec3 2)) (V c (Pipeline.arrRef spec3 3)) (V c (Pipeline.arrRef spec3 4)) :=
  (dat3 (F := Ideal) V c).arrAt_eq_of_cover 5 _ (fun t _ => flushed_eq V c t) covered

end Cert.KernelIdeal.Region3

end
-- ==== Proof.KernelValue.lean ====
import proofs.«419059_j72584947302887_3_alg».proof.Proof.Gen.KernelIdeal.Frame
import proofs.«419059_j72584947302887_3_alg».proof.Proof.Glue
import proofs.«419059_j72584947302887_3_alg».proof.Proof.KernelRun
import proofs.«419059_j72584947302887_3_alg».proof.Proof.Region0
import proofs.«419059_j72584947302887_3_alg».proof.Proof.Region1
import proofs.«419059_j72584947302887_3_alg».proof.Proof.Region2
import proofs.«419059_j72584947302887_3_alg».proof.Proof.Region3
import Idealize.ShloMosaic.Lib.StableHlo.Run
import Idealize.ShloMosaic.Lib.Pipeline.Value

set_option maxRecDepth 16384

/-!
  The kernel program's result as the network of its arguments.

  The generated frame names the buffer contents at each of the eight boundaries of @main (before and after each
  stretch of host operations and each pallas_call).  Read backwards from the last boundary: the result is the root
  block's output array, whose inputs are the last re-layout of level 3's output array and four arguments; level 3's
  inputs are the re-layout of level 2's output and an argument and three per-term tables; and so on down to the
  gathered activations.  An argument is read at a boundary as launched, because no host operation and no earlier
  pallas_call writes it.
-/

noncomputable section

namespace Cert.KernelIdeal.Result

open Cert.KernelIdeal Cert.KernelIdeal.Gen Idealize.ShloMosaic Idealize.ShloMosaic.TcCoe Idealize.SL.Sem
open Idealize.ShloMosaic.StableHlo

/-- A buffer that none of a literal list of host operations writes: unfold the list, read each operation's written
    buffer, and compare references. -/
macro "not_written" ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The host stretches, read at the buffers the pallas_calls take, for any contents -/

section Host
variable (W : Valuation τ sig (Elt Ideal))

theorem host0_v7 : after (hostOps0 (F := Ideal)) W (Proc.devRef .tc main_v7)
    = Cert.Core.gathered (W (Proc.devRef .tc main_arg0)) (W (Proc.devRef .tc main_arg1)) := by
  after_results; rfl
theorem host0_v8 : after (hostOps0 (F := Ideal)) W (Proc.devRef .tc main_v8) = Cert.Core.col512 (W (Proc.devRef .tc main_arg3)) := by
  after_results; rfl
theorem host0_v9 : after (hostOps0 (F := Ideal)) W (Proc.devRef .tc main_v9) = Cert.Core.col512 (W (Proc.devRef .tc main_arg4)) := by
  after_results; rfl
theorem host0_v10 : after (hostOps0 (F := Ideal)) W (Proc.devRef .tc main_v10) = Cert.Core.col512 (W (Proc.devRef .tc main_arg5)) := by
  after_results; rfl

theorem host1_v15 : after (hostOps1 (F := Ideal)) W (Proc.devRef .tc main_v15) = Cert.Core.regroup1 (W (Proc.devRef .tc main_v11)) := by
  after_results; rfl
theorem host1_v16 : after (hostOps1 (F := Ideal)) W (Proc.devRef .tc main_v16) = Cert.Core.col64 (W (Proc.devRef .tc main_arg7)) := by
  after_results; rfl
theorem host1_v17 : after (hostOps1 (F := Ideal)) W (Proc.devRef .tc main_v17) = Cert.Core.col64 (W (Proc.devRef .tc main_arg8)) := by
  after_results; rfl
theorem host1_v18 : after (hostOps1 (F := Ideal)) W (Proc.devRef .tc main_v18) = Cert.Core.col64 (W (Proc.devRef .tc main_arg9)) := by
  after_results; rfl

theorem host2_v22 : after (hostOps2 (F := Ideal)) W (Proc.devRef .tc main_v22) = Cert.Core.regroup2 (W (Proc.devRef .tc main_v19)) := by
  after_results; rfl
theorem host2_v23 : after (hostOps2 (F := Ideal)) W (Proc.devRef .tc main_v23) = Cert.Core.col8 (W (Proc.devRef .tc main_arg11)) := by
  after_results; rfl
theorem host2_v24 : after (hostOps2 (F := Ideal)) W (Proc.devRef .tc main_v24) = Cert.Core.col8 (W (Proc.devRef .tc main_arg12)) := by
  after_results; rfl
theorem host2_v25 : after (hostOps2 (F := Ideal)) W (Proc.devRef .tc main_v25) = Cert.Core.col8 (W (Proc.devRef .tc main_arg13)) := by
  after_results; rfl

theorem host3_v28 : after (hostOps3 (F := Ideal)) W (Proc.devRef .tc main_v28) = Cert.Core.regroup3 (W (Proc.devRef .tc main_v26)) := by
  after_results; rfl

end Host

/-! ## A buffer nothing has written yet is as launched -/

section Fold
variable (m : (ℓ : Loc nD τ sig) → Buf (Elt Ideal) ℓ) (ρ : Dev nD → PrngReg) (c : Dev nD)

theorem keep1 (r : Ref sig .tc) (h0 : ∀ op ∈ (hostOps0 (F := Ideal)), (Proc.devRef .tc r : DevRef τ sig) ∉ op.writes) :
    W1 m ρ c (Proc.devRef .tc r) = m ((c : Thread nD τ).loc r) :=
  (after_of_forall_not_mem (hostOps0 (F := Ideal)) (W0 m ρ c) h0).trans rfl

theorem keep2 (r : Ref sig .tc) (h0 : ∀ op ∈ (hostOps0 (F := Ideal)), (Proc.devRef .tc r : DevRef τ sig) ∉ op.writes)
    (g0 : ∀ w, Pipeline.arrRef spec0 w ≠ r) : W2 m ρ c (Proc.devRef .tc r) = m ((c : Thread nD τ).loc r) :=
  (W2_of_ne m ρ c r g0).trans (keep1 m ρ c r h0)

theorem keep3 (r : Ref sig .tc) (h0 : ∀ op ∈ (hostOps0 (F := Ideal)), (Proc.devRef .tc r : DevRef τ sig) ∉ op.writes)
    (g0 : ∀ w, Pipeline.arrRef spec0 w ≠ r)
    (h1 : ∀ op ∈ (hostOps1 (F := Ideal)), (Proc.devRef .tc r : DevRef τ sig) ∉ op.writes) :
    W3 m ρ c (Proc.devRef .tc r) = m ((c : Thread nD τ).loc r) :=
  (after_of_forall_not_mem (hostOps1 (F := Ideal)) (W2 m ρ c) h1).trans (keep2 m ρ c r h0 g0)

theorem keep4 (r : Ref sig .tc) (h0 : ∀ op ∈ (hostOps0 (F := Ideal)), (Proc.devRef .tc r : DevRef τ sig) ∉ op.writes)
    (g0 : ∀ w, Pipeline.arrRef spec0 w ≠ r)
    (h1 : ∀ op ∈ (hostOps1 (F := Ideal)), (Proc.devRef .tc r : DevRef τ sig) ∉ op.writes)
    (g1 : ∀ w, Pipeline.arrRef spec1 w ≠ r) : W4 m ρ c (Proc.devRef .tc r) = m ((c : Thread nD τ).loc r) :=
  (W4_of_ne m ρ c r g1).trans (keep3 m ρ c r h0 g0 h1)

theorem keep5 (r : Ref sig .tc) (h0 : ∀ op ∈ (hostOps0 (F := Ideal)), (Proc.devRef .tc r : DevRef τ sig) ∉ op.writes)
    (g0 : ∀ w, Pipeline.arrRef spec0 w ≠ r)
    (h1 : ∀ op ∈ (hostOps1 (F := Ideal)), (Proc.devRef .tc r : DevRef τ sig) ∉ op.writes)
    (g1 : ∀ w, Pipeline.arrRef spec1 w ≠ r)
    (h2 : ∀ op ∈ (hostOps2 (F := Ideal)), (Proc.devRef .tc r : DevRef τ sig) ∉ op.writes) :
    W5 m ρ c (Proc.devRef .tc r) = m ((c : Thread nD τ).loc r) :=
  (after_of_forall_not_mem (hostOps2 (F := Ideal)) (W4 m ρ c) h2).trans (keep4 m ρ c r h0 g0 h1 g1)

theorem keep6 (r : Ref sig .tc) (h0 : ∀ op ∈ (hostOps0 (F := Ideal)), (Proc.devRef .tc r : DevRef τ sig) ∉ op.writes)
    (g0 : ∀ w, Pipeline.arrRef spec0 w ≠ r)
    (h1 : ∀ op ∈ (hostOps1 (F := Ideal)), (Proc.devRef .tc r : DevRef τ sig) ∉ op.writes)
    (g1 : ∀ w, Pipeline.arrRef spec1 w ≠ r)
    (h2 : ∀ op ∈ (hostOps2 (F := Ideal)), (Proc.devRef .tc r : DevRef τ sig) ∉ op.writes)
    (g2 : ∀ w, Pipeline.arrRef spec2 w ≠ r) : W6 m ρ c (Proc.devRef .tc r) = m ((c : Thread nD τ).loc r) :=
  (W6_of_ne m ρ c r g2).trans (keep5 m ρ c r h0 g0 h1 g1 h2)

theorem keep7 (r : Ref sig .tc) (h0 : ∀ op ∈ (hostOps0 (F := Ideal)), (Proc.devRef .tc r : DevRef τ sig) ∉ op.writes)
    (g0 : ∀ w, Pipeline.arrRef spec0 w ≠ r)
    (h1 : ∀ op ∈ (hostOps1 (F := Ideal)), (Proc.devRef .tc r : DevRef τ sig) ∉ op.writes)
    (g1 : ∀ w, Pipeline.arrRef spec1 w ≠ r)
    (h2 : ∀ op ∈ (hostOps2 (F := Ideal)), (Proc.devRef .tc r : DevRef τ sig) ∉ op.writes)
    (g2 : ∀ w, Pipeline.arrRef spec2 w ≠ r)
    (h3 : ∀ op ∈ (hostOps3 (F := Ideal)), (Proc.devRef .tc r : DevRef τ sig) ∉ op.writes) :
    W7 m ρ c (Proc.devRef .tc r) = m ((c : Thread nD τ).loc r) :=
  (after_of_forall_not_mem (hostOps3 (F := Ideal)) (W6 m ρ c) h3).trans (keep6 m ρ c r h0 g0 h1 g1 h2 g2)

/-! ## The four output arrays, outermost last -/

/-- Level 1's output array, at the boundary after pallas_call 0. -/
theorem out1 : W2 m ρ c (Proc.devRef .tc main_v11)
    = Cert.Core.stage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hx : V1 m ρ c (Pipeline.arrRef spec0 0) = Cert.Core.gathered (m ((c : Thread nD τ).loc main_arg0)) (m ((c : Thread nD τ).loc main_arg1)) := host0_v7 (W0 m ρ c)
  have hw : V1 m ρ c (Pipeline.arrRef spec0 1) = (m ((c : Thread nD τ).loc main_arg2)) := keep1 m ρ c main_arg2 (by not_written hostOps0)
  have hb : V1 m ρ c (Pipeline.arrRef spec0 2) = Cert.Core.col512 (m ((c : Thread nD τ).loc main_arg3)) := host0_v8 (W0 m ρ c)
  have hg : V1 m ρ c (Pipeline.arrRef spec0 3) = Cert.Core.col512 (m ((c : Thread nD τ).loc main_arg4)) := host0_v9 (W0 m ρ c)
  have hβ : V1 m ρ c (Pipeline.arrRef spec0 4) = Cert.Core.col512 (m ((c : Thread nD τ).loc main_arg5)) := host0_v10 (W0 m ρ c)
  calc W2 m ρ c (Proc.devRef .tc main_v11)
      = (dat0 (F := Ideal) (V1 m ρ) c).arrAt 5 cfg0.N := W2_arr m ρ c 5
    _ = _ := Cert.KernelIdeal.Region0.final (V1 m ρ) c
    _ = _ := (congr (congr (congr (congr (congrArg (Cert.Core.level 512 4096 16 20) hx) hw) hb) hg) hβ).trans rfl

/-- Level 2's output array, at the boundary after pallas_call 1. -/
theorem out2 : W4 m ρ c (Proc.devRef .tc main_v19)
    = Cert.Core.stage2 (Cert.Core.stage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9)) := by
  have hx : V3 m ρ c (Pipeline.arrRef spec1 0)
      = Cert.Core.regroup1 (Cert.Core.stage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    (host1_v15 (W2 m ρ c)).trans (congrArg Cert.Core.regroup1 (out1 m ρ c))
  have hw : V3 m ρ c (Pipeline.arrRef spec1 1) = (m ((c : Thread nD τ).loc main_arg6)) :=
    keep3 m ρ c main_arg6 (by not_written hostOps0) (by decide) (by not_written hostOps1)
  have hb : V3 m ρ c (Pipeline.arrRef spec1 2) = Cert.Core.col64 (m ((c : Thread nD τ).loc main_arg7)) :=
    (host1_v16 (W2 m ρ c)).trans (congrArg Cert.Core.col64 (keep2 m ρ c main_arg7 (by not_written hostOps0) (by decide)))
  have hg : V3 m ρ c (Pipeline.arrRef spec1 3) = Cert.Core.col64 (m ((c : Thread nD τ).loc main_arg8)) :=
    (host1_v17 (W2 m ρ c)).trans (congrArg Cert.Core.col64 (keep2 m ρ c main_arg8 (by not_written hostOps0) (by decide)))
  have hβ : V3 m ρ c (Pipeline.arrRef spec1 4) = Cert.Core.col64 (m ((c : Thread nD τ).loc main_arg9)) :=
    (host1_v18 (W2 m ρ c)).trans (congrArg Cert.Core.col64 (keep2 m ρ c main_arg9 (by not_written hostOps0) (by decide)))
  calc W4 m ρ c (Proc.devRef .tc main_v19)
      = (dat1 (F := Ideal) (V3 m ρ) c).arrAt 5 cfg1.N := W4_arr m ρ c 5
    _ = _ := Cert.KernelIdeal.Region1.final (V3 m ρ) c
    _ = _ := (congr (congr (congr (congr (congrArg (Cert.Core.level 64 4096 160 24) hx) hw) hb) hg) hβ).trans rfl

/-- Level 3's output array, at the boundary after pallas_call 2. -/
theorem out3 : W6 m ρ c (Proc.devRef .tc main_v26)
    = Cert.Core.stage3 (Cert.Core.stage2 (Cert.Core.stage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9)))
        (m ((c : Thread nD τ).loc main_arg10)) (m ((c : Thread nD τ).loc main_arg11)) (m ((c : Thread nD τ).loc main_arg12)) (m ((c : Thread nD τ).loc main_arg13)) := by
  have hx : V5 m ρ c (Pipeline.arrRef spec2 0)
      = Cert.Core.regroup2 (Cert.Core.stage2 (Cert.Core.stage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9))) :=
    (host2_v22 (W4 m ρ c)).trans (congrArg Cert.Core.regroup2 (out2 m ρ c))
  have hw : V5 m ρ c (Pipeline.arrRef spec2 1) = (m ((c : Thread nD τ).loc main_arg10)) :=
    keep5 m ρ c main_arg10 (by not_written hostOps0) (by decide) (by not_written hostOps1) (by decide) (by not_written hostOps2)
  have hb : V5 m ρ c (Pipeline.arrRef spec2 2) = Cert.Core.col8 (m ((c : Thread nD τ).loc main_arg11)) :=
    (host2_v23 (W4 m ρ c)).trans (congrArg Cert.Core.col8
      (keep4 m ρ c main_arg11 (by not_written hostOps0) (by decide) (by not_written hostOps1) (by decide)))
  have hg : V5 m ρ c (Pipeline.arrRef spec2 3) = Cert.Core.col8 (m ((c : Thread nD τ).loc main_arg12)) :=
    (host2_v24 (W4 m ρ c)).trans (congrArg Cert.Core.col8
      (keep4 m ρ c main_arg12 (by not_written hostOps0) (by decide) (by not_written hostOps1) (by decide)))
  have hβ : V5 m ρ c (Pipeline.arrRef spec2 4) = Cert.Core.col8 (m ((c : Thread nD τ).loc main_arg13)) :=
    (host2_v25 (W4 m ρ c)).trans (congrArg Cert.Core.col8
      (keep4 m ρ c main_arg13 (by not_written hostOps0) (by decide) (by not_written hostOps1) (by decide)))
  calc W6 m ρ c (Proc.devRef .tc main_v26)
      = (dat2 (F := Ideal) (V5 m ρ) c).arrAt 5 cfg2.N := W6_arr m ρ c 5
    _ = _ := Cert.KernelIdeal.Region2.final (V5 m ρ) c
    _ = _ := (congr (congr (congr (congr (congrArg (Cert.Core.level 8 4096 192 32) hx) hw) hb) hg) hβ).trans rfl

/-- THE RESULT: the last boundary's contents of the result buffer are the network of the arguments. -/
theorem result_eq : W8 m ρ c (Proc.devRef .tc main_v29)
    = Cert.Core.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have hx : V7 m ρ c (Pipeline.arrRef spec3 0)
      = Cert.Core.regroup3 (Cert.Core.stage3 (Cert.Core.stage2 (Cert.Core.stage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9)))
        (m ((c : Thread nD τ).loc main_arg10)) (m ((c : Thread nD τ).loc main_arg11)) (m ((c : Thread nD τ).loc main_arg12)) (m ((c : Thread nD τ).loc main_arg13))) :=
    (host3_v28 (W6 m ρ c)).trans (congrArg Cert.Core.regroup3 (out3 m ρ c))
  have hw : V7 m ρ c (Pipeline.arrRef spec3 1) = (m ((c : Thread nD τ).loc main_arg14)) :=
    keep7 m ρ c main_arg14 (by not_written hostOps0) (by decide) (by not_written hostOps1) (by decide) (by not_written hostOps2) (by decide) (by not_written hostOps3)
  have hb : V7 m ρ c (Pipeline.arrRef spec3 2) = (m ((c : Thread nD τ).loc main_arg15)) :=
    keep7 m ρ c main_arg15 (by not_written hostOps0) (by decide) (by not_written hostOps1) (by decide) (by not_written hostOps2) (by decide) (by not_written hostOps3)
  have hg : V7 m ρ c (Pipeline.arrRef spec3 3) = (m ((c : Thread nD τ).loc main_arg16)) :=
    keep7 m ρ c main_arg16 (by not_written hostOps0) (by decide) (by not_written hostOps1) (by decide) (by not_written hostOps2) (by decide) (by not_written hostOps3)
  have hβ : V7 m ρ c (Pipeline.arrRef spec3 4) = (m ((c : Thread nD τ).loc main_arg17)) :=
    keep7 m ρ c main_arg17 (by not_written hostOps0) (by decide) (by not_written hostOps1) (by decide) (by not_written hostOps2) (by decide) (by not_written hostOps3)
  calc W8 m ρ c (Proc.devRef .tc main_v29)
      = (dat3 (F := Ideal) (V7 m ρ) c).arrAt 5 cfg3.N := W8_arr m ρ c 5
    _ = _ := Cert.KernelIdeal.Region3.final (V7 m ρ) c
    _ = _ := (congr (congr (congr (congr (congrArg (Cert.Core.root 4096 256 64) hx) hw) hb) hg) hβ).trans rfl

end Fold

/-! ## The run, with the result read -/

/-- Every weakly fair execution of the kernel program terminates, nothing faulting, with the result buffer at the
    network of the launch contents of the arguments, and the arguments as launched. -/
theorem run_network (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v29) = Cert.Core.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (result_eq m ρ c), (h c).2⟩) (run (F := Ideal) m ρ)

end Cert.KernelIdeal.Result

end
-- ==== Proof.RefOps.lean ====
/- The reference program's @main as lists of its host operations, in the printed order, a called function's
   statements written out at the call over the call's buffers; one list per stretch and the whole. -/
import proofs.«419059_j72584947302887_3_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- 10 operations. -/
abbrev opsGather : List (HloOp τ sig (Elt F)) :=
  [ nullary main_c (constantI S_ 32 0#32),
    unary main_c main_v0 (broadcastInDim S512x16 ![] bcast_S_S512x16 : (⟨S_, .i32⟩ : BufTy).Contents (Elt F) → (⟨S512x16, .i32⟩ : BufTy).Contents (Elt F)),
    binary main_arg1 main_v0 main_v1 (cmpi .slt : (⟨S512x16, .i32⟩ : BufTy).Contents (Elt F) → (⟨S512x16, .i32⟩ : BufTy).Contents (Elt F) → (⟨S512x16, .i1⟩ : BufTy).Contents (Elt F)),
    nullary main_c_0 (constantI S_ 32 6000#32),
    unary main_c_0 main_v2 (broadcastInDim S512x16 ![] bcast_S_S512x16 : (⟨S_, .i32⟩ : BufTy).Contents (Elt F) → (⟨S512x16, .i32⟩ : BufTy).Contents (Elt F)),
    binary main_arg1 main_v2 main_v3 (addi : (⟨S512x16, .i32⟩ : BufTy).Contents (Elt F) → (⟨S512x16, .i32⟩ : BufTy).Contents (Elt F) → (⟨S512x16, .i32⟩ : BufTy).Contents (Elt F)),
    ternary main_v1 main_v3 main_arg1 main_v4 (select : (⟨S512x16, .i1⟩ : BufTy).Contents (Elt F) → (⟨S512x16, .i32⟩ : BufTy).Contents (Elt F) → (⟨S512x16, .i32⟩ : BufTy).Contents (Elt F) → (⟨S512x16, .i32⟩ : BufTy).Contents (Elt F)),
    unary main_v4 main_v5 (broadcastInDim S512x16x1 ![0, 1] bcast_S512x16_S512x16x1_0_1 : (⟨S512x16, .i32⟩ : BufTy).Contents (Elt F) → (⟨S512x16x1, .i32⟩ : BufTy).Contents (Elt F)),
    binary main_arg0 main_v5 main_v6 ((fun x i => Host.gather gather_S4096x6000_S512x16x1_S4096x512x16_0_1_n_n_1_2_40961 x i) : (⟨S4096x6000, .f32⟩ : BufTy).Contents (Elt F) → (⟨S512x16x1, .i32⟩ : BufTy).Contents (Elt F) → (⟨S4096x512x16, .f32⟩ : BufTy).Contents (Elt F)),
    unary main_v6 main_v7 ((transpose S512x4096x16 [1, 0, 2] · transposes_S4096x512x16_S512x4096x16_1_0_2) : (⟨S4096x512x16, .f32⟩ : BufTy).Contents (Elt F) → (⟨S512x4096x16, .f32⟩ : BufTy).Contents (Elt F)) ]

/-- 49 operations. -/
abbrev opsLevel1 : List (HloOp τ sig (Elt F)) :=
  [ binary main_v7 main_arg2 main_v8 ((fun l r => Host.dotGeneral dot_S512x4096x16_S512x20x16_S512x4096x20_2_2_1_1_0_0 none l r) : (⟨S512x4096x16, .f32⟩ : BufTy).Contents (Elt F) → (⟨S512x20x16, .f32⟩ : BufTy).Contents (Elt F) → (⟨S512x4096x20, .f32⟩ : BufTy).Contents (Elt F)),
    unary main_arg3 main_v9 (broadcastInDim S512x1x20 ![0, 2] bcast_S512x20_S512x1x20_0_2 : (⟨S512x20, .f32⟩ : BufTy).Contents (Elt F) → (⟨S512x1x20, .f32⟩ : BufTy).Contents (Elt F)),
    unary main_v9 main_v10 (broadcastInDim S512x4096x20 ![0, 1, 2] bcast_S512x1x20_S512x4096x20_0_1_2 : (⟨S512x1x20, .f32⟩ : BufTy).Contents (Elt F) → (⟨S512x4096x20, .f32⟩ : BufTy).Contents (Elt F)),
    binary main_v8 main_v10 main_v11 (addf : (⟨S512x4096x20, .f32⟩ : BufTy).Contents (Elt F) → (⟨S512x4096x20, .f32⟩ : BufTy).Contents (Elt F) → (⟨S512x4096x20, .f32⟩ : BufTy).Contents (Elt F)),
    unary main_v11 main_v12 (Host.tanh : (⟨S512x4096x20, .f32⟩ : BufTy).Contents (Elt F) → (⟨S512x4096x20, .f32⟩ : BufTy).Contents (Elt F)),
    nullary main_cst (constant S_ .f32 0x00000000#32),
    binary main_v12 main_cst main_v13 ((fun x v => Host.reduceAdd x v reducesTo_S512x4096x20_S512x20_d1 h_S_) : (⟨S512x4096x20, .f32⟩ : BufTy).Contents (Elt F) → (⟨S_, .f32⟩ : BufTy).Contents (Elt F) → (⟨S512x20, .f32⟩ : BufTy).Contents (Elt F)),
    unary main_v13 main_v14 (broadcastInDim S512x1x20 ![0, 2] bcast_S512x20_S512x1x20_0_2 : (⟨S512x20, .f32⟩ : BufTy).Contents (Elt F) → (⟨S512x1x20, .f32⟩ : BufTy).Contents (Elt F)),
    nullary main_cst_1 (constant S_ .f32 0x45800000#32),
    unary main_cst_1 main_v15 (broadcastInDim S512x1x20 ![] bcast_S_S512x1x20 : (⟨S_, .f32⟩ : BufTy).Contents (Elt F) → (⟨S512x1x20, .f32⟩ : BufTy).Contents (Elt F)),
    binary main_v14 main_v15 main_v16 (Host.divf : (⟨S512x1x20, .f32⟩ : BufTy).Contents (Elt F) → (⟨S512x1x20, .f32⟩ : BufTy).Contents (Elt F) → (⟨S512x1x20, .f32⟩ : BufTy).Contents (Elt F)),
    nullary main_c_2 (constantI S_ 32 0#32),
    TRef.nullary main_call0.cst (constant S_ .f32 0x00000000#32),
    TRef.binary (.of main_v12) main_call0.cst main_call0.v0 (fun x v => Host.reduceAdd x v reducesTo_S512x4096x20_S512x20_d1 h_S_),
    TRef.unary main_call0.v0 main_call0.v1 (broadcastInDim S512x1x20 ![0, 2] bcast_S512x20_S512x1x20_0_2),
    TRef.nullary main_call0.cst_0 (constant S_ .f32 0x45800000#32),
    TRef.unary main_call0.cst_0 main_call0.v2 (broadcastInDim S512x1x20 ![] bcast_S_S512x1x20),
    TRef.binary main_call0.v1 main_call0.v2 main_call0.v3 Host.divf,
    TRef.unary main_call0.v3 main_call0.v4 (broadcastInDim S512x4096x20 ![0, 1, 2] bcast_S512x1x20_S512x4096x20_0_1_2),
    TRef.binary (.of main_v12) main_call0.v4 main_call0.v5 subf,
    TRef.binary main_call0.v5 main_call0.v5 main_call0.v6 mulf,
    TRef.unary (.of main_c_2) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S512x4096x20_S512x20_d1 h_S_),
    TRef.unary main_call0.v9 main_call0.v10 (broadcastInDim S512x1x20 ![0, 2] bcast_S512x20_S512x1x20_0_2),
    TRef.unary main_call0.v8 main_call0.v11 (broadcastInDim S512x1x20 ![] bcast_S_S512x1x20),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S512x1x20 ![] bcast_S_S512x1x20),
    TRef.ternary main_call0.v13 main_call0.v12 main_call0.call0.v1 main_call0.call0.v2 (fun p a b => select (broadcastInDim S512x1x20 ![] bcast_S_S512x1x20 p) a b),
    unary main_arg4 main_v18 (broadcastInDim S512x1x20 ![0, 2] bcast_S512x20_S512x1x20_0_2 : (⟨S512x20, .f32⟩ : BufTy).Contents (Elt F) → (⟨S512x1x20, .f32⟩ : BufTy).Contents (Elt F)),
    unary main_v16 main_v19 (broadcastInDim S512x4096x20 ![0, 1, 2] bcast_S512x1x20_S512x4096x20_0_1_2 : (⟨S512x1x20, .f32⟩ : BufTy).Contents (Elt F) → (⟨S512x4096x20, .f32⟩ : BufTy).Contents (Elt F)),
    binary main_v12 main_v19 main_v20 (subf : (⟨S512x4096x20, .f32⟩ : BufTy).Contents (Elt F) → (⟨S512x4096x20, .f32⟩ : BufTy).Contents (Elt F) → (⟨S512x4096x20, .f32⟩ : BufTy).Contents (Elt F)),
    unary main_v18 main_v21 (broadcastInDim S512x4096x20 ![0, 1, 2] bcast_S512x1x20_S512x4096x20_0_1_2 : (⟨S512x1x20, .f32⟩ : BufTy).Contents (Elt F) → (⟨S512x4096x20, .f32⟩ : BufTy).Contents (Elt F)),
    binary main_v21 main_v20 main_v22 (mulf : (⟨S512x4096x20, .f32⟩ : BufTy).Contents (Elt F) → (⟨S512x4096x20, .f32⟩ : BufTy).Contents (Elt F) → (⟨S512x4096x20, .f32⟩ : BufTy).Contents (Elt F)),
    nullary main_cst_3 (constant S_ .f32 0x3727C5AC#32),
    unary main_cst_3 main_v23 (broadcastInDim S512x1x20 ![] bcast_S_S512x1x20 : (⟨S_, .f32⟩ : BufTy).Contents (Elt F) → (⟨S512x1x20, .f32⟩ : BufTy).Contents (Elt F)),
    binary main_v17 main_v23 main_v24 (addf : (⟨S512x1x20, .f32⟩ : BufTy).Contents (Elt F) → (⟨S512x1x20, .f32⟩ : BufTy).Contents (Elt F) → (⟨S512x1x20, .f32⟩ : BufTy).Contents (Elt F)),
    unary main_v24 main_v25 (Host.rsqrt : (⟨S512x1x20, .f32⟩ : BufTy).Contents (Elt F) → (⟨S512x1x20, .f32⟩ : BufTy).Contents (Elt F)),
    unary main_v25 main_v26 (broadcastInDim S512x4096x20 ![0, 1, 2] bcast_S512x1x20_S512x4096x20_0_1_2 : (⟨S512x1x20, .f32⟩ : BufTy).Contents (Elt F) → (⟨S512x4096x20, .f32⟩ : BufTy).Contents (Elt F)),
    binary main_v22 main_v26 main_v27 (mulf : (⟨S512x4096x20, .f32⟩ : BufTy).Contents (Elt F) → (⟨S512x4096x20, .f32⟩ : BufTy).Contents (Elt F) → (⟨S512x4096x20, .f32⟩ : BufTy).Contents (Elt F)),
    unary main_arg5 main_v28 (broadcastInDim S512x1x20 ![0, 2] bcast_S512x20_S512x1x20_0_2 : (⟨S512x20, .f32⟩ : BufTy).Contents (Elt F) → (⟨S512x1x20, .f32⟩ : BufTy).Contents (Elt F)),
    unary main_v28 main_v29 (broadcastInDim S512x4096x20 ![0, 1, 2] bcast_S512x1x20_S512x4096x20_0_1_2 : (⟨S512x1x20, .f32⟩ : BufTy).Contents (Elt F) → (⟨S512x4096x20, .f32⟩ : BufTy).Contents (Elt F)),
    binary main_v27 main_v29 main_v30 (addf : (⟨S512x4096x20, .f32⟩ : BufTy).Contents (Elt F) → (⟨S512x4096x20, .f32⟩ : BufTy).Contents (Elt F) → (⟨S512x4096x20, .f32⟩ : BufTy).Contents (Elt F)) ]

/-- 3 operations. -/
abbrev opsGlue1 : List (HloOp τ sig (Elt F)) :=
  [ reshape main_v30 main_v31 rfl shapeCasts_S512x4096x20_S64x8x4096x20,
    unary main_v31 main_v32 ((transpose S64x4096x8x20 [0, 2, 1, 3] · transposes_S64x8x4096x20_S64x4096x8x20_0_2_1_3) : (⟨S64x8x4096x20, .f32⟩ : BufTy).Contents (Elt F) → (⟨S64x4096x8x20, .f32⟩ : BufTy).Contents (Elt F)),
    reshape main_v32 main_v33 rfl shapeCasts_S64x4096x8x20_S64x4096x160 ]

/-- 49 operations. -/
abbrev opsLevel2 : List (HloOp τ sig (Elt F)) :=
  [ binary main_v33 main_arg6 main_v34 ((fun l r => Host.dotGeneral dot_S64x4096x160_S64x24x160_S64x4096x24_2_2_1_1_0_0 none l r) : (⟨S64x4096x160, .f32⟩ : BufTy).Contents (Elt F) → (⟨S64x24x160, .f32⟩ : BufTy).Contents (Elt F) → (⟨S64x4096x24, .f32⟩ : BufTy).Contents (Elt F)),
    unary main_arg7 main_v35 (broadcastInDim S64x1x24 ![0, 2] bcast_S64x24_S64x1x24_0_2 : (⟨S64x24, .f32⟩ : BufTy).Contents (Elt F) → (⟨S64x1x24, .f32⟩ : BufTy).Contents (Elt F)),
    unary main_v35 main_v36 (broadcastInDim S64x4096x24 ![0, 1, 2] bcast_S64x1x24_S64x4096x24_0_1_2 : (⟨S64x1x24, .f32⟩ : BufTy).Contents (Elt F) → (⟨S64x4096x24, .f32⟩ : BufTy).Contents (Elt F)),
    binary main_v34 main_v36 main_v37 (addf : (⟨S64x4096x24, .f32⟩ : BufTy).Contents (Elt F) → (⟨S64x4096x24, .f32⟩ : BufTy).Contents (Elt F) → (⟨S64x4096x24, .f32⟩ : BufTy).Contents (Elt F)),
    unary main_v37 main_v38 (Host.tanh : (⟨S64x4096x24, .f32⟩ : BufTy).Contents (Elt F) → (⟨S64x4096x24, .f32⟩ : BufTy).Contents (Elt F)),
    nullary main_cst_4 (constant S_ .f32 0x00000000#32),
    binary main_v38 main_cst_4 main_v39 ((fun x v => Host.reduceAdd x v reducesTo_S64x4096x24_S64x24_d1 h_S_) : (⟨S64x4096x24, .f32⟩ : BufTy).Contents (Elt F) → (⟨S_, .f32⟩ : BufTy).Contents (Elt F) → (⟨S64x24, .f32⟩ : BufTy).Contents (Elt F)),
    unary main_v39 main_v40 (broadcastInDim S64x1x24 ![0, 2] bcast_S64x24_S64x1x24_0_2 : (⟨S64x24, .f32⟩ : BufTy).Contents (Elt F) → (⟨S64x1x24, .f32⟩ : BufTy).Contents (Elt F)),
    nullary main_cst_5 (constant S_ .f32 0x45800000#32),
    unary main_cst_5 main_v41 (broadcastInDim S64x1x24 ![] bcast_S_S64x1x24 : (⟨S_, .f32⟩ : BufTy).Contents (Elt F) → (⟨S64x1x24, .f32⟩ : BufTy).Contents (Elt F)),
    binary main_v40 main_v41 main_v42 (Host.divf : (⟨S64x1x24, .f32⟩ : BufTy).Contents (Elt F) → (⟨S64x1x24, .f32⟩ : BufTy).Contents (Elt F) → (⟨S64x1x24, .f32⟩ : BufTy).Contents (Elt F)),
    nullary main_c_6 (constantI S_ 32 0#32),
    TRef.nullary main_call1.cst (constant S_ .f32 0x00000000#32),
    TRef.binary (.of main_v38) main_call1.cst main_call1.v0 (fun x v => Host.reduceAdd x v reducesTo_S64x4096x24_S64x24_d1 h_S_),
    TRef.unary main_call1.v0 main_call1.v1 (broadcastInDim S64x1x24 ![0, 2] bcast_S64x24_S64x1x24_0_2),
    TRef.nullary main_call1.cst_0 (constant S_ .f32 0x45800000#32),
    TRef.unary main_call1.cst_0 main_call1.v2 (broadcastInDim S64x1x24 ![] bcast_S_S64x1x24),
    TRef.binary main_call1.v1 main_call1.v2 main_call1.v3 Host.divf,
    TRef.unary main_call1.v3 main_call1.v4 (broadcastInDim S64x4096x24 ![0, 1, 2] bcast_S64x1x24_S64x4096x24_0_1_2),
    TRef.binary (.of main_v38) main_call1.v4 main_call1.v5 subf,
    TRef.binary main_call1.v5 main_call1.v5 main_call1.v6 mulf,
    TRef.unary (.of main_c_6) main_call1.v7 (sitofp .f32),
    TRef.nullary main_call1.cst_1 (constant S_ .f32 0x45800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S64x4096x24_S64x24_d1 h_S_),
    TRef.unary main_call1.v9 main_call1.v10 (broadcastInDim S64x1x24 ![0, 2] bcast_S64x24_S64x1x24_0_2),
    TRef.unary main_call1.v8 main_call1.v11 (broadcastInDim S64x1x24 ![] bcast_S_S64x1x24),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S64x1x24 ![] bcast_S_S64x1x24),
    TRef.ternary main_call1.v13 main_call1.v12 main_call1.call0.v1 main_call1.call0.v2 (fun p a b => select (broadcastInDim S64x1x24 ![] bcast_S_S64x1x24 p) a b),
    unary main_arg8 main_v44 (broadcastInDim S64x1x24 ![0, 2] bcast_S64x24_S64x1x24_0_2 : (⟨S64x24, .f32⟩ : BufTy).Contents (Elt F) → (⟨S64x1x24, .f32⟩ : BufTy).Contents (Elt F)),
    unary main_v42 main_v45 (broadcastInDim S64x4096x24 ![0, 1, 2] bcast_S64x1x24_S64x4096x24_0_1_2 : (⟨S64x1x24, .f32⟩ : BufTy).Contents (Elt F) → (⟨S64x4096x24, .f32⟩ : BufTy).Contents (Elt F)),
    binary main_v38 main_v45 main_v46 (subf : (⟨S64x4096x24, .f32⟩ : BufTy).Contents (Elt F) → (⟨S64x4096x24, .f32⟩ : BufTy).Contents (Elt F) → (⟨S64x4096x24, .f32⟩ : BufTy).Contents (Elt F)),
    unary main_v44 main_v47 (broadcastInDim S64x4096x24 ![0, 1, 2] bcast_S64x1x24_S64x4096x24_0_1_2 : (⟨S64x1x24, .f32⟩ : BufTy).Contents (Elt F) → (⟨S64x4096x24, .f32⟩ : BufTy).Contents (Elt F)),
    binary main_v47 main_v46 main_v48 (mulf : (⟨S64x4096x24, .f32⟩ : BufTy).Contents (Elt F) → (⟨S64x4096x24, .f32⟩ : BufTy).Contents (Elt F) → (⟨S64x4096x24, .f32⟩ : BufTy).Contents (Elt F)),
    nullary main_cst_7 (constant S_ .f32 0x3727C5AC#32),
    unary main_cst_7 main_v49 (broadcastInDim S64x1x24 ![] bcast_S_S64x1x24 : (⟨S_, .f32⟩ : BufTy).Contents (Elt F) → (⟨S64x1x24, .f32⟩ : BufTy).Contents (Elt F)),
    binary main_v43 main_v49 main_v50 (addf : (⟨S64x1x24, .f32⟩ : BufTy).Contents (Elt F) → (⟨S64x1x24, .f32⟩ : BufTy).Contents (Elt F) → (⟨S64x1x24, .f32⟩ : BufTy).Contents (Elt F)),
    unary main_v50 main_v51 (Host.rsqrt : (⟨S64x1x24, .f32⟩ : BufTy).Contents (Elt F) → (⟨S64x1x24, .f32⟩ : BufTy).Contents (Elt F)),
    unary main_v51 main_v52 (broadcastInDim S64x4096x24 ![0, 1, 2] bcast_S64x1x24_S64x4096x24_0_1_2 : (⟨S64x1x24, .f32⟩ : BufTy).Contents (Elt F) → (⟨S64x4096x24, .f32⟩ : BufTy).Contents (Elt F)),
    binary main_v48 main_v52 main_v53 (mulf : (⟨S64x4096x24, .f32⟩ : BufTy).Contents (Elt F) → (⟨S64x4096x24, .f32⟩ : BufTy).Contents (Elt F) → (⟨S64x4096x24, .f32⟩ : BufTy).Contents (Elt F)),
    unary main_arg9 main_v54 (broadcastInDim S64x1x24 ![0, 2] bcast_S64x24_S64x1x24_0_2 : (⟨S64x24, .f32⟩ : BufTy).Contents (Elt F) → (⟨S64x1x24, .f32⟩ : BufTy).Contents (Elt F)),
    unary main_v54 main_v55 (broadcastInDim S64x4096x24 ![0, 1, 2] bcast_S64x1x24_S64x4096x24_0_1_2 : (⟨S64x1x24, .f32⟩ : BufTy).Contents (Elt F) → (⟨S64x4096x24, .f32⟩ : BufTy).Contents (Elt F)),
    binary main_v53 main_v55 main_v56 (addf : (⟨S64x4096x24, .f32⟩ : BufTy).Contents (Elt F) → (⟨S64x4096x24, .f32⟩ : BufTy).Contents (Elt F) → (⟨S64x4096x24, .f32⟩ : BufTy).Contents (Elt F)) ]

/-- 3 operations. -/
abbrev opsGlue2 : List (HloOp τ sig (Elt F)) :=
  [ reshape main_v56 main_v57 rfl shapeCasts_S64x4096x24_S8x8x4096x24,
    unary main_v57 main_v58 ((transpose S8x4096x8x24 [0, 2, 1, 3] · transposes_S8x8x4096x24_S8x4096x8x24_0_2_1_3) : (⟨S8x8x4096x24, .f32⟩ : BufTy).Contents (Elt F) → (⟨S8x4096x8x24, .f32⟩ : BufTy).Contents (Elt F)),
    reshape main_v58 main_v59 rfl shapeCasts_S8x4096x8x24_S8x4096x192 ]

/-- 49 operations. -/
abbrev opsLevel3 : List (HloOp τ sig (Elt F)) :=
  [ binary main_v59 main_arg10 main_v60 ((fun l r => Host.dotGeneral dot_S8x4096x192_S8x32x192_S8x4096x32_2_2_1_1_0_0 none l r) : (⟨S8x4096x192, .f32⟩ : BufTy).Contents (Elt F) → (⟨S8x32x192, .f32⟩ : BufTy).Contents (Elt F) → (⟨S8x4096x32, .f32⟩ : BufTy).Contents (Elt F)),
    unary main_arg11 main_v61 (broadcastInDim S8x1x32 ![0, 2] bcast_S8x32_S8x1x32_0_2 : (⟨S8x32, .f32⟩ : BufTy).Contents (Elt F) → (⟨S8x1x32, .f32⟩ : BufTy).Contents (Elt F)),
    unary main_v61 main_v62 (broadcastInDim S8x4096x32 ![0, 1, 2] bcast_S8x1x32_S8x4096x32_0_1_2 : (⟨S8x1x32, .f32⟩ : BufTy).Contents (Elt F) → (⟨S8x4096x32, .f32⟩ : BufTy).Contents (Elt F)),
    binary main_v60 main_v62 main_v63 (addf : (⟨S8x4096x32, .f32⟩ : BufTy).Contents (Elt F) → (⟨S8x4096x32, .f32⟩ : BufTy).Contents (Elt F) → (⟨S8x4096x32, .f32⟩ : BufTy).Contents (Elt F)),
    unary main_v63 main_v64 (Host.tanh : (⟨S8x4096x32, .f32⟩ : BufTy).Contents (Elt F) → (⟨S8x4096x32, .f32⟩ : BufTy).Contents (Elt F)),
    nullary main_cst_8 (constant S_ .f32 0x00000000#32),
    binary main_v64 main_cst_8 main_v65 ((fun x v => Host.reduceAdd x v reducesTo_S8x4096x32_S8x32_d1 h_S_) : (⟨S8x4096x32, .f32⟩ : BufTy).Contents (Elt F) → (⟨S_, .f32⟩ : BufTy).Contents (Elt F) → (⟨S8x32, .f32⟩ : BufTy).Contents (Elt F)),
    unary main_v65 main_v66 (broadcastInDim S8x1x32 ![0, 2] bcast_S8x32_S8x1x32_0_2 : (⟨S8x32, .f32⟩ : BufTy).Contents (Elt F) → (⟨S8x1x32, .f32⟩ : BufTy).Contents (Elt F)),
    nullary main_cst_9 (constant S_ .f32 0x45800000#32),
    unary main_cst_9 main_v67 (broadcastInDim S8x1x32 ![] bcast_S_S8x1x32 : (⟨S_, .f32⟩ : BufTy).Contents (Elt F) → (⟨S8x1x32, .f32⟩ : BufTy).Contents (Elt F)),
    binary main_v66 main_v67 main_v68 (Host.divf : (⟨S8x1x32, .f32⟩ : BufTy).Contents (Elt F) → (⟨S8x1x32, .f32⟩ : BufTy).Contents (Elt F) → (⟨S8x1x32, .f32⟩ : BufTy).Contents (Elt F)),
    nullary main_c_10 (constantI S_ 32 0#32),
    TRef.nullary main_call2.cst (constant S_ .f32 0x00000000#32),
    TRef.binary (.of main_v64) main_call2.cst main_call2.v0 (fun x v => Host.reduceAdd x v reducesTo_S8x4096x32_S8x32_d1 h_S_),
    TRef.unary main_call2.v0 main_call2.v1 (broadcastInDim S8x1x32 ![0, 2] bcast_S8x32_S8x1x32_0_2),
    TRef.nullary main_call2.cst_0 (constant S_ .f32 0x45800000#32),
    TRef.unary main_call2.cst_0 main_call2.v2 (broadcastInDim S8x1x32 ![] bcast_S_S8x1x32),
    TRef.binary main_call2.v1 main_call2.v2 main_call2.v3 Host.divf,
    TRef.unary main_call2.v3 main_call2.v4 (broadcastInDim S8x4096x32 ![0, 1, 2] bcast_S8x1x32_S8x4096x32_0_1_2),
    TRef.binary (.of main_v64) main_call2.v4 main_call2.v5 subf,
    TRef.binary main_call2.v5 main_call2.v5 main_call2.v6 mulf,
    TRef.unary (.of main_c_10) main_call2.v7 (sitofp .f32),
    TRef.nullary main_call2.cst_1 (constant S_ .f32 0x45800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S8x4096x32_S8x32_d1 h_S_),
    TRef.unary main_call2.v9 main_call2.v10 (broadcastInDim S8x1x32 ![0, 2] bcast_S8x32_S8x1x32_0_2),
    TRef.unary main_call2.v8 main_call2.v11 (broadcastInDim S8x1x32 ![] bcast_S_S8x1x32),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S8x1x32 ![] bcast_S_S8x1x32),
    TRef.ternary main_call2.v13 main_call2.v12 main_call2.call0.v1 main_call2.call0.v2 (fun p a b => select (broadcastInDim S8x1x32 ![] bcast_S_S8x1x32 p) a b),
    unary main_arg12 main_v70 (broadcastInDim S8x1x32 ![0, 2] bcast_S8x32_S8x1x32_0_2 : (⟨S8x32, .f32⟩ : BufTy).Contents (Elt F) → (⟨S8x1x32, .f32⟩ : BufTy).Contents (Elt F)),
    unary main_v68 main_v71 (broadcastInDim S8x4096x32 ![0, 1, 2] bcast_S8x1x32_S8x4096x32_0_1_2 : (⟨S8x1x32, .f32⟩ : BufTy).Contents (Elt F) → (⟨S8x4096x32, .f32⟩ : BufTy).Contents (Elt F)),
    binary main_v64 main_v71 main_v72 (subf : (⟨S8x4096x32, .f32⟩ : BufTy).Contents (Elt F) → (⟨S8x4096x32, .f32⟩ : BufTy).Contents (Elt F) → (⟨S8x4096x32, .f32⟩ : BufTy).Contents (Elt F)),
    unary main_v70 main_v73 (broadcastInDim S8x4096x32 ![0, 1, 2] bcast_S8x1x32_S8x4096x32_0_1_2 : (⟨S8x1x32, .f32⟩ : BufTy).Contents (Elt F) → (⟨S8x4096x32, .f32⟩ : BufTy).Contents (Elt F)),
    binary main_v73 main_v72 main_v74 (mulf : (⟨S8x4096x32, .f32⟩ : BufTy).Contents (Elt F) → (⟨S8x4096x32, .f32⟩ : BufTy).Contents (Elt F) → (⟨S8x4096x32, .f32⟩ : BufTy).Contents (Elt F)),
    nullary main_cst_11 (constant S_ .f32 0x3727C5AC#32),
    unary main_cst_11 main_v75 (broadcastInDim S8x1x32 ![] bcast_S_S8x1x32 : (⟨S_, .f32⟩ : BufTy).Contents (Elt F) → (⟨S8x1x32, .f32⟩ : BufTy).Contents (Elt F)),
    binary main_v69 main_v75 main_v76 (addf : (⟨S8x1x32, .f32⟩ : BufTy).Contents (Elt F) → (⟨S8x1x32, .f32⟩ : BufTy).Contents (Elt F) → (⟨S8x1x32, .f32⟩ : BufTy).Contents (Elt F)),
    unary main_v76 main_v77 (Host.rsqrt : (⟨S8x1x32, .f32⟩ : BufTy).Contents (Elt F) → (⟨S8x1x32, .f32⟩ : BufTy).Contents (Elt F)),
    unary main_v77 main_v78 (broadcastInDim S8x4096x32 ![0, 1, 2] bcast_S8x1x32_S8x4096x32_0_1_2 : (⟨S8x1x32, .f32⟩ : BufTy).Contents (Elt F) → (⟨S8x4096x32, .f32⟩ : BufTy).Contents (Elt F)),
    binary main_v74 main_v78 main_v79 (mulf : (⟨S8x4096x32, .f32⟩ : BufTy).Contents (Elt F) → (⟨S8x4096x32, .f32⟩ : BufTy).Contents (Elt F) → (⟨S8x4096x32, .f32⟩ : BufTy).Contents (Elt F)),
    unary main_arg13 main_v80 (broadcastInDim S8x1x32 ![0, 2] bcast_S8x32_S8x1x32_0_2 : (⟨S8x32, .f32⟩ : BufTy).Contents (Elt F) → (⟨S8x1x32, .f32⟩ : BufTy).Contents (Elt F)),
    unary main_v80 main_v81 (broadcastInDim S8x4096x32 ![0, 1, 2] bcast_S8x1x32_S8x4096x32_0_1_2 : (⟨S8x1x32, .f32⟩ : BufTy).Contents (Elt F) → (⟨S8x4096x32, .f32⟩ : BufTy).Contents (Elt F)),
    binary main_v79 main_v81 main_v82 (addf : (⟨S8x4096x32, .f32⟩ : BufTy).Contents (Elt F) → (⟨S8x4096x32, .f32⟩ : BufTy).Contents (Elt F) → (⟨S8x4096x32, .f32⟩ : BufTy).Contents (Elt F)) ]

/-- 2 operations. -/
abbrev opsGlue3 : List (HloOp τ sig (Elt F)) :=
  [ unary main_v82 main_v83 ((transpose S4096x8x32 [1, 0, 2] · transposes_S8x4096x32_S4096x8x32_1_0_2) : (⟨S8x4096x32, .f32⟩ : BufTy).Contents (Elt F) → (⟨S4096x8x32, .f32⟩ : BufTy).Contents (Elt F)),
    reshape main_v83 main_v84 rfl shapeCasts_S4096x8x32_S4096x256 ]

/-- 50 operations. -/
abbrev opsRoot : List (HloOp τ sig (Elt F)) :=
  [ unary main_arg14 main_v85 ((transpose S256x64 [1, 0] · transposes_S64x256_S256x64_1_0) : (⟨S64x256, .f32⟩ : BufTy).Contents (Elt F) → (⟨S256x64, .f32⟩ : BufTy).Contents (Elt F)),
    binary main_v84 main_v85 main_v86 ((fun l r => Host.dotGeneral dot_S4096x256_S256x64_S4096x64_1_0_0_1_n_n none l r) : (⟨S4096x256, .f32⟩ : BufTy).Contents (Elt F) → (⟨S256x64, .f32⟩ : BufTy).Contents (Elt F) → (⟨S4096x64, .f32⟩ : BufTy).Contents (Elt F)),
    unary main_arg15 main_v87 (broadcastInDim S1x64 ![1] bcast_S64_S1x64_1 : (⟨S64, .f32⟩ : BufTy).Contents (Elt F) → (⟨S1x64, .f32⟩ : BufTy).Contents (Elt F)),
    unary main_v87 main_v88 (broadcastInDim S4096x64 ![0, 1] bcast_S1x64_S4096x64_0_1 : (⟨S1x64, .f32⟩ : BufTy).Contents (Elt F) → (⟨S4096x64, .f32⟩ : BufTy).Contents (Elt F)),
    binary main_v86 main_v88 main_v89 (addf : (⟨S4096x64, .f32⟩ : BufTy).Contents (Elt F) → (⟨S4096x64, .f32⟩ : BufTy).Contents (Elt F) → (⟨S4096x64, .f32⟩ : BufTy).Contents (Elt F)),
    unary main_v89 main_v90 (Host.tanh : (⟨S4096x64, .f32⟩ : BufTy).Contents (Elt F) → (⟨S4096x64, .f32⟩ : BufTy).Contents (Elt F)),
    nullary main_cst_12 (constant S_ .f32 0x00000000#32),
    binary main_v90 main_cst_12 main_v91 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
    unary main_v91 main_v92 (broadcastInDim S1x64 ![1] bcast_S64_S1x64_1 : (⟨S64, .f32⟩ : BufTy).Contents (Elt F) → (⟨S1x64, .f32⟩ : BufTy).Contents (Elt F)),
    nullary main_cst_13 (constant S_ .f32 0x45800000#32),
    unary main_cst_13 main_v93 (broadcastInDim S1x64 ![] bcast_S_S1x64 : (⟨S_, .f32⟩ : BufTy).Contents (Elt F) → (⟨S1x64, .f32⟩ : BufTy).Contents (Elt F)),
    binary main_v92 main_v93 main_v94 (Host.divf : (⟨S1x64, .f32⟩ : BufTy).Contents (Elt F) → (⟨S1x64, .f32⟩ : BufTy).Contents (Elt F) → (⟨S1x64, .f32⟩ : BufTy).Contents (Elt F)),
    nullary main_c_14 (constantI S_ 32 0#32),
    TRef.nullary main_call3.cst (constant S_ .f32 0x00000000#32),
    TRef.binary (.of main_v90) main_call3.cst main_call3.v0 (fun x v => Host.reduceAdd x v reducesTo_S4096x64_S64_d0 h_S_),
    TRef.unary main_call3.v0 main_call3.v1 (broadcastInDim S1x64 ![1] bcast_S64_S1x64_1),
    TRef.nullary main_call3.cst_0 (constant S_ .f32 0x45800000#32),
    TRef.unary main_call3.cst_0 main_call3.v2 (broadcastInDim S1x64 ![] bcast_S_S1x64),
    TRef.binary main_call3.v1 main_call3.v2 main_call3.v3 Host.divf,
    TRef.unary main_call3.v3 main_call3.v4 (broadcastInDim S4096x64 ![0, 1] bcast_S1x64_S4096x64_0_1),
    TRef.binary (.of main_v90) main_call3.v4 main_call3.v5 subf,
    TRef.binary main_call3.v5 main_call3.v5 main_call3.v6 mulf,
    TRef.unary (.of main_c_14) main_call3.v7 (sitofp .f32),
    TRef.nullary main_call3.cst_1 (constant S_ .f32 0x45800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S4096x64_S64_d0 h_S_),
    TRef.unary main_call3.v9 main_call3.v10 (broadcastInDim S1x64 ![1] bcast_S64_S1x64_1),
    TRef.unary main_call3.v8 main_call3.v11 (broadcastInDim S1x64 ![] bcast_S_S1x64),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S1x64 ![] bcast_S_S1x64),
    TRef.ternary main_call3.v13 main_call3.v12 main_call3.call0.v1 main_call3.call0.v2 (fun p a b => select (broadcastInDim S1x64 ![] bcast_S_S1x64 p) a b),
    unary main_v94 main_v96 (broadcastInDim S4096x64 ![0, 1] bcast_S1x64_S4096x64_0_1 : (⟨S1x64, .f32⟩ : BufTy).Contents (Elt F) → (⟨S4096x64, .f32⟩ : BufTy).Contents (Elt F)),
    binary main_v90 main_v96 main_v97 (subf : (⟨S4096x64, .f32⟩ : BufTy).Contents (Elt F) → (⟨S4096x64, .f32⟩ : BufTy).Contents (Elt F) → (⟨S4096x64, .f32⟩ : BufTy).Contents (Elt F)),
    unary main_arg16 main_v98 (broadcastInDim S1x64 ![1] bcast_S64_S1x64_1 : (⟨S64, .f32⟩ : BufTy).Contents (Elt F) → (⟨S1x64, .f32⟩ : BufTy).Contents (Elt F)),
    unary main_v98 main_v99 (broadcastInDim S4096x64 ![0, 1] bcast_S1x64_S4096x64_0_1 : (⟨S1x64, .f32⟩ : BufTy).Contents (Elt F) → (⟨S4096x64, .f32⟩ : BufTy).Contents (Elt F)),
    binary main_v99 main_v97 main_v100 (mulf : (⟨S4096x64, .f32⟩ : BufTy).Contents (Elt F) → (⟨S4096x64, .f32⟩ : BufTy).Contents (Elt F) → (⟨S4096x64, .f32⟩ : BufTy).Contents (Elt F)),
    nullary main_cst_15 (constant S_ .f32 0x3727C5AC#32),
    unary main_cst_15 main_v101 (broadcastInDim S1x64 ![] bcast_S_S1x64 : (⟨S_, .f32⟩ : BufTy).Contents (Elt F) → (⟨S1x64, .f32⟩ : BufTy).Contents (Elt F)),
    binary main_v95 main_v101 main_v102 (addf : (⟨S1x64, .f32⟩ : BufTy).Contents (Elt F) → (⟨S1x64, .f32⟩ : BufTy).Contents (Elt F) → (⟨S1x64, .f32⟩ : BufTy).Contents (Elt F)),
    unary main_v102 main_v103 (Host.rsqrt : (⟨S1x64, .f32⟩ : BufTy).Contents (Elt F) → (⟨S1x64, .f32⟩ : BufTy).Contents (Elt F)),
    unary main_v103 main_v104 (broadcastInDim S4096x64 ![0, 1] bcast_S1x64_S4096x64_0_1 : (⟨S1x64, .f32⟩ : BufTy).Contents (Elt F) → (⟨S4096x64, .f32⟩ : BufTy).Contents (Elt F)),
    binary main_v100 main_v104 main_v105 (mulf : (⟨S4096x64, .f32⟩ : BufTy).Contents (Elt F) → (⟨S4096x64, .f32⟩ : BufTy).Contents (Elt F) → (⟨S4096x64, .f32⟩ : BufTy).Contents (Elt F)),
    unary main_arg17 main_v106 (broadcastInDim S1x64 ![1] bcast_S64_S1x64_1 : (⟨S64, .f32⟩ : BufTy).Contents (Elt F) → (⟨S1x64, .f32⟩ : BufTy).Contents (Elt F)),
    unary main_v106 main_v107 (broadcastInDim S4096x64 ![0, 1] bcast_S1x64_S4096x64_0_1 : (⟨S1x64, .f32⟩ : BufTy).Contents (Elt F) → (⟨S4096x64, .f32⟩ : BufTy).Contents (Elt F)),
    binary main_v105 main_v107 main_v108 (addf : (⟨S4096x64, .f32⟩ : BufTy).Contents (Elt F) → (⟨S4096x64, .f32⟩ : BufTy).Contents (Elt F) → (⟨S4096x64, .f32⟩ : BufTy).Contents (Elt F)) ]

/-- All 215 operations. -/
abbrev ops : List (HloOp τ sig (Elt F)) :=
  [ nullary main_c (constantI S_ 32 0#32),
    unary main_c main_v0 (broadcastInDim S512x16 ![] bcast_S_S512x16 : (⟨S_, .i32⟩ : BufTy).Contents (Elt F) → (⟨S512x16, .i32⟩ : BufTy).Contents (Elt F)),
    binary main_arg1 main_v0 main_v1 (cmpi .slt : (⟨S512x16, .i32⟩ : BufTy).Contents (Elt F) → (⟨S512x16, .i32⟩ : BufTy).Contents (Elt F) → (⟨S512x16, .i1⟩ : BufTy).Contents (Elt F)),
    nullary main_c_0 (constantI S_ 32 6000#32),
    unary main_c_0 main_v2 (broadcastInDim S512x16 ![] bcast_S_S512x16 : (⟨S_, .i32⟩ : BufTy).Contents (Elt F) → (⟨S512x16, .i32⟩ : BufTy).Contents (Elt F)),
    binary main_arg1 main_v2 main_v3 (addi : (⟨S512x16, .i32⟩ : BufTy).Contents (Elt F) → (⟨S512x16, .i32⟩ : BufTy).Contents (Elt F) → (⟨S512x16, .i32⟩ : BufTy).Contents (Elt F)),
    ternary main_v1 main_v3 main_arg1 main_v4 (select : (⟨S512x16, .i1⟩ : BufTy).Contents (Elt F) → (⟨S512x16, .i32⟩ : BufTy).Contents (Elt F) → (⟨S512x16, .i32⟩ : BufTy).Contents (Elt F) → (⟨S512x16, .i32⟩ : BufTy).Contents (Elt F)),
    unary main_v4 main_v5 (broadcastInDim S512x16x1 ![0, 1] bcast_S512x16_S512x16x1_0_1 : (⟨S512x16, .i32⟩ : BufTy).Contents (Elt F) → (⟨S512x16x1, .i32⟩ : BufTy).Contents (Elt F)),
    binary main_arg0 main_v5 main_v6 ((fun x i => Host.gather gather_S4096x6000_S512x16x1_S4096x512x16_0_1_n_n_1_2_40961 x i) : (⟨S4096x6000, .f32⟩ : BufTy).Contents (Elt F) → (⟨S512x16x1, .i32⟩ : BufTy).Contents (Elt F) → (⟨S4096x512x16, .f32⟩ : BufTy).Contents (Elt F)),
    unary main_v6 main_v7 ((transpose S512x4096x16 [1, 0, 2] · transposes_S4096x512x16_S512x4096x16_1_0_2) : (⟨S4096x512x16, .f32⟩ : BufTy).Contents (Elt F) → (⟨S512x4096x16, .f32⟩ : BufTy).Contents (Elt F)),
    binary main_v7 main_arg2 main_v8 ((fun l r => Host.dotGeneral dot_S512x4096x16_S512x20x16_S512x4096x20_2_2_1_1_0_0 none l r) : (⟨S512x4096x16, .f32⟩ : BufTy).Contents (Elt F) → (⟨S512x20x16, .f32⟩ : BufTy).Contents (Elt F) → (⟨S512x4096x20, .f32⟩ : BufTy).Contents (Elt F)),
    unary main_arg3 main_v9 (broadcastInDim S512x1x20 ![0, 2] bcast_S512x20_S512x1x20_0_2 : (⟨S512x20, .f32⟩ : BufTy).Contents (Elt F) → (⟨S512x1x20, .f32⟩ : BufTy).Contents (Elt F)),
    unary main_v9 main_v10 (broadcastInDim S512x4096x20 ![0, 1, 2] bcast_S512x1x20_S512x4096x20_0_1_2 : (⟨S512x1x20, .f32⟩ : BufTy).Contents (Elt F) → (⟨S512x4096x20, .f32⟩ : BufTy).Contents (Elt F)),
    binary main_v8 main_v10 main_v11 (addf : (⟨S512x4096x20, .f32⟩ : BufTy).Contents (Elt F) → (⟨S512x4096x20, .f32⟩ : BufTy).Contents (Elt F) → (⟨S512x4096x20, .f32⟩ : BufTy).Contents (Elt F)),
    unary main_v11 main_v12 (Host.tanh : (⟨S512x4096x20, .f32⟩ : BufTy).Contents (Elt F) → (⟨S512x4096x20, .f32⟩ : BufTy).Contents (Elt F)),
    nullary main_cst (constant S_ .f32 0x00000000#32),
    binary main_v12 main_cst main_v13 ((fun x v => Host.reduceAdd x v reducesTo_S512x4096x20_S512x20_d1 h_S_) : (⟨S512x4096x20, .f32⟩ : BufTy).Contents (Elt F) → (⟨S_, .f32⟩ : BufTy).Contents (Elt F) → (⟨S512x20, .f32⟩ : BufTy).Contents (Elt F)),
    unary main_v13 main_v14 (broadcastInDim S512x1x20 ![0, 2] bcast_S512x20_S512x1x20_0_2 : (⟨S512x20, .f32⟩ : BufTy).Contents (Elt F) → (⟨S512x1x20, .f32⟩ : BufTy).Contents (Elt F)),
    nullary main_cst_1 (constant S_ .f32 0x45800000#32),
    unary main_cst_1 main_v15 (broadcastInDim S512x1x20 ![] bcast_S_S512x1x20 : (⟨S_, .f32⟩ : BufTy).Contents (Elt F) → (⟨S512x1x20, .f32⟩ : BufTy).Contents (Elt F)),
    binary main_v14 main_v15 main_v16 (Host.divf : (⟨S512x1x20, .f32⟩ : BufTy).Contents (Elt F) → (⟨S512x1x20, .f32⟩ : BufTy).Contents (Elt F) → (⟨S512x1x20, .f32⟩ : BufTy).Contents (Elt F)),
    nullary main_c_2 (constantI S_ 32 0#32),
    TRef.nullary main_call0.cst (constant S_ .f32 0x00000000#32),
    TRef.binary (.of main_v12) main_call0.cst main_call0.v0 (fun x v => Host.reduceAdd x v reducesTo_S512x4096x20_S512x20_d1 h_S_),
    TRef.unary main_call0.v0 main_call0.v1 (broadcastInDim S512x1x20 ![0, 2] bcast_S512x20_S512x1x20_0_2),
    TRef.nullary main_call0.cst_0 (constant S_ .f32 0x45800000#32),
    TRef.unary main_call0.cst_0 main_call0.v2 (broadcastInDim S512x1x20 ![] bcast_S_S512x1x20),
    TRef.binary main_call0.v1 main_call0.v2 main_call0.v3 Host.divf,
    TRef.unary main_call0.v3 main_call0.v4 (broadcastInDim S512x4096x20 ![0, 1, 2] bcast_S512x1x20_S512x4096x20_0_1_2),
    TRef.binary (.of main_v12) main_call0.v4 main_call0.v5 subf,
    TRef.binary main_call0.v5 main_call0.v5 main_call0.v6 mulf,
    TRef.unary (.of main_c_2) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S512x4096x20_S512x20_d1 h_S_),
    TRef.unary main_call0.v9 main_call0.v10 (broadcastInDim S512x1x20 ![0, 2] bcast_S512x20_S512x1x20_0_2),
    TRef.unary main_call0.v8 main_call0.v11 (broadcastInDim S512x1x20 ![] bcast_S_S512x1x20),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S512x1x20 ![] bcast_S_S512x1x20),
    TRef.ternary main_call0.v13 main_call0.v12 main_call0.call0.v1 main_call0.call0.v2 (fun p a b => select (broadcastInDim S512x1x20 ![] bcast_S_S512x1x20 p) a b),
    unary main_arg4 main_v18 (broadcastInDim S512x1x20 ![0, 2] bcast_S512x20_S512x1x20_0_2 : (⟨S512x20, .f32⟩ : BufTy).Contents (Elt F) → (⟨S512x1x20, .f32⟩ : BufTy).Contents (Elt F)),
    unary main_v16 main_v19 (broadcastInDim S512x4096x20 ![0, 1, 2] bcast_S512x1x20_S512x4096x20_0_1_2 : (⟨S512x1x20, .f32⟩ : BufTy).Contents (Elt F) → (⟨S512x4096x20, .f32⟩ : BufTy).Contents (Elt F)),
    binary main_v12 main_v19 main_v20 (subf : (⟨S512x4096x20, .f32⟩ : BufTy).Contents (Elt F) → (⟨S512x4096x20, .f32⟩ : BufTy).Contents (Elt F) → (⟨S512x4096x20, .f32⟩ : BufTy).Contents (Elt F)),
    unary main_v18 main_v21 (broadcastInDim S512x4096x20 ![0, 1, 2] bcast_S512x1x20_S512x4096x20_0_1_2 : (⟨S512x1x20, .f32⟩ : BufTy).Contents (Elt F) → (⟨S512x4096x20, .f32⟩ : BufTy).Contents (Elt F)),
    binary main_v21 main_v20 main_v22 (mulf : (⟨S512x4096x20, .f32⟩ : BufTy).Contents (Elt F) → (⟨S512x4096x20, .f32⟩ : BufTy).Contents (Elt F) → (⟨S512x4096x20, .f32⟩ : BufTy).Contents (Elt F)),
    nullary main_cst_3 (constant S_ .f32 0x3727C5AC#32),
    unary main_cst_3 main_v23 (broadcastInDim S512x1x20 ![] bcast_S_S512x1x20 : (⟨S_, .f32⟩ : BufTy).Contents (Elt F) → (⟨S512x1x20, .f32⟩ : BufTy).Contents (Elt F)),
    binary main_v17 main_v23 main_v24 (addf : (⟨S512x1x20, .f32⟩ : BufTy).Contents (Elt F) → (⟨S512x1x20, .f32⟩ : BufTy).Contents (Elt F) → (⟨S512x1x20, .f32⟩ : BufTy).Contents (Elt F)),
    unary main_v24 main_v25 (Host.rsqrt : (⟨S512x1x20, .f32⟩ : BufTy).Contents (Elt F) → (⟨S512x1x20, .f32⟩ : BufTy).Contents (Elt F)),
    unary main_v25 main_v26 (broadcastInDim S512x4096x20 ![0, 1, 2] bcast_S512x1x20_S512x4096x20_0_1_2 : (⟨S512x1x20, .f32⟩ : BufTy).Contents (Elt F) → (⟨S512x4096x20, .f32⟩ : BufTy).Contents (Elt F)),
    binary main_v22 main_v26 main_v27 (mulf : (⟨S512x4096x20, .f32⟩ : BufTy).Contents (Elt F) → (⟨S512x4096x20, .f32⟩ : BufTy).Contents (Elt F) → (⟨S512x4096x20, .f32⟩ : BufTy).Contents (Elt F)),
    unary main_arg5 main_v28 (broadcastInDim S512x1x20 ![0, 2] bcast_S512x20_S512x1x20_0_2 : (⟨S512x20, .f32⟩ : BufTy).Contents (Elt F) → (⟨S512x1x20, .f32⟩ : BufTy).Contents (Elt F)),
    unary main_v28 main_v29 (broadcastInDim S512x4096x20 ![0, 1, 2] bcast_S512x1x20_S512x4096x20_0_1_2 : (⟨S512x1x20, .f32⟩ : BufTy).Contents (Elt F) → (⟨S512x4096x20, .f32⟩ : BufTy).Contents (Elt F)),
    binary main_v27 main_v29 main_v30 (addf : (⟨S512x4096x20, .f32⟩ : BufTy).Contents (Elt F) → (⟨S512x4096x20, .f32⟩ : BufTy).Contents (Elt F) → (⟨S512x4096x20, .f32⟩ : BufTy).Contents (Elt F)),
    reshape main_v30 main_v31 rfl shapeCasts_S512x4096x20_S64x8x4096x20,
    unary main_v31 main_v32 ((transpose S64x4096x8x20 [0, 2, 1, 3] · transposes_S64x8x4096x20_S64x4096x8x20_0_2_1_3) : (⟨S64x8x4096x20, .f32⟩ : BufTy).Contents (Elt F) → (⟨S64x4096x8x20, .f32⟩ : BufTy).Contents (Elt F)),
    reshape main_v32 main_v33 rfl shapeCasts_S64x4096x8x20_S64x4096x160,
    binary main_v33 main_arg6 main_v34 ((fun l r => Host.dotGeneral dot_S64x4096x160_S64x24x160_S64x4096x24_2_2_1_1_0_0 none l r) : (⟨S64x4096x160, .f32⟩ : BufTy).Contents (Elt F) → (⟨S64x24x160, .f32⟩ : BufTy).Contents (Elt F) → (⟨S64x4096x24, .f32⟩ : BufTy).Contents (Elt F)),
    unary main_arg7 main_v35 (broadcastInDim S64x1x24 ![0, 2] bcast_S64x24_S64x1x24_0_2 : (⟨S64x24, .f32⟩ : BufTy).Contents (Elt F) → (⟨S64x1x24, .f32⟩ : BufTy).Contents (Elt F)),
    unary main_v35 main_v36 (broadcastInDim S64x4096x24 ![0, 1, 2] bcast_S64x1x24_S64x4096x24_0_1_2 : (⟨S64x1x24, .f32⟩ : BufTy).Contents (Elt F) → (⟨S64x4096x24, .f32⟩ : BufTy).Contents (Elt F)),
    binary main_v34 main_v36 main_v37 (addf : (⟨S64x4096x24, .f32⟩ : BufTy).Contents (Elt F) → (⟨S64x4096x24, .f32⟩ : BufTy).Contents (Elt F) → (⟨S64x4096x24, .f32⟩ : BufTy).Contents (Elt F)),
    unary main_v37 main_v38 (Host.tanh : (⟨S64x4096x24, .f32⟩ : BufTy).Contents (Elt F) → (⟨S64x4096x24, .f32⟩ : BufTy).Contents (Elt F)),
    nullary main_cst_4 (constant S_ .f32 0x00000000#32),
    binary main_v38 main_cst_4 main_v39 ((fun x v => Host.reduceAdd x v reducesTo_S64x4096x24_S64x24_d1 h_S_) : (⟨S64x4096x24, .f32⟩ : BufTy).Contents (Elt F) → (⟨S_, .f32⟩ : BufTy).Contents (Elt F) → (⟨S64x24, .f32⟩ : BufTy).Contents (Elt F)),
    unary main_v39 main_v40 (broadcastInDim S64x1x24 ![0, 2] bcast_S64x24_S64x1x24_0_2 : (⟨S64x24, .f32⟩ : BufTy).Contents (Elt F) → (⟨S64x1x24, .f32⟩ : BufTy).Contents (Elt F)),
    nullary main_cst_5 (constant S_ .f32 0x45800000#32),
    unary main_cst_5 main_v41 (broadcastInDim S64x1x24 ![] bcast_S_S64x1x24 : (⟨S_, .f32⟩ : BufTy).Contents (Elt F) → (⟨S64x1x24, .f32⟩ : BufTy).Contents (Elt F)),
    binary main_v40 main_v41 main_v42 (Host.divf : (⟨S64x1x24, .f32⟩ : BufTy).Contents (Elt F) → (⟨S64x1x24, .f32⟩ : BufTy).Contents (Elt F) → (⟨S64x1x24, .f32⟩ : BufTy).Contents (Elt F)),
    nullary main_c_6 (constantI S_ 32 0#32),
    TRef.nullary main_call1.cst (constant S_ .f32 0x00000000#32),
    TRef.binary (.of main_v38) main_call1.cst main_call1.v0 (fun x v => Host.reduceAdd x v reducesTo_S64x4096x24_S64x24_d1 h_S_),
    TRef.unary main_call1.v0 main_call1.v1 (broadcastInDim S64x1x24 ![0, 2] bcast_S64x24_S64x1x24_0_2),
    TRef.nullary main_call1.cst_0 (constant S_ .f32 0x45800000#32),
    TRef.unary main_call1.cst_0 main_call1.v2 (broadcastInDim S64x1x24 ![] bcast_S_S64x1x24),
    TRef.binary main_call1.v1 main_call1.v2 main_call1.v3 Host.divf,
    TRef.unary main_call1.v3 main_call1.v4 (broadcastInDim S64x4096x24 ![0, 1, 2] bcast_S64x1x24_S64x4096x24_0_1_2),
    TRef.binary (.of main_v38) main_call1.v4 main_call1.v5 subf,
    TRef.binary main_call1.v5 main_call1.v5 main_call1.v6 mulf,
    TRef.unary (.of main_c_6) main_call1.v7 (sitofp .f32),
    TRef.nullary main_call1.cst_1 (constant S_ .f32 0x45800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S64x4096x24_S64x24_d1 h_S_),
    TRef.unary main_call1.v9 main_call1.v10 (broadcastInDim S64x1x24 ![0, 2] bcast_S64x24_S64x1x24_0_2),
    TRef.unary main_call1.v8 main_call1.v11 (broadcastInDim S64x1x24 ![] bcast_S_S64x1x24),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S64x1x24 ![] bcast_S_S64x1x24),
    TRef.ternary main_call1.v13 main_call1.v12 main_call1.call0.v1 main_call1.call0.v2 (fun p a b => select (broadcastInDim S64x1x24 ![] bcast_S_S64x1x24 p) a b),
    unary main_arg8 main_v44 (broadcastInDim S64x1x24 ![0, 2] bcast_S64x24_S64x1x24_0_2 : (⟨S64x24, .f32⟩ : BufTy).Contents (Elt F) → (⟨S64x1x24, .f32⟩ : BufTy).Contents (Elt F)),
    unary main_v42 main_v45 (broadcastInDim S64x4096x24 ![0, 1, 2] bcast_S64x1x24_S64x4096x24_0_1_2 : (⟨S64x1x24, .f32⟩ : BufTy).Contents (Elt F) → (⟨S64x4096x24, .f32⟩ : BufTy).Contents (Elt F)),
    binary main_v38 main_v45 main_v46 (subf : (⟨S64x4096x24, .f32⟩ : BufTy).Contents (Elt F) → (⟨S64x4096x24, .f32⟩ : BufTy).Contents (Elt F) → (⟨S64x4096x24, .f32⟩ : BufTy).Contents (Elt F)),
    unary main_v44 main_v47 (broadcastInDim S64x4096x24 ![0, 1, 2] bcast_S64x1x24_S64x4096x24_0_1_2 : (⟨S64x1x24, .f32⟩ : BufTy).Contents (Elt F) → (⟨S64x4096x24, .f32⟩ : BufTy).Contents (Elt F)),
    binary main_v47 main_v46 main_v48 (mulf : (⟨S64x4096x24, .f32⟩ : BufTy).Contents (Elt F) → (⟨S64x4096x24, .f32⟩ : BufTy).Contents (Elt F) → (⟨S64x4096x24, .f32⟩ : BufTy).Contents (Elt F)),
    nullary main_cst_7 (constant S_ .f32 0x3727C5AC#32),
    unary main_cst_7 main_v49 (broadcastInDim S64x1x24 ![] bcast_S_S64x1x24 : (⟨S_, .f32⟩ : BufTy).Contents (Elt F) → (⟨S64x1x24, .f32⟩ : BufTy).Contents (Elt F)),
    binary main_v43 main_v49 main_v50 (addf : (⟨S64x1x24, .f32⟩ : BufTy).Contents (Elt F) → (⟨S64x1x24, .f32⟩ : BufTy).Contents (Elt F) → (⟨S64x1x24, .f32⟩ : BufTy).Contents (Elt F)),
    unary main_v50 main_v51 (Host.rsqrt : (⟨S64x1x24, .f32⟩ : BufTy).Contents (Elt F) → (⟨S64x1x24, .f32⟩ : BufTy).Contents (Elt F)),
    unary main_v51 main_v52 (broadcastInDim S64x4096x24 ![0, 1, 2] bcast_S64x1x24_S64x4096x24_0_1_2 : (⟨S64x1x24, .f32⟩ : BufTy).Contents (Elt F) → (⟨S64x4096x24, .f32⟩ : BufTy).Contents (Elt F)),
    binary main_v48 main_v52 main_v53 (mulf : (⟨S64x4096x24, .f32⟩ : BufTy).Contents (Elt F) → (⟨S64x4096x24, .f32⟩ : BufTy).Contents (Elt F) → (⟨S64x4096x24, .f32⟩ : BufTy).Contents (Elt F)),
    unary main_arg9 main_v54 (broadcastInDim S64x1x24 ![0, 2] bcast_S64x24_S64x1x24_0_2 : (⟨S64x24, .f32⟩ : BufTy).Contents (Elt F) → (⟨S64x1x24, .f32⟩ : BufTy).Contents (Elt F)),
    unary main_v54 main_v55 (broadcastInDim S64x4096x24 ![0, 1, 2] bcast_S64x1x24_S64x4096x24_0_1_2 : (⟨S64x1x24, .f32⟩ : BufTy).Contents (Elt F) → (⟨S64x4096x24, .f32⟩ : BufTy).Contents (Elt F)),
    binary main_v53 main_v55 main_v56 (addf : (⟨S64x4096x24, .f32⟩ : BufTy).Contents (Elt F) → (⟨S64x4096x24, .f32⟩ : BufTy).Contents (Elt F) → (⟨S64x4096x24, .f32⟩ : BufTy).Contents (Elt F)),
    reshape main_v56 main_v57 rfl shapeCasts_S64x4096x24_S8x8x4096x24,
    unary main_v57 main_v58 ((transpose S8x4096x8x24 [0, 2, 1, 3] · transposes_S8x8x4096x24_S8x4096x8x24_0_2_1_3) : (⟨S8x8x4096x24, .f32⟩ : BufTy).Contents (Elt F) → (⟨S8x4096x8x24, .f32⟩ : BufTy).Contents (Elt F)),
    reshape main_v58 main_v59 rfl shapeCasts_S8x4096x8x24_S8x4096x192,
    binary main_v59 main_arg10 main_v60 ((fun l r => Host.dotGeneral dot_S8x4096x192_S8x32x192_S8x4096x32_2_2_1_1_0_0 none l r) : (⟨S8x4096x192, .f32⟩ : BufTy).Contents (Elt F) → (⟨S8x32x192, .f32⟩ : BufTy).Contents (Elt F) → (⟨S8x4096x32, .f32⟩ : BufTy).Contents (Elt F)),
    unary main_arg11 main_v61 (broadcastInDim S8x1x32 ![0, 2] bcast_S8x32_S8x1x32_0_2 : (⟨S8x32, .f32⟩ : BufTy).Contents (Elt F) → (⟨S8x1x32, .f32⟩ : BufTy).Contents (Elt F)),
    unary main_v61 main_v62 (broadcastInDim S8x4096x32 ![0, 1, 2] bcast_S8x1x32_S8x4096x32_0_1_2 : (⟨S8x1x32, .f32⟩ : BufTy).Contents (Elt F) → (⟨S8x4096x32, .f32⟩ : BufTy).Contents (Elt F)),
    binary main_v60 main_v62 main_v63 (addf : (⟨S8x4096x32, .f32⟩ : BufTy).Contents (Elt F) → (⟨S8x4096x32, .f32⟩ : BufTy).Contents (Elt F) → (⟨S8x4096x32, .f32⟩ : BufTy).Contents (Elt F)),
    unary main_v63 main_v64 (Host.tanh : (⟨S8x4096x32, .f32⟩ : BufTy).Contents (Elt F) → (⟨S8x4096x32, .f32⟩ : BufTy).Contents (Elt F)),
    nullary main_cst_8 (constant S_ .f32 0x00000000#32),
    binary main_v64 main_cst_8 main_v65 ((fun x v => Host.reduceAdd x v reducesTo_S8x4096x32_S8x32_d1 h_S_) : (⟨S8x4096x32, .f32⟩ : BufTy).Contents (Elt F) → (⟨S_, .f32⟩ : BufTy).Contents (Elt F) → (⟨S8x32, .f32⟩ : BufTy).Contents (Elt F)),
    unary main_v65 main_v66 (broadcastInDim S8x1x32 ![0, 2] bcast_S8x32_S8x1x32_0_2 : (⟨S8x32, .f32⟩ : BufTy).Contents (Elt F) → (⟨S8x1x32, .f32⟩ : BufTy).Contents (Elt F)),
    nullary main_cst_9 (constant S_ .f32 0x45800000#32),
    unary main_cst_9 main_v67 (broadcastInDim S8x1x32 ![] bcast_S_S8x1x32 : (⟨S_, .f32⟩ : BufTy).Contents (Elt F) → (⟨S8x1x32, .f32⟩ : BufTy).Contents (Elt F)),
    binary main_v66 main_v67 main_v68 (Host.divf : (⟨S8x1x32, .f32⟩ : BufTy).Contents (Elt F) → (⟨S8x1x32, .f32⟩ : BufTy).Contents (Elt F) → (⟨S8x1x32, .f32⟩ : BufTy).Contents (Elt F)),
    nullary main_c_10 (constantI S_ 32 0#32),
    TRef.nullary main_call2.cst (constant S_ .f32 0x00000000#32),
    TRef.binary (.of main_v64) main_call2.cst main_call2.v0 (fun x v => Host.reduceAdd x v reducesTo_S8x4096x32_S8x32_d1 h_S_),
    TRef.unary main_call2.v0 main_call2.v1 (broadcastInDim S8x1x32 ![0, 2] bcast_S8x32_S8x1x32_0_2),
    TRef.nullary main_call2.cst_0 (constant S_ .f32 0x45800000#32),
    TRef.unary main_call2.cst_0 main_call2.v2 (broadcastInDim S8x1x32 ![] bcast_S_S8x1x32),
    TRef.binary main_call2.v1 main_call2.v2 main_call2.v3 Host.divf,
    TRef.unary main_call2.v3 main_call2.v4 (broadcastInDim S8x4096x32 ![0, 1, 2] bcast_S8x1x32_S8x4096x32_0_1_2),
    TRef.binary (.of main_v64) main_call2.v4 main_call2.v5 subf,
    TRef.binary main_call2.v5 main_call2.v5 main_call2.v6 mulf,
    TRef.unary (.of main_c_10) main_call2.v7 (sitofp .f32),
    TRef.nullary main_call2.cst_1 (constant S_ .f32 0x45800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S8x4096x32_S8x32_d1 h_S_),
    TRef.unary main_call2.v9 main_call2.v10 (broadcastInDim S8x1x32 ![0, 2] bcast_S8x32_S8x1x32_0_2),
    TRef.unary main_call2.v8 main_call2.v11 (broadcastInDim S8x1x32 ![] bcast_S_S8x1x32),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S8x1x32 ![] bcast_S_S8x1x32),
    TRef.ternary main_call2.v13 main_call2.v12 main_call2.call0.v1 main_call2.call0.v2 (fun p a b => select (broadcastInDim S8x1x32 ![] bcast_S_S8x1x32 p) a b),
    unary main_arg12 main_v70 (broadcastInDim S8x1x32 ![0, 2] bcast_S8x32_S8x1x32_0_2 : (⟨S8x32, .f32⟩ : BufTy).Contents (Elt F) → (⟨S8x1x32, .f32⟩ : BufTy).Contents (Elt F)),
    unary main_v68 main_v71 (broadcastInDim S8x4096x32 ![0, 1, 2] bcast_S8x1x32_S8x4096x32_0_1_2 : (⟨S8x1x32, .f32⟩ : BufTy).Contents (Elt F) → (⟨S8x4096x32, .f32⟩ : BufTy).Contents (Elt F)),
    binary main_v64 main_v71 main_v72 (subf : (⟨S8x4096x32, .f32⟩ : BufTy).Contents (Elt F) → (⟨S8x4096x32, .f32⟩ : BufTy).Contents (Elt F) → (⟨S8x4096x32, .f32⟩ : BufTy).Contents (Elt F)),
    unary main_v70 main_v73 (broadcastInDim S8x4096x32 ![0, 1, 2] bcast_S8x1x32_S8x4096x32_0_1_2 : (⟨S8x1x32, .f32⟩ : BufTy).Contents (Elt F) → (⟨S8x4096x32, .f32⟩ : BufTy).Contents (Elt F)),
    binary main_v73 main_v72 main_v74 (mulf : (⟨S8x4096x32, .f32⟩ : BufTy).Contents (Elt F) → (⟨S8x4096x32, .f32⟩ : BufTy).Contents (Elt F) → (⟨S8x4096x32, .f32⟩ : BufTy).Contents (Elt F)),
    nullary main_cst_11 (constant S_ .f32 0x3727C5AC#32),
    unary main_cst_11 main_v75 (broadcastInDim S8x1x32 ![] bcast_S_S8x1x32 : (⟨S_, .f32⟩ : BufTy).Contents (Elt F) → (⟨S8x1x32, .f32⟩ : BufTy).Contents (Elt F)),
    binary main_v69 main_v75 main_v76 (addf : (⟨S8x1x32, .f32⟩ : BufTy).Contents (Elt F) → (⟨S8x1x32, .f32⟩ : BufTy).Contents (Elt F) → (⟨S8x1x32, .f32⟩ : BufTy).Contents (Elt F)),
    unary main_v76 main_v77 (Host.rsqrt : (⟨S8x1x32, .f32⟩ : BufTy).Contents (Elt F) → (⟨S8x1x32, .f32⟩ : BufTy).Contents (Elt F)),
    unary main_v77 main_v78 (broadcastInDim S8x4096x32 ![0, 1, 2] bcast_S8x1x32_S8x4096x32_0_1_2 : (⟨S8x1x32, .f32⟩ : BufTy).Contents (Elt F) → (⟨S8x4096x32, .f32⟩ : BufTy).Contents (Elt F)),
    binary main_v74 main_v78 main_v79 (mulf : (⟨S8x4096x32, .f32⟩ : BufTy).Contents (Elt F) → (⟨S8x4096x32, .f32⟩ : BufTy).Contents (Elt F) → (⟨S8x4096x32, .f32⟩ : BufTy).Contents (Elt F)),
    unary main_arg13 main_v80 (broadcastInDim S8x1x32 ![0, 2] bcast_S8x32_S8x1x32_0_2 : (⟨S8x32, .f32⟩ : BufTy).Contents (Elt F) → (⟨S8x1x32, .f32⟩ : BufTy).Contents (Elt F)),
    unary main_v80 main_v81 (broadcastInDim S8x4096x32 ![0, 1, 2] bcast_S8x1x32_S8x4096x32_0_1_2 : (⟨S8x1x32, .f32⟩ : BufTy).Contents (Elt F) → (⟨S8x4096x32, .f32⟩ : BufTy).Contents (Elt F)),
    binary main_v79 main_v81 main_v82 (addf : (⟨S8x4096x32, .f32⟩ : BufTy).Contents (Elt F) → (⟨S8x4096x32, .f32⟩ : BufTy).Contents (Elt F) → (⟨S8x4096x32, .f32⟩ : BufTy).Contents (Elt F)),
    unary main_v82 main_v83 ((transpose S4096x8x32 [1, 0, 2] · transposes_S8x4096x32_S4096x8x32_1_0_2) : (⟨S8x4096x32, .f32⟩ : BufTy).Contents (Elt F) → (⟨S4096x8x32, .f32⟩ : BufTy).Contents (Elt F)),
    reshape main_v83 main_v84 rfl shapeCasts_S4096x8x32_S4096x256,
    unary main_arg14 main_v85 ((transpose S256x64 [1, 0] · transposes_S64x256_S256x64_1_0) : (⟨S64x256, .f32⟩ : BufTy).Contents (Elt F) → (⟨S256x64, .f32⟩ : BufTy).Contents (Elt F)),
    binary main_v84 main_v85 main_v86 ((fun l r => Host.dotGeneral dot_S4096x256_S256x64_S4096x64_1_0_0_1_n_n none l r) : (⟨S4096x256, .f32⟩ : BufTy).Contents (Elt F) → (⟨S256x64, .f32⟩ : BufTy).Contents (Elt F) → (⟨S4096x64, .f32⟩ : BufTy).Contents (Elt F)),
    unary main_arg15 main_v87 (broadcastInDim S1x64 ![1] bcast_S64_S1x64_1 : (⟨S64, .f32⟩ : BufTy).Contents (Elt F) → (⟨S1x64, .f32⟩ : BufTy).Contents (Elt F)),
    unary main_v87 main_v88 (broadcastInDim S4096x64 ![0, 1] bcast_S1x64_S4096x64_0_1 : (⟨S1x64, .f32⟩ : BufTy).Contents (Elt F) → (⟨S4096x64, .f32⟩ : BufTy).Contents (Elt F)),
    binary main_v86 main_v88 main_v89 (addf : (⟨S4096x64, .f32⟩ : BufTy).Contents (Elt F) → (⟨S4096x64, .f32⟩ : BufTy).Contents (Elt F) → (⟨S4096x64, .f32⟩ : BufTy).Contents (Elt F)),
    unary main_v89 main_v90 (Host.tanh : (⟨S4096x64, .f32⟩ : BufTy).Contents (Elt F) → (⟨S4096x64, .f32⟩ : BufTy).Contents (Elt F)),
    nullary main_cst_12 (constant S_ .f32 0x00000000#32),
    binary main_v90 main_cst_12 main_v91 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
    unary main_v91 main_v92 (broadcastInDim S1x64 ![1] bcast_S64_S1x64_1 : (⟨S64, .f32⟩ : BufTy).Contents (Elt F) → (⟨S1x64, .f32⟩ : BufTy).Contents (Elt F)),
    nullary main_cst_13 (constant S_ .f32 0x45800000#32),
    unary main_cst_13 main_v93 (broadcastInDim S1x64 ![] bcast_S_S1x64 : (⟨S_, .f32⟩ : BufTy).Contents (Elt F) → (⟨S1x64, .f32⟩ : BufTy).Contents (Elt F)),
    binary main_v92 main_v93 main_v94 (Host.divf : (⟨S1x64, .f32⟩ : BufTy).Contents (Elt F) → (⟨S1x64, .f32⟩ : BufTy).Contents (Elt F) → (⟨S1x64, .f32⟩ : BufTy).Contents (Elt F)),
    nullary main_c_14 (constantI S_ 32 0#32),
    TRef.nullary main_call3.cst (constant S_ .f32 0x00000000#32),
    TRef.binary (.of main_v90) main_call3.cst main_call3.v0 (fun x v => Host.reduceAdd x v reducesTo_S4096x64_S64_d0 h_S_),
    TRef.unary main_call3.v0 main_call3.v1 (broadcastInDim S1x64 ![1] bcast_S64_S1x64_1),
    TRef.nullary main_call3.cst_0 (constant S_ .f32 0x45800000#32),
    TRef.unary main_call3.cst_0 main_call3.v2 (broadcastInDim S1x64 ![] bcast_S_S1x64),
    TRef.binary main_call3.v1 main_call3.v2 main_call3.v3 Host.divf,
    TRef.unary main_call3.v3 main_call3.v4 (broadcastInDim S4096x64 ![0, 1] bcast_S1x64_S4096x64_0_1),
    TRef.binary (.of main_v90) main_call3.v4 main_call3.v5 subf,
    TRef.binary main_call3.v5 main_call3.v5 main_call3.v6 mulf,
    TRef.unary (.of main_c_14) main_call3.v7 (sitofp .f32),
    TRef.nullary main_call3.cst_1 (constant S_ .f32 0x45800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S4096x64_S64_d0 h_S_),
    TRef.unary main_call3.v9 main_call3.v10 (broadcastInDim S1x64 ![1] bcast_S64_S1x64_1),
    TRef.unary main_call3.v8 main_call3.v11 (broadcastInDim S1x64 ![] bcast_S_S1x64),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S1x64 ![] bcast_S_S1x64),
    TRef.ternary main_call3.v13 main_call3.v12 main_call3.call0.v1 main_call3.call0.v2 (fun p a b => select (broadcastInDim S1x64 ![] bcast_S_S1x64 p) a b),
    unary main_v94 main_v96 (broadcastInDim S4096x64 ![0, 1] bcast_S1x64_S4096x64_0_1 : (⟨S1x64, .f32⟩ : BufTy).Contents (Elt F) → (⟨S4096x64, .f32⟩ : BufTy).Contents (Elt F)),
    binary main_v90 main_v96 main_v97 (subf : (⟨S4096x64, .f32⟩ : BufTy).Contents (Elt F) → (⟨S4096x64, .f32⟩ : BufTy).Contents (Elt F) → (⟨S4096x64, .f32⟩ : BufTy).Contents (Elt F)),
    unary main_arg16 main_v98 (broadcastInDim S1x64 ![1] bcast_S64_S1x64_1 : (⟨S64, .f32⟩ : BufTy).Contents (Elt F) → (⟨S1x64, .f32⟩ : BufTy).Contents (Elt F)),
    unary main_v98 main_v99 (broadcastInDim S4096x64 ![0, 1] bcast_S1x64_S4096x64_0_1 : (⟨S1x64, .f32⟩ : BufTy).Contents (Elt F) → (⟨S4096x64, .f32⟩ : BufTy).Contents (Elt F)),
    binary main_v99 main_v97 main_v100 (mulf : (⟨S4096x64, .f32⟩ : BufTy).Contents (Elt F) → (⟨S4096x64, .f32⟩ : BufTy).Contents (Elt F) → (⟨S4096x64, .f32⟩ : BufTy).Contents (Elt F)),
    nullary main_cst_15 (constant S_ .f32 0x3727C5AC#32),
    unary main_cst_15 main_v101 (broadcastInDim S1x64 ![] bcast_S_S1x64 : (⟨S_, .f32⟩ : BufTy).Contents (Elt F) → (⟨S1x64, .f32⟩ : BufTy).Contents (Elt F)),
    binary main_v95 main_v101 main_v102 (addf : (⟨S1x64, .f32⟩ : BufTy).Contents (Elt F) → (⟨S1x64, .f32⟩ : BufTy).Contents (Elt F) → (⟨S1x64, .f32⟩ : BufTy).Contents (Elt F)),
    unary main_v102 main_v103 (Host.rsqrt : (⟨S1x64, .f32⟩ : BufTy).Contents (Elt F) → (⟨S1x64, .f32⟩ : BufTy).Contents (Elt F)),
    unary main_v103 main_v104 (broadcastInDim S4096x64 ![0, 1] bcast_S1x64_S4096x64_0_1 : (⟨S1x64, .f32⟩ : BufTy).Contents (Elt F) → (⟨S4096x64, .f32⟩ : BufTy).Contents (Elt F)),
    binary main_v100 main_v104 main_v105 (mulf : (⟨S4096x64, .f32⟩ : BufTy).Contents (Elt F) → (⟨S4096x64, .f32⟩ : BufTy).Contents (Elt F) → (⟨S4096x64, .f32⟩ : BufTy).Contents (Elt F)),
    unary main_arg17 main_v106 (broadcastInDim S1x64 ![1] bcast_S64_S1x64_1 : (⟨S64, .f32⟩ : BufTy).Contents (Elt F) → (⟨S1x64, .f32⟩ : BufTy).Contents (Elt F)),
    unary main_v106 main_v107 (broadcastInDim S4096x64 ![0, 1] bcast_S1x64_S4096x64_0_1 : (⟨S1x64, .f32⟩ : BufTy).Contents (Elt F) → (⟨S4096x64, .f32⟩ : BufTy).Contents (Elt F)),
    binary main_v105 main_v107 main_v108 (addf : (⟨S4096x64, .f32⟩ : BufTy).Contents (Elt F) → (⟨S4096x64, .f32⟩ : BufTy).Contents (Elt F) → (⟨S4096x64, .f32⟩ : BufTy).Contents (Elt F)) ]

/-- Every operation touches TensorCore buffers only: one library lemma per entry, by the entry's kind. -/
theorem ops_sub : (ops : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    binary_bufs_sub ..,
    unary_bufs_sub ..,
    unary_bufs_sub ..,
    binary_bufs_sub ..,
    unary_bufs_sub ..,
    nullary_bufs_sub ..,
    binary_bufs_sub ..,
    unary_bufs_sub ..,
    nullary_bufs_sub ..,
    unary_bufs_sub ..,
    binary_bufs_sub ..,
    nullary_bufs_sub ..,
    nullary_bufs_sub ..,
    binary_bufs_sub ..,
    unary_bufs_sub ..,
    nullary_bufs_sub ..,
    unary_bufs_sub ..,
    binary_bufs_sub ..,
    unary_bufs_sub ..,
    binary_bufs_sub ..,
    binary_bufs_sub ..,
    unary_bufs_sub ..,
    nullary_bufs_sub ..,
    binary_bufs_sub ..,
    nullary_bufs_sub ..,
    binary_bufs_sub ..,
    unary_bufs_sub ..,
    unary_bufs_sub ..,
    binary_bufs_sub ..,
    nullary_bufs_sub ..,
    binary_bufs_sub ..,
    nullary_bufs_sub ..,
    unary_bufs_sub ..,
    unary_bufs_sub ..,
    ternary_bufs_sub ..,
    unary_bufs_sub ..,
    unary_bufs_sub ..,
    binary_bufs_sub ..,
    unary_bufs_sub ..,
    binary_bufs_sub ..,
    nullary_bufs_sub ..,
    unary_bufs_sub ..,
    binary_bufs_sub ..,
    unary_bufs_sub ..,
    unary_bufs_sub ..,
    binary_bufs_sub ..,
    unary_bufs_sub ..,
    unary_bufs_sub ..,
    binary_bufs_sub ..,
    reshape_bufs_sub ..,
    unary_bufs_sub ..,
    reshape_bufs_sub ..,
    binary_bufs_sub ..,
    unary_bufs_sub ..,
    unary_bufs_sub ..,
    binary_bufs_sub ..,
    unary_bufs_sub ..,
    nullary_bufs_sub ..,
    binary_bufs_sub ..,
    unary_bufs_sub ..,
    nullary_bufs_sub ..,
    unary_bufs_sub ..,
    binary_bufs_sub ..,
    nullary_bufs_sub ..,
    nullary_bufs_sub ..,
    binary_bufs_sub ..,
    unary_bufs_sub ..,
    nullary_bufs_sub ..,
    unary_bufs_sub ..,
    binary_bufs_sub ..,
    unary_bufs_sub ..,
    binary_bufs_sub ..,
    binary_bufs_sub ..,
    unary_bufs_sub ..,
    nullary_bufs_sub ..,
    binary_bufs_sub ..,
    nullary_bufs_sub ..,
    binary_bufs_sub ..,
    unary_bufs_sub ..,
    unary_bufs_sub ..,
    binary_bufs_sub ..,
    nullary_bufs_sub ..,
    binary_bufs_sub ..,
    nullary_bufs_sub ..,
    unary_bufs_sub ..,
    unary_bufs_sub ..,
    ternary_bufs_sub ..,
    unary_bufs_sub ..,
    unary_bufs_sub ..,
    binary_bufs_sub ..,
    unary_bufs_sub ..,
    binary_bufs_sub ..,
    nullary_bufs_sub ..,
    unary_bufs_sub ..,
    binary_bufs_sub ..,
    unary_bufs_sub ..,
    unary_bufs_sub ..,
    binary_bufs_sub ..,
    unary_bufs_sub ..,
    unary_bufs_sub ..,
    binary_bufs_sub ..,
    reshape_bufs_sub ..,
    unary_bufs_sub ..,
    reshape_bufs_sub ..,
    binary_bufs_sub ..,
    unary_bufs_sub ..,
    unary_bufs_sub ..,
    binary_bufs_sub ..,
    unary_bufs_sub ..,
    nullary_bufs_sub ..,
    binary_bufs_sub ..,
    unary_bufs_sub ..,
    nullary_bufs_sub ..,
    unary_bufs_sub ..,
    binary_bufs_sub ..,
    nullary_bufs_sub ..,
    nullary_bufs_sub ..,
    binary_bufs_sub ..,
    unary_bufs_sub ..,
    nullary_bufs_sub ..,
    unary_bufs_sub ..,
    binary_bufs_sub ..,
    unary_bufs_sub ..,
    binary_bufs_sub ..,
    binary_bufs_sub ..,
    unary_bufs_sub ..,
    nullary_bufs_sub ..,
    binary_bufs_sub ..,
    nullary_bufs_sub ..,
    binary_bufs_sub ..,
    unary_bufs_sub ..,
    unary_bufs_sub ..,
    binary_bufs_sub ..,
    nullary_bufs_sub ..,
    binary_bufs_sub ..,
    nullary_bufs_sub ..,
    unary_bufs_sub ..,
    unary_bufs_sub ..,
    ternary_bufs_sub ..,
    unary_bufs_sub ..,
    unary_bufs_sub ..,
    binary_bufs_sub ..,
    unary_bufs_sub ..,
    binary_bufs_sub ..,
    nullary_bufs_sub ..,
    unary_bufs_sub ..,
    binary_bufs_sub ..,
    unary_bufs_sub ..,
    unary_bufs_sub ..,
    binary_bufs_sub ..,
    unary_bufs_sub ..,
    unary_bufs_sub ..,
    binary_bufs_sub ..,
    unary_bufs_sub ..,
    reshape_bufs_sub ..,
    unary_bufs_sub ..,
    binary_bufs_sub ..,
    unary_bufs_sub ..,
    unary_bufs_sub ..,
    binary_bufs_sub ..,
    unary_bufs_sub ..,
    nullary_bufs_sub ..,
    binary_bufs_sub ..,
    unary_bufs_sub ..,
    nullary_bufs_sub ..,
    unary_bufs_sub ..,
    binary_bufs_sub ..,
    nullary_bufs_sub ..,
    nullary_bufs_sub ..,
    binary_bufs_sub ..,
    unary_bufs_sub ..,
    nullary_bufs_sub ..,
    unary_bufs_sub ..,
    binary_bufs_sub ..,
    unary_bufs_sub ..,
    binary_bufs_sub ..,
    binary_bufs_sub ..,
    unary_bufs_sub ..,
    nullary_bufs_sub ..,
    binary_bufs_sub ..,
    nullary_bufs_sub ..,
    binary_bufs_sub ..,
    unary_bufs_sub ..,
    unary_bufs_sub ..,
    binary_bufs_sub ..,
    nullary_bufs_sub ..,
    binary_bufs_sub ..,
    nullary_bufs_sub ..,
    unary_bufs_sub ..,
    unary_bufs_sub ..,
    ternary_bufs_sub ..,
    unary_bufs_sub ..,
    binary_bufs_sub ..,
    unary_bufs_sub ..,
    unary_bufs_sub ..,
    binary_bufs_sub ..,
    nullary_bufs_sub ..,
    unary_bufs_sub ..,
    binary_bufs_sub ..,
    unary_bufs_sub ..,
    unary_bufs_sub ..,
    binary_bufs_sub ..,
    unary_bufs_sub ..,
    unary_bufs_sub ..,
    binary_bufs_sub ..⟩

end Cert.ReferenceIdeal.Ops

end
-- ==== Proof.RefRun.lean ====
import proofs.«419059_j72584947302887_3_alg».proof.Proof.RefOps

/-!
  The reference program's run, read back.

  Its @main is a straight line of 215 host operations once the four calls of the variance function (each of which
  calls the select function) are written out over their buffers.  Every weakly fair execution terminates with each
  buffer at the fold of the operations' results over the launch contents.  The line is cut into eight stretches
  (the gather, the three levels with the re-layouts between them, the root), so that the fold is eight folds.
-/

noncomputable section

namespace Cert.ReferenceIdeal.Run

open Cert.ReferenceIdeal Cert.ReferenceIdeal.Gen Cert.ReferenceIdeal.Ops Idealize.ShloMosaic Idealize.ShloMosaic.TcCoe Idealize.SL.Sem
open Idealize.ShloMosaic.StableHlo

variable {F : FTy → Type} [FloatOps F]

set_option maxRecDepth 16384 in
/-- @main is that straight line: the functions' definitions unfolded at their calls and the three windows of
    statements joined, both sides are one chain of steps once sequencing is reassociated. -/
theorem main_eq (c : Dev nD) : main (F := F) c = seq ops := by
  simp only [main, main_part0, main_part1, main_part2, fn_var.body, fn_var_0.body, fn_var_2.body, fn_var_4.body,
    fn_where.body, fn_where_1.body, fn_where_3.body, fn_where_5.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- No operation allocates a buffer. -/
theorem ops_fresh : (ops : List (HloOp τ sig (Elt F))).Forall fun op => op.fresh = ∅ := by
  simp only [List.Forall]; repeat' constructor

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The whole line is the eight stretches in order. -/
theorem ops_eq : (ops : List (HloOp τ sig (Elt F)))
    = opsGather ++ (opsLevel1 ++ (opsGlue1 ++ (opsLevel2 ++ (opsGlue2 ++ (opsLevel3 ++ (opsGlue3 ++ opsRoot)))))) := rfl

/-- So its fold is the eight folds, each from the one before. -/
theorem after_ops (V : Valuation τ sig (Elt F)) :
    after ops V = after opsRoot (after opsGlue3 (after opsLevel3 (after opsGlue2 (after opsLevel2 (after opsGlue1
      (after opsLevel1 (after opsGather V))))))) := by
  rw [ops_eq]; simp only [after_append]

/-- At the compiled mesh, from any memory with zero counters: every weakly fair execution of @main terminates, and
    every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.Run

end
-- ==== Proof.Consts.lean ====
/-
  The two facts about the batch size that the reference's variance uses.

  The reference divides the sum of squares by "4096 minus the number of degrees of freedom removed", the latter the
  integer 0 converted to a float, and guards the quotient by a test that this divisor is positive.  On the extended
  reals the divisor is the batch size itself and the test succeeds.
-/
import proofs.«419059_j72584947302887_3_alg».proof.Proof.Core
import Idealize.ShloMosaic.PureOps.Ideal.Laws

noncomputable section

namespace Cert.Core

open Idealize.ShloMosaic

/-- The word for the batch size denotes the real 4096. -/
theorem batch_eq : batch = ((4096 : ℝ) : EReal) := by
  unfold batch
  simp [Ideal.ofBits, Ideal.ieee, -EReal.coe_mul]; norm_num

/-- The integer 0 converted to a float denotes 0. -/
theorem sitofp_zero : (FloatOps.sitofp (F := Ideal) .f32 (0#32 : BitVec 32)) = (0 : EReal) := by
  show (((0#32 : BitVec 32).toInt : ℝ) : EReal) = 0
  simp

/-- Removing no degree of freedom leaves the batch size. -/
theorem batch_sub_zero : batch - (FloatOps.sitofp (F := Ideal) .f32 (0#32 : BitVec 32)) = batch := by
  rw [sitofp_zero, sub_zero]

/-- The batch size is positive: the reference's guard on the variance's divisor succeeds. -/
theorem batch_gt_zero : FloatOps.cmpf (F := Ideal) (φ := .f32) .ogt batch (Ideal.ofBits .f32 0x00000000#32) = 1#1 := by
  show Ideal.cmp .ogt batch (Ideal.ofBits .f32 0x00000000#32) = 1#1
  rw [batch_eq, Ideal.ofBits_zero_f32]
  unfold Ideal.cmp
  have h : (0 : EReal) < ((4096 : ℝ) : EReal) := by exact_mod_cast (by norm_num : (0 : ℝ) < 4096)
  simp [h]

end Cert.Core

end
-- ==== Proof.LibTRefCast.lean ====
/-
  Typed references of a called function's values: a value written through a typed reference and read back through
  the same reference is the value, whatever proofs the two spellings of the reference carry.
-/
import Idealize.ShloMosaic.Lib.StableHlo

namespace Cert.Lib

open Idealize.ShloMosaic Idealize.ShloMosaic.StableHlo

/-- Contents stored at the value's type as contents of the buffer and read back at the value's type are unchanged:
    the two transports along the reference's type equation cancel. -/
theorem ofBuf_toBuf {sig : RefSig} {Val : EltTy → Type} {T : BufTy} (x : TRef sig T) (v : T.Contents Val) :
    x.ofBuf (x.toBuf v) = v := by
  obtain ⟨r, h, a, b⟩ := x
  subst h
  rfl

end Cert.Lib
-- ==== Proof.RefLevel1.lean ====
/-
  The first level of the reference: the stretch of host operations from the gathered activations to the first
  level's result computes, slab by slab, one block of the network.

  The stretch forms the batched contraction of the activations [512, 4096, 16] with the weights [512, 20, 16] over
  their last axis, adds the bias, applies tanh, and normalises over the batch axis: it subtracts the mean over the
  4096 rows, multiplies by the scale and by the reciprocal square root of the variance plus a small constant, and adds
  the shift. The variance is the mean of the squared centred entries; its divisor is written as the batch size minus
  the integer 0 converted to a float, and the quotient is guarded by the test that this divisor is positive. On the
  extended reals the divisor is the batch size and the guard succeeds, so the variance is the plain quotient.

  Each operation that is not pointwise is read at an index (s, p, o): the batched contraction as a sum over the
  contracted coordinate, the sum over the batch axis as a sum over the row coordinate, and the three layout
  operations (a unit middle axis, spreading over the batch axis, spreading a scalar) as the operand at the evident
  index. The pointwise operations read at an index by computation. With every operation read, the stretch's term at
  (s, p, o) is the block of slab s at (p, o).
-/
import proofs.«419059_j72584947302887_3_alg».proof.Proof.RefOps
import proofs.«419059_j72584947302887_3_alg».proof.Proof.Core
import proofs.«419059_j72584947302887_3_alg».proof.Proof.Consts
import proofs.«419059_j72584947302887_3_alg».proof.Proof.LibTRefCast
import proofs.«419059_j72584947302887_3_alg».proof.Proof.LibRowTile
import Idealize.ShloMosaic.Lib.IdealHost
import Idealize.ShloMosaic.Lib.Pipeline.Value
import Idealize.ShloMosaic.PureOps.Ideal.Laws
import Idealize.ShloMosaic.Lib.ValueIdx

set_option maxRecDepth 16384

noncomputable section

namespace Cert.ReferenceIdeal.Level1

open Cert.ReferenceIdeal Cert.ReferenceIdeal.Gen Cert.ReferenceIdeal.Ops Idealize.ShloMosaic Idealize.ShloMosaic.TcCoe Idealize.SL.Sem
open Idealize.ShloMosaic.StableHlo
section Lemmas

open Idealize.ShloMosaic.ValueIdx
open scoped BigOperators

/-! ## The batched contraction read at an index -/

local notation "dotRec" => dot_S512x4096x16_S512x20x16_S512x4096x20_2_2_1_1_0_0

/-- The contraction runs over one axis. -/
theorem contr_rank : (dotRec).contr.rank = 1 := rfl

/-- That axis has the extent of the operands' last axis. -/
theorem contr_size : (dotRec).contr.size ⟨0, by rw [contr_rank]; exact Nat.one_pos⟩ = 16 := rfl

/-- On the batch axis the left operand is read at the result's first coordinate. -/
theorem lhs_0 (j : S512x4096x20.Idx) (k : (dotRec).contr.Idx) :
    ((dotRec).lhsIdx j k (0 : Fin 3)).val = (j (0 : Fin 3)).val := by
  unfold DotDims.lhsIdx
  rw [dif_pos (show (0 : Fin S512x4096x16.rank) ∈ (dotRec).lhsBatch from List.mem_singleton.mpr rfl)]
  rfl

/-- On its free axis the left operand is read at the result's second coordinate. -/
theorem lhs_1 (j : S512x4096x20.Idx) (k : (dotRec).contr.Idx) :
    ((dotRec).lhsIdx j k (1 : Fin 3)).val = (j (1 : Fin 3)).val := by
  unfold DotDims.lhsIdx
  rw [dif_neg (show ¬ (1 : Fin S512x4096x16.rank) ∈ (dotRec).lhsBatch by decide),
    dif_pos (show (1 : Fin S512x4096x16.rank) ∈ (dotRec).lhsNonContracting from List.mem_singleton.mpr rfl)]
  rfl

/-- On the contracted axis the left operand is read at the contraction position. -/
theorem lhs_2 (j : S512x4096x20.Idx) (k : (dotRec).contr.Idx) :
    ((dotRec).lhsIdx j k (2 : Fin 3)).val = (k ⟨0, by rw [contr_rank]; exact Nat.one_pos⟩).val :=
  (dotRec).lhsIdx_val_of_single (cl := (2 : Fin 3)) rfl j k

/-- On the batch axis the right operand is read at the result's first coordinate. -/
theorem rhs_0 (j : S512x4096x20.Idx) (k : (dotRec).contr.Idx) :
    ((dotRec).rhsIdx j k (0 : Fin 3)).val = (j (0 : Fin 3)).val := by
  unfold DotDims.rhsIdx
  rw [dif_pos (show (0 : Fin S512x20x16.rank) ∈ (dotRec).rhsBatch from List.mem_singleton.mpr rfl)]
  rfl

/-- On its free axis the right operand is read at the result's third coordinate. -/
theorem rhs_1 (j : S512x4096x20.Idx) (k : (dotRec).contr.Idx) :
    ((dotRec).rhsIdx j k (1 : Fin 3)).val = (j (2 : Fin 3)).val := by
  unfold DotDims.rhsIdx
  rw [dif_neg (show ¬ (1 : Fin S512x20x16.rank) ∈ (dotRec).rhsBatch by decide),
    dif_pos (show (1 : Fin S512x20x16.rank) ∈ (dotRec).rhsNonContracting from List.mem_singleton.mpr rfl)]
  rfl

/-- On the contracted axis the right operand is read at the contraction position. -/
theorem rhs_2 (j : S512x4096x20.Idx) (k : (dotRec).contr.Idx) :
    ((dotRec).rhsIdx j k (2 : Fin 3)).val = (k ⟨0, by rw [contr_rank]; exact Nat.one_pos⟩).val :=
  (dotRec).rhsIdx_val_of_single (cr := (2 : Fin 3)) rfl j k

/-- The left operand's index at result (s, p, o) and contraction position k is (s, p, k). -/
theorem lhsIdx_eq (s : Fin 512) (p : Fin 4096) (o : Fin 20) (k : Fin 16) :
    (dotRec).lhsIdx (ix3 s p o) ((contrEquiv1 (dotRec) 16 contr_rank contr_size).symm k) = ix3 s p k := by
  funext ax; apply Fin.ext
  match ax with
  | ⟨0, _⟩ => exact lhs_0 _ _
  | ⟨1, _⟩ => exact lhs_1 _ _
  | ⟨2, _⟩ => exact (lhs_2 _ _).trans (contrEquiv1_symm_val (dotRec) 16 contr_rank contr_size k)

/-- The right operand's index at result (s, p, o) and contraction position k is (s, o, k). -/
theorem rhsIdx_eq (s : Fin 512) (p : Fin 4096) (o : Fin 20) (k : Fin 16) :
    (dotRec).rhsIdx (ix3 s p o) ((contrEquiv1 (dotRec) 16 contr_rank contr_size).symm k) = ix3 s o k := by
  funext ax; apply Fin.ext
  match ax with
  | ⟨0, _⟩ => exact rhs_0 _ _
  | ⟨1, _⟩ => exact rhs_1 _ _
  | ⟨2, _⟩ => exact (rhs_2 _ _).trans (contrEquiv1_symm_val (dotRec) 16 contr_rank contr_size k)

/-- The batched contraction at (s, p, o): the sum over k of x (s, p, k) * w (s, o, k). -/
theorem dot_apply (x : FVec Ideal S512x4096x16 .f32) (w : FVec Ideal S512x20x16 .f32) (s : Fin 512) (p : Fin 4096) (o : Fin 20) :
    Host.dotGeneral (dotRec) none x w (ix3 s p o) = ∑ k : Fin 16, x (ix3 s p k) * w (ix3 s o k) := by
  show FloatOps.dotGeneral _ none _ x w (ix3 s p o) = _
  rw [Ideal.dotGeneral_apply, ← Equiv.sum_comp (contrEquiv1 (dotRec) 16 contr_rank contr_size).symm]
  exact Finset.sum_congr rfl fun k _ =>
    congrArg₂ (· * ·) (congrArg x (lhsIdx_eq s p o k)) (congrArg w (rhsIdx_eq s p o k))

/-! ## The layout operations and the sum over the batch, read at an index -/

section Reads

variable {α : Type}

/-- A [512, 1, 20] array spread over the batch axis reads its one row. -/
theorem spread_apply (v : S512x1x20.Idx → α) (s : Fin 512) (p : Fin 4096) (o : Fin 20) :
    broadcastInDim S512x4096x20 ![0, 1, 2] bcast_S512x1x20_S512x4096x20_0_1_2 v (ix3 s p o) = v (ix3 s (0 : Fin 1) o) :=
  broadcastInDim_apply _ _ v (ix3 s p o) (ix3 s (0 : Fin 1) o) fun a => by
    match a with
    | ⟨0, _⟩ => rfl
    | ⟨1, _⟩ => rfl
    | ⟨2, _⟩ => rfl

/-- A [512, 20] array given a unit middle axis reads the same entry. -/
theorem unit_apply (v : S512x20.Idx → α) (s : Fin 512) (z : Fin 1) (o : Fin 20) :
    broadcastInDim S512x1x20 ![0, 2] bcast_S512x20_S512x1x20_0_2 v (ix3 s z o) = v (ix2 s o) :=
  broadcastInDim_apply _ _ v (ix3 s z o) (ix2 s o) fun a => by
    match a with
    | ⟨0, _⟩ => rfl
    | ⟨1, _⟩ => rfl

/-- A scalar spread to [512, 1, 20] reads the scalar. -/
theorem scalar_apply (c : S_.Idx → α) (j : S512x1x20.Idx) :
    broadcastInDim S512x1x20 ![] bcast_S_S512x1x20 c j = c ix0 :=
  broadcastInDim_scalar_apply _ c j

end Reads

/-- The sum over the batch axis from the zero word, at (s, o): the sum over p of the entries (s, p, o). -/
theorem sum_apply (h : FVec Ideal S512x4096x20 .f32) (s : Fin 512) (o : Fin 20) :
    Host.reduceAdd h (constant S_ .f32 0x00000000#32) reducesTo_S512x4096x20_S512x20_d1 h_S_ (ix2 s o)
      = ∑ p : Fin 4096, h (ix3 s p o) := by
  have hR : S512x4096x20.Reduces [1] S512x20 := by decide
  rw [hostReduceAdd_apply, Ideal.hostReduceAdd_single reducesTo_S512x4096x20_S512x20_d1 hR]
  show Ideal.ofBits .f32 0x00000000#32 + _ = _
  rw [Ideal.ofBits_zero_f32, zero_add]
  refine Finset.sum_congr rfl fun p _ => congrArg h ?_
  funext c; apply Fin.ext
  match c with
  | ⟨0, _⟩ => rfl
  | ⟨1, _⟩ => rfl
  | ⟨2, _⟩ => rfl

/-! ## The stretch's term over variables, and its pieces read at an index -/

section Term

variable (x : FVec Ideal S512x4096x16 .f32) (w : FVec Ideal S512x20x16 .f32) (b3 g3 β3 : FVec Ideal S512x1x20 .f32)
variable (h : FVec Ideal S512x4096x20 .f32)

/-- tanh of the affine image. -/
def actT : FVec Ideal S512x4096x20 .f32 :=
  Host.tanh (addf (Host.dotGeneral dotRec none x w)
    (broadcastInDim S512x4096x20 ![0, 1, 2] bcast_S512x1x20_S512x4096x20_0_1_2 b3))

/-- The column means of h over the batch, as a [512, 1, 20] array: the sum divided by the batch size. -/
def meanT : FVec Ideal S512x1x20 .f32 :=
  Host.divf
    (broadcastInDim S512x1x20 ![0, 2] bcast_S512x20_S512x1x20_0_2
      (Host.reduceAdd h (constant S_ .f32 0x00000000#32) reducesTo_S512x4096x20_S512x20_d1 h_S_))
    (broadcastInDim S512x1x20 ![] bcast_S_S512x1x20 (constant S_ .f32 0x45800000#32))

/-- h minus its column means. -/
def centT : FVec Ideal S512x4096x20 .f32 :=
  subf h (broadcastInDim S512x4096x20 ![0, 1, 2] bcast_S512x1x20_S512x4096x20_0_1_2 (meanT h))

/-- The variance's divisor: the batch size minus the integer 0 converted to a float. -/
def divisorT : FVec Ideal S_ .f32 :=
  subf (constant S_ .f32 0x45800000#32) (sitofp .f32 (constantI S_ 32 0#32))

/-- The column variances of h, as a [512, 1, 20] array: the mean of the squared centred entries, guarded by the
    test that the divisor is positive. -/
def varT : FVec Ideal S512x1x20 .f32 :=
  select
    (broadcastInDim S512x1x20 ![] bcast_S_S512x1x20 (cmpf .ogt divisorT (constant S_ .f32 0x00000000#32)))
    (Host.divf
      (broadcastInDim S512x1x20 ![0, 2] bcast_S512x20_S512x1x20_0_2
        (Host.reduceAdd (mulf (centT h) (centT h)) (constant S_ .f32 0x00000000#32) reducesTo_S512x4096x20_S512x20_d1 h_S_))
      (broadcastInDim S512x1x20 ![] bcast_S_S512x1x20 divisorT))
    (broadcastInDim S512x1x20 ![] bcast_S_S512x1x20 (id (constant S_ .f32 0x7FC00000#32)))

/-- The whole stretch: scale times centred activation times the reciprocal root of variance plus the small word,
    plus shift. -/
def outT : FVec Ideal S512x4096x20 .f32 :=
  addf
    (mulf
      (mulf (broadcastInDim S512x4096x20 ![0, 1, 2] bcast_S512x1x20_S512x4096x20_0_1_2 g3) (centT (actT x w b3)))
      (broadcastInDim S512x4096x20 ![0, 1, 2] bcast_S512x1x20_S512x4096x20_0_1_2
        (Host.rsqrt
          (addf (varT (actT x w b3))
            (broadcastInDim S512x1x20 ![] bcast_S_S512x1x20 (constant S_ .f32 0x3727C5AC#32))))))
    (broadcastInDim S512x4096x20 ![0, 1, 2] bcast_S512x1x20_S512x4096x20_0_1_2 β3)

/-- The activation at (s, p, o) is the block's activation of slab s at (p, o). -/
theorem actT_apply (s : Fin 512) (p : Fin 4096) (o : Fin 20) :
    actT x w b3 (ix3 s p o)
      = Cert.Core.act (fun p k => x (ix3 s p k)) (fun o k => w (ix3 s o k)) (fun o => b3 (ix3 s (0 : Fin 1) o)) p o := by
  show Ideal.tanh (Host.dotGeneral dotRec none x w (ix3 s p o)
      + broadcastInDim S512x4096x20 ![0, 1, 2] bcast_S512x1x20_S512x4096x20_0_1_2 b3 (ix3 s p o)) = _
  rw [dot_apply, spread_apply]
  rfl

/-- The mean array at (s, 0, o) is the mean of column o of slab s. -/
theorem meanT_apply (s : Fin 512) (z : Fin 1) (o : Fin 20) :
    meanT h (ix3 s z o) = Cert.Core.mean (fun p o => h (ix3 s p o)) o := by
  show Ideal.div
      (broadcastInDim S512x1x20 ![0, 2] bcast_S512x20_S512x1x20_0_2
        (Host.reduceAdd h (constant S_ .f32 0x00000000#32) reducesTo_S512x4096x20_S512x20_d1 h_S_) (ix3 s z o))
      (broadcastInDim S512x1x20 ![] bcast_S_S512x1x20 (constant (F := Ideal) S_ .f32 0x45800000#32) (ix3 s z o)) = _
  rw [unit_apply, scalar_apply, sum_apply]
  rfl

/-- The centred array at (s, p, o) is the centred entry (p, o) of slab s. -/
theorem centT_apply (s : Fin 512) (p : Fin 4096) (o : Fin 20) :
    centT h (ix3 s p o) = Cert.Core.centred (fun p o => h (ix3 s p o)) p o := by
  show h (ix3 s p o) - broadcastInDim S512x4096x20 ![0, 1, 2] bcast_S512x1x20_S512x4096x20_0_1_2 (meanT h) (ix3 s p o) = _
  rw [spread_apply, meanT_apply]
  rfl

/-- The divisor is the batch size. -/
theorem divisorT_eq : divisorT ix0 = Cert.Core.batch := Cert.Core.batch_sub_zero

/-- The guard succeeds. -/
theorem guard_eq : cmpf .ogt divisorT (constant (F := Ideal) S_ .f32 0x00000000#32) ix0 = 1#1 := by
  show FloatOps.cmpf .ogt (divisorT ix0) (Ideal.ofBits .f32 0x00000000#32) = 1#1
  rw [divisorT_eq]
  exact Cert.Core.batch_gt_zero

/-- The variance array at (s, 0, o) is the variance of column o of slab s. -/
theorem varT_apply (s : Fin 512) (z : Fin 1) (o : Fin 20) :
    varT h (ix3 s z o) = Cert.Core.var (fun p o => h (ix3 s p o)) o := by
  show Scalar.select
      (broadcastInDim S512x1x20 ![] bcast_S_S512x1x20 (cmpf .ogt divisorT (constant (F := Ideal) S_ .f32 0x00000000#32)) (ix3 s z o))
      (Ideal.div
        (broadcastInDim S512x1x20 ![0, 2] bcast_S512x20_S512x1x20_0_2
          (Host.reduceAdd (mulf (centT h) (centT h)) (constant S_ .f32 0x00000000#32) reducesTo_S512x4096x20_S512x20_d1 h_S_)
          (ix3 s z o))
        (broadcastInDim S512x1x20 ![] bcast_S_S512x1x20 divisorT (ix3 s z o)))
      (broadcastInDim S512x1x20 ![] bcast_S_S512x1x20 (id (constant (F := Ideal) S_ .f32 0x7FC00000#32)) (ix3 s z o)) = _
  rw [scalar_apply (cmpf .ogt divisorT (constant (F := Ideal) S_ .f32 0x00000000#32)), guard_eq, select_one,
    scalar_apply divisorT, divisorT_eq, unit_apply, sum_apply]
  unfold Cert.Core.var
  refine congrArg (fun t => Ideal.div t Cert.Core.batch) (Finset.sum_congr rfl fun p _ => ?_)
  show centT h (ix3 s p o) * centT h (ix3 s p o) = _
  rw [centT_apply]

/-- The stretch's term is the level of its inputs. -/
theorem term_eq : outT x w b3 g3 β3 = Cert.Core.level 512 4096 16 20 x w b3 g3 β3 := by
  funext i
  obtain ⟨s, p, o, rfl⟩ : ∃ (s : Fin 512) (p : Fin 4096) (o : Fin 20), i = ix3 s p o := ⟨i 0, i 1, i 2, eq_ix3 i⟩
  have hact : (fun p o => actT x w b3 (ix3 s p o))
      = Cert.Core.act (fun p k => x (ix3 s p k)) (fun o k => w (ix3 s o k)) (fun o => b3 (ix3 s (0 : Fin 1) o)) := by
    funext p o; exact actT_apply x w b3 s p o
  show broadcastInDim S512x4096x20 ![0, 1, 2] bcast_S512x1x20_S512x4096x20_0_1_2 g3 (ix3 s p o)
        * centT (actT x w b3) (ix3 s p o)
        * broadcastInDim S512x4096x20 ![0, 1, 2] bcast_S512x1x20_S512x4096x20_0_1_2
            (Host.rsqrt (addf (varT (actT x w b3))
              (broadcastInDim S512x1x20 ![] bcast_S_S512x1x20 (constant S_ .f32 0x3727C5AC#32)))) (ix3 s p o)
      + broadcastInDim S512x4096x20 ![0, 1, 2] bcast_S512x1x20_S512x4096x20_0_1_2 β3 (ix3 s p o) = _
  rw [spread_apply g3, spread_apply β3, spread_apply (Host.rsqrt _), centT_apply]
  show g3 (ix3 s (0 : Fin 1) o) * _
        * Ideal.rsqrt (varT (actT x w b3) (ix3 s (0 : Fin 1) o)
            + broadcastInDim S512x1x20 ![] bcast_S_S512x1x20 (constant (F := Ideal) S_ .f32 0x3727C5AC#32) (ix3 s (0 : Fin 1) o))
      + β3 (ix3 s (0 : Fin 1) o) = _
  rw [varT_apply, scalar_apply, hact]
  rfl

end Term

/-! ## Values passed through a typed reference whose type equation holds by computation -/

section Casts

variable {Val : EltTy → Type}

/-- Reading a buffer at the buffer's own type is the identity. -/
theorem ofBuf_self (r : Ref sig .tc) (h1 : r.ty = r.ty) (h2 : r.space ≠ .host) (h3 : r.isScoped = false)
    (v : r.ty.Contents Val) : (TRef.of r h1 h2 h3).ofBuf v = v := rfl

/-- Writing a buffer at the buffer's own type is the identity. -/
theorem toBuf_self (r : Ref sig .tc) (h1 : r.ty = r.ty) (h2 : r.space ≠ .host) (h3 : r.isScoped = false)
    (v : r.ty.Contents Val) : (TRef.of r h1 h2 h3).toBuf v = v := rfl

/-- Reading the activations' buffer at its type, spelled out, is the identity. -/
theorem ofBuf_act (h1 : (main_v12 : Ref sig .tc).ty = ⟨S512x4096x20, .f32⟩) (h2 : (main_v12 : Ref sig .tc).space ≠ .host)
    (h3 : (main_v12 : Ref sig .tc).isScoped = false) (v : (⟨S512x4096x20, .f32⟩ : BufTy).Contents Val) :
    (TRef.of main_v12 h1 h2 h3).ofBuf v = v := rfl

/-- Reading the integer constant's buffer at its type, spelled out, is the identity. -/
theorem ofBuf_int (h1 : (main_c_2 : Ref sig .tc).ty = ⟨S_, .i32⟩) (h2 : (main_c_2 : Ref sig .tc).space ≠ .host)
    (h3 : (main_c_2 : Ref sig .tc).isScoped = false) (v : (⟨S_, .i32⟩ : BufTy).Contents Val) :
    (TRef.of main_c_2 h1 h2 h3).ofBuf v = v := rfl

/-- Writing the variance's buffer at its type, spelled out, is the identity. -/
theorem toBuf_var (h1 : (main_v17 : Ref sig .tc).ty = ⟨S512x1x20, .f32⟩) (h2 : (main_v17 : Ref sig .tc).space ≠ .host)
    (h3 : (main_v17 : Ref sig .tc).isScoped = false) (v : (⟨S512x1x20, .f32⟩ : BufTy).Contents Val) :
    (TRef.of main_v17 h1 h2 h3).toBuf v = v := rfl

end Casts

end Lemmas

/-! ## The stretch -/

theorem value (V : Valuation τ sig (Elt Ideal)) :
    after (opsLevel1 (F := Ideal)) V (Proc.devRef .tc main_v30)
      = Cert.Core.level 512 4096 16 20 (V (Proc.devRef .tc main_v7)) (V (Proc.devRef .tc main_arg2))
          (broadcastInDim S512x1x20 ![0, 2] bcast_S512x20_S512x1x20_0_2 (V (Proc.devRef .tc main_arg3)))
          (broadcastInDim S512x1x20 ![0, 2] bcast_S512x20_S512x1x20_0_2 (V (Proc.devRef .tc main_arg4)))
          (broadcastInDim S512x1x20 ![0, 2] bcast_S512x20_S512x1x20_0_2 (V (Proc.devRef .tc main_arg5))) := by
  after_results_simp
  simp only [Cert.Lib.ofBuf_toBuf, ofBuf_self, toBuf_self, ofBuf_act, ofBuf_int, toBuf_var]
  have key := term_eq (V (Proc.devRef .tc main_v7)) (V (Proc.devRef .tc main_arg2))
    (broadcastInDim S512x1x20 ![0, 2] bcast_S512x20_S512x1x20_0_2 (V (Proc.devRef .tc main_arg3)))
    (broadcastInDim S512x1x20 ![0, 2] bcast_S512x20_S512x1x20_0_2 (V (Proc.devRef .tc main_arg4)))
    (broadcastInDim S512x1x20 ![0, 2] bcast_S512x20_S512x1x20_0_2 (V (Proc.devRef .tc main_arg5)))
  unfold outT centT varT meanT actT divisorT at key
  exact key

end Cert.ReferenceIdeal.Level1

end
-- ==== Proof.RefLevel3.lean ====
/-
  The third level's stretch of the reference computes eight independent blocks.

  The stretch multiplies, slab by slab, the [8, 4096, 192] activations by the [8, 32, 192] weights (a contraction
  with one batch axis, both operands contracted on their last axis), adds the bias rows, applies tanh, and normalises
  every column of every slab over its 4096 rows: the column mean is the column sum over the batch size, the column
  variance is the column sum of the squared centred entries over the batch size (the reference spells the divisor as
  the batch size minus a zero and guards the quotient by a test that the divisor is positive; the test succeeds), and
  the result is scale times centred entry times the reciprocal square root of variance plus a small constant, plus
  shift.  The bias, scale and shift enter as [8, 1, 32] arrays and are never read inside.  Read at an index
  (s, p, o), every layout operation names one entry of its operand, the two column sums are sums over the 4096 rows
  of slab s, and the contraction is a sum over the 192 features; the term so read is block s of the level of
  Core.lean entry for entry.
-/
import proofs.«419059_j72584947302887_3_alg».proof.Proof.RefOps
import proofs.«419059_j72584947302887_3_alg».proof.Proof.Core
import proofs.«419059_j72584947302887_3_alg».proof.Proof.Consts
import proofs.«419059_j72584947302887_3_alg».proof.Proof.LibTRefCast
import proofs.«419059_j72584947302887_3_alg».proof.Proof.LibRowTile
import Idealize.ShloMosaic.Lib.IdealHost
import Idealize.ShloMosaic.Lib.ValueLayout
import Idealize.ShloMosaic.Lib.Pipeline.Value

set_option maxRecDepth 16384

noncomputable section

namespace Cert.ReferenceIdeal.Level3

open Cert.ReferenceIdeal Cert.ReferenceIdeal.Gen Cert.ReferenceIdeal.Ops Idealize.ShloMosaic Idealize.ShloMosaic.TcCoe Idealize.SL.Sem
open Idealize.ShloMosaic.StableHlo
open Idealize.ShloMosaic.ValueIdx
open scoped BigOperators

/-! ## A contraction with one batch axis, read at an index

  Left operand [S, M, K], right operand [S, N, K], result [S, M, N]: the first axis of both operands is the batch
  axis, the last axis of both is contracted, the middle axis of each is free.  The left operand is read at
  (batch, row, k), the right operand at (batch, column, k). -/

section Axes

variable {sl sr so : Shape} (d : DotDims sl sr so)

/-- With one batch axis a on the left, the left operand's index on a is the result index's first coordinate. -/
theorem lhsIdx_val_of_batch {a : Fin sl.rank} (hb : d.lhsBatch = [a]) (j : so.Idx) (k : d.contr.Idx)
    (h0 : 0 < so.rank) : (d.lhsIdx j k a).val = (j ⟨0, h0⟩).val := by
  have hmem : a ∈ d.lhsBatch := by rw [hb]; simp
  unfold DotDims.lhsIdx
  rw [dif_pos hmem]
  simp only [Fin.val_cast]
  exact Cert.Lib.idx_val_congr j _ _ (by simp [hb])

/-- With one batch axis and one free axis a on the left, the left operand's index on a is the result index's
    second coordinate. -/
theorem lhsIdx_val_of_free {a ab : Fin sl.rank} (hb : d.lhsBatch = [ab]) (hn : d.lhsNonContracting = [a])
    (hne : a ≠ ab) (j : so.Idx) (k : d.contr.Idx) (h1 : 1 < so.rank) : (d.lhsIdx j k a).val = (j ⟨1, h1⟩).val := by
  have hnb : a ∉ d.lhsBatch := by rw [hb]; simpa using hne
  have hmem : a ∈ d.lhsNonContracting := by rw [hn]; simp
  unfold DotDims.lhsIdx
  rw [dif_neg hnb, dif_pos hmem]
  simp only [Fin.val_cast]
  exact Cert.Lib.idx_val_congr j _ _ (by simp [hb, hn])

/-- With one batch axis a on the right, the right operand's index on a is the result index's first coordinate. -/
theorem rhsIdx_val_of_batch {a : Fin sr.rank} (hb : d.rhsBatch = [a]) (j : so.Idx) (k : d.contr.Idx)
    (h0 : 0 < so.rank) : (d.rhsIdx j k a).val = (j ⟨0, h0⟩).val := by
  have hmem : a ∈ d.rhsBatch := by rw [hb]; simp
  unfold DotDims.rhsIdx
  rw [dif_pos hmem]
  simp only [Fin.val_cast]
  exact Cert.Lib.idx_val_congr j _ _ (by simp [hb])

/-- With one batch axis and one free axis on the left, one batch axis and one free axis a on the right, the right
    operand's index on a is the result index's third coordinate. -/
theorem rhsIdx_val_of_free {a ab : Fin sr.rank} {al alb : Fin sl.rank} (hlb : d.lhsBatch = [alb])
    (hln : d.lhsNonContracting = [al]) (hb : d.rhsBatch = [ab]) (hn : d.rhsNonContracting = [a]) (hne : a ≠ ab)
    (j : so.Idx) (k : d.contr.Idx) (h2 : 2 < so.rank) : (d.rhsIdx j k a).val = (j ⟨2, h2⟩).val := by
  have hnb : a ∉ d.rhsBatch := by rw [hb]; simpa using hne
  have hmem : a ∈ d.rhsNonContracting := by rw [hn]; simp
  unfold DotDims.rhsIdx
  rw [dif_neg hnb, dif_pos hmem]
  simp only [Fin.val_cast]
  exact Cert.Lib.idx_val_congr j _ _ (by simp [hlb, hln, hn])

end Axes

/-- The dimension numbers of a batched product [S, M, K] · [S, N, K]: contract the last axis of both operands; the
    free axes are the middle ones; the batch axis is the first of both. -/
structure IsBatched {S M N K : Nat} (d : DotDims ⟨3, ![S, M, K]⟩ ⟨3, ![S, N, K]⟩ ⟨3, ![S, M, N]⟩) : Prop where
  lc : d.lhsContracting = [(2 : Fin 3)]
  rc : d.rhsContracting = [(2 : Fin 3)]
  ln : d.lhsNonContracting = [(1 : Fin 3)]
  rn : d.rhsNonContracting = [(1 : Fin 3)]
  lb : d.lhsBatch = [(0 : Fin 3)]
  rb : d.rhsBatch = [(0 : Fin 3)]
  rank : d.contr.rank = 1
  size : d.contr.size ⟨0, by omega⟩ = K

section Batched

variable {S M N K : Nat} {d : DotDims ⟨3, ![S, M, K]⟩ ⟨3, ![S, N, K]⟩ ⟨3, ![S, M, N]⟩}

/-- The left operand is read at (batch, row, k). -/
theorem IsBatched.lhsIdx_eq (h : IsBatched d) (j : (⟨3, ![S, M, N]⟩ : Shape).Idx) (k : Fin K) :
    d.lhsIdx j ((contrEquiv1 d K h.rank h.size).symm k) = ix3 (j 0) (j 1) k := by
  funext ax; apply Fin.ext
  match ax with
  | ⟨0, _⟩ => exact lhsIdx_val_of_batch d (a := (0 : Fin 3)) h.lb j _ (show 0 < 3 by omega)
  | ⟨1, _⟩ => exact lhsIdx_val_of_free d (a := (1 : Fin 3)) (ab := (0 : Fin 3)) h.lb h.ln (show (1 : Fin 3) ≠ 0 by decide) j _ (show 1 < 3 by omega)
  | ⟨2, _⟩ =>
    exact (d.lhsIdx_val_of_single (cl := (2 : Fin 3)) h.lc j _).trans (contrEquiv1_symm_val d K h.rank h.size k)

/-- The right operand is read at (batch, column, k). -/
theorem IsBatched.rhsIdx_eq (h : IsBatched d) (j : (⟨3, ![S, M, N]⟩ : Shape).Idx) (k : Fin K) :
    d.rhsIdx j ((contrEquiv1 d K h.rank h.size).symm k) = ix3 (j 0) (j 2) k := by
  funext ax; apply Fin.ext
  match ax with
  | ⟨0, _⟩ => exact rhsIdx_val_of_batch d (a := (0 : Fin 3)) h.rb j _ (show 0 < 3 by omega)
  | ⟨1, _⟩ =>
    exact rhsIdx_val_of_free d (a := (1 : Fin 3)) (ab := (0 : Fin 3)) (al := (1 : Fin 3)) (alb := (0 : Fin 3))
      h.lb h.ln h.rb h.rn (show (1 : Fin 3) ≠ 0 by decide) j _ (show 2 < 3 by omega)
  | ⟨2, _⟩ =>
    exact (d.rhsIdx_val_of_single (cr := (2 : Fin 3)) h.rc j _).trans (contrEquiv1_symm_val d K h.rank h.size k)

/-- A batched product's contraction sum, over the contracted coordinate itself. -/
theorem IsBatched.sum_eq (h : IsBatched d) (l : (⟨3, ![S, M, K]⟩ : Shape).Idx → EReal)
    (r : (⟨3, ![S, N, K]⟩ : Shape).Idx → EReal) (j : (⟨3, ![S, M, N]⟩ : Shape).Idx) :
    ∑ k : d.contr.Idx, l (d.lhsIdx j k) * r (d.rhsIdx j k)
      = ∑ k : Fin K, l (ix3 (j 0) (j 1) k) * r (ix3 (j 0) (j 2) k) := by
  rw [← Equiv.sum_comp (contrEquiv1 d K h.rank h.size).symm]
  exact Finset.sum_congr rfl fun k _ => congrArg₂ (· * ·) (congrArg l (h.lhsIdx_eq j k)) (congrArg r (h.rhsIdx_eq j k))

end Batched

/-- The printed contraction [8, 4096, 192] · [8, 32, 192] is a batched product. -/
theorem dot_isBatched :
    IsBatched (S := 8) (M := 4096) (N := 32) (K := 192) dot_S8x4096x192_S8x32x192_S8x4096x32_2_2_1_1_0_0 :=
  ⟨rfl, rfl, rfl, rfl, rfl, rfl, rfl, rfl⟩

/-- The product at (s, p, o) is the sum over k of left (s, p, k) times right (s, o, k). -/
theorem dot_apply (x : FVec Ideal S8x4096x192 .f32) (w : FVec Ideal S8x32x192 .f32) (s : Fin 8) (p : Fin 4096)
    (o : Fin 32) :
    Host.dotGeneral dot_S8x4096x192_S8x32x192_S8x4096x32_2_2_1_1_0_0 none x w (ix3 s p o)
      = ∑ k : Fin 192, x (ix3 s p k) * w (ix3 s o k) := by
  simp only [Host.dotGeneral]
  rw [Ideal.dotGeneral_apply]
  exact dot_isBatched.sum_eq x w (ix3 s p o)

/-! ## Layout operations read at an index -/

/-- An [8, 32] array with a unit middle axis inserted. -/
theorem bcRow_apply {α : Type} (v : S8x32.Idx → α) (s : Fin 8) (z : Fin 1) (o : Fin 32) :
    broadcastInDim S8x1x32 ![0, 2] bcast_S8x32_S8x1x32_0_2 v (ix3 s z o) = v (ix2 s o) := by
  refine broadcastInDim_apply _ _ v _ (ix2 s o) ?_
  intro a
  match a with
  | ⟨0, _⟩ => rfl
  | ⟨1, _⟩ => rfl

/-- An [8, 1, 32] array repeated along 4096 rows in every slab. -/
theorem bcRows_apply {α : Type} (v : S8x1x32.Idx → α) (s : Fin 8) (p : Fin 4096) (o : Fin 32) :
    broadcastInDim S8x4096x32 ![0, 1, 2] bcast_S8x1x32_S8x4096x32_0_1_2 v (ix3 s p o) = v (ix3 s (0 : Fin 1) o) := by
  refine broadcastInDim_apply _ _ v _ (ix3 s (0 : Fin 1) o) ?_
  intro a
  match a with
  | ⟨0, _⟩ => rfl
  | ⟨1, _⟩ => rfl
  | ⟨2, _⟩ => rfl

/-- A scalar spread over an [8, 1, 32] array. -/
theorem bcScalar_apply {α : Type} (v : S_.Idx → α) (j : S8x1x32.Idx) :
    broadcastInDim S8x1x32 ![] bcast_S_S8x1x32 v j = v ix0 :=
  broadcastInDim_scalar_apply _ v j

/-- The sum over the rows of every slab of an [8, 4096, 32] array, started from zero, at (s, o). -/
theorem colSum_apply (h : FVec Ideal S8x4096x32 .f32) (s : Fin 8) (o : Fin 32) :
    Host.reduceAdd h (constant (F := Ideal) S_ .f32 0x00000000#32) reducesTo_S8x4096x32_S8x32_d1 h_S_ (ix2 s o)
      = ∑ p : Fin 4096, h (ix3 s p o) := by
  rw [hostReduceAdd_apply, Ideal.hostReduceAdd_single reducesTo_S8x4096x32_S8x32_d1 (by decide)]
  rw [constant_apply, Ideal.ofBits_zero_f32, zero_add]
  refine Finset.sum_congr rfl fun p _ => congrArg h ?_
  funext a
  match a with
  | ⟨0, _⟩ => rfl
  | ⟨1, _⟩ => rfl
  | ⟨2, _⟩ => rfl

/-! ## The host terms, over variables -/

/-- The activation: tanh of the batched product plus the bias rows. -/
abbrev actT (x : FVec Ideal S8x4096x192 .f32) (w : FVec Ideal S8x32x192 .f32) (b3 : FVec Ideal S8x1x32 .f32) :
    FVec Ideal S8x4096x32 .f32 :=
  Host.tanh
    (addf
      (Host.dotGeneral dot_S8x4096x192_S8x32x192_S8x4096x32_2_2_1_1_0_0 none x w)
      (broadcastInDim S8x4096x32 ![0, 1, 2] bcast_S8x1x32_S8x4096x32_0_1_2 b3))

/-- The column means of every slab, as an [8, 1, 32] array: column sums over the batch size. -/
abbrev meanT (h : FVec Ideal S8x4096x32 .f32) : FVec Ideal S8x1x32 .f32 :=
  Host.divf
    (broadcastInDim S8x1x32 ![0, 2] bcast_S8x32_S8x1x32_0_2
      (Host.reduceAdd h (constant S_ .f32 0x00000000#32) reducesTo_S8x4096x32_S8x32_d1 h_S_))
    (broadcastInDim S8x1x32 ![] bcast_S_S8x1x32 (constant S_ .f32 0x45800000#32))

/-- The divisor the variance uses: the batch size minus the integer 0 converted to a float. -/
abbrev divisorT : FVec Ideal S_ .f32 :=
  subf (constant S_ .f32 0x45800000#32) (sitofp .f32 (constantI S_ 32 0#32))

/-- The activation minus its column mean. -/
abbrev centT (h : FVec Ideal S8x4096x32 .f32) : FVec Ideal S8x4096x32 .f32 :=
  subf h (broadcastInDim S8x4096x32 ![0, 1, 2] bcast_S8x1x32_S8x4096x32_0_1_2 (meanT h))

/-- The column variances of every slab, as an [8, 1, 32] array: the guarded quotient of the column sums of squares
    by the divisor. -/
abbrev varT (h : FVec Ideal S8x4096x32 .f32) : FVec Ideal S8x1x32 .f32 :=
  select
    (broadcastInDim S8x1x32 ![] bcast_S_S8x1x32 (cmpf .ogt divisorT (constant S_ .f32 0x00000000#32)))
    (Host.divf
      (broadcastInDim S8x1x32 ![0, 2] bcast_S8x32_S8x1x32_0_2
        (Host.reduceAdd (mulf (centT h) (centT h)) (constant S_ .f32 0x00000000#32) reducesTo_S8x4096x32_S8x32_d1 h_S_))
      (broadcastInDim S8x1x32 ![] bcast_S_S8x1x32 divisorT))
    (broadcastInDim S8x1x32 ![] bcast_S_S8x1x32 (id (constant S_ .f32 0x7FC00000#32)))

/-- The whole level. -/
abbrev levelT (x : FVec Ideal S8x4096x192 .f32) (w : FVec Ideal S8x32x192 .f32) (b3 g3 β3 : FVec Ideal S8x1x32 .f32) :
    FVec Ideal S8x4096x32 .f32 :=
  addf
    (mulf
      (mulf
        (broadcastInDim S8x4096x32 ![0, 1, 2] bcast_S8x1x32_S8x4096x32_0_1_2 g3)
        (centT (actT x w b3)))
      (broadcastInDim S8x4096x32 ![0, 1, 2] bcast_S8x1x32_S8x4096x32_0_1_2
        (Host.rsqrt
          (addf (varT (actT x w b3))
            (broadcastInDim S8x1x32 ![] bcast_S_S8x1x32 (constant S_ .f32 0x3727C5AC#32))))))
    (broadcastInDim S8x4096x32 ![0, 1, 2] bcast_S8x1x32_S8x4096x32_0_1_2 β3)

/-- The activation at (s, p, o). -/
theorem actT_apply (x : FVec Ideal S8x4096x192 .f32) (w : FVec Ideal S8x32x192 .f32) (b3 : FVec Ideal S8x1x32 .f32)
    (s : Fin 8) (p : Fin 4096) (o : Fin 32) :
    actT x w b3 (ix3 s p o)
      = Cert.Core.act (fun p k => x (ix3 s p k)) (fun o k => w (ix3 s o k)) (fun o => b3 (ix3 s (0 : Fin 1) o)) p o := by
  show Ideal.tanh (Host.dotGeneral dot_S8x4096x192_S8x32x192_S8x4096x32_2_2_1_1_0_0 none x w (ix3 s p o)
      + broadcastInDim S8x4096x32 ![0, 1, 2] bcast_S8x1x32_S8x4096x32_0_1_2 b3 (ix3 s p o)) = _
  rw [dot_apply, bcRows_apply]
  rfl

/-- The mean of column o of slab s. -/
theorem meanT_apply (h : FVec Ideal S8x4096x32 .f32) (s : Fin 8) (o : Fin 32) :
    meanT h (ix3 s (0 : Fin 1) o) = Cert.Core.mean (fun p o => h (ix3 s p o)) o := by
  show Ideal.div (broadcastInDim S8x1x32 ![0, 2] bcast_S8x32_S8x1x32_0_2
      (Host.reduceAdd h (constant (F := Ideal) S_ .f32 0x00000000#32) reducesTo_S8x4096x32_S8x32_d1 h_S_) (ix3 s (0 : Fin 1) o))
      (broadcastInDim S8x1x32 ![] bcast_S_S8x1x32 (constant (F := Ideal) S_ .f32 0x45800000#32) (ix3 s (0 : Fin 1) o)) = _
  rw [bcRow_apply, colSum_apply, bcScalar_apply]
  rfl

/-- The centred activation at (s, p, o). -/
theorem centT_apply (h : FVec Ideal S8x4096x32 .f32) (s : Fin 8) (p : Fin 4096) (o : Fin 32) :
    centT h (ix3 s p o) = Cert.Core.centred (fun p o => h (ix3 s p o)) p o := by
  show h (ix3 s p o) - broadcastInDim S8x4096x32 ![0, 1, 2] bcast_S8x1x32_S8x4096x32_0_1_2 (meanT h) (ix3 s p o) = _
  rw [bcRows_apply, meanT_apply]
  rfl

/-- The divisor is the batch size. -/
theorem divisorT_apply : divisorT ix0 = Cert.Core.batch := Cert.Core.batch_sub_zero

/-- The guard on the divisor succeeds. -/
theorem guard_apply : cmpf .ogt divisorT (constant (F := Ideal) S_ .f32 0x00000000#32) ix0 = 1#1 := by
  show FloatOps.cmpf (F := Ideal) (φ := .f32) .ogt (divisorT ix0) (Ideal.ofBits .f32 0x00000000#32) = 1#1
  rw [divisorT_apply]
  exact Cert.Core.batch_gt_zero

/-- The variance of column o of slab s. -/
theorem varT_apply (h : FVec Ideal S8x4096x32 .f32) (s : Fin 8) (o : Fin 32) :
    varT h (ix3 s (0 : Fin 1) o) = Cert.Core.var (fun p o => h (ix3 s p o)) o := by
  show Scalar.select
      (broadcastInDim S8x1x32 ![] bcast_S_S8x1x32 (cmpf .ogt divisorT (constant (F := Ideal) S_ .f32 0x00000000#32)) (ix3 s (0 : Fin 1) o))
      (Ideal.div
        (broadcastInDim S8x1x32 ![0, 2] bcast_S8x32_S8x1x32_0_2
          (Host.reduceAdd (mulf (centT h) (centT h)) (constant (F := Ideal) S_ .f32 0x00000000#32) reducesTo_S8x4096x32_S8x32_d1 h_S_)
          (ix3 s (0 : Fin 1) o))
        (broadcastInDim S8x1x32 ![] bcast_S_S8x1x32 divisorT (ix3 s (0 : Fin 1) o)))
      (broadcastInDim S8x1x32 ![] bcast_S_S8x1x32 (id (constant (F := Ideal) S_ .f32 0x7FC00000#32)) (ix3 s (0 : Fin 1) o)) = _
  rw [bcScalar_apply, bcScalar_apply, bcScalar_apply, bcRow_apply, colSum_apply, guard_apply, divisorT_apply, select_one]
  unfold Cert.Core.var
  refine congrArg (Ideal.div · Cert.Core.batch) (Finset.sum_congr rfl fun p _ => ?_)
  show centT h (ix3 s p o) * centT h (ix3 s p o) = _
  rw [centT_apply]

/-- The host term is the level. -/
theorem term_eq (x : FVec Ideal S8x4096x192 .f32) (w : FVec Ideal S8x32x192 .f32) (b3 g3 β3 : FVec Ideal S8x1x32 .f32) :
    levelT x w b3 g3 β3 = Cert.Core.level 8 4096 192 32 x w b3 g3 β3 := by
  funext i
  obtain ⟨s, p, o, rfl⟩ : ∃ (s : Fin 8) (p : Fin 4096) (o : Fin 32), i = ix3 s p o := ⟨i 0, i 1, i 2, eq_ix3 i⟩
  show broadcastInDim S8x4096x32 ![0, 1, 2] bcast_S8x1x32_S8x4096x32_0_1_2 g3 (ix3 s p o)
        * centT (actT x w b3) (ix3 s p o)
        * broadcastInDim S8x4096x32 ![0, 1, 2] bcast_S8x1x32_S8x4096x32_0_1_2
            (Host.rsqrt
              (addf (varT (actT x w b3))
                (broadcastInDim S8x1x32 ![] bcast_S_S8x1x32 (constant (F := Ideal) S_ .f32 0x3727C5AC#32)))) (ix3 s p o)
      + broadcastInDim S8x4096x32 ![0, 1, 2] bcast_S8x1x32_S8x4096x32_0_1_2 β3 (ix3 s p o) = _
  rw [bcRows_apply, bcRows_apply, bcRows_apply, centT_apply]
  show g3 (ix3 s (0 : Fin 1) o) * _ * Ideal.rsqrt (varT (actT x w b3) (ix3 s (0 : Fin 1) o)
        + broadcastInDim S8x1x32 ![] bcast_S_S8x1x32 (constant (F := Ideal) S_ .f32 0x3727C5AC#32) (ix3 s (0 : Fin 1) o))
      + β3 (ix3 s (0 : Fin 1) o) = _
  rw [varT_apply, bcScalar_apply]
  have hact : (fun p o => actT x w b3 (ix3 s p o))
      = Cert.Core.act (fun p k => x (ix3 s p k)) (fun o k => w (ix3 s o k)) (fun o => b3 (ix3 s (0 : Fin 1) o)) :=
    funext fun p => funext fun o => actT_apply x w b3 s p o
  rw [hact]
  rfl

/-- After the third level's stretch of the reference's host operations the last buffer holds the level of the
    stretch's inputs. -/
theorem value (V : Valuation τ sig (Elt Ideal)) :
    after (opsLevel3 (F := Ideal)) V (Proc.devRef .tc main_v82)
      = Cert.Core.level 8 4096 192 32 (V (Proc.devRef .tc main_v59)) (V (Proc.devRef .tc main_arg10))
          (broadcastInDim S8x1x32 ![0, 2] bcast_S8x32_S8x1x32_0_2 (V (Proc.devRef .tc main_arg11)))
          (broadcastInDim S8x1x32 ![0, 2] bcast_S8x32_S8x1x32_0_2 (V (Proc.devRef .tc main_arg12)))
          (broadcastInDim S8x1x32 ![0, 2] bcast_S8x32_S8x1x32_0_2 (V (Proc.devRef .tc main_arg13))) := by
  after_results_simp
  simp only [Cert.Lib.ofBuf_toBuf]
  exact term_eq _ _ _ _ _

end Cert.ReferenceIdeal.Level3

end
-- ==== Proof.RefLevel2.lean ====
/-
  The second level's stretch of the reference computes sixty-four independent blocks.

  The stretch multiplies, slab by slab, the [64, 4096, 160] activations by the [64, 24, 160] weights (a contraction
  with one batch axis, both operands contracted on their last axis), adds the bias rows, applies tanh, and normalises
  every column of every slab over its 4096 rows: the column mean is the column sum over the batch size, the column
  variance is the column sum of the squared centred entries over the batch size (the reference spells the divisor as
  the batch size minus a zero and guards the quotient by a test that the divisor is positive; the test succeeds), and
  the result is scale times centred entry times the reciprocal square root of variance plus a small constant, plus
  shift.  The bias, scale and shift enter as [64, 1, 24] arrays and are never read inside.  Read at an index
  (s, p, o), every layout operation names one entry of its operand, the two column sums are sums over the 4096 rows
  of slab s, and the contraction is a sum over the 160 features; the term so read is block s of the level of
  Core.lean entry for entry.  The reading of a contraction with one batch axis is the one stated, for any sizes,
  with the third level.
-/
import proofs.«419059_j72584947302887_3_alg».proof.Proof.RefOps
import proofs.«419059_j72584947302887_3_alg».proof.Proof.Core
import proofs.«419059_j72584947302887_3_alg».proof.Proof.Consts
import proofs.«419059_j72584947302887_3_alg».proof.Proof.LibTRefCast
import proofs.«419059_j72584947302887_3_alg».proof.Proof.LibRowTile
import Idealize.ShloMosaic.Lib.IdealHost
import Idealize.ShloMosaic.Lib.ValueLayout
import Idealize.ShloMosaic.Lib.Pipeline.Value
import proofs.«419059_j72584947302887_3_alg».proof.Proof.RefLevel3

set_option maxRecDepth 16384

noncomputable section

namespace Cert.ReferenceIdeal.Level2

open Cert.ReferenceIdeal Cert.ReferenceIdeal.Gen Cert.ReferenceIdeal.Ops Idealize.ShloMosaic Idealize.ShloMosaic.TcCoe Idealize.SL.Sem
open Idealize.ShloMosaic.StableHlo
open Idealize.ShloMosaic.ValueIdx
open scoped BigOperators

/-! ## The contraction -/

/-- The printed contraction [64, 4096, 160] · [64, 24, 160] is a batched product: the first axis of both operands is
    the batch axis, the last axis of both is contracted, the middle axis of each is free. -/
theorem dot_isBatched :
    Level3.IsBatched (S := 64) (M := 4096) (N := 24) (K := 160) dot_S64x4096x160_S64x24x160_S64x4096x24_2_2_1_1_0_0 :=
  ⟨rfl, rfl, rfl, rfl, rfl, rfl, rfl, rfl⟩

/-- The product at (s, p, o) is the sum over k of left (s, p, k) times right (s, o, k). -/
theorem dot_apply (x : FVec Ideal S64x4096x160 .f32) (w : FVec Ideal S64x24x160 .f32) (s : Fin 64) (p : Fin 4096)
    (o : Fin 24) :
    Host.dotGeneral dot_S64x4096x160_S64x24x160_S64x4096x24_2_2_1_1_0_0 none x w (ix3 s p o)
      = ∑ k : Fin 160, x (ix3 s p k) * w (ix3 s o k) := by
  simp only [Host.dotGeneral]
  rw [Ideal.dotGeneral_apply]
  exact dot_isBatched.sum_eq x w (ix3 s p o)

/-! ## Layout operations read at an index -/

/-- A [64, 24] array with a unit middle axis inserted. -/
theorem bcRow_apply {α : Type} (v : S64x24.Idx → α) (s : Fin 64) (z : Fin 1) (o : Fin 24) :
    broadcastInDim S64x1x24 ![0, 2] bcast_S64x24_S64x1x24_0_2 v (ix3 s z o) = v (ix2 s o) := by
  refine broadcastInDim_apply _ _ v _ (ix2 s o) ?_
  intro a
  match a with
  | ⟨0, _⟩ => rfl
  | ⟨1, _⟩ => rfl

/-- A [64, 1, 24] array repeated along 4096 rows in every slab. -/
theorem bcRows_apply {α : Type} (v : S64x1x24.Idx → α) (s : Fin 64) (p : Fin 4096) (o : Fin 24) :
    broadcastInDim S64x4096x24 ![0, 1, 2] bcast_S64x1x24_S64x4096x24_0_1_2 v (ix3 s p o) = v (ix3 s (0 : Fin 1) o) := by
  refine broadcastInDim_apply _ _ v _ (ix3 s (0 : Fin 1) o) ?_
  intro a
  match a with
  | ⟨0, _⟩ => rfl
  | ⟨1, _⟩ => rfl
  | ⟨2, _⟩ => rfl

/-- A scalar spread over a [64, 1, 24] array. -/
theorem bcScalar_apply {α : Type} (v : S_.Idx → α) (j : S64x1x24.Idx) :
    broadcastInDim S64x1x24 ![] bcast_S_S64x1x24 v j = v ix0 :=
  broadcastInDim_scalar_apply _ v j

/-- The sum over the rows of every slab of a [64, 4096, 24] array, started from zero, at (s, o). -/
theorem colSum_apply (h : FVec Ideal S64x4096x24 .f32) (s : Fin 64) (o : Fin 24) :
    Host.reduceAdd h (constant (F := Ideal) S_ .f32 0x00000000#32) reducesTo_S64x4096x24_S64x24_d1 h_S_ (ix2 s o)
      = ∑ p : Fin 4096, h (ix3 s p o) := by
  rw [hostReduceAdd_apply, Ideal.hostReduceAdd_single reducesTo_S64x4096x24_S64x24_d1 (by decide)]
  rw [constant_apply, Ideal.ofBits_zero_f32, zero_add]
  refine Finset.sum_congr rfl fun p _ => congrArg h ?_
  funext a
  match a with
  | ⟨0, _⟩ => rfl
  | ⟨1, _⟩ => rfl
  | ⟨2, _⟩ => rfl

/-! ## The host terms, over variables -/

/-- The activation: tanh of the batched product plus the bias rows. -/
abbrev actT (x : FVec Ideal S64x4096x160 .f32) (w : FVec Ideal S64x24x160 .f32) (b3 : FVec Ideal S64x1x24 .f32) :
    FVec Ideal S64x4096x24 .f32 :=
  Host.tanh
    (addf
      (Host.dotGeneral dot_S64x4096x160_S64x24x160_S64x4096x24_2_2_1_1_0_0 none x w)
      (broadcastInDim S64x4096x24 ![0, 1, 2] bcast_S64x1x24_S64x4096x24_0_1_2 b3))

/-- The column means of every slab, as a [64, 1, 24] array: column sums over the batch size. -/
abbrev meanT (h : FVec Ideal S64x4096x24 .f32) : FVec Ideal S64x1x24 .f32 :=
  Host.divf
    (broadcastInDim S64x1x24 ![0, 2] bcast_S64x24_S64x1x24_0_2
      (Host.reduceAdd h (constant S_ .f32 0x00000000#32) reducesTo_S64x4096x24_S64x24_d1 h_S_))
    (broadcastInDim S64x1x24 ![] bcast_S_S64x1x24 (constant S_ .f32 0x45800000#32))

/-- The divisor the variance uses: the batch size minus the integer 0 converted to a float. -/
abbrev divisorT : FVec Ideal S_ .f32 :=
  subf (constant S_ .f32 0x45800000#32) (sitofp .f32 (constantI S_ 32 0#32))

/-- The activation minus its column mean. -/
abbrev centT (h : FVec Ideal S64x4096x24 .f32) : FVec Ideal S64x4096x24 .f32 :=
  subf h (broadcastInDim S64x4096x24 ![0, 1, 2] bcast_S64x1x24_S64x4096x24_0_1_2 (meanT h))

/-- The column variances of every slab, as a [64, 1, 24] array: the guarded quotient of the column sums of squares
    by the divisor. -/
abbrev varT (h : FVec Ideal S64x4096x24 .f32) : FVec Ideal S64x1x24 .f32 :=
  select
    (broadcastInDim S64x1x24 ![] bcast_S_S64x1x24 (cmpf .ogt divisorT (constant S_ .f32 0x00000000#32)))
    (Host.divf
      (broadcastInDim S64x1x24 ![0, 2] bcast_S64x24_S64x1x24_0_2
        (Host.reduceAdd (mulf (centT h) (centT h)) (constant S_ .f32 0x00000000#32) reducesTo_S64x4096x24_S64x24_d1 h_S_))
      (broadcastInDim S64x1x24 ![] bcast_S_S64x1x24 divisorT))
    (broadcastInDim S64x1x24 ![] bcast_S_S64x1x24 (id (constant S_ .f32 0x7FC00000#32)))

/-- The whole level. -/
abbrev levelT (x : FVec Ideal S64x4096x160 .f32) (w : FVec Ideal S64x24x160 .f32) (b3 g3 β3 : FVec Ideal S64x1x24 .f32) :
    FVec Ideal S64x4096x24 .f32 :=
  addf
    (mulf
      (mulf
        (broadcastInDim S64x4096x24 ![0, 1, 2] bcast_S64x1x24_S64x4096x24_0_1_2 g3)
        (centT (actT x w b3)))
      (broadcastInDim S64x4096x24 ![0, 1, 2] bcast_S64x1x24_S64x4096x24_0_1_2
        (Host.rsqrt
          (addf (varT (actT x w b3))
            (broadcastInDim S64x1x24 ![] bcast_S_S64x1x24 (constant S_ .f32 0x3727C5AC#32))))))
    (broadcastInDim S64x4096x24 ![0, 1, 2] bcast_S64x1x24_S64x4096x24_0_1_2 β3)

/-- The activation at (s, p, o). -/
theorem actT_apply (x : FVec Ideal S64x4096x160 .f32) (w : FVec Ideal S64x24x160 .f32) (b3 : FVec Ideal S64x1x24 .f32)
    (s : Fin 64) (p : Fin 4096) (o : Fin 24) :
    actT x w b3 (ix3 s p o)
      = Cert.Core.act (fun p k => x (ix3 s p k)) (fun o k => w (ix3 s o k)) (fun o => b3 (ix3 s (0 : Fin 1) o)) p o := by
  show Ideal.tanh (Host.dotGeneral dot_S64x4096x160_S64x24x160_S64x4096x24_2_2_1_1_0_0 none x w (ix3 s p o)
      + broadcastInDim S64x4096x24 ![0, 1, 2] bcast_S64x1x24_S64x4096x24_0_1_2 b3 (ix3 s p o)) = _
  rw [dot_apply, bcRows_apply]
  rfl

/-- The mean of column o of slab s. -/
theorem meanT_apply (h : FVec Ideal S64x4096x24 .f32) (s : Fin 64) (o : Fin 24) :
    meanT h (ix3 s (0 : Fin 1) o) = Cert.Core.mean (fun p o => h (ix3 s p o)) o := by
  show Ideal.div (broadcastInDim S64x1x24 ![0, 2] bcast_S64x24_S64x1x24_0_2
      (Host.reduceAdd h (constant (F := Ideal) S_ .f32 0x00000000#32) reducesTo_S64x4096x24_S64x24_d1 h_S_) (ix3 s (0 : Fin 1) o))
      (broadcastInDim S64x1x24 ![] bcast_S_S64x1x24 (constant (F := Ideal) S_ .f32 0x45800000#32) (ix3 s (0 : Fin 1) o)) = _
  rw [bcRow_apply, colSum_apply, bcScalar_apply]
  rfl

/-- The centred activation at (s, p, o). -/
theorem centT_apply (h : FVec Ideal S64x4096x24 .f32) (s : Fin 64) (p : Fin 4096) (o : Fin 24) :
    centT h (ix3 s p o) = Cert.Core.centred (fun p o => h (ix3 s p o)) p o := by
  show h (ix3 s p o) - broadcastInDim S64x4096x24 ![0, 1, 2] bcast_S64x1x24_S64x4096x24_0_1_2 (meanT h) (ix3 s p o) = _
  rw [bcRows_apply, meanT_apply]
  rfl

/-- The divisor is the batch size. -/
theorem divisorT_apply : divisorT ix0 = Cert.Core.batch := Cert.Core.batch_sub_zero

/-- The guard on the divisor succeeds. -/
theorem guard_apply : cmpf .ogt divisorT (constant (F := Ideal) S_ .f32 0x00000000#32) ix0 = 1#1 := by
  show FloatOps.cmpf (F := Ideal) (φ := .f32) .ogt (divisorT ix0) (Ideal.ofBits .f32 0x00000000#32) = 1#1
  rw [divisorT_apply]
  exact Cert.Core.batch_gt_zero

/-- The variance of column o of slab s. -/
theorem varT_apply (h : FVec Ideal S64x4096x24 .f32) (s : Fin 64) (o : Fin 24) :
    varT h (ix3 s (0 : Fin 1) o) = Cert.Core.var (fun p o => h (ix3 s p o)) o := by
  show Scalar.select
      (broadcastInDim S64x1x24 ![] bcast_S_S64x1x24 (cmpf .ogt divisorT (constant (F := Ideal) S_ .f32 0x00000000#32)) (ix3 s (0 : Fin 1) o))
      (Ideal.div
        (broadcastInDim S64x1x24 ![0, 2] bcast_S64x24_S64x1x24_0_2
          (Host.reduceAdd (mulf (centT h) (centT h)) (constant (F := Ideal) S_ .f32 0x00000000#32) reducesTo_S64x4096x24_S64x24_d1 h_S_)
          (ix3 s (0 : Fin 1) o))
        (broadcastInDim S64x1x24 ![] bcast_S_S64x1x24 divisorT (ix3 s (0 : Fin 1) o)))
      (broadcastInDim S64x1x24 ![] bcast_S_S64x1x24 (id (constant (F := Ideal) S_ .f32 0x7FC00000#32)) (ix3 s (0 : Fin 1) o)) = _
  rw [bcScalar_apply, bcScalar_apply, bcScalar_apply, bcRow_apply, colSum_apply, guard_apply, divisorT_apply, select_one]
  unfold Cert.Core.var
  refine congrArg (Ideal.div · Cert.Core.batch) (Finset.sum_congr rfl fun p _ => ?_)
  show centT h (ix3 s p o) * centT h (ix3 s p o) = _
  rw [centT_apply]

/-- The host term is the level. -/
theorem term_eq (x : FVec Ideal S64x4096x160 .f32) (w : FVec Ideal S64x24x160 .f32) (b3 g3 β3 : FVec Ideal S64x1x24 .f32) :
    levelT x w b3 g3 β3 = Cert.Core.level 64 4096 160 24 x w b3 g3 β3 := by
  funext i
  obtain ⟨s, p, o, rfl⟩ : ∃ (s : Fin 64) (p : Fin 4096) (o : Fin 24), i = ix3 s p o := ⟨i 0, i 1, i 2, eq_ix3 i⟩
  show broadcastInDim S64x4096x24 ![0, 1, 2] bcast_S64x1x24_S64x4096x24_0_1_2 g3 (ix3 s p o)
        * centT (actT x w b3) (ix3 s p o)
        * broadcastInDim S64x4096x24 ![0, 1, 2] bcast_S64x1x24_S64x4096x24_0_1_2
            (Host.rsqrt
              (addf (varT (actT x w b3))
                (broadcastInDim S64x1x24 ![] bcast_S_S64x1x24 (constant (F := Ideal) S_ .f32 0x3727C5AC#32)))) (ix3 s p o)
      + broadcastInDim S64x4096x24 ![0, 1, 2] bcast_S64x1x24_S64x4096x24_0_1_2 β3 (ix3 s p o) = _
  rw [bcRows_apply, bcRows_apply, bcRows_apply, centT_apply]
  show g3 (ix3 s (0 : Fin 1) o) * _ * Ideal.rsqrt (varT (actT x w b3) (ix3 s (0 : Fin 1) o)
        + broadcastInDim S64x1x24 ![] bcast_S_S64x1x24 (constant (F := Ideal) S_ .f32 0x3727C5AC#32) (ix3 s (0 : Fin 1) o))
      + β3 (ix3 s (0 : Fin 1) o) = _
  rw [varT_apply, bcScalar_apply]
  have hact : (fun p o => actT x w b3 (ix3 s p o))
      = Cert.Core.act (fun p k => x (ix3 s p k)) (fun o k => w (ix3 s o k)) (fun o => b3 (ix3 s (0 : Fin 1) o)) :=
    funext fun p => funext fun o => actT_apply x w b3 s p o
  rw [hact]
  rfl

/-- After the second level's stretch of the reference's host operations the last buffer holds the level of the
    stretch's inputs. -/
theorem value (V : Valuation τ sig (Elt Ideal)) :
    after (opsLevel2 (F := Ideal)) V (Proc.devRef .tc main_v56)
      = Cert.Core.level 64 4096 160 24 (V (Proc.devRef .tc main_v33)) (V (Proc.devRef .tc main_arg6))
          (broadcastInDim S64x1x24 ![0, 2] bcast_S64x24_S64x1x24_0_2 (V (Proc.devRef .tc main_arg7)))
          (broadcastInDim S64x1x24 ![0, 2] bcast_S64x24_S64x1x24_0_2 (V (Proc.devRef .tc main_arg8)))
          (broadcastInDim S64x1x24 ![0, 2] bcast_S64x24_S64x1x24_0_2 (V (Proc.devRef .tc main_arg9))) := by
  after_results_simp
  simp only [Cert.Lib.ofBuf_toBuf]
  exact term_eq _ _ _ _ _

end Cert.ReferenceIdeal.Level2

end
-- ==== Proof.RefRoot.lean ====
/-
  The last stretch of the reference computes one block on the whole batch.

  The stretch multiplies the [4096, 256] activations by the transposed [64, 256] weights, adds the bias row, applies
  tanh, and normalises every column over the 4096 rows: the column mean is the column sum over the batch size, the
  column variance is the column sum of the squared centred entries over the batch size (the reference spells the
  divisor as the batch size minus a zero and guards the quotient by a test that the divisor is positive; the test
  succeeds), and the result is scale times centred entry times the reciprocal square root of variance plus a small
  constant, plus shift.  Read at an index (p, o), every layout operation names one entry of its operand, the two
  column sums are sums over the 4096 rows, and the contraction is a sum over the 256 features; the term so read is
  the block of Core.lean entry for entry.
-/
import proofs.«419059_j72584947302887_3_alg».proof.Proof.RefOps
import proofs.«419059_j72584947302887_3_alg».proof.Proof.Core
import proofs.«419059_j72584947302887_3_alg».proof.Proof.Consts
import proofs.«419059_j72584947302887_3_alg».proof.Proof.LibTRefCast
import proofs.«419059_j72584947302887_3_alg».proof.Proof.LibRowTile
import Idealize.ShloMosaic.Lib.IdealHost
import Idealize.ShloMosaic.Lib.ValueLayout
import Idealize.ShloMosaic.Lib.Pipeline.Value

set_option maxRecDepth 16384

noncomputable section

namespace Cert.ReferenceIdeal.Root

open Cert.ReferenceIdeal Cert.ReferenceIdeal.Gen Cert.ReferenceIdeal.Ops Idealize.ShloMosaic Idealize.ShloMosaic.TcCoe Idealize.SL.Sem
open Idealize.ShloMosaic.StableHlo
open Idealize.ShloMosaic.ValueIdx
open scoped BigOperators

/-! ## Layout operations read at an index -/

/-- A vector of length 64 placed as the one row of a [1, 64] array. -/
theorem bcRow_apply {α : Type} (v : S64.Idx → α) (z : Fin 1) (o : Fin 64) :
    broadcastInDim S1x64 ![1] bcast_S64_S1x64_1 v (ix2 z o) = v (ix1 o) := by
  refine broadcastInDim_apply _ _ v _ (ix1 o) ?_
  intro a
  match a with
  | ⟨0, _⟩ => rfl

/-- A [1, 64] array repeated down 4096 rows. -/
theorem bcRows_apply {α : Type} (v : S1x64.Idx → α) (p : Fin 4096) (o : Fin 64) :
    broadcastInDim S4096x64 ![0, 1] bcast_S1x64_S4096x64_0_1 v (ix2 p o) = v (ix2 (0 : Fin 1) o) := by
  refine broadcastInDim_apply _ _ v _ (ix2 (0 : Fin 1) o) ?_
  intro a
  match a with
  | ⟨0, _⟩ => rfl
  | ⟨1, _⟩ => rfl

/-- A scalar spread over a [1, 64] array. -/
theorem bcScalar_apply {α : Type} (v : S_.Idx → α) (j : S1x64.Idx) :
    broadcastInDim S1x64 ![] bcast_S_S1x64 v j = v ix0 :=
  broadcastInDim_scalar_apply _ v j

/-- The sum over the rows of a [4096, 64] array, started from zero, at column o. -/
theorem colSum_apply (h : FVec Ideal S4096x64 .f32) (o : Fin 64) :
    Host.reduceAdd h (constant (F := Ideal) S_ .f32 0x00000000#32) reducesTo_S4096x64_S64_d0 h_S_ (ix1 o)
      = ∑ p : Fin 4096, h (ix2 p o) := by
  rw [hostReduceAdd_apply, Ideal.hostReduceAdd_single reducesTo_S4096x64_S64_d0 (by decide)]
  rw [constant_apply, Ideal.ofBits_zero_f32, zero_add]
  refine Finset.sum_congr rfl fun p _ => congrArg h ?_
  funext a
  match a with
  | ⟨0, _⟩ => rfl
  | ⟨1, _⟩ => rfl

/-! ## The contraction -/

/-- The printed contraction [4096, 256] · [256, 64] is a plain matrix product. -/
theorem dot_isPlain :
    Cert.Lib.IsPlain (a := 4096) (K := 256) (n := 64) dot_S4096x256_S256x64_S4096x64_1_0_0_1_n_n :=
  ⟨rfl, rfl, rfl, rfl, rfl, rfl, rfl, rfl⟩

/-- The product at (p, o) is the sum over k of left (p, k) times right (k, o). -/
theorem dot_apply (x : FVec Ideal S4096x256 .f32) (r : FVec Ideal S256x64 .f32) (p : Fin 4096) (o : Fin 64) :
    Host.dotGeneral dot_S4096x256_S256x64_S4096x64_1_0_0_1_n_n none x r (ix2 p o)
      = ∑ k : Fin 256, x (ix2 p k) * r (ix2 k o) := by
  simp only [Host.dotGeneral]
  rw [Ideal.dotGeneral_apply]
  exact dot_isPlain.sum_eq x r (ix2 p o)

/-! ## The host terms, over variables -/

/-- The activation: tanh of the product with the transposed weights plus the bias row. -/
abbrev actT (x : FVec Ideal S4096x256 .f32) (w : FVec Ideal S64x256 .f32) (b : FVec Ideal S64 .f32) :
    FVec Ideal S4096x64 .f32 :=
  Host.tanh
    (addf
      (Host.dotGeneral dot_S4096x256_S256x64_S4096x64_1_0_0_1_n_n none x
        (transpose S256x64 [1, 0] w transposes_S64x256_S256x64_1_0))
      (broadcastInDim S4096x64 ![0, 1] bcast_S1x64_S4096x64_0_1
        (broadcastInDim S1x64 ![1] bcast_S64_S1x64_1 b)))

/-- The column means, as a [1, 64] array: column sums over the batch size. -/
abbrev meanT (h : FVec Ideal S4096x64 .f32) : FVec Ideal S1x64 .f32 :=
  Host.divf
    (broadcastInDim S1x64 ![1] bcast_S64_S1x64_1
      (Host.reduceAdd h (constant S_ .f32 0x00000000#32) reducesTo_S4096x64_S64_d0 h_S_))
    (broadcastInDim S1x64 ![] bcast_S_S1x64 (constant S_ .f32 0x45800000#32))

/-- The activation at (p, o). -/
theorem actT_apply (x : FVec Ideal S4096x256 .f32) (w : FVec Ideal S64x256 .f32) (b : FVec Ideal S64 .f32)
    (p : Fin 4096) (o : Fin 64) :
    actT x w b (ix2 p o)
      = Cert.Core.act (fun p k => x (ix2 p k)) (fun o k => w (ix2 o k)) (fun o => b (ix1 o)) p o := by
  show Ideal.tanh (Host.dotGeneral dot_S4096x256_S256x64_S4096x64_1_0_0_1_n_n none x
        (transpose S256x64 [1, 0] w transposes_S64x256_S256x64_1_0) (ix2 p o)
      + broadcastInDim S4096x64 ![0, 1] bcast_S1x64_S4096x64_0_1
        (broadcastInDim S1x64 ![1] bcast_S64_S1x64_1 b) (ix2 p o)) = _
  rw [dot_apply, bcRows_apply, bcRow_apply]
  unfold Cert.Core.act
  refine congrArg Ideal.tanh (congrArg (· + b (ix1 o)) ?_)
  exact Finset.sum_congr rfl fun k _ => congrArg (x (ix2 p k) * ·) (transpose_ix2_apply w _ k o)

/-- The mean of column o. -/
theorem meanT_apply (h : FVec Ideal S4096x64 .f32) (o : Fin 64) :
    meanT h (ix2 (0 : Fin 1) o) = Cert.Core.mean (fun p o => h (ix2 p o)) o := by
  show Ideal.div (broadcastInDim S1x64 ![1] bcast_S64_S1x64_1
      (Host.reduceAdd h (constant (F := Ideal) S_ .f32 0x00000000#32) reducesTo_S4096x64_S64_d0 h_S_) (ix2 (0 : Fin 1) o))
      (broadcastInDim S1x64 ![] bcast_S_S1x64 (constant (F := Ideal) S_ .f32 0x45800000#32) (ix2 (0 : Fin 1) o)) = _
  rw [bcRow_apply, colSum_apply, bcScalar_apply]
  rfl

/-- The divisor the variance uses: the batch size minus the integer 0 converted to a float. -/
abbrev divisorT : FVec Ideal S_ .f32 :=
  subf (constant S_ .f32 0x45800000#32) (sitofp .f32 (constantI S_ 32 0#32))

/-- The activation minus its column mean. -/
abbrev centT (h : FVec Ideal S4096x64 .f32) : FVec Ideal S4096x64 .f32 :=
  subf h (broadcastInDim S4096x64 ![0, 1] bcast_S1x64_S4096x64_0_1 (meanT h))

/-- The column variances, as a [1, 64] array: the guarded quotient of the column sums of squares by the divisor. -/
abbrev varT (h : FVec Ideal S4096x64 .f32) : FVec Ideal S1x64 .f32 :=
  select
    (broadcastInDim S1x64 ![] bcast_S_S1x64 (cmpf .ogt divisorT (constant S_ .f32 0x00000000#32)))
    (Host.divf
      (broadcastInDim S1x64 ![1] bcast_S64_S1x64_1
        (Host.reduceAdd (mulf (centT h) (centT h)) (constant S_ .f32 0x00000000#32) reducesTo_S4096x64_S64_d0 h_S_))
      (broadcastInDim S1x64 ![] bcast_S_S1x64 divisorT))
    (broadcastInDim S1x64 ![] bcast_S_S1x64 (id (constant S_ .f32 0x7FC00000#32)))

/-- The whole block. -/
abbrev rootT (x : FVec Ideal S4096x256 .f32) (w : FVec Ideal S64x256 .f32) (b g β : FVec Ideal S64 .f32) :
    FVec Ideal S4096x64 .f32 :=
  addf
    (mulf
      (mulf
        (broadcastInDim S4096x64 ![0, 1] bcast_S1x64_S4096x64_0_1 (broadcastInDim S1x64 ![1] bcast_S64_S1x64_1 g))
        (centT (actT x w b)))
      (broadcastInDim S4096x64 ![0, 1] bcast_S1x64_S4096x64_0_1
        (Host.rsqrt
          (addf (varT (actT x w b))
            (broadcastInDim S1x64 ![] bcast_S_S1x64 (constant S_ .f32 0x3727C5AC#32))))))
    (broadcastInDim S4096x64 ![0, 1] bcast_S1x64_S4096x64_0_1 (broadcastInDim S1x64 ![1] bcast_S64_S1x64_1 β))

/-- The centred activation at (p, o). -/
theorem centT_apply (h : FVec Ideal S4096x64 .f32) (p : Fin 4096) (o : Fin 64) :
    centT h (ix2 p o) = Cert.Core.centred (fun p o => h (ix2 p o)) p o := by
  show h (ix2 p o) - broadcastInDim S4096x64 ![0, 1] bcast_S1x64_S4096x64_0_1 (meanT h) (ix2 p o) = _
  rw [bcRows_apply, meanT_apply]
  rfl

/-- The divisor is the batch size. -/
theorem divisorT_apply : divisorT ix0 = Cert.Core.batch := Cert.Core.batch_sub_zero

/-- The guard on the divisor succeeds. -/
theorem guard_apply : cmpf .ogt divisorT (constant (F := Ideal) S_ .f32 0x00000000#32) ix0 = 1#1 := by
  show FloatOps.cmpf (F := Ideal) (φ := .f32) .ogt (divisorT ix0) (Ideal.ofBits .f32 0x00000000#32) = 1#1
  rw [divisorT_apply]
  exact Cert.Core.batch_gt_zero

/-- The variance of column o. -/
theorem varT_apply (h : FVec Ideal S4096x64 .f32) (o : Fin 64) :
    varT h (ix2 (0 : Fin 1) o) = Cert.Core.var (fun p o => h (ix2 p o)) o := by
  show Scalar.select
      (broadcastInDim S1x64 ![] bcast_S_S1x64 (cmpf .ogt divisorT (constant (F := Ideal) S_ .f32 0x00000000#32)) (ix2 (0 : Fin 1) o))
      (Ideal.div
        (broadcastInDim S1x64 ![1] bcast_S64_S1x64_1
          (Host.reduceAdd (mulf (centT h) (centT h)) (constant (F := Ideal) S_ .f32 0x00000000#32) reducesTo_S4096x64_S64_d0 h_S_)
          (ix2 (0 : Fin 1) o))
        (broadcastInDim S1x64 ![] bcast_S_S1x64 divisorT (ix2 (0 : Fin 1) o)))
      (broadcastInDim S1x64 ![] bcast_S_S1x64 (id (constant (F := Ideal) S_ .f32 0x7FC00000#32)) (ix2 (0 : Fin 1) o)) = _
  rw [bcScalar_apply, bcScalar_apply, bcScalar_apply, bcRow_apply, colSum_apply, guard_apply, divisorT_apply, select_one]
  unfold Cert.Core.var
  refine congrArg (Ideal.div · Cert.Core.batch) (Finset.sum_congr rfl fun p _ => ?_)
  show centT h (ix2 p o) * centT h (ix2 p o) = _
  rw [centT_apply]

/-- The host term is the block. -/
theorem term_eq (x : FVec Ideal S4096x256 .f32) (w : FVec Ideal S64x256 .f32) (b g β : FVec Ideal S64 .f32) :
    rootT x w b g β = Cert.Core.root 4096 256 64 x w b g β := by
  funext i
  obtain ⟨p, o, rfl⟩ : ∃ (p : Fin 4096) (o : Fin 64), i = ix2 p o := ⟨i 0, i 1, eq_ix2 i⟩
  show broadcastInDim S4096x64 ![0, 1] bcast_S1x64_S4096x64_0_1 (broadcastInDim S1x64 ![1] bcast_S64_S1x64_1 g) (ix2 p o)
        * centT (actT x w b) (ix2 p o)
        * broadcastInDim S4096x64 ![0, 1] bcast_S1x64_S4096x64_0_1
            (Host.rsqrt
              (addf (varT (actT x w b))
                (broadcastInDim S1x64 ![] bcast_S_S1x64 (constant (F := Ideal) S_ .f32 0x3727C5AC#32)))) (ix2 p o)
      + broadcastInDim S4096x64 ![0, 1] bcast_S1x64_S4096x64_0_1 (broadcastInDim S1x64 ![1] bcast_S64_S1x64_1 β) (ix2 p o) = _
  rw [bcRows_apply, bcRow_apply, bcRows_apply, bcRows_apply, bcRow_apply, centT_apply]
  show g (ix1 o) * _ * Ideal.rsqrt (varT (actT x w b) (ix2 (0 : Fin 1) o)
        + broadcastInDim S1x64 ![] bcast_S_S1x64 (constant (F := Ideal) S_ .f32 0x3727C5AC#32) (ix2 (0 : Fin 1) o))
      + β (ix1 o) = _
  rw [varT_apply, bcScalar_apply]
  have hact : (fun p o => actT x w b (ix2 p o))
      = Cert.Core.act (fun p k => x (ix2 p k)) (fun o k => w (ix2 o k)) (fun o => b (ix1 o)) :=
    funext fun p => funext fun o => actT_apply x w b p o
  rw [hact]
  rfl

/-- After the root stretch of the reference's host operations the last buffer holds the block of the stretch's
    inputs. -/
theorem value (V : Valuation τ sig (Elt Ideal)) :
    after (opsRoot (F := Ideal)) V (Proc.devRef .tc main_v108)
      = Cert.Core.root 4096 256 64 (V (Proc.devRef .tc main_v84)) (V (Proc.devRef .tc main_arg14))
          (V (Proc.devRef .tc main_arg15)) (V (Proc.devRef .tc main_arg16)) (V (Proc.devRef .tc main_arg17)) := by
  after_results_simp
  simp only [Cert.Lib.ofBuf_toBuf]
  exact term_eq _ _ _ _ _

end Cert.ReferenceIdeal.Root

end
-- ==== Proof.RefValue.lean ====
import proofs.«419059_j72584947302887_3_alg».proof.Proof.RefRun
import proofs.«419059_j72584947302887_3_alg».proof.Proof.Glue
import proofs.«419059_j72584947302887_3_alg».proof.Proof.RefLevel1
import proofs.«419059_j72584947302887_3_alg».proof.Proof.RefLevel2
import proofs.«419059_j72584947302887_3_alg».proof.Proof.RefLevel3
import proofs.«419059_j72584947302887_3_alg».proof.Proof.RefRoot

set_option maxRecDepth 16384

/-!
  The reference program's result as the network of its arguments.

  The fold of the reference's 215 operations is eight folds.  Read backwards from the last: the result is the root
  stretch's output, whose inputs are the last re-layout of level 3's output and four arguments; and so on down to the
  gathered activations.  No stretch writes an argument's buffer, so an argument is read at any boundary as launched.
-/

noncomputable section

namespace Cert.ReferenceIdeal.Result

open Cert.ReferenceIdeal Cert.ReferenceIdeal.Gen Cert.ReferenceIdeal.Ops Cert.ReferenceIdeal.Run Idealize.ShloMosaic Idealize.ShloMosaic.TcCoe Idealize.SL.Sem
open Idealize.ShloMosaic.StableHlo

/-! ## No stretch writes an argument: the arguments are the eighteen buffers of lowest index -/

theorem keepGather (W : Valuation τ sig (Elt Ideal)) (r : Ref sig .tc) (hr : r.idx.val < 18) :
    after (opsGather (F := Ideal)) W (Proc.devRef .tc r) = W (Proc.devRef .tc r) := by
  refine after_of_forall_not_mem _ _ (List.forall_iff_forall_mem.mp ?_)
  simp only [opsGather, List.Forall, TRef.nullary, TRef.unary, TRef.binary, TRef.ternary, StableHlo.nullary_writes, StableHlo.unary_writes,
    StableHlo.binary_writes, StableHlo.ternary_writes, StableHlo.reshape_writes, Finset.mem_singleton]
  repeat' apply And.intro
  all_goals exact StableHlo.devRef_ne_of_ne (fun h => by subst h; exact absurd hr (by decide))

theorem keepLevel1 (W : Valuation τ sig (Elt Ideal)) (r : Ref sig .tc) (hr : r.idx.val < 18) :
    after (opsLevel1 (F := Ideal)) W (Proc.devRef .tc r) = W (Proc.devRef .tc r) := by
  refine after_of_forall_not_mem _ _ (List.forall_iff_forall_mem.mp ?_)
  simp only [opsLevel1, List.Forall, TRef.nullary, TRef.unary, TRef.binary, TRef.ternary, StableHlo.nullary_writes, StableHlo.unary_writes,
    StableHlo.binary_writes, StableHlo.ternary_writes, StableHlo.reshape_writes, Finset.mem_singleton]
  repeat' apply And.intro
  all_goals exact StableHlo.devRef_ne_of_ne (fun h => by subst h; exact absurd hr (by decide))

theorem keepGlue1 (W : Valuation τ sig (Elt Ideal)) (r : Ref sig .tc) (hr : r.idx.val < 18) :
    after (opsGlue1 (F := Ideal)) W (Proc.devRef .tc r) = W (Proc.devRef .tc r) := by
  refine after_of_forall_not_mem _ _ (List.forall_iff_forall_mem.mp ?_)
  simp only [opsGlue1, List.Forall, TRef.nullary, TRef.unary, TRef.binary, TRef.ternary, StableHlo.nullary_writes, StableHlo.unary_writes,
    StableHlo.binary_writes, StableHlo.ternary_writes, StableHlo.reshape_writes, Finset.mem_singleton]
  repeat' apply And.intro
  all_goals exact StableHlo.devRef_ne_of_ne (fun h => by subst h; exact absurd hr (by decide))

theorem keepLevel2 (W : Valuation τ sig (Elt Ideal)) (r : Ref sig .tc) (hr : r.idx.val < 18) :
    after (opsLevel2 (F := Ideal)) W (Proc.devRef .tc r) = W (Proc.devRef .tc r) := by
  refine after_of_forall_not_mem _ _ (List.forall_iff_forall_mem.mp ?_)
  simp only [opsLevel2, List.Forall, TRef.nullary, TRef.unary, TRef.binary, TRef.ternary, StableHlo.nullary_writes, StableHlo.unary_writes,
    StableHlo.binary_writes, StableHlo.ternary_writes, StableHlo.reshape_writes, Finset.mem_singleton]
  repeat' apply And.intro
  all_goals exact StableHlo.devRef_ne_of_ne (fun h => by subst h; exact absurd hr (by decide))

theorem keepGlue2 (W : Valuation τ sig (Elt Ideal)) (r : Ref sig .tc) (hr : r.idx.val < 18) :
    after (opsGlue2 (F := Ideal)) W (Proc.devRef .tc r) = W (Proc.devRef .tc r) := by
  refine after_of_forall_not_mem _ _ (List.forall_iff_forall_mem.mp ?_)
  simp only [opsGlue2, List.Forall, TRef.nullary, TRef.unary, TRef.binary, TRef.ternary, StableHlo.nullary_writes, StableHlo.unary_writes,
    StableHlo.binary_writes, StableHlo.ternary_writes, StableHlo.reshape_writes, Finset.mem_singleton]
  repeat' apply And.intro
  all_goals exact StableHlo.devRef_ne_of_ne (fun h => by subst h; exact absurd hr (by decide))

theorem keepLevel3 (W : Valuation τ sig (Elt Ideal)) (r : Ref sig .tc) (hr : r.idx.val < 18) :
    after (opsLevel3 (F := Ideal)) W (Proc.devRef .tc r) = W (Proc.devRef .tc r) := by
  refine after_of_forall_not_mem _ _ (List.forall_iff_forall_mem.mp ?_)
  simp only [opsLevel3, List.Forall, TRef.nullary, TRef.unary, TRef.binary, TRef.ternary, StableHlo.nullary_writes, StableHlo.unary_writes,
    StableHlo.binary_writes, StableHlo.ternary_writes, StableHlo.reshape_writes, Finset.mem_singleton]
  repeat' apply And.intro
  all_goals exact StableHlo.devRef_ne_of_ne (fun h => by subst h; exact absurd hr (by decide))

theorem keepGlue3 (W : Valuation τ sig (Elt Ideal)) (r : Ref sig .tc) (hr : r.idx.val < 18) :
    after (opsGlue3 (F := Ideal)) W (Proc.devRef .tc r) = W (Proc.devRef .tc r) := by
  refine after_of_forall_not_mem _ _ (List.forall_iff_forall_mem.mp ?_)
  simp only [opsGlue3, List.Forall, TRef.nullary, TRef.unary, TRef.binary, TRef.ternary, StableHlo.nullary_writes, StableHlo.unary_writes,
    StableHlo.binary_writes, StableHlo.ternary_writes, StableHlo.reshape_writes, Finset.mem_singleton]
  repeat' apply And.intro
  all_goals exact StableHlo.devRef_ne_of_ne (fun h => by subst h; exact absurd hr (by decide))

theorem keepRoot (W : Valuation τ sig (Elt Ideal)) (r : Ref sig .tc) (hr : r.idx.val < 18) :
    after (opsRoot (F := Ideal)) W (Proc.devRef .tc r) = W (Proc.devRef .tc r) := by
  refine after_of_forall_not_mem _ _ (List.forall_iff_forall_mem.mp ?_)
  simp only [opsRoot, List.Forall, TRef.nullary, TRef.unary, TRef.binary, TRef.ternary, StableHlo.nullary_writes, StableHlo.unary_writes,
    StableHlo.binary_writes, StableHlo.ternary_writes, StableHlo.reshape_writes, Finset.mem_singleton]
  repeat' apply And.intro
  all_goals exact StableHlo.devRef_ne_of_ne (fun h => by subst h; exact absurd hr (by decide))

/-! ## The short stretches, read for any contents -/

section Stretch
variable (W : Valuation τ sig (Elt Ideal))

theorem gather_v7 : after (opsGather (F := Ideal)) W (Proc.devRef .tc main_v7)
    = Cert.Core.gathered (W (Proc.devRef .tc main_arg0)) (W (Proc.devRef .tc main_arg1)) := by
  after_results; rfl
theorem glue1_v33 : after (opsGlue1 (F := Ideal)) W (Proc.devRef .tc main_v33) = Cert.Core.regroup1 (W (Proc.devRef .tc main_v30)) := by
  after_results; rfl
theorem glue2_v59 : after (opsGlue2 (F := Ideal)) W (Proc.devRef .tc main_v59) = Cert.Core.regroup2 (W (Proc.devRef .tc main_v56)) := by
  after_results; rfl
theorem glue3_v84 : after (opsGlue3 (F := Ideal)) W (Proc.devRef .tc main_v84) = Cert.Core.regroup3 (W (Proc.devRef .tc main_v82)) := by
  after_results; rfl

end Stretch

/-! ## The boundaries and the four outputs -/

section Fold
variable (V : Valuation τ sig (Elt Ideal))

/-- The contents after the gather, after level 1, … after the last re-layout. -/
abbrev B1 : Valuation τ sig (Elt Ideal) := after (opsGather (F := Ideal)) V
abbrev B2 : Valuation τ sig (Elt Ideal) := after (opsLevel1 (F := Ideal)) (B1 V)
abbrev B3 : Valuation τ sig (Elt Ideal) := after (opsGlue1 (F := Ideal)) (B2 V)
abbrev B4 : Valuation τ sig (Elt Ideal) := after (opsLevel2 (F := Ideal)) (B3 V)
abbrev B5 : Valuation τ sig (Elt Ideal) := after (opsGlue2 (F := Ideal)) (B4 V)
abbrev B6 : Valuation τ sig (Elt Ideal) := after (opsLevel3 (F := Ideal)) (B5 V)
abbrev B7 : Valuation τ sig (Elt Ideal) := after (opsGlue3 (F := Ideal)) (B6 V)

theorem keepB1 (r : Ref sig .tc) (hr : r.idx.val < 18) : B1 V (Proc.devRef .tc r) = V (Proc.devRef .tc r) := keepGather V r hr
theorem keepB2 (r : Ref sig .tc) (hr : r.idx.val < 18) : B2 V (Proc.devRef .tc r) = V (Proc.devRef .tc r) :=
  (keepLevel1 (B1 V) r hr).trans (keepB1 V r hr)
theorem keepB3 (r : Ref sig .tc) (hr : r.idx.val < 18) : B3 V (Proc.devRef .tc r) = V (Proc.devRef .tc r) :=
  (keepGlue1 (B2 V) r hr).trans (keepB2 V r hr)
theorem keepB4 (r : Ref sig .tc) (hr : r.idx.val < 18) : B4 V (Proc.devRef .tc r) = V (Proc.devRef .tc r) :=
  (keepLevel2 (B3 V) r hr).trans (keepB3 V r hr)
theorem keepB5 (r : Ref sig .tc) (hr : r.idx.val < 18) : B5 V (Proc.devRef .tc r) = V (Proc.devRef .tc r) :=
  (keepGlue2 (B4 V) r hr).trans (keepB4 V r hr)
theorem keepB6 (r : Ref sig .tc) (hr : r.idx.val < 18) : B6 V (Proc.devRef .tc r) = V (Proc.devRef .tc r) :=
  (keepLevel3 (B5 V) r hr).trans (keepB5 V r hr)
theorem keepB7 (r : Ref sig .tc) (hr : r.idx.val < 18) : B7 V (Proc.devRef .tc r) = V (Proc.devRef .tc r) :=
  (keepGlue3 (B6 V) r hr).trans (keepB6 V r hr)

/-- An argument's buffer after the whole line is as before it. -/
theorem keep_all (r : Ref sig .tc) (hr : r.idx.val < 18) :
    after (ops (F := Ideal)) V (Proc.devRef .tc r) = V (Proc.devRef .tc r) := by
  rw [after_ops]; exact (keepRoot (B7 V) r hr).trans (keepB7 V r hr)

/-- The reference's spelling of a per-term table as a [S, 1, O] array is the neutral one. -/
theorem col512_eq (x : (⟨S512x20, .f32⟩ : BufTy).Contents (Elt Ideal)) :
    broadcastInDim S512x1x20 ![0, 2] bcast_S512x20_S512x1x20_0_2 x = Cert.Core.col512 x := rfl
theorem col64_eq (x : (⟨S64x24, .f32⟩ : BufTy).Contents (Elt Ideal)) :
    broadcastInDim S64x1x24 ![0, 2] bcast_S64x24_S64x1x24_0_2 x = Cert.Core.col64 x := rfl
theorem col8_eq (x : (⟨S8x32, .f32⟩ : BufTy).Contents (Elt Ideal)) :
    broadcastInDim S8x1x32 ![0, 2] bcast_S8x32_S8x1x32_0_2 x = Cert.Core.col8 x := rfl

/-- Level 1's output, after the second stretch. -/
theorem out1 : B2 V (Proc.devRef .tc main_v30) = (Cert.Core.stage1 (V (Proc.devRef .tc main_arg0)) (V (Proc.devRef .tc main_arg1)) (V (Proc.devRef .tc main_arg2)) (V (Proc.devRef .tc main_arg3)) (V (Proc.devRef .tc main_arg4)) (V (Proc.devRef .tc main_arg5))) := by
  have hx : B1 V (Proc.devRef .tc main_v7) = Cert.Core.gathered (V (Proc.devRef .tc main_arg0)) (V (Proc.devRef .tc main_arg1)) := gather_v7 V
  have hw : B1 V (Proc.devRef .tc main_arg2) = (V (Proc.devRef .tc main_arg2)) := keepB1 V main_arg2 (by decide)
  have hb : broadcastInDim S512x1x20 ![0, 2] bcast_S512x20_S512x1x20_0_2 (B1 V (Proc.devRef .tc main_arg3)) = Cert.Core.col512 (V (Proc.devRef .tc main_arg3)) :=
    (col512_eq _).trans (congrArg Cert.Core.col512 (keepB1 V main_arg3 (by decide)))
  have hg : broadcastInDim S512x1x20 ![0, 2] bcast_S512x20_S512x1x20_0_2 (B1 V (Proc.devRef .tc main_arg4)) = Cert.Core.col512 (V (Proc.devRef .tc main_arg4)) :=
    (col512_eq _).trans (congrArg Cert.Core.col512 (keepB1 V main_arg4 (by decide)))
  have hβ : broadcastInDim S512x1x20 ![0, 2] bcast_S512x20_S512x1x20_0_2 (B1 V (Proc.devRef .tc main_arg5)) = Cert.Core.col512 (V (Proc.devRef .tc main_arg5)) :=
    (col512_eq _).trans (congrArg Cert.Core.col512 (keepB1 V main_arg5 (by decide)))
  calc B2 V (Proc.devRef .tc main_v30)
      = Cert.Core.level 512 4096 16 20 (B1 V (Proc.devRef .tc main_v7)) (B1 V (Proc.devRef .tc main_arg2))
          (broadcastInDim S512x1x20 ![0, 2] bcast_S512x20_S512x1x20_0_2 (B1 V (Proc.devRef .tc main_arg3)))
          (broadcastInDim S512x1x20 ![0, 2] bcast_S512x20_S512x1x20_0_2 (B1 V (Proc.devRef .tc main_arg4)))
          (broadcastInDim S512x1x20 ![0, 2] bcast_S512x20_S512x1x20_0_2 (B1 V (Proc.devRef .tc main_arg5))) := Cert.ReferenceIdeal.Level1.value (B1 V)
    _ = Cert.Core.level 512 4096 16 20 (Cert.Core.gathered (V (Proc.devRef .tc main_arg0)) (V (Proc.devRef .tc main_arg1))) (V (Proc.devRef .tc main_arg2)) (Cert.Core.col512 (V (Proc.devRef .tc main_arg3))) (Cert.Core.col512 (V (Proc.devRef .tc main_arg4))) (Cert.Core.col512 (V (Proc.devRef .tc main_arg5))) :=
        congr (congr (congr (congr (congrArg (Cert.Core.level 512 4096 16 20) hx) hw) hb) hg) hβ
    _ = _ := rfl

/-- Level 2's output, after the fourth stretch. -/
theorem out2 : B4 V (Proc.devRef .tc main_v56) = (Cert.Core.stage2 (Cert.Core.stage1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)) (V (Proc.devRef .tc main_arg7)) (V (Proc.devRef .tc main_arg8)) (V (Proc.devRef .tc main_arg9))) := by
  have hx : B3 V (Proc.devRef .tc main_v33) = Cert.Core.regroup1 (Cert.Core.stage1 (V (Proc.devRef .tc main_arg0)) (V (Proc.devRef .tc main_arg1)) (V (Proc.devRef .tc main_arg2)) (V (Proc.devRef .tc main_arg3)) (V (Proc.devRef .tc main_arg4)) (V (Proc.devRef .tc main_arg5))) := (glue1_v33 (B2 V)).trans (congrArg Cert.Core.regroup1 (out1 V))
  have hw : B3 V (Proc.devRef .tc main_arg6) = (V (Proc.devRef .tc main_arg6)) := keepB3 V main_arg6 (by decide)
  have hb : broadcastInDim S64x1x24 ![0, 2] bcast_S64x24_S64x1x24_0_2 (B3 V (Proc.devRef .tc main_arg7)) = Cert.Core.col64 (V (Proc.devRef .tc main_arg7)) :=
    (col64_eq _).trans (congrArg Cert.Core.col64 (keepB3 V main_arg7 (by decide)))
  have hg : broadcastInDim S64x1x24 ![0, 2] bcast_S64x24_S64x1x24_0_2 (B3 V (Proc.devRef .tc main_arg8)) = Cert.Core.col64 (V (Proc.devRef .tc main_arg8)) :=
    (col64_eq _).trans (congrArg Cert.Core.col64 (keepB3 V main_arg8 (by decide)))
  have hβ : broadcastInDim S64x1x24 ![0, 2] bcast_S64x24_S64x1x24_0_2 (B3 V (Proc.devRef .tc main_arg9)) = Cert.Core.col64 (V (Proc.devRef .tc main_arg9)) :=
    (col64_eq _).trans (congrArg Cert.Core.col64 (keepB3 V main_arg9 (by decide)))
  calc B4 V (Proc.devRef .tc main_v56)
      = Cert.Core.level 64 4096 160 24 (B3 V (Proc.devRef .tc main_v33)) (B3 V (Proc.devRef .tc main_arg6))
          (broadcastInDim S64x1x24 ![0, 2] bcast_S64x24_S64x1x24_0_2 (B3 V (Proc.devRef .tc main_arg7)))
          (broadcastInDim S64x1x24 ![0, 2] bcast_S64x24_S64x1x24_0_2 (B3 V (Proc.devRef .tc main_arg8)))
          (broadcastInDim S64x1x24 ![0, 2] bcast_S64x24_S64x1x24_0_2 (B3 V (Proc.devRef .tc main_arg9))) := Cert.ReferenceIdeal.Level2.value (B3 V)
    _ = Cert.Core.level 64 4096 160 24 (Cert.Core.regroup1 (Cert.Core.stage1 (V (Proc.devRef .tc main_arg0)) (V (Proc.devRef .tc main_arg1)) (V (Proc.devRef .tc main_arg2)) (V (Proc.devRef .tc main_arg3)) (V (Proc.devRef .tc main_arg4)) (V (Proc.devRef .tc main_arg5)))) (V (Proc.devRef .tc main_arg6)) (Cert.Core.col64 (V (Proc.devRef .tc main_arg7))) (Cert.Core.col64 (V (Proc.devRef .tc main_arg8))) (Cert.Core.col64 (V (Proc.devRef .tc main_arg9))) :=
        congr (congr (congr (congr (congrArg (Cert.Core.level 64 4096 160 24) hx) hw) hb) hg) hβ
    _ = _ := rfl

/-- Level 3's output, after the sixth stretch. -/
theorem out3 : B6 V (Proc.devRef .tc main_v82) = (Cert.Core.stage3 (Cert.Core.stage2 (Cert.Core.stage1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)) (V (Proc.devRef .tc main_arg7)) (V (Proc.devRef .tc main_arg8)) (V (Proc.devRef .tc main_arg9))) (V (Proc.devRef .tc main_arg10)) (V (Proc.devRef .tc main_arg11)) (V (Proc.devRef .tc main_arg12)) (V (Proc.devRef .tc main_arg13))) := by
  have hx : B5 V (Proc.devRef .tc main_v59) = Cert.Core.regroup2 (Cert.Core.stage2 (Cert.Core.stage1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)) (V (Proc.devRef .tc main_arg7)) (V (Proc.devRef .tc main_arg8)) (V (Proc.devRef .tc main_arg9))) := (glue2_v59 (B4 V)).trans (congrArg Cert.Core.regroup2 (out2 V))
  have hw : B5 V (Proc.devRef .tc main_arg10) = (V (Proc.devRef .tc main_arg10)) := keepB5 V main_arg10 (by decide)
  have hb : broadcastInDim S8x1x32 ![0, 2] bcast_S8x32_S8x1x32_0_2 (B5 V (Proc.devRef .tc main_arg11)) = Cert.Core.col8 (V (Proc.devRef .tc main_arg11)) :=
    (col8_eq _).trans (congrArg Cert.Core.col8 (keepB5 V main_arg11 (by decide)))
  have hg : broadcastInDim S8x1x32 ![0, 2] bcast_S8x32_S8x1x32_0_2 (B5 V (Proc.devRef .tc main_arg12)) = Cert.Core.col8 (V (Proc.devRef .tc main_arg12)) :=
    (col8_eq _).trans (congrArg Cert.Core.col8 (keepB5 V main_arg12 (by decide)))
  have hβ : broadcastInDim S8x1x32 ![0, 2] bcast_S8x32_S8x1x32_0_2 (B5 V (Proc.devRef .tc main_arg13)) = Cert.Core.col8 (V (Proc.devRef .tc main_arg13)) :=
    (col8_eq _).trans (congrArg Cert.Core.col8 (keepB5 V main_arg13 (by decide)))
  calc B6 V (Proc.devRef .tc main_v82)
      = Cert.Core.level 8 4096 192 32 (B5 V (Proc.devRef .tc main_v59)) (B5 V (Proc.devRef .tc main_arg10))
          (broadcastInDim S8x1x32 ![0, 2] bcast_S8x32_S8x1x32_0_2 (B5 V (Proc.devRef .tc main_arg11)))
          (broadcastInDim S8x1x32 ![0, 2] bcast_S8x32_S8x1x32_0_2 (B5 V (Proc.devRef .tc main_arg12)))
          (broadcastInDim S8x1x32 ![0, 2] bcast_S8x32_S8x1x32_0_2 (B5 V (Proc.devRef .tc main_arg13))) := Cert.ReferenceIdeal.Level3.value (B5 V)
    _ = Cert.Core.level 8 4096 192 32 (Cert.Core.regroup2 (Cert.Core.stage2 (Cert.Core.stage1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)) (V (Proc.devRef .tc main_arg7)) (V (Proc.devRef .tc main_arg8)) (V (Proc.devRef .tc main_arg9)))) (V (Proc.devRef .tc main_arg10)) (Cert.Core.col8 (V (Proc.devRef .tc main_arg11))) (Cert.Core.col8 (V (Proc.devRef .tc main_arg12))) (Cert.Core.col8 (V (Proc.devRef .tc main_arg13))) :=
        congr (congr (congr (congr (congrArg (Cert.Core.level 8 4096 192 32) hx) hw) hb) hg) hβ
    _ = _ := rfl

/-- THE RESULT: after the whole line the result buffer holds the network of the arguments. -/
theorem result_eq : after (ops (F := Ideal)) V (Proc.devRef .tc main_v108)
    = Cert.Core.network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  have hx : B7 V (Proc.devRef .tc main_v84) = Cert.Core.regroup3 (Cert.Core.stage3 (Cert.Core.stage2 (Cert.Core.stage1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)) (V (Proc.devRef .tc main_arg7)) (V (Proc.devRef .tc main_arg8)) (V (Proc.devRef .tc main_arg9))) (V (Proc.devRef .tc main_arg10)) (V (Proc.devRef .tc main_arg11)) (V (Proc.devRef .tc main_arg12)) (V (Proc.devRef .tc main_arg13))) :=
    (glue3_v84 (B6 V)).trans (congrArg Cert.Core.regroup3 (out3 V))
  have hw : B7 V (Proc.devRef .tc main_arg14) = (V (Proc.devRef .tc main_arg14)) := keepB7 V main_arg14 (by decide)
  have hb : B7 V (Proc.devRef .tc main_arg15) = (V (Proc.devRef .tc main_arg15)) := keepB7 V main_arg15 (by decide)
  have hg : B7 V (Proc.devRef .tc main_arg16) = (V (Proc.devRef .tc main_arg16)) := keepB7 V main_arg16 (by decide)
  have hβ : B7 V (Proc.devRef .tc main_arg17) = (V (Proc.devRef .tc main_arg17)) := keepB7 V main_arg17 (by decide)
  rw [after_ops]
  calc after (opsRoot (F := Ideal)) (B7 V) (Proc.devRef .tc main_v108)
      = Cert.Core.root 4096 256 64 (B7 V (Proc.devRef .tc main_v84)) (B7 V (Proc.devRef .tc main_arg14))
          (B7 V (Proc.devRef .tc main_arg15)) (B7 V (Proc.devRef .tc main_arg16)) (B7 V (Proc.devRef .tc main_arg17)) :=
        Cert.ReferenceIdeal.Root.value (B7 V)
    _ = Cert.Core.root 4096 256 64 (Cert.Core.regroup3 (Cert.Core.stage3 (Cert.Core.stage2 (Cert.Core.stage1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)) (V (Proc.devRef .tc main_arg7)) (V (Proc.devRef .tc main_arg8)) (V (Proc.devRef .tc main_arg9))) (V (Proc.devRef .tc main_arg10)) (V (Proc.devRef .tc main_arg11)) (V (Proc.devRef .tc main_arg12)) (V (Proc.devRef .tc main_arg13)))) (V (Proc.devRef .tc main_arg14)) (V (Proc.devRef .tc main_arg15)) (V (Proc.devRef .tc main_arg16)) (V (Proc.devRef .tc main_arg17)) :=
        congr (congr (congr (congr (congrArg (Cert.Core.root 4096 256 64) hx) hw) hb) hg) hβ
    _ = _ := rfl

end Fold

end Cert.ReferenceIdeal.Result

/-! ## The run, with the result read -/

namespace Cert.ReferenceIdeal.Result

open Cert.ReferenceIdeal Cert.ReferenceIdeal.Gen Cert.ReferenceIdeal.Ops Cert.ReferenceIdeal.Run Idealize.ShloMosaic Idealize.ShloMosaic.TcCoe Idealize.SL.Sem
open Idealize.ShloMosaic.StableHlo

/-- Every weakly fair execution of the reference program terminates, nothing faulting, with the result buffer at the
    network of the launch contents of the arguments, and the arguments as launched. -/
theorem run_network (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v108) = Cert.Core.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c main_v108).trans (result_eq (launchContents m c)),
      (h c main_arg0).trans (keep_all (launchContents m c) main_arg0 (by decide)),
      (h c main_arg1).trans (keep_all (launchContents m c) main_arg1 (by decide)),
      (h c main_arg2).trans (keep_all (launchContents m c) main_arg2 (by decide)),
      (h c main_arg3).trans (keep_all (launchContents m c) main_arg3 (by decide)),
      (h c main_arg4).trans (keep_all (launchContents m c) main_arg4 (by decide)),
      (h c main_arg5).trans (keep_all (launchContents m c) main_arg5 (by decide)),
      (h c main_arg6).trans (keep_all (launchContents m c) main_arg6 (by decide)),
      (h c main_arg7).trans (keep_all (launchContents m c) main_arg7 (by decide)),
      (h c main_arg8).trans (keep_all (launchContents m c) main_arg8 (by decide)),
      (h c main_arg9).trans (keep_all (launchContents m c) main_arg9 (by decide)),
      (h c main_arg10).trans (keep_all (launchContents m c) main_arg10 (by decide)),
      (h c main_arg11).trans (keep_all (launchContents m c) main_arg11 (by decide)),
      (h c main_arg12).trans (keep_all (launchContents m c) main_arg12 (by decide)),
      (h c main_arg13).trans (keep_all (launchContents m c) main_arg13 (by decide)),
      (h c main_arg14).trans (keep_all (launchContents m c) main_arg14 (by decide)),
      (h c main_arg15).trans (keep_all (launchContents m c) main_arg15 (by decide)),
      (h c main_arg16).trans (keep_all (launchContents m c) main_arg16 (by decide)),
      (h c main_arg17).trans (keep_all (launchContents m c) main_arg17 (by decide))⟩)
    (Run.run (F := Ideal) m ρ)

end Cert.ReferenceIdeal.Result

end
-- ==== Proof.lean ====
/-
  The certificate of a four-level network of "linear map, tanh, batch normalisation" blocks computed by four
  pallas_calls against the same network computed by plain array operations.

  Both programs gather 16 input columns for each of 512 terms, run a block per term (level 1), place the outputs of
  eight consecutive terms side by side and run a block per group (levels 2 and 3), then place the eight remaining
  outputs side by side and run the root block.  A block normalises each output feature over the whole batch of 4096
  rows, so the kernel keeps the batch whole and tiles only the term axis.

  On the extended reals a block is one function (Core.lean): a matrix product into a zero accumulator and the host's
  contraction are the same sum; a lane reduction and the host's reduction from zero are the same sum; the reference's
  variance divides by 4096 minus the integer 0 behind a test that this is positive, which is 4096 (Consts.lean); the
  level-2 activations and weights pass through bfloat16 in the kernel, which is the identity on the extended reals.
  No law beyond commutativity and associativity of the sums is used, so the precondition is never opened.

  The kernel program's result buffer is the network of its arguments (KernelValue.lean, over the four output arrays
  Region0–3.lean and the generated frame's boundary contents), and so is the reference's (RefValue.lean, over
  RefLevel1–3.lean and RefRoot.lean and the run RefRun.lean).  The three frames are the two generated ones and the
  reference's run with the result dropped; nothing was rewritten by the idealisation, so that claim is trivial.
-/
import proofs.«419059_j72584947302887_3_alg».proof.Defs
import proofs.«419059_j72584947302887_3_alg».proof.Proof.Gen.Kernel
import proofs.«419059_j72584947302887_3_alg».proof.Proof.Gen.Kernel.Skeleton
import proofs.«419059_j72584947302887_3_alg».proof.Proof.Gen.Kernel.Launch
import proofs.«419059_j72584947302887_3_alg».proof.Proof.Gen.Kernel.Points
import proofs.«419059_j72584947302887_3_alg».proof.Proof.Gen.Kernel.Frame
import proofs.«419059_j72584947302887_3_alg».proof.Proof.Gen.KernelIdeal
import proofs.«419059_j72584947302887_3_alg».proof.Proof.Gen.KernelIdeal.Skeleton
import proofs.«419059_j72584947302887_3_alg».proof.Proof.Gen.KernelIdeal.Launch
import proofs.«419059_j72584947302887_3_alg».proof.Proof.Gen.KernelIdeal.Points
import proofs.«419059_j72584947302887_3_alg».proof.Proof.Gen.KernelIdeal.Frame
import proofs.«419059_j72584947302887_3_alg».proof.Proof.Gen.ReferenceIdeal
import proofs.«419059_j72584947302887_3_alg».proof.Proof.Gen.Pre_finite_inputs
import proofs.«419059_j72584947302887_3_alg».proof.Proof.KernelRun
import proofs.«419059_j72584947302887_3_alg».proof.Proof.KernelValue
import proofs.«419059_j72584947302887_3_alg».proof.Proof.RefRun
import proofs.«419059_j72584947302887_3_alg».proof.Proof.RefValue
import Idealize.ShloMosaic.Adequacy
import Idealize.ShloMosaic.Init

noncomputable section

namespace Cert.Proof

open Idealize.ShloMosaic Idealize.SL.Sem

/-- The kernel program's frame, at the word-level instance: generated. -/
theorem frame_kernel : Cert.frame_Kernel := fun m ρ _ => Cert.Kernel.Gen.frame m ρ

/-- The idealised kernel program's frame: generated. -/
theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Result.run_network m ρ)

/-- From memories that agree on the arguments both programs end with the result buffer at the same network of the
    same arguments. -/
theorem algebraic : Cert.algebraic_KernelIdeal_ReferenceIdeal := by
  intro m ρ m' ρ' _ hagree
  refine ⟨_, Cert.KernelIdeal.Result.run_network m ρ, ?_⟩
  refine (θ_run Cert.ReferenceIdeal.defs _ _).mono (fun r h c => ⟨(h c).1.trans ?_, (h c).2⟩)
    (Cert.ReferenceIdeal.Result.run_network m' ρ')
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
